-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v366) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S128x128 : Shape := ⟨2, ![128, 128]⟩
abbrev S128 : Shape := ⟨1, ![128]⟩
abbrev S640x132 : Shape := ⟨2, ![640, 132]⟩
abbrev S132 : Shape := ⟨1, ![132]⟩
abbrev S132x132 : Shape := ⟨2, ![132, 132]⟩
abbrev S132x128 : Shape := ⟨2, ![132, 128]⟩
abbrev S256x132 : Shape := ⟨2, ![256, 132]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S640x132 : S_.BroadcastsInDim S640x132 (![] : Fin 0 → Fin S640x132.rank)
  reducesTo_S640x132_S_d0_1 : S640x132.ReducesTo [0, 1] S_
  bcast_S_S132 : S_.BroadcastsInDim S132 (![] : Fin 0 → Fin S132.rank)
  reducesTo_S132_S_d0 : S132.ReducesTo [0] S_
  bcast_S_S132x132 : S_.BroadcastsInDim S132x132 (![] : Fin 0 → Fin S132x132.rank)
  reducesTo_S132x132_S_d0_1 : S132x132.ReducesTo [0, 1] S_
  bcast_S_S132x128 : S_.BroadcastsInDim S132x128 (![] : Fin 0 → Fin S132x128.rank)
  reducesTo_S132x128_S_d0_1 : S132x128.ReducesTo [0, 1] S_
  bcast_S_S256x132 : S_.BroadcastsInDim S256x132 (![] : Fin 0 → Fin S256x132.rank)
  reducesTo_S256x132_S_d0_1 : S256x132.ReducesTo [0, 1] S_

variable [Facts]

def fn_part10 {F : FTy → Type} [FloatOps F] (main_arg35 : FVec F S132x128 .f32) (main_arg36 : FVec F S128 .f32) (main_v168 : IVec S_ 1) (main_v169 : FVec F S132 .f32) (main_v170 : FVec F S132 .f32) : IVec S_ 1 :=
  let main_v171 : IVec S132 1 := cmpf .olt main_v169 main_v170
  let main_c_67 : IVec S_ 1 := constantI S_ 1 1#1
  let main_v172 : IVec S_ 1 := (fun x v => Host.reduce IntOp.andi x v reducesTo_S132_S_d0 h_S_) main_v171 main_c_67
  let main_v173 : IVec S_ 1 := andi main_v168 main_v172
  let main_v174 : FVec F S132x128 .f32 := Host.absf main_arg35
  let main_cst_68 : FVec F S_ .f32 := constant S_ .f32 0x7F800000#32
  let main_v175 : FVec F S132x128 .f32 := broadcastInDim S132x128 ![] bcast_S_S132x128 main_cst_68
  let main_v176 : IVec S132x128 1 := cmpf .olt main_v174 main_v175
  let main_c_69 : IVec S_ 1 := constantI S_ 1 1#1
  let main_v177 : IVec S_ 1 := (fun x v => Host.reduce IntOp.andi x v reducesTo_S132x128_S_d0_1 h_S_) main_v176 main_c_69
  let main_v178 : IVec S_ 1 := andi main_v173 main_v177
  let main_v179 : FVec F S128 .f32 := Host.absf main_arg36
  let main_cst_70 : FVec F S_ .f32 := constant S_ .f32 0x7F800000#32
  let main_v180 : FVec F S128 .f32 := broadcastInDim S128 ![] bcast_S_S128 main_cst_70
  let main_v181 : IVec S128 1 := cmpf .olt main_v179 main_v180
  let main_c_71 : IVec S_ 1 := constantI S_ 1 1#1
  let main_v182 : IVec S_ 1 := (fun x v => Host.reduce IntOp.andi x v reducesTo_S128_S_d0 h_S_) main_v181 main_c_71
  let main_v183 : IVec S_ 1 := andi main_v178 main_v182
  main_v183

def fn_part9 {F : FTy → Type} [FloatOps F] (main_arg31 : FVec F S256x132 .f32) (main_arg32 : FVec F S132 .f32) (main_arg33 : FVec F S132x132 .f32) (main_arg34 : FVec F S132 .f32) (main_arg35 : FVec F S132x128 .f32) (main_arg36 : FVec F S128 .f32) (main_v153 : IVec S_ 1) : IVec S_ 1 :=
  let main_v154 : FVec F S256x132 .f32 := Host.absf main_arg31
  let main_cst_60 : FVec F S_ .f32 := constant S_ .f32 0x7F800000#32
  let main_v155 : FVec F S256x132 .f32 := broadcastInDim S256x132 ![] bcast_S_S256x132 main_cst_60
  let main_v156 : IVec S256x132 1 := cmpf .olt main_v154 main_v155
  let main_c_61 : IVec S_ 1 := constantI S_ 1 1#1
  let main_v157 : IVec S_ 1 := (fun x v => Host.reduce IntOp.andi x v reducesTo_S256x132_S_d0_1 h_S_) main_v156 main_c_61
  let main_v158 : IVec S_ 1 := andi main_v153 main_v157
  let main_v159 : FVec F S132 .f32 := Host.absf main_arg32
  let main_cst_62 : FVec F S_ .f32 := constant S_ .f32 0x7F800000#32
  let main_v160 : FVec F S132 .f32 := broadcastInDim S132 ![] bcast_S_S132 main_cst_62
  let main_v161 : IVec S132 1 := cmpf .olt main_v159 main_v160
  let main_c_63 : IVec S_ 1 := constantI S_ 1 1#1
  let main_v162 : IVec S_ 1 := (fun x v => Host.reduce IntOp.andi x v reducesTo_S132_S_d0 h_S_) main_v161 main_c_63
  let main_v163 : IVec S_ 1 := andi main_v158 main_v162
  let main_v164 : FVec F S132x132 .f32 := Host.absf main_arg33
  let main_cst_64 : FVec F S_ .f32 := constant S_ .f32 0x7F800000#32
  let main_v165 : FVec F S132x132 .f32 := broadcastInDim S132x132 ![] bcast_S_S132x132 main_cst_64
  let main_v166 : IVec S132x132 1 := cmpf .olt main_v164 main_v165
  let main_c_65 : IVec S_ 1 := constantI S_ 1 1#1
  let main_v167 : IVec S_ 1 := (fun x v => Host.reduce IntOp.andi x v reducesTo_S132x132_S_d0_1 h_S_) main_v166 main_c_65
  let main_v168 : IVec S_ 1 := andi main_v163 main_v167
  let main_v169 : FVec F S132 .f32 := Host.absf main_arg34
  let main_cst_66 : FVec F S_ .f32 := constant S_ .f32 0x7F800000#32
  let main_v170 : FVec F S132 .f32 := broadcastInDim S132 ![] bcast_S_S132 main_cst_66
  fn_part10 (F := F) main_arg35 main_arg36 main_v168 main_v169 main_v170

def fn_part8 {F : FTy → Type} [FloatOps F] (main_arg28 : FVec F S128 .f32) (main_arg29 : FVec F S128x128 .f32) (main_arg30 : FVec F S128 .f32) (main_arg31 : FVec F S256x132 .f32) (main_arg32 : FVec F S132 .f32) (main_arg33 : FVec F S132x132 .f32) (main_arg34 : FVec F S132 .f32) (main_arg35 : FVec F S132x128 .f32) (main_arg36 : FVec F S128 .f32) (main_v133 : IVec S_ 1) (main_v136 : IVec S128x128 1) : IVec S_ 1 :=
  let main_c_53 : IVec S_ 1 := constantI S_ 1 1#1
  let main_v137 : IVec S_ 1 := (fun x v => Host.reduce IntOp.andi x v reducesTo_S128x128_S_d0_1 h_S_) main_v136 main_c_53
  let main_v138 : IVec S_ 1 := andi main_v133 main_v137
  let main_v139 : FVec F S128 .f32 := Host.absf main_arg28
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S128x128 .f32 := Host.absf main_arg29
  let main_cst_56 : FVec F S_ .f32 := constant S_ .f32 0x7F800000#32
  let main_v145 : FVec F S128x128 .f32 := broadcastInDim S128x128 ![] bcast_S_S128x128 main_cst_56
  let main_v146 : IVec S128x128 1 := cmpf .olt main_v144 main_v145
  let main_c_57 : IVec S_ 1 := constantI S_ 1 1#1
  let main_v147 : IVec S_ 1 := (fun x v => Host.reduce IntOp.andi x v reducesTo_S128x128_S_d0_1 h_S_) main_v146 main_c_57
  let main_v148 : IVec S_ 1 := andi main_v143 main_v147
  let main_v149 : FVec F S128 .f32 := Host.absf main_arg30
  let main_cst_58 : FVec F S_ .f32 := constant S_ .f32 0x7F800000#32
  let main_v150 : FVec F S128 .f32 := broadcastInDim S128 ![] bcast_S_S128 main_cst_58
  let main_v151 : IVec S128 1 := cmpf .olt main_v149 main_v150
  let main_c_59 : IVec S_ 1 := constantI S_ 1 1#1
  let main_v152 : IVec S_ 1 := (fun x v => Host.reduce IntOp.andi x v reducesTo_S128_S_d0 h_S_) main_v151 main_c_59
  let main_v153 : IVec S_ 1 := andi main_v148 main_v152
  fn_part9 (F := F) main_arg31 main_arg32 main_arg33 main_arg34 main_arg35 main_arg36 main_v153

def fn_part7 {F : FTy → Type} [FloatOps F] (main_arg25 : FVec F S132x128 .f32) (main_arg26 : FVec F S128 .f32) (main_arg27 : FVec F S128x128 .f32) (main_arg28 : FVec F S128 .f32) (main_arg29 : FVec F S128x128 .f32) (main_arg30 : FVec F S128 .f32) (main_arg31 : FVec F S256x132 .f32) (main_arg32 : FVec F S132 .f32) (main_arg33 : FVec F S132x132 .f32) (main_arg34 : FVec F S132 .f32) (main_arg35 : FVec F S132x128 .f32) (main_arg36 : FVec F S128 .f32) (main_v118 : IVec S_ 1) (main_v119 : FVec F S132 .f32) : IVec S_ 1 :=
  let main_cst_46 : FVec F S_ .f32 := constant S_ .f32 0x7F800000#32
  let main_v120 : FVec F S132 .f32 := broadcastInDim S132 ![] bcast_S_S132 main_cst_46
  let main_v121 : IVec S132 1 := cmpf .olt main_v119 main_v120
  let main_c_47 : IVec S_ 1 := constantI S_ 1 1#1
  let main_v122 : IVec S_ 1 := (fun x v => Host.reduce IntOp.andi x v reducesTo_S132_S_d0 h_S_) main_v121 main_c_47
  let main_v123 : IVec S_ 1 := andi main_v118 main_v122
  let main_v124 : FVec F S132x128 .f32 := Host.absf main_arg25
  let main_cst_48 : FVec F S_ .f32 := constant S_ .f32 0x7F800000#32
  let main_v125 : FVec F S132x128 .f32 := broadcastInDim S132x128 ![] bcast_S_S132x128 main_cst_48
  let main_v126 : IVec S132x128 1 := cmpf .olt main_v124 main_v125
  let main_c_49 : IVec S_ 1 := constantI S_ 1 1#1
  let main_v127 : IVec S_ 1 := (fun x v => Host.reduce IntOp.andi x v reducesTo_S132x128_S_d0_1 h_S_) main_v126 main_c_49
  let main_v128 : IVec S_ 1 := andi main_v123 main_v127
  let main_v129 : FVec F S128 .f32 := Host.absf main_arg26
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128x128 .f32 := Host.absf main_arg27
  let main_cst_52 : FVec F S_ .f32 := constant S_ .f32 0x7F800000#32
  let main_v135 : FVec F S128x128 .f32 := broadcastInDim S128x128 ![] bcast_S_S128x128 main_cst_52
  let main_v136 : IVec S128x128 1 := cmpf .olt main_v134 main_v135
  fn_part8 (F := F) main_arg28 main_arg29 main_arg30 main_arg31 main_arg32 main_arg33 main_arg34 main_arg35 main_arg36 main_v133 main_v136

def fn_part6 {F : FTy → Type} [FloatOps F] (main_arg21 : FVec F S132x132 .f32) (main_arg22 : FVec F S132 .f32) (main_arg23 : FVec F S132x132 .f32) (main_arg24 : FVec F S132 .f32) (main_arg25 : FVec F S132x128 .f32) (main_arg26 : FVec F S128 .f32) (main_arg27 : FVec F S128x128 .f32) (main_arg28 : FVec F S128 .f32) (main_arg29 : FVec F S128x128 .f32) (main_arg30 : FVec F S128 .f32) (main_arg31 : FVec F S256x132 .f32) (main_arg32 : FVec F S132 .f32) (main_arg33 : FVec F S132x132 .f32) (main_arg34 : FVec F S132 .f32) (main_arg35 : FVec F S132x128 .f32) (main_arg36 : FVec F S128 .f32) (main_v98 : IVec S_ 1) (main_v101 : IVec S132 1) (main_c_39 : IVec S_ 1) : IVec S_ 1 :=
  let main_v102 : IVec S_ 1 := (fun x v => Host.reduce IntOp.andi x v reducesTo_S132_S_d0 h_S_) main_v101 main_c_39
  let main_v103 : IVec S_ 1 := andi main_v98 main_v102
  let main_v104 : FVec F S132x132 .f32 := Host.absf main_arg21
  let main_cst_40 : FVec F S_ .f32 := constant S_ .f32 0x7F800000#32
  let main_v105 : FVec F S132x132 .f32 := broadcastInDim S132x132 ![] bcast_S_S132x132 main_cst_40
  let main_v106 : IVec S132x132 1 := cmpf .olt main_v104 main_v105
  let main_c_41 : IVec S_ 1 := constantI S_ 1 1#1
  let main_v107 : IVec S_ 1 := (fun x v => Host.reduce IntOp.andi x v reducesTo_S132x132_S_d0_1 h_S_) main_v106 main_c_41
  let main_v108 : IVec S_ 1 := andi main_v103 main_v107
  let main_v109 : FVec F S132 .f32 := Host.absf main_arg22
  let main_cst_42 : FVec F S_ .f32 := constant S_ .f32 0x7F800000#32
  let main_v110 : FVec F S132 .f32 := broadcastInDim S132 ![] bcast_S_S132 main_cst_42
  let main_v111 : IVec S132 1 := cmpf .olt main_v109 main_v110
  let main_c_43 : IVec S_ 1 := constantI S_ 1 1#1
  let main_v112 : IVec S_ 1 := (fun x v => Host.reduce IntOp.andi x v reducesTo_S132_S_d0 h_S_) main_v111 main_c_43
  let main_v113 : IVec S_ 1 := andi main_v108 main_v112
  let main_v114 : FVec F S132x132 .f32 := Host.absf main_arg23
  let main_cst_44 : FVec F S_ .f32 := constant S_ .f32 0x7F800000#32
  let main_v115 : FVec F S132x132 .f32 := broadcastInDim S132x132 ![] bcast_S_S132x132 main_cst_44
  let main_v116 : IVec S132x132 1 := cmpf .olt main_v114 main_v115
  let main_c_45 : IVec S_ 1 := constantI S_ 1 1#1
  let main_v117 : IVec S_ 1 := (fun x v => Host.reduce IntOp.andi x v reducesTo_S132x132_S_d0_1 h_S_) main_v116 main_c_45
  let main_v118 : IVec S_ 1 := andi main_v113 main_v117
  let main_v119 : FVec F S132 .f32 := Host.absf main_arg24
  fn_part7 (F := F) main_arg25 main_arg26 main_arg27 main_arg28 main_arg29 main_arg30 main_arg31 main_arg32 main_arg33 main_arg34 main_arg35 main_arg36 main_v118 main_v119

def fn_part5 {F : FTy → Type} [FloatOps F] (main_arg18 : FVec F S128 .f32) (main_arg19 : FVec F S256x132 .f32) (main_arg20 : FVec F S132 .f32) (main_arg21 : FVec F S132x132 .f32) (main_arg22 : FVec F S132 .f32) (main_arg23 : FVec F S132x132 .f32) (main_arg24 : FVec F S132 .f32) (main_arg25 : FVec F S132x128 .f32) (main_arg26 : FVec F S128 .f32) (main_arg27 : FVec F S128x128 .f32) (main_arg28 : FVec F S128 .f32) (main_arg29 : FVec F S128x128 .f32) (main_arg30 : FVec F S128 .f32) (main_arg31 : FVec F S256x132 .f32) (main_arg32 : FVec F S132 .f32) (main_arg33 : FVec F S132x132 .f32) (main_arg34 : FVec F S132 .f32) (main_arg35 : FVec F S132x128 .f32) (main_arg36 : FVec F S128 .f32) (main_v83 : IVec S_ 1) (main_v84 : FVec F S132x128 .f32) (main_cst_32 : FVec F S_ .f32) : IVec S_ 1 :=
  let main_v85 : FVec F S132x128 .f32 := broadcastInDim S132x128 ![] bcast_S_S132x128 main_cst_32
  let main_v86 : IVec S132x128 1 := cmpf .olt main_v84 main_v85
  let main_c_33 : IVec S_ 1 := constantI S_ 1 1#1
  let main_v87 : IVec S_ 1 := (fun x v => Host.reduce IntOp.andi x v reducesTo_S132x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S256x132 .f32 := Host.absf main_arg19
  let main_cst_36 : FVec F S_ .f32 := constant S_ .f32 0x7F800000#32
  let main_v95 : FVec F S256x132 .f32 := broadcastInDim S256x132 ![] bcast_S_S256x132 main_cst_36
  let main_v96 : IVec S256x132 1 := cmpf .olt main_v94 main_v95
  let main_c_37 : IVec S_ 1 := constantI S_ 1 1#1
  let main_v97 : IVec S_ 1 := (fun x v => Host.reduce IntOp.andi x v reducesTo_S256x132_S_d0_1 h_S_) main_v96 main_c_37
  let main_v98 : IVec S_ 1 := andi main_v93 main_v97
  let main_v99 : FVec F S132 .f32 := Host.absf main_arg20
  let main_cst_38 : FVec F S_ .f32 := constant S_ .f32 0x7F800000#32
  let main_v100 : FVec F S132 .f32 := broadcastInDim S132 ![] bcast_S_S132 main_cst_38
  let main_v101 : IVec S132 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_arg36 main_v98 main_v101 main_c_39

def fn_part4 {F : FTy → Type} [FloatOps F] (main_arg14 : FVec F S132 .f32) (main_arg15 : FVec F S132x132 .f32) (main_arg16 : FVec F S132 .f32) (main_arg17 : FVec F S132x128 .f32) (main_arg18 : FVec F S128 .f32) (main_arg19 : FVec F S256x132 .f32) (main_arg20 : FVec F S132 .f32) (main_arg21 : FVec F S132x132 .f32) (main_arg22 : FVec F S132 .f32) (main_arg23 : FVec F S132x132 .f32) (main_arg24 : FVec F S132 .f32) (main_arg25 : FVec F S132x128 .f32) (main_arg26 : FVec F S128 .f32) (main_arg27 : FVec F S128x128 .f32) (main_arg28 : FVec F S128 .f32) (main_arg29 : FVec F S128x128 .f32) (main_arg30 : FVec F S128 .f32) (main_arg31 : FVec F S256x132 .f32) (main_arg32 : FVec F S132 .f32) (main_arg33 : FVec F S132x132 .f32) (main_arg34 : FVec F S132 .f32) (main_arg35 : FVec F S132x128 .f32) (main_arg36 : FVec F S128 .f32) (main_v63 : IVec S_ 1) (main_v67 : IVec S_ 1) : IVec S_ 1 :=
  let main_v68 : IVec S_ 1 := andi main_v63 main_v67
  let main_v69 : FVec F S132 .f32 := Host.absf main_arg14
  let main_cst_26 : FVec F S_ .f32 := constant S_ .f32 0x7F800000#32
  let main_v70 : FVec F S132 .f32 := broadcastInDim S132 ![] bcast_S_S132 main_cst_26
  let main_v71 : IVec S132 1 := cmpf .olt main_v69 main_v70
  let main_c_27 : IVec S_ 1 := constantI S_ 1 1#1
  let main_v72 : IVec S_ 1 := (fun x v => Host.reduce IntOp.andi x v reducesTo_S132_S_d0 h_S_) main_v71 main_c_27
  let main_v73 : IVec S_ 1 := andi main_v68 main_v72
  let main_v74 : FVec F S132x132 .f32 := Host.absf main_arg15
  let main_cst_28 : FVec F S_ .f32 := constant S_ .f32 0x7F800000#32
  let main_v75 : FVec F S132x132 .f32 := broadcastInDim S132x132 ![] bcast_S_S132x132 main_cst_28
  let main_v76 : IVec S132x132 1 := cmpf .olt main_v74 main_v75
  let main_c_29 : IVec S_ 1 := constantI S_ 1 1#1
  let main_v77 : IVec S_ 1 := (fun x v => Host.reduce IntOp.andi x v reducesTo_S132x132_S_d0_1 h_S_) main_v76 main_c_29
  let main_v78 : IVec S_ 1 := andi main_v73 main_v77
  let main_v79 : FVec F S132 .f32 := Host.absf main_arg16
  let main_cst_30 : FVec F S_ .f32 := constant S_ .f32 0x7F800000#32
  let main_v80 : FVec F S132 .f32 := broadcastInDim S132 ![] bcast_S_S132 main_cst_30
  let main_v81 : IVec S132 1 := cmpf .olt main_v79 main_v80
  let main_c_31 : IVec S_ 1 := constantI S_ 1 1#1
  let main_v82 : IVec S_ 1 := (fun x v => Host.reduce IntOp.andi x v reducesTo_S132_S_d0 h_S_) main_v81 main_c_31
  let main_v83 : IVec S_ 1 := andi main_v78 main_v82
  let main_v84 : FVec F S132x128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_arg36 main_v83 main_v84 main_cst_32

def fn_part3 {F : FTy → Type} [FloatOps F] (main_arg11 : FVec F S256x132 .f32) (main_arg12 : FVec F S132 .f32) (main_arg13 : FVec F S132x132 .f32) (main_arg14 : FVec F S132 .f32) (main_arg15 : FVec F S132x132 .f32) (main_arg16 : FVec F S132 .f32) (main_arg17 : FVec F S132x128 .f32) (main_arg18 : FVec F S128 .f32) (main_arg19 : FVec F S256x132 .f32) (main_arg20 : FVec F S132 .f32) (main_arg21 : FVec F S132x132 .f32) (main_arg22 : FVec F S132 .f32) (main_arg23 : FVec F S132x132 .f32) (main_arg24 : FVec F S132 .f32) (main_arg25 : FVec F S132x128 .f32) (main_arg26 : FVec F S128 .f32) (main_arg27 : FVec F S128x128 .f32) (main_arg28 : FVec F S128 .f32) (main_arg29 : FVec F S128x128 .f32) (main_arg30 : FVec F S128 .f32) (main_arg31 : FVec F S256x132 .f32) (main_arg32 : FVec F S132 .f32) (main_arg33 : FVec F S132x132 .f32) (main_arg34 : FVec F S132 .f32) (main_arg35 : FVec F S132x128 .f32) (main_arg36 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x132 .f32 := Host.absf main_arg11
  let main_cst_20 : FVec F S_ .f32 := constant S_ .f32 0x7F800000#32
  let main_v55 : FVec F S256x132 .f32 := broadcastInDim S256x132 ![] bcast_S_S256x132 main_cst_20
  let main_v56 : IVec S256x132 1 := cmpf .olt main_v54 main_v55
  let main_c_21 : IVec S_ 1 := constantI S_ 1 1#1
  let main_v57 : IVec S_ 1 := (fun x v => Host.reduce IntOp.andi x v reducesTo_S256x132_S_d0_1 h_S_) main_v56 main_c_21
  let main_v58 : IVec S_ 1 := andi main_v53 main_v57
  let main_v59 : FVec F S132 .f32 := Host.absf main_arg12
  let main_cst_22 : FVec F S_ .f32 := constant S_ .f32 0x7F800000#32
  let main_v60 : FVec F S132 .f32 := broadcastInDim S132 ![] bcast_S_S132 main_cst_22
  let main_v61 : IVec S132 1 := cmpf .olt main_v59 main_v60
  let main_c_23 : IVec S_ 1 := constantI S_ 1 1#1
  let main_v62 : IVec S_ 1 := (fun x v => Host.reduce IntOp.andi x v reducesTo_S132_S_d0 h_S_) main_v61 main_c_23
  let main_v63 : IVec S_ 1 := andi main_v58 main_v62
  let main_v64 : FVec F S132x132 .f32 := Host.absf main_arg13
  let main_cst_24 : FVec F S_ .f32 := constant S_ .f32 0x7F800000#32
  let main_v65 : FVec F S132x132 .f32 := broadcastInDim S132x132 ![] bcast_S_S132x132 main_cst_24
  let main_v66 : IVec S132x132 1 := cmpf .olt main_v64 main_v65
  let main_c_25 : IVec S_ 1 := constantI S_ 1 1#1
  let main_v67 : IVec S_ 1 := (fun x v => Host.reduce IntOp.andi x v reducesTo_S132x132_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v63 main_v67

def fn_part2 {F : FTy → Type} [FloatOps F] (main_arg7 : FVec F S132x132 .f32) (main_arg8 : FVec F S132 .f32) (main_arg9 : FVec F S132x128 .f32) (main_arg10 : FVec F S128 .f32) (main_arg11 : FVec F S256x132 .f32) (main_arg12 : FVec F S132 .f32) (main_arg13 : FVec F S132x132 .f32) (main_arg14 : FVec F S132 .f32) (main_arg15 : FVec F S132x132 .f32) (main_arg16 : FVec F S132 .f32) (main_arg17 : FVec F S132x128 .f32) (main_arg18 : FVec F S128 .f32) (main_arg19 : FVec F S256x132 .f32) (main_arg20 : FVec F S132 .f32) (main_arg21 : FVec F S132x132 .f32) (main_arg22 : FVec F S132 .f32) (main_arg23 : FVec F S132x132 .f32) (main_arg24 : FVec F S132 .f32) (main_arg25 : FVec F S132x128 .f32) (main_arg26 : FVec F S128 .f32) (main_arg27 : FVec F S128x128 .f32) (main_arg28 : FVec F S128 .f32) (main_arg29 : FVec F S128x128 .f32) (main_arg30 : FVec F S128 .f32) (main_arg31 : FVec F S256x132 .f32) (main_arg32 : FVec F S132 .f32) (main_arg33 : FVec F S132x132 .f32) (main_arg34 : FVec F S132 .f32) (main_arg35 : FVec F S132x128 .f32) (main_arg36 : FVec F S128 .f32) (main_v33 : IVec S_ 1) : IVec S_ 1 :=
  let main_v34 : FVec F S132x132 .f32 := Host.absf main_arg7
  let main_cst_12 : FVec F S_ .f32 := constant S_ .f32 0x7F800000#32
  let main_v35 : FVec F S132x132 .f32 := broadcastInDim S132x132 ![] bcast_S_S132x132 main_cst_12
  let main_v36 : IVec S132x132 1 := cmpf .olt main_v34 main_v35
  let main_c_13 : IVec S_ 1 := constantI S_ 1 1#1
  let main_v37 : IVec S_ 1 := (fun x v => Host.reduce IntOp.andi x v reducesTo_S132x132_S_d0_1 h_S_) main_v36 main_c_13
  let main_v38 : IVec S_ 1 := andi main_v33 main_v37
  let main_v39 : FVec F S132 .f32 := Host.absf main_arg8
  let main_cst_14 : FVec F S_ .f32 := constant S_ .f32 0x7F800000#32
  let main_v40 : FVec F S132 .f32 := broadcastInDim S132 ![] bcast_S_S132 main_cst_14
  let main_v41 : IVec S132 1 := cmpf .olt main_v39 main_v40
  let main_c_15 : IVec S_ 1 := constantI S_ 1 1#1
  let main_v42 : IVec S_ 1 := (fun x v => Host.reduce IntOp.andi x v reducesTo_S132_S_d0 h_S_) main_v41 main_c_15
  let main_v43 : IVec S_ 1 := andi main_v38 main_v42
  let main_v44 : FVec F S132x128 .f32 := Host.absf main_arg9
  let main_cst_16 : FVec F S_ .f32 := constant S_ .f32 0x7F800000#32
  let main_v45 : FVec F S132x128 .f32 := broadcastInDim S132x128 ![] bcast_S_S132x128 main_cst_16
  let main_v46 : IVec S132x128 1 := cmpf .olt main_v44 main_v45
  let main_c_17 : IVec S_ 1 := constantI S_ 1 1#1
  let main_v47 : IVec S_ 1 := (fun x v => Host.reduce IntOp.andi x v reducesTo_S132x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v48 main_v49 main_v50

def fn_part1 {F : FTy → Type} [FloatOps F] (main_arg4 : FVec F S128 .f32) (main_arg5 : FVec F S640x132 .f32) (main_arg6 : FVec F S132 .f32) (main_arg7 : FVec F S132x132 .f32) (main_arg8 : FVec F S132 .f32) (main_arg9 : FVec F S132x128 .f32) (main_arg10 : FVec F S128 .f32) (main_arg11 : FVec F S256x132 .f32) (main_arg12 : FVec F S132 .f32) (main_arg13 : FVec F S132x132 .f32) (main_arg14 : FVec F S132 .f32) (main_arg15 : FVec F S132x132 .f32) (main_arg16 : FVec F S132 .f32) (main_arg17 : FVec F S132x128 .f32) (main_arg18 : FVec F S128 .f32) (main_arg19 : FVec F S256x132 .f32) (main_arg20 : FVec F S132 .f32) (main_arg21 : FVec F S132x132 .f32) (main_arg22 : FVec F S132 .f32) (main_arg23 : FVec F S132x132 .f32) (main_arg24 : FVec F S132 .f32) (main_arg25 : FVec F S132x128 .f32) (main_arg26 : FVec F S128 .f32) (main_arg27 : FVec F S128x128 .f32) (main_arg28 : FVec F S128 .f32) (main_arg29 : FVec F S128x128 .f32) (main_arg30 : FVec F S128 .f32) (main_arg31 : FVec F S256x132 .f32) (main_arg32 : FVec F S132 .f32) (main_arg33 : FVec F S132x132 .f32) (main_arg34 : FVec F S132 .f32) (main_arg35 : FVec F S132x128 .f32) (main_arg36 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S640x132 .f32 := Host.absf main_arg5
  let main_cst_8 : FVec F S_ .f32 := constant S_ .f32 0x7F800000#32
  let main_v25 : FVec F S640x132 .f32 := broadcastInDim S640x132 ![] bcast_S_S640x132 main_cst_8
  let main_v26 : IVec S640x132 1 := cmpf .olt main_v24 main_v25
  let main_c_9 : IVec S_ 1 := constantI S_ 1 1#1
  let main_v27 : IVec S_ 1 := (fun x v => Host.reduce IntOp.andi x v reducesTo_S640x132_S_d0_1 h_S_) main_v26 main_c_9
  let main_v28 : IVec S_ 1 := andi main_v23 main_v27
  let main_v29 : FVec F S132 .f32 := Host.absf main_arg6
  let main_cst_10 : FVec F S_ .f32 := constant S_ .f32 0x7F800000#32
  let main_v30 : FVec F S132 .f32 := broadcastInDim S132 ![] bcast_S_S132 main_cst_10
  let main_v31 : IVec S132 1 := cmpf .olt main_v29 main_v30
  let main_c_11 : IVec S_ 1 := constantI S_ 1 1#1
  let main_v32 : IVec S_ 1 := (fun x v => Host.reduce IntOp.andi x v reducesTo_S132_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v33

def fn {F : FTy → Type} [FloatOps F] (main_arg0 : FVec F S65536x512 .f32) (main_arg1 : FVec F S128x128 .f32) (main_arg2 : FVec F S128 .f32) (main_arg3 : FVec F S128x128 .f32) (main_arg4 : FVec F S128 .f32) (main_arg5 : FVec F S640x132 .f32) (main_arg6 : FVec F S132 .f32) (main_arg7 : FVec F S132x132 .f32) (main_arg8 : FVec F S132 .f32) (main_arg9 : FVec F S132x128 .f32) (main_arg10 : FVec F S128 .f32) (main_arg11 : FVec F S256x132 .f32) (main_arg12 : FVec F S132 .f32) (main_arg13 : FVec F S132x132 .f32) (main_arg14 : FVec F S132 .f32) (main_arg15 : FVec F S132x132 .f32) (main_arg16 : FVec F S132 .f32) (main_arg17 : FVec F S132x128 .f32) (main_arg18 : FVec F S128 .f32) (main_arg19 : FVec F S256x132 .f32) (main_arg20 : FVec F S132 .f32) (main_arg21 : FVec F S132x132 .f32) (main_arg22 : FVec F S132 .f32) (main_arg23 : FVec F S132x132 .f32) (main_arg24 : FVec F S132 .f32) (main_arg25 : FVec F S132x128 .f32) (main_arg26 : FVec F S128 .f32) (main_arg27 : FVec F S128x128 .f32) (main_arg28 : FVec F S128 .f32) (main_arg29 : FVec F S128x128 .f32) (main_arg30 : FVec F S128 .f32) (main_arg31 : FVec F S256x132 .f32) (main_arg32 : FVec F S132 .f32) (main_arg33 : FVec F S132x132 .f32) (main_arg34 : FVec F S132 .f32) (main_arg35 : FVec F S132x128 .f32) (main_arg36 : FVec F S128 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v13 main_v16
-- ==== Kernel.lean ====
abbrev S65536x512 : Shape := ⟨2, ![65536, 512]⟩
abbrev S128x128 : Shape := ⟨2, ![128, 128]⟩
abbrev S128 : Shape := ⟨1, ![128]⟩
abbrev S640x132 : Shape := ⟨2, ![640, 132]⟩
abbrev S132 : Shape := ⟨1, ![132]⟩
abbrev S132x132 : Shape := ⟨2, ![132, 132]⟩
abbrev S132x128 : Shape := ⟨2, ![132, 128]⟩
abbrev S256x132 : Shape := ⟨2, ![256, 132]⟩
abbrev S8x65536x128 : Shape := ⟨3, ![8, 65536, 128]⟩
abbrev S1024x512 : Shape := ⟨2, ![1024, 512]⟩
abbrev S8x1024x128 : Shape := ⟨3, ![8, 1024, 128]⟩
abbrev S1024x128 : Shape := ⟨2, ![1024, 128]⟩
abbrev S1024x640 : Shape := ⟨2, ![1024, 640]⟩
abbrev S1024x132 : Shape := ⟨2, ![1024, 132]⟩
abbrev S1x132 : Shape := ⟨2, ![1, 132]⟩
abbrev S1x128 : Shape := ⟨2, ![1, 128]⟩
abbrev S1024x256 : Shape := ⟨2, ![1024, 256]⟩
abbrev S1x1024x128 : Shape := ⟨3, ![1, 1024, 128]⟩

abbrev nBuf : Space → Nat
  | .hbm => 38
  | .vmem => 40
  | .smem => 0
  | _ => 0

abbrev bufTy : (tb : Table) → Fin (tcTables nBuf tb) → BufTy
  | .hbm, ⟨0, _⟩ => ⟨S65536x512, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S640x132, .f32⟩
  | .hbm, ⟨6, _⟩ => ⟨S132, .f32⟩
  | .hbm, ⟨7, _⟩ => ⟨S132x132, .f32⟩
  | .hbm, ⟨8, _⟩ => ⟨S132, .f32⟩
  | .hbm, ⟨9, _⟩ => ⟨S132x128, .f32⟩
  | .hbm, ⟨10, _⟩ => ⟨S128, .f32⟩
  | .hbm, ⟨11, _⟩ => ⟨S256x132, .f32⟩
  | .hbm, ⟨12, _⟩ => ⟨S132, .f32⟩
  | .hbm, ⟨13, _⟩ => ⟨S132x132, .f32⟩
  | .hbm, ⟨14, _⟩ => ⟨S132, .f32⟩
  | .hbm, ⟨15, _⟩ => ⟨S132x132, .f32⟩
  | .hbm, ⟨16, _⟩ => ⟨S132, .f32⟩
  | .hbm, ⟨17, _⟩ => ⟨S132x128, .f32⟩
  | .hbm, ⟨18, _⟩ => ⟨S128, .f32⟩
  | .hbm, ⟨19, _⟩ => ⟨S256x132, .f32⟩
  | .hbm, ⟨20, _⟩ => ⟨S132, .f32⟩
  | .hbm, ⟨21, _⟩ => ⟨S132x132, .f32⟩
  | .hbm, ⟨22, _⟩ => ⟨S132, .f32⟩
  | .hbm, ⟨23, _⟩ => ⟨S132x132, .f32⟩
  | .hbm, ⟨24, _⟩ => ⟨S132, .f32⟩
  | .hbm, ⟨25, _⟩ => ⟨S132x128, .f32⟩
  | .hbm, ⟨26, _⟩ => ⟨S128, .f32⟩
  | .hbm, ⟨27, _⟩ => ⟨S128x128, .f32⟩
  | .hbm, ⟨28, _⟩ => ⟨S128, .f32⟩
  | .hbm, ⟨29, _⟩ => ⟨S128x128, .f32⟩
  | .hbm, ⟨30, _⟩ => ⟨S128, .f32⟩
  | .hbm, ⟨31, _⟩ => ⟨S256x132, .f32⟩
  | .hbm, ⟨32, _⟩ => ⟨S132, .f32⟩
  | .hbm, ⟨33, _⟩ => ⟨S132x132, .f32⟩
  | .hbm, ⟨34, _⟩ => ⟨S132, .f32⟩
  | .hbm, ⟨35, _⟩ => ⟨S132x128, .f32⟩
  | .hbm, ⟨36, _⟩ => ⟨S128, .f32⟩
  | .hbm, ⟨37, _⟩ => ⟨S8x65536x128, .f32⟩
  | .local _ .vmem, ⟨0, _⟩ => ⟨S1024x512, .f32⟩
  | .local _ .vmem, ⟨1, _⟩ => ⟨S1024x512, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S640x132, .f32⟩
  | .local _ .vmem, ⟨7, _⟩ => ⟨S132, .f32⟩
  | .local _ .vmem, ⟨8, _⟩ => ⟨S132x132, .f32⟩
  | .local _ .vmem, ⟨9, _⟩ => ⟨S132, .f32⟩
  | .local _ .vmem, ⟨10, _⟩ => ⟨S132x128, .f32⟩
  | .local _ .vmem, ⟨11, _⟩ => ⟨S128, .f32⟩
  | .local _ .vmem, ⟨12, _⟩ => ⟨S256x132, .f32⟩
  | .local _ .vmem, ⟨13, _⟩ => ⟨S132, .f32⟩
  | .local _ .vmem, ⟨14, _⟩ => ⟨S132x132, .f32⟩
  | .local _ .vmem, ⟨15, _⟩ => ⟨S132, .f32⟩
  | .local _ .vmem, ⟨16, _⟩ => ⟨S132x132, .f32⟩
  | .local _ .vmem, ⟨17, _⟩ => ⟨S132, .f32⟩
  | .local _ .vmem, ⟨18, _⟩ => ⟨S132x128, .f32⟩
  | .local _ .vmem, ⟨19, _⟩ => ⟨S128, .f32⟩
  | .local _ .vmem, ⟨20, _⟩ => ⟨S256x132, .f32⟩
  | .local _ .vmem, ⟨21, _⟩ => ⟨S132, .f32⟩
  | .local _ .vmem, ⟨22, _⟩ => ⟨S132x132, .f32⟩
  | .local _ .vmem, ⟨23, _⟩ => ⟨S132, .f32⟩
  | .local _ .vmem, ⟨24, _⟩ => ⟨S132x132, .f32⟩
  | .local _ .vmem, ⟨25, _⟩ => ⟨S132, .f32⟩
  | .local _ .vmem, ⟨26, _⟩ => ⟨S132x128, .f32⟩
  | .local _ .vmem, ⟨27, _⟩ => ⟨S128, .f32⟩
  | .local _ .vmem, ⟨28, _⟩ => ⟨S128x128, .f32⟩
  | .local _ .vmem, ⟨29, _⟩ => ⟨S128, .f32⟩
  | .local _ .vmem, ⟨30, _⟩ => ⟨S128x128, .f32⟩
  | .local _ .vmem, ⟨31, _⟩ => ⟨S128, .f32⟩
  | .local _ .vmem, ⟨32, _⟩ => ⟨S256x132, .f32⟩
  | .local _ .vmem, ⟨33, _⟩ => ⟨S132, .f32⟩
  | .local _ .vmem, ⟨34, _⟩ => ⟨S132x132, .f32⟩
  | .local _ .vmem, ⟨35, _⟩ => ⟨S132, .f32⟩
  | .local _ .vmem, ⟨36, _⟩ => ⟨S132x128, .f32⟩
  | .local _ .vmem, ⟨37, _⟩ => ⟨S128, .f32⟩
  | .local _ .vmem, ⟨38, _⟩ => ⟨S8x1024x128, .f32⟩
  | .local _ .vmem, ⟨39, _⟩ => ⟨S8x1024x128, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg29_0 : Ref sig .tc := ⟨.vmem, 30, rfl⟩
abbrev cc0_stg30_0 : Ref sig .tc := ⟨.vmem, 31, rfl⟩
abbrev cc0_stg31_0 : Ref sig .tc := ⟨.vmem, 32, rfl⟩
abbrev cc0_stg32_0 : Ref sig .tc := ⟨.vmem, 33, rfl⟩
abbrev cc0_stg33_0 : Ref sig .tc := ⟨.vmem, 34, rfl⟩
abbrev cc0_stg34_0 : Ref sig .tc := ⟨.vmem, 35, rfl⟩
abbrev cc0_stg35_0 : Ref sig .tc := ⟨.vmem, 36, rfl⟩
abbrev cc0_stg36_0 : Ref sig .tc := ⟨.vmem, 37, rfl⟩
abbrev cc0_stg37_0 : Ref sig .tc := ⟨.vmem, 38, rfl⟩
abbrev cc0_stg37_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem29_0 : DmaSem sig := 30
abbrev cc0_sem30_0 : DmaSem sig := 31
abbrev cc0_sem31_0 : DmaSem sig := 32
abbrev cc0_sem32_0 : DmaSem sig := 33
abbrev cc0_sem33_0 : DmaSem sig := 34
abbrev cc0_sem34_0 : DmaSem sig := 35
abbrev cc0_sem35_0 : DmaSem sig := 36
abbrev cc0_sem36_0 : DmaSem sig := 37
abbrev cc0_sem37_0 : DmaSem sig := 38
abbrev cc0_sem37_1 : DmaSem sig := 39

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_37 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S640x132 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S132 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S132x132 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S132 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S132x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x132 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S132 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S132x132 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S132 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S132x132 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S132 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S132x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x132 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S132 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S132x132 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S132 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S132x132 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S132 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S132x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S128x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S128x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S256x132 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S132 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S132x132 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S132 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S132x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S128 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 2 → Memref sig .tc .vmem S8x1024x128 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  concatenates_S1024x512_S1024x128_S1024x640_d1 : Shape.Concatenates [S1024x512, S1024x128] S1024x640 1
  bitsLt_bf16_f32 : FTy.bits .bf16 < FTy.bits .f32
  inb_S640x132_S640x132_0_0 : ∀ a, (![0, 0] : Fin 2 → Nat) a + S640x132.size a ≤ S640x132.size a
  h_S640x132 : 0 < S640x132.numel
  inb_S132_S132_0 : ∀ a, (![0] : Fin 1 → Nat) a + S132.size a ≤ S132.size a
  h_S132 : 0 < S132.numel
  shapeCasts_S132_S1x132 : S132.ShapeCasts S1x132
  broadcasts_S1x132_S1024x132 : S1x132.Broadcasts S1024x132
  inb_S132x132_S132x132_0_0 : ∀ a, (![0, 0] : Fin 2 → Nat) a + S132x132.size a ≤ S132x132.size a
  h_S132x132 : 0 < S132x132.numel
  inb_S132x128_S132x128_0_0 : ∀ a, (![0, 0] : Fin 2 → Nat) a + S132x128.size a ≤ S132x128.size a
  h_S132x128 : 0 < S132x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  concatenates_S1024x128_S1024x128_S1024x256_d1 : Shape.Concatenates [S1024x128, S1024x128] S1024x256 1
  inb_S256x132_S256x132_0_0 : ∀ a, (![0, 0] : Fin 2 → Nat) a + S256x132.size a ≤ S256x132.size a
  h_S256x132 : 0 < S256x132.numel
  inb_S128x128_S128x128_0_0 : ∀ a, (![0, 0] : Fin 2 → Nat) a + S128x128.size a ≤ S128x128.size a
  h_S128x128 : 0 < S128x128.numel
  shapeCasts_S1024x128_S1x1024x128 : S1024x128.ShapeCasts S1x1024x128
  concatenates_S1x1024x128_S1x1024x128_S1x1024x128_S1x1024x128_S1x1024x128_S1x1024x128_S1x1024x128_S1x1024x128_S8x1024x128_d0 : Shape.Concatenates [S1x1024x128, S1x1024x128, S1x1024x128, S1x1024x128, S1x1024x128, S1x1024x128, S1x1024x128, S1x1024x128] S8x1024x128 0
  inb_S8x1024x128_S8x1024x128_0_0_0 : ∀ a, (![0, 0, 0] : Fin 3 → Nat) a + S8x1024x128.size a ≤ S8x1024x128.size a
  h_S8x1024x128 : 0 < S8x1024x128.numel
  dot_S1024x640_S640x132_S1024x132_1_0_0_1_n_n_wf : DotDims.WF S1024x640 S640x132 S1024x132 [1] [0] [0] [1] [] []
  dot_S1024x132_S132x132_S1024x132_1_0_0_1_n_n_wf : DotDims.WF S1024x132 S132x132 S1024x132 [1] [0] [0] [1] [] []
  dot_S1024x132_S132x128_S1024x128_1_0_0_1_n_n_wf : DotDims.WF S1024x132 S132x128 S1024x128 [1] [0] [0] [1] [] []
  dot_S1024x256_S256x132_S1024x132_1_0_0_1_n_n_wf : DotDims.WF S1024x256 S256x132 S1024x132 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640x132.size a ≤ S640x132.size a
  hwx0_5 : ∀ i : grid0.Coords, EltTy.bits .f32 = 32 ∨ (Rect.block (s := S640x132) S640x132.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S132.size a ≤ S132.size a
  hwx0_6 : ∀ i : grid0.Coords, EltTy.bits .f32 = 32 ∨ (Rect.block (s := S132) S132.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S132x132.size a ≤ S132x132.size a
  hwx0_7 : ∀ i : grid0.Coords, EltTy.bits .f32 = 32 ∨ (Rect.block (s := S132x132) S132x132.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S132.size a ≤ S132.size a
  hwx0_8 : ∀ i : grid0.Coords, EltTy.bits .f32 = 32 ∨ (Rect.block (s := S132) S132.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S132x128.size a ≤ S132x128.size a
  hwx0_9 : ∀ i : grid0.Coords, EltTy.bits .f32 = 32 ∨ (Rect.block (s := S132x128) S132x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x132.size a ≤ S256x132.size a
  hwx0_11 : ∀ i : grid0.Coords, EltTy.bits .f32 = 32 ∨ (Rect.block (s := S256x132) S256x132.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S132.size a ≤ S132.size a
  hwx0_12 : ∀ i : grid0.Coords, EltTy.bits .f32 = 32 ∨ (Rect.block (s := S132) S132.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S132x132.size a ≤ S132x132.size a
  hwx0_13 : ∀ i : grid0.Coords, EltTy.bits .f32 = 32 ∨ (Rect.block (s := S132x132) S132x132.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S132.size a ≤ S132.size a
  hwx0_14 : ∀ i : grid0.Coords, EltTy.bits .f32 = 32 ∨ (Rect.block (s := S132) S132.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S132x132.size a ≤ S132x132.size a
  hwx0_15 : ∀ i : grid0.Coords, EltTy.bits .f32 = 32 ∨ (Rect.block (s := S132x132) S132x132.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S132.size a ≤ S132.size a
  hwx0_16 : ∀ i : grid0.Coords, EltTy.bits .f32 = 32 ∨ (Rect.block (s := S132) S132.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S132x128.size a ≤ S132x128.size a
  hwx0_17 : ∀ i : grid0.Coords, EltTy.bits .f32 = 32 ∨ (Rect.block (s := S132x128) S132x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128.size a ≤ S128.size a
  hwx0_18 : ∀ i : grid0.Coords, EltTy.bits .f32 = 32 ∨ (Rect.block (s := S128) S128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x132.size a ≤ S256x132.size a
  hwx0_19 : ∀ i : grid0.Coords, EltTy.bits .f32 = 32 ∨ (Rect.block (s := S256x132) S256x132.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S132.size a ≤ S132.size a
  hwx0_20 : ∀ i : grid0.Coords, EltTy.bits .f32 = 32 ∨ (Rect.block (s := S132) S132.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S132x132.size a ≤ S132x132.size a
  hwx0_21 : ∀ i : grid0.Coords, EltTy.bits .f32 = 32 ∨ (Rect.block (s := S132x132) S132x132.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S132.size a ≤ S132.size a
  hwx0_22 : ∀ i : grid0.Coords, EltTy.bits .f32 = 32 ∨ (Rect.block (s := S132) S132.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S132x132.size a ≤ S132x132.size a
  hwx0_23 : ∀ i : grid0.Coords, EltTy.bits .f32 = 32 ∨ (Rect.block (s := S132x132) S132x132.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S132.size a ≤ S132.size a
  hwx0_24 : ∀ i : grid0.Coords, EltTy.bits .f32 = 32 ∨ (Rect.block (s := S132) S132.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S132x128.size a ≤ S132x128.size a
  hwx0_25 : ∀ i : grid0.Coords, EltTy.bits .f32 = 32 ∨ (Rect.block (s := S132x128) S132x128.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S128.size a ≤ S128.size a
  hwx0_26 : ∀ i : grid0.Coords, EltTy.bits .f32 = 32 ∨ (Rect.block (s := S128) S128.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S128x128.size a ≤ S128x128.size a
  hwx0_27 : ∀ i : grid0.Coords, EltTy.bits .f32 = 32 ∨ (Rect.block (s := S128x128) S128x128.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S128.size a ≤ S128.size a
  hwx0_28 : ∀ i : grid0.Coords, EltTy.bits .f32 = 32 ∨ (Rect.block (s := S128) S128.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S128x128.size a ≤ S128x128.size a
  hwx0_29 : ∀ i : grid0.Coords, EltTy.bits .f32 = 32 ∨ (Rect.block (s := S128x128) S128x128.size (cc0_transform_29 i) (hinb0_29 i)).WholeWords (EltTy.packing .f32)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S128.size a ≤ S128.size a
  hwx0_30 : ∀ i : grid0.Coords, EltTy.bits .f32 = 32 ∨ (Rect.block (s := S128) S128.size (cc0_transform_30 i) (hinb0_30 i)).WholeWords (EltTy.packing .f32)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S256x132.size a ≤ S256x132.size a
  hwx0_31 : ∀ i : grid0.Coords, EltTy.bits .f32 = 32 ∨ (Rect.block (s := S256x132) S256x132.size (cc0_transform_31 i) (hinb0_31 i)).WholeWords (EltTy.packing .f32)
  hstage0_32 : ∀ j, (stage0_32 j).IsWhole
  nbuf0_32 : grid0.bufCount reads0_32 true = 1
  hreads0_32 : ∀ i i' : grid0.Coords, (∀ a, reads0_32 a = true → i a = i' a) → cc0_transform_32 i = cc0_transform_32 i'
  hinb0_32 : ∀ (i : grid0.Coords) a, (cc0_transform_32 i a + 1) * S132.size a ≤ S132.size a
  hwx0_32 : ∀ i : grid0.Coords, EltTy.bits .f32 = 32 ∨ (Rect.block (s := S132) S132.size (cc0_transform_32 i) (hinb0_32 i)).WholeWords (EltTy.packing .f32)
  hstage0_33 : ∀ j, (stage0_33 j).IsWhole
  nbuf0_33 : grid0.bufCount reads0_33 true = 1
  hreads0_33 : ∀ i i' : grid0.Coords, (∀ a, reads0_33 a = true → i a = i' a) → cc0_transform_33 i = cc0_transform_33 i'
  hinb0_33 : ∀ (i : grid0.Coords) a, (cc0_transform_33 i a + 1) * S132x132.size a ≤ S132x132.size a
  hwx0_33 : ∀ i : grid0.Coords, EltTy.bits .f32 = 32 ∨ (Rect.block (s := S132x132) S132x132.size (cc0_transform_33 i) (hinb0_33 i)).WholeWords (EltTy.packing .f32)
  hstage0_34 : ∀ j, (stage0_34 j).IsWhole
  nbuf0_34 : grid0.bufCount reads0_34 true = 1
  hreads0_34 : ∀ i i' : grid0.Coords, (∀ a, reads0_34 a = true → i a = i' a) → cc0_transform_34 i = cc0_transform_34 i'
  hinb0_34 : ∀ (i : grid0.Coords) a, (cc0_transform_34 i a + 1) * S132.size a ≤ S132.size a
  hwx0_34 : ∀ i : grid0.Coords, EltTy.bits .f32 = 32 ∨ (Rect.block (s := S132) S132.size (cc0_transform_34 i) (hinb0_34 i)).WholeWords (EltTy.packing .f32)
  hstage0_35 : ∀ j, (stage0_35 j).IsWhole
  nbuf0_35 : grid0.bufCount reads0_35 true = 1
  hreads0_35 : ∀ i i' : grid0.Coords, (∀ a, reads0_35 a = true → i a = i' a) → cc0_transform_35 i = cc0_transform_35 i'
  hinb0_35 : ∀ (i : grid0.Coords) a, (cc0_transform_35 i a + 1) * S132x128.size a ≤ S132x128.size a
  hwx0_35 : ∀ i : grid0.Coords, EltTy.bits .f32 = 32 ∨ (Rect.block (s := S132x128) S132x128.size (cc0_transform_35 i) (hinb0_35 i)).WholeWords (EltTy.packing .f32)
  hstage0_36 : ∀ j, (stage0_36 j).IsWhole
  nbuf0_36 : grid0.bufCount reads0_36 true = 1
  hreads0_36 : ∀ i i' : grid0.Coords, (∀ a, reads0_36 a = true → i a = i' a) → cc0_transform_36 i = cc0_transform_36 i'
  hinb0_36 : ∀ (i : grid0.Coords) a, (cc0_transform_36 i a + 1) * S128.size a ≤ S128.size a
  hwx0_36 : ∀ i : grid0.Coords, EltTy.bits .f32 = 32 ∨ (Rect.block (s := S128) S128.size (cc0_transform_36 i) (hinb0_36 i)).WholeWords (EltTy.packing .f32)
  hstage0_37 : ∀ j, (stage0_37 j).IsWhole
  nbuf0_37 : grid0.bufCount reads0_37 false = 2
  hreads0_37 : ∀ i i' : grid0.Coords, (∀ a, reads0_37 a = true → i a = i' a) → cc0_transform_37 i = cc0_transform_37 i'
  hinb0_37 : ∀ (i : grid0.Coords) a, (cc0_transform_37 i a + 1) * S8x1024x128.size a ≤ S8x65536x128.size a
  hwx0_37 : ∀ i : grid0.Coords, EltTy.bits .f32 = 32 ∨ (Rect.block (s := S8x65536x128) S8x1024x128.size (cc0_transform_37 i) (hinb0_37 i)).WholeWords (EltTy.packing .f32)

variable [Facts₀]

def dot_S1024x640_S640x132_S1024x132_1_0_0_1_n_n : DotDims S1024x640 S640x132 S1024x132 where
  lhsContracting := [1]
  rhsContracting := [0]
  lhsNonContracting := [0]
  rhsNonContracting := [1]
  lhsBatch := []
  rhsBatch := []
  wf := dot_S1024x640_S640x132_S1024x132_1_0_0_1_n_n_wf
def dot_S1024x132_S132x132_S1024x132_1_0_0_1_n_n : DotDims S1024x132 S132x132 S1024x132 where
  lhsContracting := [1]
  rhsContracting := [0]
  lhsNonContracting := [0]
  rhsNonContracting := [1]
  lhsBatch := []
  rhsBatch := []
  wf := dot_S1024x132_S132x132_S1024x132_1_0_0_1_n_n_wf
def dot_S1024x132_S132x128_S1024x128_1_0_0_1_n_n : DotDims S1024x132 S132x128 S1024x128 where
  lhsContracting := [1]
  rhsContracting := [0]
  lhsNonContracting := [0]
  rhsNonContracting := [1]
  lhsBatch := []
  rhsBatch := []
  wf := dot_S1024x132_S132x128_S1024x128_1_0_0_1_n_n_wf
def dot_S1024x256_S256x132_S1024x132_1_0_0_1_n_n : DotDims S1024x256 S256x132 S1024x132 where
  lhsContracting := [1]
  rhsContracting := [0]
  lhsNonContracting := [0]
  rhsNonContracting := [1]
  lhsBatch := []
  rhsBatch := []
  wf := dot_S1024x256_S256x132_S1024x132_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S640x132.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S132.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S132x132.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S132.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S132x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x132.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S132.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S132x132.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S132.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S132x132.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S132.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S132x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S256x132.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S132.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S132x132.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S132.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S132x132.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S132.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S132x128.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg26) S128.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_arg27) S128x128.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_arg28) S128.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_arg29) S128x128.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_arg30) S128.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_arg31) S256x132.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_arg32) S132.size cc0_transform_32 reads0_32 false true 1 stage0_32 sem0_32
    hrank0 hreads0_32 hinb0_32 nbuf0_32 (Memref.isWhole_whole _) hwx0_32 hstage0_32

abbrev win0_33 : Pipeline.Window sig grid0 :=
  Pipeline.Window.ofSpec (Memref.whole main_arg33) S132x132.size cc0_transform_33 reads0_33 false true 1 stage0_33 sem0_33
    hrank0 hreads0_33 hinb0_33 nbuf0_33 (Memref.isWhole_whole _) hwx0_33 hstage0_33

abbrev win0_34 : Pipeline.Window sig grid0 :=
  Pipeline.Window.ofSpec (Memref.whole main_arg34) S132.size cc0_transform_34 reads0_34 false true 1 stage0_34 sem0_34
    hrank0 hreads0_34 hinb0_34 nbuf0_34 (Memref.isWhole_whole _) hwx0_34 hstage0_34

abbrev win0_35 : Pipeline.Window sig grid0 :=
  Pipeline.Window.ofSpec (Memref.whole main_arg35) S132x128.size cc0_transform_35 reads0_35 false true 1 stage0_35 sem0_35
    hrank0 hreads0_35 hinb0_35 nbuf0_35 (Memref.isWhole_whole _) hwx0_35 hstage0_35

abbrev win0_36 : Pipeline.Window sig grid0 :=
  Pipeline.Window.ofSpec (Memref.whole main_arg36) S128.size cc0_transform_36 reads0_36 false true 1 stage0_36 sem0_36
    hrank0 hreads0_36 hinb0_36 nbuf0_36 (Memref.isWhole_whole _) hwx0_36 hstage0_36

abbrev win0_37 : Pipeline.Window sig grid0 :=
  Pipeline.Window.ofSpec (Memref.whole main_v0) S8x1024x128.size cc0_transform_37 reads0_37 true false 2 stage0_37 sem0_37
    hrank0 hreads0_37 hinb0_37 nbuf0_37 (Memref.isWhole_whole _) hwx0_37 hstage0_37

abbrev win0 : Fin 38 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | 36 => win0_36 | 37 => win0_37 | ⟨_ + 38, h⟩ => absurd h (Nat.not_lt.2 (Nat.le_add_left _ _))
abbrev spec0 : Fin 38 → Pipeline.WinSpec sig grid0.rank := fun w => (win0 w).toWinSpec

class Facts : Prop extends Facts₀ where

variable [Facts]
-- ==== ReferenceIdeal.lean ====
abbrev S65536x512 : Shape := ⟨2, ![65536, 512]⟩
abbrev S128x128 : Shape := ⟨2, ![128, 128]⟩
abbrev S128 : Shape := ⟨1, ![128]⟩
abbrev S640x132 : Shape := ⟨2, ![640, 132]⟩
abbrev S132 : Shape := ⟨1, ![132]⟩
abbrev S132x132 : Shape := ⟨2, ![132, 132]⟩
abbrev S132x128 : Shape := ⟨2, ![132, 128]⟩
abbrev S256x132 : Shape := ⟨2, ![256, 132]⟩
abbrev S_ : Shape := ⟨0, ![]⟩
abbrev S65536x128 : Shape := ⟨2, ![65536, 128]⟩
abbrev S65536x640 : Shape := ⟨2, ![65536, 640]⟩
abbrev S65536x132 : Shape := ⟨2, ![65536, 132]⟩
abbrev S1x132 : Shape := ⟨2, ![1, 132]⟩
abbrev S1x128 : Shape := ⟨2, ![1, 128]⟩
abbrev S65536x256 : Shape := ⟨2, ![65536, 256]⟩
abbrev S1x65536x128 : Shape := ⟨3, ![1, 65536, 128]⟩
abbrev S8x65536x128 : Shape := ⟨3, ![8, 65536, 128]⟩

abbrev nBuf : Space → Nat
  | .hbm => 495
  | .vmem => 0
  | .smem => 0
  | _ => 0

abbrev hbmTy0_0 (i : Nat) : BufTy := match i % 128 with
  | 0 => ⟨S65536x512, .f32⟩
  | 1 => ⟨S128x128, .f32⟩
  | 2 => ⟨S128, .f32⟩
  | 3 => ⟨S128x128, .f32⟩
  | 4 => ⟨S128, .f32⟩
  | 5 => ⟨S640x132, .f32⟩
  | 6 => ⟨S132, .f32⟩
  | 7 => ⟨S132x132, .f32⟩
  | 8 => ⟨S132, .f32⟩
  | 9 => ⟨S132x128, .f32⟩
  | 10 => ⟨S128, .f32⟩
  | 11 => ⟨S256x132, .f32⟩
  | 12 => ⟨S132, .f32⟩
  | 13 => ⟨S132x132, .f32⟩
  | 14 => ⟨S132, .f32⟩
  | 15 => ⟨S132x132, .f32⟩
  | 16 => ⟨S132, .f32⟩
  | 17 => ⟨S132x128, .f32⟩
  | 18 => ⟨S128, .f32⟩
  | 19 => ⟨S256x132, .f32⟩
  | 20 => ⟨S132, .f32⟩
  | 21 => ⟨S132x132, .f32⟩
  | 22 => ⟨S132, .f32⟩
  | 23 => ⟨S132x132, .f32⟩
  | 24 => ⟨S132, .f32⟩
  | 25 => ⟨S132x128, .f32⟩
  | 26 => ⟨S128, .f32⟩
  | 27 => ⟨S128x128, .f32⟩
  | 28 => ⟨S128, .f32⟩
  | 29 => ⟨S128x128, .f32⟩
  | 30 => ⟨S128, .f32⟩
  | 31 => ⟨S256x132, .f32⟩
  | 32 => ⟨S132, .f32⟩
  | 33 => ⟨S132x132, .f32⟩
  | 34 => ⟨S132, .f32⟩
  | 35 => ⟨S132x128, .f32⟩
  | 36 => ⟨S128, .f32⟩
  | 37 => ⟨S_, .f32⟩
  | 38 => ⟨S65536x128, .f32⟩
  | 39 => ⟨S65536x640, .f32⟩
  | 40 => ⟨S65536x132, .f32⟩
  | 41 => ⟨S1x132, .f32⟩
  | 42 => ⟨S65536x132, .f32⟩
  | 43 => ⟨S65536x132, .f32⟩
  | 44 => ⟨S_, .f32⟩
  | 45 => ⟨S65536x132, .f32⟩
  | 46 => ⟨S65536x132, .f32⟩
  | 47 => ⟨S65536x132, .f32⟩
  | 48 => ⟨S1x132, .f32⟩
  | 49 => ⟨S65536x132, .f32⟩
  | 50 => ⟨S65536x132, .f32⟩
  | 51 => ⟨S_, .f32⟩
  | 52 => ⟨S65536x132, .f32⟩
  | 53 => ⟨S65536x132, .f32⟩
  | 54 => ⟨S65536x128, .f32⟩
  | 55 => ⟨S1x128, .f32⟩
  | 56 => ⟨S65536x128, .f32⟩
  | 57 => ⟨S65536x128, .f32⟩
  | 58 => ⟨S_, .f32⟩
  | 59 => ⟨S65536x128, .f32⟩
  | 60 => ⟨S65536x640, .f32⟩
  | 61 => ⟨S65536x132, .f32⟩
  | 62 => ⟨S1x132, .f32⟩
  | 63 => ⟨S65536x132, .f32⟩
  | 64 => ⟨S65536x132, .f32⟩
  | 65 => ⟨S_, .f32⟩
  | 66 => ⟨S65536x132, .f32⟩
  | 67 => ⟨S65536x132, .f32⟩
  | 68 => ⟨S65536x132, .f32⟩
  | 69 => ⟨S1x132, .f32⟩
  | 70 => ⟨S65536x132, .f32⟩
  | 71 => ⟨S65536x132, .f32⟩
  | 72 => ⟨S_, .f32⟩
  | 73 => ⟨S65536x132, .f32⟩
  | 74 => ⟨S65536x132, .f32⟩
  | 75 => ⟨S65536x128, .f32⟩
  | 76 => ⟨S1x128, .f32⟩
  | 77 => ⟨S65536x128, .f32⟩
  | 78 => ⟨S65536x128, .f32⟩
  | 79 => ⟨S65536x256, .f32⟩
  | 80 => ⟨S65536x132, .f32⟩
  | 81 => ⟨S1x132, .f32⟩
  | 82 => ⟨S65536x132, .f32⟩
  | 83 => ⟨S65536x132, .f32⟩
  | 84 => ⟨S_, .f32⟩
  | 85 => ⟨S65536x132, .f32⟩
  | 86 => ⟨S65536x132, .f32⟩
  | 87 => ⟨S65536x132, .f32⟩
  | 88 => ⟨S1x132, .f32⟩
  | 89 => ⟨S65536x132, .f32⟩
  | 90 => ⟨S65536x132, .f32⟩
  | 91 => ⟨S_, .f32⟩
  | 92 => ⟨S65536x132, .f32⟩
  | 93 => ⟨S65536x132, .f32⟩
  | 94 => ⟨S65536x132, .f32⟩
  | 95 => ⟨S1x132, .f32⟩
  | 96 => ⟨S65536x132, .f32⟩
  | 97 => ⟨S65536x132, .f32⟩
  | 98 => ⟨S_, .f32⟩
  | 99 => ⟨S65536x132, .f32⟩
  | 100 => ⟨S65536x132, .f32⟩
  | 101 => ⟨S65536x128, .f32⟩
  | 102 => ⟨S1x128, .f32⟩
  | 103 => ⟨S65536x128, .f32⟩
  | 104 => ⟨S65536x128, .f32⟩
  | 105 => ⟨S65536x256, .f32⟩
  | 106 => ⟨S65536x132, .f32⟩
  | 107 => ⟨S1x132, .f32⟩
  | 108 => ⟨S65536x132, .f32⟩
  | 109 => ⟨S65536x132, .f32⟩
  | 110 => ⟨S_, .f32⟩
  | 111 => ⟨S65536x132, .f32⟩
  | 112 => ⟨S65536x132, .f32⟩
  | 113 => ⟨S65536x132, .f32⟩
  | 114 => ⟨S1x132, .f32⟩
  | 115 => ⟨S65536x132, .f32⟩
  | 116 => ⟨S65536x132, .f32⟩
  | 117 => ⟨S_, .f32⟩
  | 118 => ⟨S65536x132, .f32⟩
  | 119 => ⟨S65536x132, .f32⟩
  | 120 => ⟨S65536x132, .f32⟩
  | 121 => ⟨S1x132, .f32⟩
  | 122 => ⟨S65536x132, .f32⟩
  | 123 => ⟨S65536x132, .f32⟩
  | 124 => ⟨S_, .f32⟩
  | 125 => ⟨S65536x132, .f32⟩
  | 126 => ⟨S65536x132, .f32⟩
  | 127 => ⟨S65536x128, .f32⟩
  | _ => ⟨S65536x512, .f32⟩

abbrev hbmTy0_1 (i : Nat) : BufTy := match i % 128 with
  | 0 => ⟨S1x128, .f32⟩
  | 1 => ⟨S65536x128, .f32⟩
  | 2 => ⟨S65536x128, .f32⟩
  | 3 => ⟨S65536x256, .f32⟩
  | 4 => ⟨S65536x132, .f32⟩
  | 5 => ⟨S1x132, .f32⟩
  | 6 => ⟨S65536x132, .f32⟩
  | 7 => ⟨S65536x132, .f32⟩
  | 8 => ⟨S_, .f32⟩
  | 9 => ⟨S65536x132, .f32⟩
  | 10 => ⟨S65536x132, .f32⟩
  | 11 => ⟨S65536x132, .f32⟩
  | 12 => ⟨S1x132, .f32⟩
  | 13 => ⟨S65536x132, .f32⟩
  | 14 => ⟨S65536x132, .f32⟩
  | 15 => ⟨S_, .f32⟩
  | 16 => ⟨S65536x132, .f32⟩
  | 17 => ⟨S65536x132, .f32⟩
  | 18 => ⟨S65536x132, .f32⟩
  | 19 => ⟨S1x132, .f32⟩
  | 20 => ⟨S65536x132, .f32⟩
  | 21 => ⟨S65536x132, .f32⟩
  | 22 => ⟨S_, .f32⟩
  | 23 => ⟨S65536x132, .f32⟩
  | 24 => ⟨S65536x132, .f32⟩
  | 25 => ⟨S65536x128, .f32⟩
  | 26 => ⟨S1x128, .f32⟩
  | 27 => ⟨S65536x128, .f32⟩
  | 28 => ⟨S65536x128, .f32⟩
  | 29 => ⟨S65536x128, .f32⟩
  | 30 => ⟨S_, .f32⟩
  | 31 => ⟨S65536x128, .f32⟩
  | 32 => ⟨S65536x128, .f32⟩
  | 33 => ⟨S65536x128, .f32⟩
  | 34 => ⟨S65536x128, .f32⟩
  | 35 => ⟨S_, .f32⟩
  | 36 => ⟨S128, .f32⟩
  | 37 => ⟨S128, .f32⟩
  | 38 => ⟨S1x128, .f32⟩
  | 39 => ⟨S65536x128, .f32⟩
  | 40 => ⟨S65536x128, .f32⟩
  | 41 => ⟨S65536x128, .f32⟩
  | 42 => ⟨S1x128, .f32⟩
  | 43 => ⟨S65536x128, .f32⟩
  | 44 => ⟨S65536x128, .f32⟩
  | 45 => ⟨S65536x640, .f32⟩
  | 46 => ⟨S65536x132, .f32⟩
  | 47 => ⟨S1x132, .f32⟩
  | 48 => ⟨S65536x132, .f32⟩
  | 49 => ⟨S65536x132, .f32⟩
  | 50 => ⟨S_, .f32⟩
  | 51 => ⟨S65536x132, .f32⟩
  | 52 => ⟨S65536x132, .f32⟩
  | 53 => ⟨S65536x132, .f32⟩
  | 54 => ⟨S1x132, .f32⟩
  | 55 => ⟨S65536x132, .f32⟩
  | 56 => ⟨S65536x132, .f32⟩
  | 57 => ⟨S_, .f32⟩
  | 58 => ⟨S65536x132, .f32⟩
  | 59 => ⟨S65536x132, .f32⟩
  | 60 => ⟨S65536x128, .f32⟩
  | 61 => ⟨S1x128, .f32⟩
  | 62 => ⟨S65536x128, .f32⟩
  | 63 => ⟨S65536x128, .f32⟩
  | 64 => ⟨S65536x256, .f32⟩
  | 65 => ⟨S65536x132, .f32⟩
  | 66 => ⟨S1x132, .f32⟩
  | 67 => ⟨S65536x132, .f32⟩
  | 68 => ⟨S65536x132, .f32⟩
  | 69 => ⟨S_, .f32⟩
  | 70 => ⟨S65536x132, .f32⟩
  | 71 => ⟨S65536x132, .f32⟩
  | 72 => ⟨S65536x132, .f32⟩
  | 73 => ⟨S1x132, .f32⟩
  | 74 => ⟨S65536x132, .f32⟩
  | 75 => ⟨S65536x132, .f32⟩
  | 76 => ⟨S_, .f32⟩
  | 77 => ⟨S65536x132, .f32⟩
  | 78 => ⟨S65536x132, .f32⟩
  | 79 => ⟨S65536x132, .f32⟩
  | 80 => ⟨S1x132, .f32⟩
  | 81 => ⟨S65536x132, .f32⟩
  | 82 => ⟨S65536x132, .f32⟩
  | 83 => ⟨S_, .f32⟩
  | 84 => ⟨S65536x132, .f32⟩
  | 85 => ⟨S65536x132, .f32⟩
  | 86 => ⟨S65536x128, .f32⟩
  | 87 => ⟨S1x128, .f32⟩
  | 88 => ⟨S65536x128, .f32⟩
  | 89 => ⟨S65536x128, .f32⟩
  | 90 => ⟨S65536x256, .f32⟩
  | 91 => ⟨S65536x132, .f32⟩
  | 92 => ⟨S1x132, .f32⟩
  | 93 => ⟨S65536x132, .f32⟩
  | 94 => ⟨S65536x132, .f32⟩
  | 95 => ⟨S_, .f32⟩
  | 96 => ⟨S65536x132, .f32⟩
  | 97 => ⟨S65536x132, .f32⟩
  | 98 => ⟨S65536x132, .f32⟩
  | 99 => ⟨S1x132, .f32⟩
  | 100 => ⟨S65536x132, .f32⟩
  | 101 => ⟨S65536x132, .f32⟩
  | 102 => ⟨S_, .f32⟩
  | 103 => ⟨S65536x132, .f32⟩
  | 104 => ⟨S65536x132, .f32⟩
  | 105 => ⟨S65536x132, .f32⟩
  | 106 => ⟨S1x132, .f32⟩
  | 107 => ⟨S65536x132, .f32⟩
  | 108 => ⟨S65536x132, .f32⟩
  | 109 => ⟨S_, .f32⟩
  | 110 => ⟨S65536x132, .f32⟩
  | 111 => ⟨S65536x132, .f32⟩
  | 112 => ⟨S65536x128, .f32⟩
  | 113 => ⟨S1x128, .f32⟩
  | 114 => ⟨S65536x128, .f32⟩
  | 115 => ⟨S65536x128, .f32⟩
  | 116 => ⟨S_, .f32⟩
  | 117 => ⟨S65536x128, .f32⟩
  | 118 => ⟨S65536x256, .f32⟩
  | 119 => ⟨S65536x132, .f32⟩
  | 120 => ⟨S1x132, .f32⟩
  | 121 => ⟨S65536x132, .f32⟩
  | 122 => ⟨S65536x132, .f32⟩
  | 123 => ⟨S_, .f32⟩
  | 124 => ⟨S65536x132, .f32⟩
  | 125 => ⟨S65536x132, .f32⟩
  | 126 => ⟨S65536x132, .f32⟩
  | 127 => ⟨S1x132, .f32⟩
  | _ => ⟨S65536x512, .f32⟩

abbrev hbmTy0_2 (i : Nat) : BufTy := match i % 128 with
  | 0 => ⟨S65536x132, .f32⟩
  | 1 => ⟨S65536x132, .f32⟩
  | 2 => ⟨S_, .f32⟩
  | 3 => ⟨S65536x132, .f32⟩
  | 4 => ⟨S65536x132, .f32⟩
  | 5 => ⟨S65536x128, .f32⟩
  | 6 => ⟨S1x128, .f32⟩
  | 7 => ⟨S65536x128, .f32⟩
  | 8 => ⟨S65536x128, .f32⟩
  | 9 => ⟨S_, .f32⟩
  | 10 => ⟨S65536x128, .f32⟩
  | 11 => ⟨S65536x256, .f32⟩
  | 12 => ⟨S65536x132, .f32⟩
  | 13 => ⟨S1x132, .f32⟩
  | 14 => ⟨S65536x132, .f32⟩
  | 15 => ⟨S65536x132, .f32⟩
  | 16 => ⟨S_, .f32⟩
  | 17 => ⟨S65536x132, .f32⟩
  | 18 => ⟨S65536x132, .f32⟩
  | 19 => ⟨S65536x132, .f32⟩
  | 20 => ⟨S1x132, .f32⟩
  | 21 => ⟨S65536x132, .f32⟩
  | 22 => ⟨S65536x132, .f32⟩
  | 23 => ⟨S_, .f32⟩
  | 24 => ⟨S65536x132, .f32⟩
  | 25 => ⟨S65536x132, .f32⟩
  | 26 => ⟨S65536x128, .f32⟩
  | 27 => ⟨S1x128, .f32⟩
  | 28 => ⟨S65536x128, .f32⟩
  | 29 => ⟨S65536x128, .f32⟩
  | 30 => ⟨S_, .f32⟩
  | 31 => ⟨S65536x128, .f32⟩
  | 32 => ⟨S65536x256, .f32⟩
  | 33 => ⟨S65536x132, .f32⟩
  | 34 => ⟨S1x132, .f32⟩
  | 35 => ⟨S65536x132, .f32⟩
  | 36 => ⟨S65536x132, .f32⟩
  | 37 => ⟨S_, .f32⟩
  | 38 => ⟨S65536x132, .f32⟩
  | 39 => ⟨S65536x132, .f32⟩
  | 40 => ⟨S65536x132, .f32⟩
  | 41 => ⟨S1x132, .f32⟩
  | 42 => ⟨S65536x132, .f32⟩
  | 43 => ⟨S65536x132, .f32⟩
  | 44 => ⟨S_, .f32⟩
  | 45 => ⟨S65536x132, .f32⟩
  | 46 => ⟨S65536x132, .f32⟩
  | 47 => ⟨S65536x128, .f32⟩
  | 48 => ⟨S1x128, .f32⟩
  | 49 => ⟨S65536x128, .f32⟩
  | 50 => ⟨S65536x128, .f32⟩
  | 51 => ⟨S65536x128, .f32⟩
  | 52 => ⟨S_, .f32⟩
  | 53 => ⟨S65536x128, .f32⟩
  | 54 => ⟨S65536x128, .f32⟩
  | 55 => ⟨S65536x128, .f32⟩
  | 56 => ⟨S65536x128, .f32⟩
  | 57 => ⟨S_, .f32⟩
  | 58 => ⟨S128, .f32⟩
  | 59 => ⟨S128, .f32⟩
  | 60 => ⟨S1x128, .f32⟩
  | 61 => ⟨S65536x128, .f32⟩
  | 62 => ⟨S65536x128, .f32⟩
  | 63 => ⟨S65536x128, .f32⟩
  | 64 => ⟨S1x128, .f32⟩
  | 65 => ⟨S65536x128, .f32⟩
  | 66 => ⟨S65536x128, .f32⟩
  | 67 => ⟨S65536x256, .f32⟩
  | 68 => ⟨S65536x132, .f32⟩
  | 69 => ⟨S1x132, .f32⟩
  | 70 => ⟨S65536x132, .f32⟩
  | 71 => ⟨S65536x132, .f32⟩
  | 72 => ⟨S_, .f32⟩
  | 73 => ⟨S65536x132, .f32⟩
  | 74 => ⟨S65536x132, .f32⟩
  | 75 => ⟨S65536x132, .f32⟩
  | 76 => ⟨S1x132, .f32⟩
  | 77 => ⟨S65536x132, .f32⟩
  | 78 => ⟨S65536x132, .f32⟩
  | 79 => ⟨S_, .f32⟩
  | 80 => ⟨S65536x132, .f32⟩
  | 81 => ⟨S65536x132, .f32⟩
  | 82 => ⟨S65536x128, .f32⟩
  | 83 => ⟨S1x128, .f32⟩
  | 84 => ⟨S65536x128, .f32⟩
  | 85 => ⟨S65536x128, .f32⟩
  | 86 => ⟨S65536x128, .f32⟩
  | 87 => ⟨S_, .f32⟩
  | 88 => ⟨S65536x128, .f32⟩
  | 89 => ⟨S65536x128, .f32⟩
  | 90 => ⟨S_, .f32⟩
  | 91 => ⟨S128, .f32⟩
  | 92 => ⟨S128, .f32⟩
  | 93 => ⟨S1x128, .f32⟩
  | 94 => ⟨S65536x128, .f32⟩
  | 95 => ⟨S65536x128, .f32⟩
  | 96 => ⟨S65536x128, .f32⟩
  | 97 => ⟨S1x128, .f32⟩
  | 98 => ⟨S65536x128, .f32⟩
  | 99 => ⟨S65536x128, .f32⟩
  | 100 => ⟨S65536x256, .f32⟩
  | 101 => ⟨S65536x132, .f32⟩
  | 102 => ⟨S1x132, .f32⟩
  | 103 => ⟨S65536x132, .f32⟩
  | 104 => ⟨S65536x132, .f32⟩
  | 105 => ⟨S_, .f32⟩
  | 106 => ⟨S65536x132, .f32⟩
  | 107 => ⟨S65536x132, .f32⟩
  | 108 => ⟨S65536x132, .f32⟩
  | 109 => ⟨S1x132, .f32⟩
  | 110 => ⟨S65536x132, .f32⟩
  | 111 => ⟨S65536x132, .f32⟩
  | 112 => ⟨S_, .f32⟩
  | 113 => ⟨S65536x132, .f32⟩
  | 114 => ⟨S65536x132, .f32⟩
  | 115 => ⟨S65536x128, .f32⟩
  | 116 => ⟨S1x128, .f32⟩
  | 117 => ⟨S65536x128, .f32⟩
  | 118 => ⟨S65536x128, .f32⟩
  | 119 => ⟨S65536x128, .f32⟩
  | 120 => ⟨S_, .f32⟩
  | 121 => ⟨S65536x128, .f32⟩
  | 122 => ⟨S65536x128, .f32⟩
  | 123 => ⟨S_, .f32⟩
  | 124 => ⟨S128, .f32⟩
  | 125 => ⟨S128, .f32⟩
  | 126 => ⟨S1x128, .f32⟩
  | 127 => ⟨S65536x128, .f32⟩
  | _ => ⟨S65536x512, .f32⟩

abbrev hbmTy0_3 (i : Nat) : BufTy := match i % 128 with
  | 0 => ⟨S65536x128, .f32⟩
  | 1 => ⟨S65536x128, .f32⟩
  | 2 => ⟨S1x128, .f32⟩
  | 3 => ⟨S65536x128, .f32⟩
  | 4 => ⟨S65536x128, .f32⟩
  | 5 => ⟨S65536x256, .f32⟩
  | 6 => ⟨S65536x132, .f32⟩
  | 7 => ⟨S1x132, .f32⟩
  | 8 => ⟨S65536x132, .f32⟩
  | 9 => ⟨S65536x132, .f32⟩
  | 10 => ⟨S_, .f32⟩
  | 11 => ⟨S65536x132, .f32⟩
  | 12 => ⟨S65536x132, .f32⟩
  | 13 => ⟨S65536x132, .f32⟩
  | 14 => ⟨S1x132, .f32⟩
  | 15 => ⟨S65536x132, .f32⟩
  | 16 => ⟨S65536x132, .f32⟩
  | 17 => ⟨S_, .f32⟩
  | 18 => ⟨S65536x132, .f32⟩
  | 19 => ⟨S65536x132, .f32⟩
  | 20 => ⟨S65536x128, .f32⟩
  | 21 => ⟨S1x128, .f32⟩
  | 22 => ⟨S65536x128, .f32⟩
  | 23 => ⟨S65536x128, .f32⟩
  | 24 => ⟨S65536x128, .f32⟩
  | 25 => ⟨S_, .f32⟩
  | 26 => ⟨S65536x128, .f32⟩
  | 27 => ⟨S65536x128, .f32⟩
  | 28 => ⟨S65536x128, .f32⟩
  | 29 => ⟨S65536x128, .f32⟩
  | 30 => ⟨S65536x128, .f32⟩
  | 31 => ⟨S65536x128, .f32⟩
  | 32 => ⟨S65536x128, .f32⟩
  | 33 => ⟨S65536x128, .f32⟩
  | 34 => ⟨S_, .f32⟩
  | 35 => ⟨S128, .f32⟩
  | 36 => ⟨S128, .f32⟩
  | 37 => ⟨S1x128, .f32⟩
  | 38 => ⟨S65536x128, .f32⟩
  | 39 => ⟨S65536x128, .f32⟩
  | 40 => ⟨S65536x128, .f32⟩
  | 41 => ⟨S1x128, .f32⟩
  | 42 => ⟨S65536x128, .f32⟩
  | 43 => ⟨S65536x128, .f32⟩
  | 44 => ⟨S65536x256, .f32⟩
  | 45 => ⟨S65536x132, .f32⟩
  | 46 => ⟨S1x132, .f32⟩
  | 47 => ⟨S65536x132, .f32⟩
  | 48 => ⟨S65536x132, .f32⟩
  | 49 => ⟨S_, .f32⟩
  | 50 => ⟨S65536x132, .f32⟩
  | 51 => ⟨S65536x132, .f32⟩
  | 52 => ⟨S65536x132, .f32⟩
  | 53 => ⟨S1x132, .f32⟩
  | 54 => ⟨S65536x132, .f32⟩
  | 55 => ⟨S65536x132, .f32⟩
  | 56 => ⟨S_, .f32⟩
  | 57 => ⟨S65536x132, .f32⟩
  | 58 => ⟨S65536x132, .f32⟩
  | 59 => ⟨S65536x128, .f32⟩
  | 60 => ⟨S1x128, .f32⟩
  | 61 => ⟨S65536x128, .f32⟩
  | 62 => ⟨S65536x128, .f32⟩
  | 63 => ⟨S65536x128, .f32⟩
  | 64 => ⟨S_, .f32⟩
  | 65 => ⟨S65536x128, .f32⟩
  | 66 => ⟨S65536x128, .f32⟩
  | 67 => ⟨S65536x128, .f32⟩
  | 68 => ⟨S65536x128, .f32⟩
  | 69 => ⟨S65536x128, .f32⟩
  | 70 => ⟨S65536x128, .f32⟩
  | 71 => ⟨S65536x128, .f32⟩
  | 72 => ⟨S65536x128, .f32⟩
  | 73 => ⟨S_, .f32⟩
  | 74 => ⟨S128, .f32⟩
  | 75 => ⟨S128, .f32⟩
  | 76 => ⟨S1x128, .f32⟩
  | 77 => ⟨S65536x128, .f32⟩
  | 78 => ⟨S65536x128, .f32⟩
  | 79 => ⟨S65536x128, .f32⟩
  | 80 => ⟨S1x128, .f32⟩
  | 81 => ⟨S65536x128, .f32⟩
  | 82 => ⟨S65536x128, .f32⟩
  | 83 => ⟨S65536x256, .f32⟩
  | 84 => ⟨S65536x132, .f32⟩
  | 85 => ⟨S1x132, .f32⟩
  | 86 => ⟨S65536x132, .f32⟩
  | 87 => ⟨S65536x132, .f32⟩
  | 88 => ⟨S_, .f32⟩
  | 89 => ⟨S65536x132, .f32⟩
  | 90 => ⟨S65536x132, .f32⟩
  | 91 => ⟨S65536x132, .f32⟩
  | 92 => ⟨S1x132, .f32⟩
  | 93 => ⟨S65536x132, .f32⟩
  | 94 => ⟨S65536x132, .f32⟩
  | 95 => ⟨S_, .f32⟩
  | 96 => ⟨S65536x132, .f32⟩
  | 97 => ⟨S65536x132, .f32⟩
  | 98 => ⟨S65536x128, .f32⟩
  | 99 => ⟨S1x128, .f32⟩
  | 100 => ⟨S65536x128, .f32⟩
  | 101 => ⟨S65536x128, .f32⟩
  | 102 => ⟨S1x65536x128, .f32⟩
  | 103 => ⟨S1x65536x128, .f32⟩
  | 104 => ⟨S1x65536x128, .f32⟩
  | 105 => ⟨S1x65536x128, .f32⟩
  | 106 => ⟨S1x65536x128, .f32⟩
  | 107 => ⟨S1x65536x128, .f32⟩
  | 108 => ⟨S1x65536x128, .f32⟩
  | 109 => ⟨S1x65536x128, .f32⟩
  | 110 => ⟨S8x65536x128, .f32⟩
  | _ => ⟨S65536x512, .f32⟩

abbrev hbmTy (i : Nat) : BufTy := match i / 128 with
  | 0 => hbmTy0_0 i
  | 1 => hbmTy0_1 i
  | 2 => hbmTy0_2 i
  | 3 => hbmTy0_3 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_cst : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_call0_cst : Ref sig .tc := ⟨.hbm, 44, rfl⟩
abbrev main_call0_v0 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_call1_cst : Ref sig .tc := ⟨.hbm, 51, rfl⟩
abbrev main_call1_v0 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_0 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_call2_cst : Ref sig .tc := ⟨.hbm, 65, rfl⟩
abbrev main_call2_v0 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_call3_cst : Ref sig .tc := ⟨.hbm, 72, rfl⟩
abbrev main_call3_v0 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_call4_cst : Ref sig .tc := ⟨.hbm, 84, rfl⟩
abbrev main_call4_v0 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_call5_cst : Ref sig .tc := ⟨.hbm, 91, rfl⟩
abbrev main_call5_v0 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_call6_cst : Ref sig .tc := ⟨.hbm, 98, rfl⟩
abbrev main_call6_v0 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_call7_cst : Ref sig .tc := ⟨.hbm, 110, rfl⟩
abbrev main_call7_v0 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_call8_cst : Ref sig .tc := ⟨.hbm, 117, rfl⟩
abbrev main_call8_v0 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_call9_cst : Ref sig .tc := ⟨.hbm, 124, rfl⟩
abbrev main_call9_v0 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_call10_cst : Ref sig .tc := ⟨.hbm, 136, rfl⟩
abbrev main_call10_v0 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_call11_cst : Ref sig .tc := ⟨.hbm, 143, rfl⟩
abbrev main_call11_v0 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_call12_cst : Ref sig .tc := ⟨.hbm, 150, rfl⟩
abbrev main_call12_v0 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_cst_1 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_cst_2 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_call13_cst : Ref sig .tc := ⟨.hbm, 178, rfl⟩
abbrev main_call13_v0 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_call14_cst : Ref sig .tc := ⟨.hbm, 185, rfl⟩
abbrev main_call14_v0 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_call15_cst : Ref sig .tc := ⟨.hbm, 197, rfl⟩
abbrev main_call15_v0 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_call16_cst : Ref sig .tc := ⟨.hbm, 204, rfl⟩
abbrev main_call16_v0 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_call17_cst : Ref sig .tc := ⟨.hbm, 211, rfl⟩
abbrev main_call17_v0 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_call18_cst : Ref sig .tc := ⟨.hbm, 223, rfl⟩
abbrev main_call18_v0 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_call19_cst : Ref sig .tc := ⟨.hbm, 230, rfl⟩
abbrev main_call19_v0 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_call20_cst : Ref sig .tc := ⟨.hbm, 237, rfl⟩
abbrev main_call20_v0 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_cst_3 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_call21_cst : Ref sig .tc := ⟨.hbm, 251, rfl⟩
abbrev main_call21_v0 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_call22_cst : Ref sig .tc := ⟨.hbm, 258, rfl⟩
abbrev main_call22_v0 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_cst_4 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_call23_cst : Ref sig .tc := ⟨.hbm, 272, rfl⟩
abbrev main_call23_v0 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_call24_cst : Ref sig .tc := ⟨.hbm, 279, rfl⟩
abbrev main_call24_v0 : Ref sig .tc := ⟨.hbm, 280, rfl⟩
abbrev main_v188 : Ref sig .tc := ⟨.hbm, 281, rfl⟩
abbrev main_v189 : Ref sig .tc := ⟨.hbm, 282, rfl⟩
abbrev main_v190 : Ref sig .tc := ⟨.hbm, 283, rfl⟩
abbrev main_v191 : Ref sig .tc := ⟨.hbm, 284, rfl⟩
abbrev main_v192 : Ref sig .tc := ⟨.hbm, 285, rfl⟩
abbrev main_cst_5 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_call25_cst : Ref sig .tc := ⟨.hbm, 293, rfl⟩
abbrev main_call25_v0 : Ref sig .tc := ⟨.hbm, 294, rfl⟩
abbrev main_v199 : Ref sig .tc := ⟨.hbm, 295, rfl⟩
abbrev main_v200 : Ref sig .tc := ⟨.hbm, 296, rfl⟩
abbrev main_v201 : Ref sig .tc := ⟨.hbm, 297, rfl⟩
abbrev main_v202 : Ref sig .tc := ⟨.hbm, 298, rfl⟩
abbrev main_v203 : Ref sig .tc := ⟨.hbm, 299, rfl⟩
abbrev main_call26_cst : Ref sig .tc := ⟨.hbm, 300, rfl⟩
abbrev main_call26_v0 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩
abbrev main_cst_6 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_cst_7 : Ref sig .tc := ⟨.hbm, 313, rfl⟩
abbrev main_v214 : Ref sig .tc := ⟨.hbm, 314, rfl⟩
abbrev main_v215 : Ref sig .tc := ⟨.hbm, 315, rfl⟩
abbrev main_v216 : Ref sig .tc := ⟨.hbm, 316, rfl⟩
abbrev main_v217 : Ref sig .tc := ⟨.hbm, 317, rfl⟩
abbrev main_v218 : Ref sig .tc := ⟨.hbm, 318, rfl⟩
abbrev main_v219 : Ref sig .tc := ⟨.hbm, 319, rfl⟩
abbrev main_v220 : Ref sig .tc := ⟨.hbm, 320, rfl⟩
abbrev main_v221 : Ref sig .tc := ⟨.hbm, 321, rfl⟩
abbrev main_v222 : Ref sig .tc := ⟨.hbm, 322, rfl⟩
abbrev main_v223 : Ref sig .tc := ⟨.hbm, 323, rfl⟩
abbrev main_v224 : Ref sig .tc := ⟨.hbm, 324, rfl⟩
abbrev main_v225 : Ref sig .tc := ⟨.hbm, 325, rfl⟩
abbrev main_v226 : Ref sig .tc := ⟨.hbm, 326, rfl⟩
abbrev main_v227 : Ref sig .tc := ⟨.hbm, 327, rfl⟩
abbrev main_call27_cst : Ref sig .tc := ⟨.hbm, 328, rfl⟩
abbrev main_call27_v0 : Ref sig .tc := ⟨.hbm, 329, rfl⟩
abbrev main_v228 : Ref sig .tc := ⟨.hbm, 330, rfl⟩
abbrev main_v229 : Ref sig .tc := ⟨.hbm, 331, rfl⟩
abbrev main_v230 : Ref sig .tc := ⟨.hbm, 332, rfl⟩
abbrev main_v231 : Ref sig .tc := ⟨.hbm, 333, rfl⟩
abbrev main_v232 : Ref sig .tc := ⟨.hbm, 334, rfl⟩
abbrev main_call28_cst : Ref sig .tc := ⟨.hbm, 335, rfl⟩
abbrev main_call28_v0 : Ref sig .tc := ⟨.hbm, 336, rfl⟩
abbrev main_v233 : Ref sig .tc := ⟨.hbm, 337, rfl⟩
abbrev main_v234 : Ref sig .tc := ⟨.hbm, 338, rfl⟩
abbrev main_v235 : Ref sig .tc := ⟨.hbm, 339, rfl⟩
abbrev main_v236 : Ref sig .tc := ⟨.hbm, 340, rfl⟩
abbrev main_v237 : Ref sig .tc := ⟨.hbm, 341, rfl⟩
abbrev main_v238 : Ref sig .tc := ⟨.hbm, 342, rfl⟩
abbrev main_cst_8 : Ref sig .tc := ⟨.hbm, 343, rfl⟩
abbrev main_v239 : Ref sig .tc := ⟨.hbm, 344, rfl⟩
abbrev main_v240 : Ref sig .tc := ⟨.hbm, 345, rfl⟩
abbrev main_cst_9 : Ref sig .tc := ⟨.hbm, 346, rfl⟩
abbrev main_v241 : Ref sig .tc := ⟨.hbm, 347, rfl⟩
abbrev main_v242 : Ref sig .tc := ⟨.hbm, 348, rfl⟩
abbrev main_v243 : Ref sig .tc := ⟨.hbm, 349, rfl⟩
abbrev main_v244 : Ref sig .tc := ⟨.hbm, 350, rfl⟩
abbrev main_v245 : Ref sig .tc := ⟨.hbm, 351, rfl⟩
abbrev main_v246 : Ref sig .tc := ⟨.hbm, 352, rfl⟩
abbrev main_v247 : Ref sig .tc := ⟨.hbm, 353, rfl⟩
abbrev main_v248 : Ref sig .tc := ⟨.hbm, 354, rfl⟩
abbrev main_v249 : Ref sig .tc := ⟨.hbm, 355, rfl⟩
abbrev main_v250 : Ref sig .tc := ⟨.hbm, 356, rfl⟩
abbrev main_v251 : Ref sig .tc := ⟨.hbm, 357, rfl⟩
abbrev main_v252 : Ref sig .tc := ⟨.hbm, 358, rfl⟩
abbrev main_v253 : Ref sig .tc := ⟨.hbm, 359, rfl⟩
abbrev main_v254 : Ref sig .tc := ⟨.hbm, 360, rfl⟩
abbrev main_call29_cst : Ref sig .tc := ⟨.hbm, 361, rfl⟩
abbrev main_call29_v0 : Ref sig .tc := ⟨.hbm, 362, rfl⟩
abbrev main_v255 : Ref sig .tc := ⟨.hbm, 363, rfl⟩
abbrev main_v256 : Ref sig .tc := ⟨.hbm, 364, rfl⟩
abbrev main_v257 : Ref sig .tc := ⟨.hbm, 365, rfl⟩
abbrev main_v258 : Ref sig .tc := ⟨.hbm, 366, rfl⟩
abbrev main_v259 : Ref sig .tc := ⟨.hbm, 367, rfl⟩
abbrev main_call30_cst : Ref sig .tc := ⟨.hbm, 368, rfl⟩
abbrev main_call30_v0 : Ref sig .tc := ⟨.hbm, 369, rfl⟩
abbrev main_v260 : Ref sig .tc := ⟨.hbm, 370, rfl⟩
abbrev main_v261 : Ref sig .tc := ⟨.hbm, 371, rfl⟩
abbrev main_v262 : Ref sig .tc := ⟨.hbm, 372, rfl⟩
abbrev main_v263 : Ref sig .tc := ⟨.hbm, 373, rfl⟩
abbrev main_v264 : Ref sig .tc := ⟨.hbm, 374, rfl⟩
abbrev main_v265 : Ref sig .tc := ⟨.hbm, 375, rfl⟩
abbrev main_cst_10 : Ref sig .tc := ⟨.hbm, 376, rfl⟩
abbrev main_v266 : Ref sig .tc := ⟨.hbm, 377, rfl⟩
abbrev main_v267 : Ref sig .tc := ⟨.hbm, 378, rfl⟩
abbrev main_cst_11 : Ref sig .tc := ⟨.hbm, 379, rfl⟩
abbrev main_v268 : Ref sig .tc := ⟨.hbm, 380, rfl⟩
abbrev main_v269 : Ref sig .tc := ⟨.hbm, 381, rfl⟩
abbrev main_v270 : Ref sig .tc := ⟨.hbm, 382, rfl⟩
abbrev main_v271 : Ref sig .tc := ⟨.hbm, 383, rfl⟩
abbrev main_v272 : Ref sig .tc := ⟨.hbm, 384, rfl⟩
abbrev main_v273 : Ref sig .tc := ⟨.hbm, 385, rfl⟩
abbrev main_v274 : Ref sig .tc := ⟨.hbm, 386, rfl⟩
abbrev main_v275 : Ref sig .tc := ⟨.hbm, 387, rfl⟩
abbrev main_v276 : Ref sig .tc := ⟨.hbm, 388, rfl⟩
abbrev main_v277 : Ref sig .tc := ⟨.hbm, 389, rfl⟩
abbrev main_v278 : Ref sig .tc := ⟨.hbm, 390, rfl⟩
abbrev main_v279 : Ref sig .tc := ⟨.hbm, 391, rfl⟩
abbrev main_v280 : Ref sig .tc := ⟨.hbm, 392, rfl⟩
abbrev main_v281 : Ref sig .tc := ⟨.hbm, 393, rfl⟩
abbrev main_call31_cst : Ref sig .tc := ⟨.hbm, 394, rfl⟩
abbrev main_call31_v0 : Ref sig .tc := ⟨.hbm, 395, rfl⟩
abbrev main_v282 : Ref sig .tc := ⟨.hbm, 396, rfl⟩
abbrev main_v283 : Ref sig .tc := ⟨.hbm, 397, rfl⟩
abbrev main_v284 : Ref sig .tc := ⟨.hbm, 398, rfl⟩
abbrev main_v285 : Ref sig .tc := ⟨.hbm, 399, rfl⟩
abbrev main_v286 : Ref sig .tc := ⟨.hbm, 400, rfl⟩
abbrev main_call32_cst : Ref sig .tc := ⟨.hbm, 401, rfl⟩
abbrev main_call32_v0 : Ref sig .tc := ⟨.hbm, 402, rfl⟩
abbrev main_v287 : Ref sig .tc := ⟨.hbm, 403, rfl⟩
abbrev main_v288 : Ref sig .tc := ⟨.hbm, 404, rfl⟩
abbrev main_v289 : Ref sig .tc := ⟨.hbm, 405, rfl⟩
abbrev main_v290 : Ref sig .tc := ⟨.hbm, 406, rfl⟩
abbrev main_v291 : Ref sig .tc := ⟨.hbm, 407, rfl⟩
abbrev main_v292 : Ref sig .tc := ⟨.hbm, 408, rfl⟩
abbrev main_cst_12 : Ref sig .tc := ⟨.hbm, 409, rfl⟩
abbrev main_v293 : Ref sig .tc := ⟨.hbm, 410, rfl⟩
abbrev main_v294 : Ref sig .tc := ⟨.hbm, 411, rfl⟩
abbrev main_v295 : Ref sig .tc := ⟨.hbm, 412, rfl⟩
abbrev main_v296 : Ref sig .tc := ⟨.hbm, 413, rfl⟩
abbrev main_v297 : Ref sig .tc := ⟨.hbm, 414, rfl⟩
abbrev main_v298 : Ref sig .tc := ⟨.hbm, 415, rfl⟩
abbrev main_v299 : Ref sig .tc := ⟨.hbm, 416, rfl⟩
abbrev main_v300 : Ref sig .tc := ⟨.hbm, 417, rfl⟩
abbrev main_cst_13 : Ref sig .tc := ⟨.hbm, 418, rfl⟩
abbrev main_v301 : Ref sig .tc := ⟨.hbm, 419, rfl⟩
abbrev main_v302 : Ref sig .tc := ⟨.hbm, 420, rfl⟩
abbrev main_v303 : Ref sig .tc := ⟨.hbm, 421, rfl⟩
abbrev main_v304 : Ref sig .tc := ⟨.hbm, 422, rfl⟩
abbrev main_v305 : Ref sig .tc := ⟨.hbm, 423, rfl⟩
abbrev main_v306 : Ref sig .tc := ⟨.hbm, 424, rfl⟩
abbrev main_v307 : Ref sig .tc := ⟨.hbm, 425, rfl⟩
abbrev main_v308 : Ref sig .tc := ⟨.hbm, 426, rfl⟩
abbrev main_v309 : Ref sig .tc := ⟨.hbm, 427, rfl⟩
abbrev main_v310 : Ref sig .tc := ⟨.hbm, 428, rfl⟩
abbrev main_v311 : Ref sig .tc := ⟨.hbm, 429, rfl⟩
abbrev main_v312 : Ref sig .tc := ⟨.hbm, 430, rfl⟩
abbrev main_v313 : Ref sig .tc := ⟨.hbm, 431, rfl⟩
abbrev main_v314 : Ref sig .tc := ⟨.hbm, 432, rfl⟩
abbrev main_call33_cst : Ref sig .tc := ⟨.hbm, 433, rfl⟩
abbrev main_call33_v0 : Ref sig .tc := ⟨.hbm, 434, rfl⟩
abbrev main_v315 : Ref sig .tc := ⟨.hbm, 435, rfl⟩
abbrev main_v316 : Ref sig .tc := ⟨.hbm, 436, rfl⟩
abbrev main_v317 : Ref sig .tc := ⟨.hbm, 437, rfl⟩
abbrev main_v318 : Ref sig .tc := ⟨.hbm, 438, rfl⟩
abbrev main_v319 : Ref sig .tc := ⟨.hbm, 439, rfl⟩
abbrev main_call34_cst : Ref sig .tc := ⟨.hbm, 440, rfl⟩
abbrev main_call34_v0 : Ref sig .tc := ⟨.hbm, 441, rfl⟩
abbrev main_v320 : Ref sig .tc := ⟨.hbm, 442, rfl⟩
abbrev main_v321 : Ref sig .tc := ⟨.hbm, 443, rfl⟩
abbrev main_v322 : Ref sig .tc := ⟨.hbm, 444, rfl⟩
abbrev main_v323 : Ref sig .tc := ⟨.hbm, 445, rfl⟩
abbrev main_v324 : Ref sig .tc := ⟨.hbm, 446, rfl⟩
abbrev main_v325 : Ref sig .tc := ⟨.hbm, 447, rfl⟩
abbrev main_cst_14 : Ref sig .tc := ⟨.hbm, 448, rfl⟩
abbrev main_v326 : Ref sig .tc := ⟨.hbm, 449, rfl⟩
abbrev main_v327 : Ref sig .tc := ⟨.hbm, 450, rfl⟩
abbrev main_v328 : Ref sig .tc := ⟨.hbm, 451, rfl⟩
abbrev main_v329 : Ref sig .tc := ⟨.hbm, 452, rfl⟩
abbrev main_v330 : Ref sig .tc := ⟨.hbm, 453, rfl⟩
abbrev main_v331 : Ref sig .tc := ⟨.hbm, 454, rfl⟩
abbrev main_v332 : Ref sig .tc := ⟨.hbm, 455, rfl⟩
abbrev main_v333 : Ref sig .tc := ⟨.hbm, 456, rfl⟩
abbrev main_cst_15 : Ref sig .tc := ⟨.hbm, 457, rfl⟩
abbrev main_v334 : Ref sig .tc := ⟨.hbm, 458, rfl⟩
abbrev main_v335 : Ref sig .tc := ⟨.hbm, 459, rfl⟩
abbrev main_v336 : Ref sig .tc := ⟨.hbm, 460, rfl⟩
abbrev main_v337 : Ref sig .tc := ⟨.hbm, 461, rfl⟩
abbrev main_v338 : Ref sig .tc := ⟨.hbm, 462, rfl⟩
abbrev main_v339 : Ref sig .tc := ⟨.hbm, 463, rfl⟩
abbrev main_v340 : Ref sig .tc := ⟨.hbm, 464, rfl⟩
abbrev main_v341 : Ref sig .tc := ⟨.hbm, 465, rfl⟩
abbrev main_v342 : Ref sig .tc := ⟨.hbm, 466, rfl⟩
abbrev main_v343 : Ref sig .tc := ⟨.hbm, 467, rfl⟩
abbrev main_v344 : Ref sig .tc := ⟨.hbm, 468, rfl⟩
abbrev main_v345 : Ref sig .tc := ⟨.hbm, 469, rfl⟩
abbrev main_v346 : Ref sig .tc := ⟨.hbm, 470, rfl⟩
abbrev main_v347 : Ref sig .tc := ⟨.hbm, 471, rfl⟩
abbrev main_call35_cst : Ref sig .tc := ⟨.hbm, 472, rfl⟩
abbrev main_call35_v0 : Ref sig .tc := ⟨.hbm, 473, rfl⟩
abbrev main_v348 : Ref sig .tc := ⟨.hbm, 474, rfl⟩
abbrev main_v349 : Ref sig .tc := ⟨.hbm, 475, rfl⟩
abbrev main_v350 : Ref sig .tc := ⟨.hbm, 476, rfl⟩
abbrev main_v351 : Ref sig .tc := ⟨.hbm, 477, rfl⟩
abbrev main_v352 : Ref sig .tc := ⟨.hbm, 478, rfl⟩
abbrev main_call36_cst : Ref sig .tc := ⟨.hbm, 479, rfl⟩
abbrev main_call36_v0 : Ref sig .tc := ⟨.hbm, 480, rfl⟩
abbrev main_v353 : Ref sig .tc := ⟨.hbm, 481, rfl⟩
abbrev main_v354 : Ref sig .tc := ⟨.hbm, 482, rfl⟩
abbrev main_v355 : Ref sig .tc := ⟨.hbm, 483, rfl⟩
abbrev main_v356 : Ref sig .tc := ⟨.hbm, 484, rfl⟩
abbrev main_v357 : Ref sig .tc := ⟨.hbm, 485, rfl⟩
abbrev main_v358 : Ref sig .tc := ⟨.hbm, 486, rfl⟩
abbrev main_v359 : Ref sig .tc := ⟨.hbm, 487, rfl⟩
abbrev main_v360 : Ref sig .tc := ⟨.hbm, 488, rfl⟩
abbrev main_v361 : Ref sig .tc := ⟨.hbm, 489, rfl⟩
abbrev main_v362 : Ref sig .tc := ⟨.hbm, 490, rfl⟩
abbrev main_v363 : Ref sig .tc := ⟨.hbm, 491, rfl⟩
abbrev main_v364 : Ref sig .tc := ⟨.hbm, 492, rfl⟩
abbrev main_v365 : Ref sig .tc := ⟨.hbm, 493, rfl⟩
abbrev main_v366 : Ref sig .tc := ⟨.hbm, 494, rfl⟩

abbrev nD : Nat := 1
abbrev τ : Topo := Topo.v7x

variable {F : FTy → Type} [FloatOps F]

class Facts₀ : Prop where
  bcast_S_S65536x128 : S_.BroadcastsInDim S65536x128 (![] : Fin 0 → Fin S65536x128.rank)
  concatenates_S65536x512_S65536x128_S65536x640_d1 : Shape.Concatenates [S65536x512, S65536x128] S65536x640 1
  bcast_S132_S1x132_1 : S132.BroadcastsInDim S1x132 (![1] : Fin 1 → Fin S1x132.rank)
  bcast_S1x132_S65536x132_0_1 : S1x132.BroadcastsInDim S65536x132 (![0, 1] : Fin 2 → Fin S65536x132.rank)
  bcast_S_S65536x132 : S_.BroadcastsInDim S65536x132 (![] : Fin 0 → Fin S65536x132.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  concatenates_S65536x128_S65536x128_S65536x256_d1 : Shape.Concatenates [S65536x128, S65536x128] S65536x256 1
  bcast_S_S128 : S_.BroadcastsInDim S128 (![] : Fin 0 → Fin S128.rank)
  bcast_S65536x128_S1x65536x128_1_2 : S65536x128.BroadcastsInDim S1x65536x128 (![1, 2] : Fin 2 → Fin S1x65536x128.rank)
  concatenates_S1x65536x128_S1x65536x128_S1x65536x128_S1x65536x128_S1x65536x128_S1x65536x128_S1x65536x128_S1x65536x128_S8x65536x128_d0 : Shape.Concatenates [S1x65536x128, S1x65536x128, S1x65536x128, S1x65536x128, S1x65536x128, S1x65536x128, S1x65536x128, S1x65536x128] S8x65536x128 0
  dot_S65536x640_S640x132_S65536x132_1_0_0_1_n_n_wf : DotDims.WF S65536x640 S640x132 S65536x132 [1] [0] [0] [1] [] []
  dot_S65536x132_S132x132_S65536x132_1_0_0_1_n_n_wf : DotDims.WF S65536x132 S132x132 S65536x132 [1] [0] [0] [1] [] []
  dot_S65536x132_S132x128_S65536x128_1_0_0_1_n_n_wf : DotDims.WF S65536x132 S132x128 S65536x128 [1] [0] [0] [1] [] []
  dot_S65536x256_S256x132_S65536x132_1_0_0_1_n_n_wf : DotDims.WF S65536x256 S256x132 S65536x132 [1] [0] [0] [1] [] []
  dot_S65536x128_S128x128_S65536x128_1_0_0_1_n_n_wf : DotDims.WF S65536x128 S128x128 S65536x128 [1] [0] [0] [1] [] []

variable [Facts₀]

def dot_S65536x640_S640x132_S65536x132_1_0_0_1_n_n : DotDims S65536x640 S640x132 S65536x132 where
  lhsContracting := [1]
  rhsContracting := [0]
  lhsNonContracting := [0]
  rhsNonContracting := [1]
  lhsBatch := []
  rhsBatch := []
  wf := dot_S65536x640_S640x132_S65536x132_1_0_0_1_n_n_wf
def dot_S65536x132_S132x132_S65536x132_1_0_0_1_n_n : DotDims S65536x132 S132x132 S65536x132 where
  lhsContracting := [1]
  rhsContracting := [0]
  lhsNonContracting := [0]
  rhsNonContracting := [1]
  lhsBatch := []
  rhsBatch := []
  wf := dot_S65536x132_S132x132_S65536x132_1_0_0_1_n_n_wf
def dot_S65536x132_S132x128_S65536x128_1_0_0_1_n_n : DotDims S65536x132 S132x128 S65536x128 where
  lhsContracting := [1]
  rhsContracting := [0]
  lhsNonContracting := [0]
  rhsNonContracting := [1]
  lhsBatch := []
  rhsBatch := []
  wf := dot_S65536x132_S132x128_S65536x128_1_0_0_1_n_n_wf
def dot_S65536x256_S256x132_S65536x132_1_0_0_1_n_n : DotDims S65536x256 S256x132 S65536x132 where
  lhsContracting := [1]
  rhsContracting := [0]
  lhsNonContracting := [0]
  rhsNonContracting := [1]
  lhsBatch := []
  rhsBatch := []
  wf := dot_S65536x256_S256x132_S65536x132_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf

class Facts : Prop extends Facts₀ where

variable [Facts]
-- ==== Proof.Rows.lean ====
/-
  The network one row at a time.

  Every layer of the graph acts on each row of its input separately: a row `x` of width `k` goes to
  `x · W + b` (`lin`), to its positive part (`relu`), or is laid beside another row (`cat`).  So output row
  `r` of each of the eight results is a function of row `r` of `signal` and of the weights only, and this
  file writes that function down, on the extended reals, following the source graph node by node:

    up_p1 = up_p2 = ppFc (signal ++ 0)
    up_l1 = lnFc (up_p1 ++ up_p2)      up_c1 = crFc (up_p1 ++ up_p2)      up_c2 = crFc (up_p2 ++ up_p1)
    up_p3 = ppFc (signal ++ ppAgg [up_c1, up_c2])
    up_l2 = lnFc (up_p1 ++ up_p3)      up_l3 = lnFc (up_p2 ++ up_p3)
    d_l1  = mpFc (up_l1 ++ 0)          d_l2  = mpFc (up_l2 ++ 0)          d_l3  = mpFc (up_l3 ++ 0)
    d_p3  = mpFc (up_p3 ++ mpAgg [d_l2, d_l3])
    d_c1  = mpFc (up_c1 ++ mpAgg [d_p3])     d_c2 = mpFc (up_c2 ++ mpAgg [d_p3])
    d_p1  = mpFc (up_p1 ++ mpAgg [d_l1, d_c1, d_c2, d_l2])
    d_p2  = mpFc (up_p2 ++ mpAgg [d_l1, d_c1, d_c2, d_l3])

  where an aggregate of `n` components is `(Σ cᵢ · Wmsg + n · bmsg) · Wupd + bupd`.
  No operation here needs a finite argument: the two programs are compared layer by layer, and the only
  identity used between them is `0 + x = x`.
-/
import Idealize.ShloMosaic.PureOps.Ideal
import Idealize.ShloMosaic.Lib.ValueIdx

noncomputable section

namespace Cert.Gnn

open Idealize.ShloMosaic Idealize.ShloMosaic.ValueIdx

/-- A row of width `n`. -/
abbrev Row (n : ℕ) : Type := Fin n → EReal
/-- A `k × n` weight matrix. -/
abbrev Mat (k n : ℕ) : Type := Fin k → Fin n → EReal

/-- `x · W`: entry `j` is `Σᵢ xᵢ · W i j`. -/
def mm {k n : ℕ} (W : Mat k n) (x : Row k) : Row n := fun j => ∑ i, x i * W i j
/-- Entry by entry sum. -/
def add {n : ℕ} (x y : Row n) : Row n := fun j => x j + y j
/-- The positive part, entry by entry. -/
def relu {n : ℕ} (x : Row n) : Row n := fun j => max (x j) 0
/-- `c · x`. -/
def scale {n : ℕ} (c : EReal) (x : Row n) : Row n := fun j => c * x j
/-- The zero row. -/
def zero {n : ℕ} : Row n := fun _ => 0
/-- `x ++ y` for a row of width 512 and one of width 128. -/
def cat640 (x : Row 512) (y : Row 128) : Row 640 :=
  fun j => if hj : j.val < 512 then x ⟨j.val, hj⟩ else y ⟨j.val - 512, by have := j.isLt; omega⟩
/-- `x ++ y` for two rows of width 128. -/
def cat256 (x y : Row 128) : Row 256 :=
  fun j => if hj : j.val < 128 then x ⟨j.val, hj⟩ else y ⟨j.val - 128, by have := j.isLt; omega⟩
/-- One linear layer, `x · W + b`. -/
def lin {k n : ℕ} (W : Mat k n) (b : Row n) (x : Row k) : Row n := add (mm W x) b

/-- Adding the zero row on the left changes nothing. -/
theorem add_zero_left {n : ℕ} (x : Row n) : add zero x = x := by
  funext j; simp only [add, zero, zero_add]

/-- Three layers, a positive part after each but the last. -/
def fc3 {k h n : ℕ} (W0 : Mat k h) (b0 : Row h) (W1 : Mat h h) (b1 : Row h) (W2 : Mat h n) (b2 : Row n) (x : Row k) : Row n :=
  lin W2 b2 (relu (lin W1 b1 (relu (lin W0 b0 x))))
/-- Four layers, a positive part after each but the last. -/
def fc4 {k h n : ℕ} (W0 : Mat k h) (b0 : Row h) (W1 : Mat h h) (b1 : Row h) (W2 : Mat h h) (b2 : Row h) (W3 : Mat h n) (b3 : Row n)
    (x : Row k) : Row n :=
  lin W3 b3 (relu (lin W2 b2 (relu (lin W1 b1 (relu (lin W0 b0 x))))))

/-- The thirty-six weight arrays, as matrices and rows. -/
structure Weights where
  ppMsgW : Mat 128 128
  ppMsgB : Row 128
  ppUpdW : Mat 128 128
  ppUpdB : Row 128
  ppW0 : Mat 640 132
  ppB0 : Row 132
  ppW1 : Mat 132 132
  ppB1 : Row 132
  ppW2 : Mat 132 128
  ppB2 : Row 128
  lnW0 : Mat 256 132
  lnB0 : Row 132
  lnW1 : Mat 132 132
  lnB1 : Row 132
  lnW2 : Mat 132 132
  lnB2 : Row 132
  lnW3 : Mat 132 128
  lnB3 : Row 128
  crW0 : Mat 256 132
  crB0 : Row 132
  crW1 : Mat 132 132
  crB1 : Row 132
  crW2 : Mat 132 132
  crB2 : Row 132
  crW3 : Mat 132 128
  crB3 : Row 128
  mpMsgW : Mat 128 128
  mpMsgB : Row 128
  mpUpdW : Mat 128 128
  mpUpdB : Row 128
  mpW0 : Mat 256 132
  mpB0 : Row 132
  mpW1 : Mat 132 132
  mpB1 : Row 132
  mpW2 : Mat 132 128
  mpB2 : Row 128

variable (w : Weights)

def ppFc (x : Row 640) : Row 128 := fc3 w.ppW0 w.ppB0 w.ppW1 w.ppB1 w.ppW2 w.ppB2 x
def lnFc (x : Row 256) : Row 128 := fc4 w.lnW0 w.lnB0 w.lnW1 w.lnB1 w.lnW2 w.lnB2 w.lnW3 w.lnB3 x
def crFc (x : Row 256) : Row 128 := fc4 w.crW0 w.crB0 w.crW1 w.crB1 w.crW2 w.crB2 w.crW3 w.crB3 x
def mpFc (x : Row 256) : Row 128 := fc3 w.mpW0 w.mpB0 w.mpW1 w.mpB1 w.mpW2 w.mpB2 x

/-- The counts 1, 2 and 4 of an aggregate's components, as the float words both programs multiply the message bias by
    (`0x3F800000`, `0x40000000`, `0x40800000`: the floats 1.0, 2.0, 4.0). The same word stands on both sides of the
    comparison, so its value is never needed. -/
def one : EReal := Ideal.ofBits .f32 0x3F800000#32
def two : EReal := Ideal.ofBits .f32 0x40000000#32
def four : EReal := Ideal.ofBits .f32 0x40800000#32

/-- The point aggregate of two components. -/
def ppAgg2 (c0 c1 : Row 128) : Row 128 :=
  lin w.ppUpdW w.ppUpdB (add (add (mm w.ppMsgW c0) (mm w.ppMsgW c1)) (scale two w.ppMsgB))
/-- The message aggregate of one component. -/
def mpAgg1 (c0 : Row 128) : Row 128 :=
  lin w.mpUpdW w.mpUpdB (add (mm w.mpMsgW c0) (scale one w.mpMsgB))
/-- The message aggregate of two components. -/
def mpAgg2 (c0 c1 : Row 128) : Row 128 :=
  lin w.mpUpdW w.mpUpdB (add (add (mm w.mpMsgW c0) (mm w.mpMsgW c1)) (scale two w.mpMsgB))
/-- The message aggregate of four components. -/
def mpAgg4 (c0 c1 c2 c3 : Row 128) : Row 128 :=
  lin w.mpUpdW w.mpUpdB
    (add (add (add (add (mm w.mpMsgW c0) (mm w.mpMsgW c1)) (mm w.mpMsgW c2)) (mm w.mpMsgW c3)) (scale four w.mpMsgB))

/-! ### The upward pass -/
def upP1 (s : Row 512) : Row 128 := ppFc w (cat640 s zero)
def upP2 (s : Row 512) : Row 128 := ppFc w (cat640 s zero)
def upL1 (s : Row 512) : Row 128 := lnFc w (cat256 (upP1 w s) (upP2 w s))
def upC1 (s : Row 512) : Row 128 := crFc w (cat256 (upP1 w s) (upP2 w s))
def upC2 (s : Row 512) : Row 128 := crFc w (cat256 (upP2 w s) (upP1 w s))
def upP3 (s : Row 512) : Row 128 := ppFc w (cat640 s (ppAgg2 w (upC1 w s) (upC2 w s)))
def upL2 (s : Row 512) : Row 128 := lnFc w (cat256 (upP1 w s) (upP3 w s))
def upL3 (s : Row 512) : Row 128 := lnFc w (cat256 (upP2 w s) (upP3 w s))

/-! ### The downward pass -/
def dL1 (s : Row 512) : Row 128 := mpFc w (cat256 (upL1 w s) zero)
def dL2 (s : Row 512) : Row 128 := mpFc w (cat256 (upL2 w s) zero)
def dL3 (s : Row 512) : Row 128 := mpFc w (cat256 (upL3 w s) zero)
def dP3 (s : Row 512) : Row 128 := mpFc w (cat256 (upP3 w s) (mpAgg2 w (dL2 w s) (dL3 w s)))
def dC1 (s : Row 512) : Row 128 := mpFc w (cat256 (upC1 w s) (mpAgg1 w (dP3 w s)))
def dC2 (s : Row 512) : Row 128 := mpFc w (cat256 (upC2 w s) (mpAgg1 w (dP3 w s)))
def dP1 (s : Row 512) : Row 128 := mpFc w (cat256 (upP1 w s) (mpAgg4 w (dL1 w s) (dC1 w s) (dC2 w s) (dL2 w s)))
def dP2 (s : Row 512) : Row 128 := mpFc w (cat256 (upP2 w s) (mpAgg4 w (dL1 w s) (dC1 w s) (dC2 w s) (dL3 w s)))

/-- The eight results' rows, in the order they are stacked. -/
def out (s : Row 512) : Fin 8 → Row 128
  | ⟨0, _⟩ => dP1 w s
  | ⟨1, _⟩ => dP2 w s
  | ⟨2, _⟩ => dL1 w s
  | ⟨3, _⟩ => dC1 w s
  | ⟨4, _⟩ => dC2 w s
  | ⟨5, _⟩ => dP3 w s
  | ⟨6, _⟩ => dL2 w s
  | ⟨7, _⟩ => dL3 w s

/-- The second point node repeats the first. -/
theorem upP2_eq (s : Row 512) : upP2 w s = upP1 w s := rfl

/-! ### Arrays as families of rows -/

/-- Row `p` of a two-axis array. -/
def rows {a b : ℕ} (x : (⟨2, ![a, b]⟩ : Shape).Idx → EReal) : Fin a → Row b := fun p q => x (ix2 p q)
/-- A one-axis array as a row. -/
def vec {n : ℕ} (x : (⟨1, ![n]⟩ : Shape).Idx → EReal) : Row n := fun q => x (ix1 q)
/-- Row `p` of slab `s` of a three-axis array. -/
def slabs {e a b : ℕ} (x : (⟨3, ![e, a, b]⟩ : Shape).Idx → EReal) : Fin e → Fin a → Row b := fun s p q => x (ix3 s p q)

theorem rows_ext {a b : ℕ} {x y : (⟨2, ![a, b]⟩ : Shape).Idx → EReal} (h : rows x = rows y) : x = y := by
  funext j; rw [eq_ix2 j]; exact congrFun (congrFun h (j 0)) (j 1)

theorem slabs_ext {e a b : ℕ} {x y : (⟨3, ![e, a, b]⟩ : Shape).Idx → EReal} (h : slabs x = slabs y) : x = y := by
  funext j; rw [eq_ix3 j]; exact congrFun (congrFun (congrFun h (j 0)) (j 1)) (j 2)

/-- The weights read out of the thirty-six arrays. -/
def weightsOf
    (a1 : (⟨2, ![128, 128]⟩ : Shape).Idx → EReal) (a2 : (⟨1, ![128]⟩ : Shape).Idx → EReal)
    (a3 : (⟨2, ![128, 128]⟩ : Shape).Idx → EReal) (a4 : (⟨1, ![128]⟩ : Shape).Idx → EReal)
    (a5 : (⟨2, ![640, 132]⟩ : Shape).Idx → EReal) (a6 : (⟨1, ![132]⟩ : Shape).Idx → EReal)
    (a7 : (⟨2, ![132, 132]⟩ : Shape).Idx → EReal) (a8 : (⟨1, ![132]⟩ : Shape).Idx → EReal)
    (a9 : (⟨2, ![132, 128]⟩ : Shape).Idx → EReal) (a10 : (⟨1, ![128]⟩ : Shape).Idx → EReal)
    (a11 : (⟨2, ![256, 132]⟩ : Shape).Idx → EReal) (a12 : (⟨1, ![132]⟩ : Shape).Idx → EReal)
    (a13 : (⟨2, ![132, 132]⟩ : Shape).Idx → EReal) (a14 : (⟨1, ![132]⟩ : Shape).Idx → EReal)
    (a15 : (⟨2, ![132, 132]⟩ : Shape).Idx → EReal) (a16 : (⟨1, ![132]⟩ : Shape).Idx → EReal)
    (a17 : (⟨2, ![132, 128]⟩ : Shape).Idx → EReal) (a18 : (⟨1, ![128]⟩ : Shape).Idx → EReal)
    (a19 : (⟨2, ![256, 132]⟩ : Shape).Idx → EReal) (a20 : (⟨1, ![132]⟩ : Shape).Idx → EReal)
    (a21 : (⟨2, ![132, 132]⟩ : Shape).Idx → EReal) (a22 : (⟨1, ![132]⟩ : Shape).Idx → EReal)
    (a23 : (⟨2, ![132, 132]⟩ : Shape).Idx → EReal) (a24 : (⟨1, ![132]⟩ : Shape).Idx → EReal)
    (a25 : (⟨2, ![132, 128]⟩ : Shape).Idx → EReal) (a26 : (⟨1, ![128]⟩ : Shape).Idx → EReal)
    (a27 : (⟨2, ![128, 128]⟩ : Shape).Idx → EReal) (a28 : (⟨1, ![128]⟩ : Shape).Idx → EReal)
    (a29 : (⟨2, ![128, 128]⟩ : Shape).Idx → EReal) (a30 : (⟨1, ![128]⟩ : Shape).Idx → EReal)
    (a31 : (⟨2, ![256, 132]⟩ : Shape).Idx → EReal) (a32 : (⟨1, ![132]⟩ : Shape).Idx → EReal)
    (a33 : (⟨2, ![132, 132]⟩ : Shape).Idx → EReal) (a34 : (⟨1, ![132]⟩ : Shape).Idx → EReal)
    (a35 : (⟨2, ![132, 128]⟩ : Shape).Idx → EReal) (a36 : (⟨1, ![128]⟩ : Shape).Idx → EReal) : Weights where
  ppMsgW := rows a1
  ppMsgB := vec a2
  ppUpdW := rows a3
  ppUpdB := vec a4
  ppW0 := rows a5
  ppB0 := vec a6
  ppW1 := rows a7
  ppB1 := vec a8
  ppW2 := rows a9
  ppB2 := vec a10
  lnW0 := rows a11
  lnB0 := vec a12
  lnW1 := rows a13
  lnB1 := vec a14
  lnW2 := rows a15
  lnB2 := vec a16
  lnW3 := rows a17
  lnB3 := vec a18
  crW0 := rows a19
  crB0 := vec a20
  crW1 := rows a21
  crB1 := vec a22
  crW2 := rows a23
  crB2 := vec a24
  crW3 := rows a25
  crB3 := vec a26
  mpMsgW := rows a27
  mpMsgB := vec a28
  mpUpdW := rows a29
  mpUpdB := vec a30
  mpW0 := rows a31
  mpB0 := vec a32
  mpW1 := rows a33
  mpB1 := vec a34
  mpW2 := rows a35
  mpB2 := vec a36

/-- The whole result array of `n` rows: slab `s`, row `r` is `out` of row `r` of `signal`. -/
def result {n : ℕ} (w : Weights) (signal : (⟨2, ![n, 512]⟩ : Shape).Idx → EReal) :
    (⟨3, ![8, n, 128]⟩ : Shape).Idx → EReal :=
  fun j => out w (rows signal (j 1)) (j 0) (j 2)

end Cert.Gnn

end
-- ==== Proof.LayersK.lean ====
/-
  The kernel's vector operations, read one row at a time.

  Each operation of the kernel body acts on the rows of a block separately: a matrix product sends row `p` of its
  left operand to that row times the right operand; a sum, a positive part, a change of float format and a
  concatenation along the second axis act entry by entry within a row; a bias is the same row at every `p`.
  These are the equations that carry `rows` from a value to its operands.
-/
import proofs.«160910_j1125281431924_1_alg».proof.KernelIdeal
import proofs.«160910_j1125281431924_1_alg».proof.Proof.Rows
import Idealize.ShloMosaic.PureOps.Ideal.Laws
import Idealize.ShloMosaic.Lib.Pipeline.Value
import Idealize.ShloMosaic.Lib.ValueLayout

noncomputable section

namespace Cert.Gnn.K

open Idealize.ShloMosaic Idealize.ShloMosaic.ValueIdx Cert.KernelIdeal Cert.Gnn

variable [Facts₀]

/-! ### Entry by entry -/

theorem rows_addf {a b : ℕ} (x y : FVec Ideal ⟨2, ![a, b]⟩ .f32) :
    rows (addf x y) = fun p => add (rows x p) (rows y p) := rfl

theorem rows_truncf {a b : ℕ} (x : FVec Ideal ⟨2, ![a, b]⟩ .f32) (h : FTy.bf16.bits < FTy.f32.bits) :
    rows (truncf .bf16 x h : FVec Ideal ⟨2, ![a, b]⟩ .bf16) = rows x := rfl

theorem rows_relu {a b : ℕ} (x : FVec Ideal ⟨2, ![a, b]⟩ .f32) :
    rows (maximumf x (broadcast ⟨2, ![a, b]⟩ (Scalar.ofBits (F := Ideal) .f32 0x00000000#32))) = fun p => relu (rows x p) := by
  funext p q
  show max (x (ix2 p q)) (Ideal.ofBits .f32 0x00000000#32) = max (x (ix2 p q)) 0
  rw [Ideal.ofBits_zero_f32]

theorem rows_zero {a b : ℕ} :
    rows (broadcast ⟨2, ![a, b]⟩ (Scalar.ofBits (F := Ideal) .f32 0x00000000#32) : FVec Ideal ⟨2, ![a, b]⟩ .f32) = fun _ => zero := by
  funext p q
  show Ideal.ofBits .f32 0x00000000#32 = 0
  exact Ideal.ofBits_zero_f32

/-! ### A bias: one row, repeated -/

theorem rows_shapeCast_132 (b : FVec Ideal S132 .f32) (h : S132.ShapeCasts S1x132) :
    rows (shapeCast S1x132 b h) = fun _ => vec b := by
  funext p q
  exact shapeCast_a_1a_apply b h p q

theorem rows_shapeCast_128 (b : FVec Ideal S128 .f32) (h : S128.ShapeCasts S1x128) :
    rows (shapeCast S1x128 b h) = fun _ => vec b := by
  funext p q
  exact shapeCast_a_1a_apply b h p q

theorem rows_broadcastTo_132 (y : FVec Ideal S1x132 .f32) (h : S1x132.Broadcasts S1024x132) :
    rows (broadcastTo S1024x132 y h) = fun _ => rows y 0 := by
  funext p q
  exact broadcastTo_1b_ab_apply y h p q

theorem rows_broadcastTo_128 (y : FVec Ideal S1x128 .f32) (h : S1x128.Broadcasts S1024x128) :
    rows (broadcastTo S1024x128 y h) = fun _ => rows y 0 := by
  funext p q
  exact broadcastTo_1b_ab_apply y h p q

/-! ### The message bias, counted -/

theorem vec_mulf_splat (c : BitVec 32) (b : FVec Ideal S128 .f32) :
    vec (mulf (broadcast S128 (Scalar.ofBits (F := Ideal) .f32 c)) b) = scale (Ideal.ofBits .f32 c) (vec b) := rfl

/-! ### Rows laid side by side -/

theorem rows_concat_640 (x : FVec Ideal S1024x512 .f32) (y : FVec Ideal S1024x128 .f32)
    (h : Shape.Concatenates [S1024x512, S1024x128] S1024x640 1) :
    rows (concatenate S1024x640 1 [⟨S1024x512, x⟩, ⟨S1024x128, y⟩] h)
      = fun p => cat640 (rows x p) (rows y p) := by
  funext p q
  unfold cat640
  by_cases hq : q.val < 512
  · rw [dif_pos hq]
    exact concatenate_pair_apply_left (1 : Fin 2) x y h (ix2 p q) rfl (ix2 p ⟨q.val, hq⟩) fun b => by
      match b with
      | ⟨0, _⟩ => rfl
      | ⟨1, _⟩ => rfl
  · rw [dif_neg hq]
    refine concatenate_pair_apply_right (1 : Fin 2) x y h (ix2 p q) rfl rfl
      (ix2 p ⟨q.val - 512, by have := q.isLt; omega⟩) (fun b hb => ?_) ?_
    · match b with
      | ⟨0, _⟩ => rfl
      | ⟨1, _⟩ => exact absurd rfl hb
    · show q.val - 512 + 512 = q.val
      omega

theorem rows_concat_256 (x y : FVec Ideal S1024x128 .f32) (h : Shape.Concatenates [S1024x128, S1024x128] S1024x256 1) :
    rows (concatenate S1024x256 1 [⟨S1024x128, x⟩, ⟨S1024x128, y⟩] h)
      = fun p => cat256 (rows x p) (rows y p) := by
  funext p q
  unfold cat256
  by_cases hq : q.val < 128
  · rw [dif_pos hq]
    exact concatenate_pair_apply_left (1 : Fin 2) x y h (ix2 p q) rfl (ix2 p ⟨q.val, hq⟩) fun b => by
      match b with
      | ⟨0, _⟩ => rfl
      | ⟨1, _⟩ => rfl
  · rw [dif_neg hq]
    refine concatenate_pair_apply_right (1 : Fin 2) x y h (ix2 p q) rfl rfl
      (ix2 p ⟨q.val - 128, by have := q.isLt; omega⟩) (fun b hb => ?_) ?_
    · match b with
      | ⟨0, _⟩ => rfl
      | ⟨1, _⟩ => exact absurd rfl hb
    · show q.val - 128 + 128 = q.val
      omega

/-! ### Matrix products into a zero accumulator -/

/-- The left operand's row coordinate is the result's. -/
theorem lhs_640_132_0 (i : S1024x132.Idx) (k : dot_S1024x640_S640x132_S1024x132_1_0_0_1_n_n.contr.Idx) :
    (dot_S1024x640_S640x132_S1024x132_1_0_0_1_n_n.lhsIdx i k 0).val = (i 0).val := by
  unfold DotDims.lhsIdx
  rw [dif_neg (show ¬(0 : Fin S1024x640.rank) ∈ dot_S1024x640_S640x132_S1024x132_1_0_0_1_n_n.lhsBatch from List.not_mem_nil),
    dif_pos (show (0 : Fin S1024x640.rank) ∈ dot_S1024x640_S640x132_S1024x132_1_0_0_1_n_n.lhsNonContracting from List.mem_singleton.mpr rfl)]
  rfl
/-- The left operand's column coordinate is the contraction position. -/
theorem lhs_640_132_1 (i : S1024x132.Idx) (k : dot_S1024x640_S640x132_S1024x132_1_0_0_1_n_n.contr.Idx) :
    (dot_S1024x640_S640x132_S1024x132_1_0_0_1_n_n.lhsIdx i k 1).val = (k ⟨0, Nat.one_pos⟩).val :=
  dot_S1024x640_S640x132_S1024x132_1_0_0_1_n_n.lhsIdx_val_of_single rfl i k
/-- The right operand's row coordinate is the contraction position. -/
theorem rhs_640_132_0 (i : S1024x132.Idx) (k : dot_S1024x640_S640x132_S1024x132_1_0_0_1_n_n.contr.Idx) :
    (dot_S1024x640_S640x132_S1024x132_1_0_0_1_n_n.rhsIdx i k 0).val = (k ⟨0, Nat.one_pos⟩).val :=
  dot_S1024x640_S640x132_S1024x132_1_0_0_1_n_n.rhsIdx_val_of_single rfl i k
/-- The right operand's column coordinate is the result's. -/
theorem rhs_640_132_1 (i : S1024x132.Idx) (k : dot_S1024x640_S640x132_S1024x132_1_0_0_1_n_n.contr.Idx) :
    (dot_S1024x640_S640x132_S1024x132_1_0_0_1_n_n.rhsIdx i k 1).val = (i 1).val := by
  unfold DotDims.rhsIdx
  rw [dif_neg (show ¬(1 : Fin S640x132.rank) ∈ dot_S1024x640_S640x132_S1024x132_1_0_0_1_n_n.rhsBatch from List.not_mem_nil),
    dif_pos (show (1 : Fin S640x132.rank) ∈ dot_S1024x640_S640x132_S1024x132_1_0_0_1_n_n.rhsNonContracting from List.mem_singleton.mpr rfl)]
  rfl

theorem rows_matmul_640_132 (x : FVec Ideal S1024x640 .bf16) (w : FVec Ideal S640x132 .bf16) :
    rows (matmul dot_S1024x640_S640x132_S1024x132_1_0_0_1_n_n none x w (constant S1024x132 .f32 0x00000000#32))
      = fun p => mm (rows w) (rows x p) := by
  funext p q
  refine (Ideal.matmul_constant_zero_apply dot_S1024x640_S640x132_S1024x132_1_0_0_1_n_n none x w (ix2 p q)).trans ?_
  rw [← Equiv.sum_comp (contrEquiv1 dot_S1024x640_S640x132_S1024x132_1_0_0_1_n_n 640 rfl rfl).symm]
  refine Finset.sum_congr rfl fun k _ => ?_
  have hk := contrEquiv1_symm_val dot_S1024x640_S640x132_S1024x132_1_0_0_1_n_n 640 rfl rfl k
  have el : dot_S1024x640_S640x132_S1024x132_1_0_0_1_n_n.lhsIdx (ix2 p q) ((contrEquiv1 dot_S1024x640_S640x132_S1024x132_1_0_0_1_n_n 640 rfl rfl).symm k) = ix2 p k :=
    funext fun a => Fin.ext (by
      match a with
      | ⟨0, _⟩ => exact lhs_640_132_0 _ _
      | ⟨1, _⟩ => exact (lhs_640_132_1 _ _).trans hk)
  have er : dot_S1024x640_S640x132_S1024x132_1_0_0_1_n_n.rhsIdx (ix2 p q) ((contrEquiv1 dot_S1024x640_S640x132_S1024x132_1_0_0_1_n_n 640 rfl rfl).symm k) = ix2 k q :=
    funext fun a => Fin.ext (by
      match a with
      | ⟨0, _⟩ => exact (rhs_640_132_0 _ _).trans hk
      | ⟨1, _⟩ => exact rhs_640_132_1 _ _)
  rw [el, er]
  rfl

/-- The left operand's row coordinate is the result's. -/
theorem lhs_132_132_0 (i : S1024x132.Idx) (k : dot_S1024x132_S132x132_S1024x132_1_0_0_1_n_n.contr.Idx) :
    (dot_S1024x132_S132x132_S1024x132_1_0_0_1_n_n.lhsIdx i k 0).val = (i 0).val := by
  unfold DotDims.lhsIdx
  rw [dif_neg (show ¬(0 : Fin S1024x132.rank) ∈ dot_S1024x132_S132x132_S1024x132_1_0_0_1_n_n.lhsBatch from List.not_mem_nil),
    dif_pos (show (0 : Fin S1024x132.rank) ∈ dot_S1024x132_S132x132_S1024x132_1_0_0_1_n_n.lhsNonContracting from List.mem_singleton.mpr rfl)]
  rfl
/-- The left operand's column coordinate is the contraction position. -/
theorem lhs_132_132_1 (i : S1024x132.Idx) (k : dot_S1024x132_S132x132_S1024x132_1_0_0_1_n_n.contr.Idx) :
    (dot_S1024x132_S132x132_S1024x132_1_0_0_1_n_n.lhsIdx i k 1).val = (k ⟨0, Nat.one_pos⟩).val :=
  dot_S1024x132_S132x132_S1024x132_1_0_0_1_n_n.lhsIdx_val_of_single rfl i k
/-- The right operand's row coordinate is the contraction position. -/
theorem rhs_132_132_0 (i : S1024x132.Idx) (k : dot_S1024x132_S132x132_S1024x132_1_0_0_1_n_n.contr.Idx) :
    (dot_S1024x132_S132x132_S1024x132_1_0_0_1_n_n.rhsIdx i k 0).val = (k ⟨0, Nat.one_pos⟩).val :=
  dot_S1024x132_S132x132_S1024x132_1_0_0_1_n_n.rhsIdx_val_of_single rfl i k
/-- The right operand's column coordinate is the result's. -/
theorem rhs_132_132_1 (i : S1024x132.Idx) (k : dot_S1024x132_S132x132_S1024x132_1_0_0_1_n_n.contr.Idx) :
    (dot_S1024x132_S132x132_S1024x132_1_0_0_1_n_n.rhsIdx i k 1).val = (i 1).val := by
  unfold DotDims.rhsIdx
  rw [dif_neg (show ¬(1 : Fin S132x132.rank) ∈ dot_S1024x132_S132x132_S1024x132_1_0_0_1_n_n.rhsBatch from List.not_mem_nil),
    dif_pos (show (1 : Fin S132x132.rank) ∈ dot_S1024x132_S132x132_S1024x132_1_0_0_1_n_n.rhsNonContracting from List.mem_singleton.mpr rfl)]
  rfl

theorem rows_matmul_132_132 (x : FVec Ideal S1024x132 .bf16) (w : FVec Ideal S132x132 .bf16) :
    rows (matmul dot_S1024x132_S132x132_S1024x132_1_0_0_1_n_n none x w (constant S1024x132 .f32 0x00000000#32))
      = fun p => mm (rows w) (rows x p) := by
  funext p q
  refine (Ideal.matmul_constant_zero_apply dot_S1024x132_S132x132_S1024x132_1_0_0_1_n_n none x w (ix2 p q)).trans ?_
  rw [← Equiv.sum_comp (contrEquiv1 dot_S1024x132_S132x132_S1024x132_1_0_0_1_n_n 132 rfl rfl).symm]
  refine Finset.sum_congr rfl fun k _ => ?_
  have hk := contrEquiv1_symm_val dot_S1024x132_S132x132_S1024x132_1_0_0_1_n_n 132 rfl rfl k
  have el : dot_S1024x132_S132x132_S1024x132_1_0_0_1_n_n.lhsIdx (ix2 p q) ((contrEquiv1 dot_S1024x132_S132x132_S1024x132_1_0_0_1_n_n 132 rfl rfl).symm k) = ix2 p k :=
    funext fun a => Fin.ext (by
      match a with
      | ⟨0, _⟩ => exact lhs_132_132_0 _ _
      | ⟨1, _⟩ => exact (lhs_132_132_1 _ _).trans hk)
  have er : dot_S1024x132_S132x132_S1024x132_1_0_0_1_n_n.rhsIdx (ix2 p q) ((contrEquiv1 dot_S1024x132_S132x132_S1024x132_1_0_0_1_n_n 132 rfl rfl).symm k) = ix2 k q :=
    funext fun a => Fin.ext (by
      match a with
      | ⟨0, _⟩ => exact (rhs_132_132_0 _ _).trans hk
      | ⟨1, _⟩ => exact rhs_132_132_1 _ _)
  rw [el, er]
  rfl

/-- The left operand's row coordinate is the result's. -/
theorem lhs_132_128_0 (i : S1024x128.Idx) (k : dot_S1024x132_S132x128_S1024x128_1_0_0_1_n_n.contr.Idx) :
    (dot_S1024x132_S132x128_S1024x128_1_0_0_1_n_n.lhsIdx i k 0).val = (i 0).val := by
  unfold DotDims.lhsIdx
  rw [dif_neg (show ¬(0 : Fin S1024x132.rank) ∈ dot_S1024x132_S132x128_S1024x128_1_0_0_1_n_n.lhsBatch from List.not_mem_nil),
    dif_pos (show (0 : Fin S1024x132.rank) ∈ dot_S1024x132_S132x128_S1024x128_1_0_0_1_n_n.lhsNonContracting from List.mem_singleton.mpr rfl)]
  rfl
/-- The left operand's column coordinate is the contraction position. -/
theorem lhs_132_128_1 (i : S1024x128.Idx) (k : dot_S1024x132_S132x128_S1024x128_1_0_0_1_n_n.contr.Idx) :
    (dot_S1024x132_S132x128_S1024x128_1_0_0_1_n_n.lhsIdx i k 1).val = (k ⟨0, Nat.one_pos⟩).val :=
  dot_S1024x132_S132x128_S1024x128_1_0_0_1_n_n.lhsIdx_val_of_single rfl i k
/-- The right operand's row coordinate is the contraction position. -/
theorem rhs_132_128_0 (i : S1024x128.Idx) (k : dot_S1024x132_S132x128_S1024x128_1_0_0_1_n_n.contr.Idx) :
    (dot_S1024x132_S132x128_S1024x128_1_0_0_1_n_n.rhsIdx i k 0).val = (k ⟨0, Nat.one_pos⟩).val :=
  dot_S1024x132_S132x128_S1024x128_1_0_0_1_n_n.rhsIdx_val_of_single rfl i k
/-- The right operand's column coordinate is the result's. -/
theorem rhs_132_128_1 (i : S1024x128.Idx) (k : dot_S1024x132_S132x128_S1024x128_1_0_0_1_n_n.contr.Idx) :
    (dot_S1024x132_S132x128_S1024x128_1_0_0_1_n_n.rhsIdx i k 1).val = (i 1).val := by
  unfold DotDims.rhsIdx
  rw [dif_neg (show ¬(1 : Fin S132x128.rank) ∈ dot_S1024x132_S132x128_S1024x128_1_0_0_1_n_n.rhsBatch from List.not_mem_nil),
    dif_pos (show (1 : Fin S132x128.rank) ∈ dot_S1024x132_S132x128_S1024x128_1_0_0_1_n_n.rhsNonContracting from List.mem_singleton.mpr rfl)]
  rfl

theorem rows_matmul_132_128 (x : FVec Ideal S1024x132 .bf16) (w : FVec Ideal S132x128 .bf16) :
    rows (matmul dot_S1024x132_S132x128_S1024x128_1_0_0_1_n_n none x w (constant S1024x128 .f32 0x00000000#32))
      = fun p => mm (rows w) (rows x p) := by
  funext p q
  refine (Ideal.matmul_constant_zero_apply dot_S1024x132_S132x128_S1024x128_1_0_0_1_n_n none x w (ix2 p q)).trans ?_
  rw [← Equiv.sum_comp (contrEquiv1 dot_S1024x132_S132x128_S1024x128_1_0_0_1_n_n 132 rfl rfl).symm]
  refine Finset.sum_congr rfl fun k _ => ?_
  have hk := contrEquiv1_symm_val dot_S1024x132_S132x128_S1024x128_1_0_0_1_n_n 132 rfl rfl k
  have el : dot_S1024x132_S132x128_S1024x128_1_0_0_1_n_n.lhsIdx (ix2 p q) ((contrEquiv1 dot_S1024x132_S132x128_S1024x128_1_0_0_1_n_n 132 rfl rfl).symm k) = ix2 p k :=
    funext fun a => Fin.ext (by
      match a with
      | ⟨0, _⟩ => exact lhs_132_128_0 _ _
      | ⟨1, _⟩ => exact (lhs_132_128_1 _ _).trans hk)
  have er : dot_S1024x132_S132x128_S1024x128_1_0_0_1_n_n.rhsIdx (ix2 p q) ((contrEquiv1 dot_S1024x132_S132x128_S1024x128_1_0_0_1_n_n 132 rfl rfl).symm k) = ix2 k q :=
    funext fun a => Fin.ext (by
      match a with
      | ⟨0, _⟩ => exact (rhs_132_128_0 _ _).trans hk
      | ⟨1, _⟩ => exact rhs_132_128_1 _ _)
  rw [el, er]
  rfl

/-- The left operand's row coordinate is the result's. -/
theorem lhs_256_132_0 (i : S1024x132.Idx) (k : dot_S1024x256_S256x132_S1024x132_1_0_0_1_n_n.contr.Idx) :
    (dot_S1024x256_S256x132_S1024x132_1_0_0_1_n_n.lhsIdx i k 0).val = (i 0).val := by
  unfold DotDims.lhsIdx
  rw [dif_neg (show ¬(0 : Fin S1024x256.rank) ∈ dot_S1024x256_S256x132_S1024x132_1_0_0_1_n_n.lhsBatch from List.not_mem_nil),
    dif_pos (show (0 : Fin S1024x256.rank) ∈ dot_S1024x256_S256x132_S1024x132_1_0_0_1_n_n.lhsNonContracting from List.mem_singleton.mpr rfl)]
  rfl
/-- The left operand's column coordinate is the contraction position. -/
theorem lhs_256_132_1 (i : S1024x132.Idx) (k : dot_S1024x256_S256x132_S1024x132_1_0_0_1_n_n.contr.Idx) :
    (dot_S1024x256_S256x132_S1024x132_1_0_0_1_n_n.lhsIdx i k 1).val = (k ⟨0, Nat.one_pos⟩).val :=
  dot_S1024x256_S256x132_S1024x132_1_0_0_1_n_n.lhsIdx_val_of_single rfl i k
/-- The right operand's row coordinate is the contraction position. -/
theorem rhs_256_132_0 (i : S1024x132.Idx) (k : dot_S1024x256_S256x132_S1024x132_1_0_0_1_n_n.contr.Idx) :
    (dot_S1024x256_S256x132_S1024x132_1_0_0_1_n_n.rhsIdx i k 0).val = (k ⟨0, Nat.one_pos⟩).val :=
  dot_S1024x256_S256x132_S1024x132_1_0_0_1_n_n.rhsIdx_val_of_single rfl i k
/-- The right operand's column coordinate is the result's. -/
theorem rhs_256_132_1 (i : S1024x132.Idx) (k : dot_S1024x256_S256x132_S1024x132_1_0_0_1_n_n.contr.Idx) :
    (dot_S1024x256_S256x132_S1024x132_1_0_0_1_n_n.rhsIdx i k 1).val = (i 1).val := by
  unfold DotDims.rhsIdx
  rw [dif_neg (show ¬(1 : Fin S256x132.rank) ∈ dot_S1024x256_S256x132_S1024x132_1_0_0_1_n_n.rhsBatch from List.not_mem_nil),
    dif_pos (show (1 : Fin S256x132.rank) ∈ dot_S1024x256_S256x132_S1024x132_1_0_0_1_n_n.rhsNonContracting from List.mem_singleton.mpr rfl)]
  rfl

theorem rows_matmul_256_132 (x : FVec Ideal S1024x256 .bf16) (w : FVec Ideal S256x132 .bf16) :
    rows (matmul dot_S1024x256_S256x132_S1024x132_1_0_0_1_n_n none x w (constant S1024x132 .f32 0x00000000#32))
      = fun p => mm (rows w) (rows x p) := by
  funext p q
  refine (Ideal.matmul_constant_zero_apply dot_S1024x256_S256x132_S1024x132_1_0_0_1_n_n none x w (ix2 p q)).trans ?_
  rw [← Equiv.sum_comp (contrEquiv1 dot_S1024x256_S256x132_S1024x132_1_0_0_1_n_n 256 rfl rfl).symm]
  refine Finset.sum_congr rfl fun k _ => ?_
  have hk := contrEquiv1_symm_val dot_S1024x256_S256x132_S1024x132_1_0_0_1_n_n 256 rfl rfl k
  have el : dot_S1024x256_S256x132_S1024x132_1_0_0_1_n_n.lhsIdx (ix2 p q) ((contrEquiv1 dot_S1024x256_S256x132_S1024x132_1_0_0_1_n_n 256 rfl rfl).symm k) = ix2 p k :=
    funext fun a => Fin.ext (by
      match a with
      | ⟨0, _⟩ => exact lhs_256_132_0 _ _
      | ⟨1, _⟩ => exact (lhs_256_132_1 _ _).trans hk)
  have er : dot_S1024x256_S256x132_S1024x132_1_0_0_1_n_n.rhsIdx (ix2 p q) ((contrEquiv1 dot_S1024x256_S256x132_S1024x132_1_0_0_1_n_n 256 rfl rfl).symm k) = ix2 k q :=
    funext fun a => Fin.ext (by
      match a with
      | ⟨0, _⟩ => exact (rhs_256_132_0 _ _).trans hk
      | ⟨1, _⟩ => exact rhs_256_132_1 _ _)
  rw [el, er]
  rfl

/-- The left operand's row coordinate is the result's. -/
theorem lhs_128_128_0 (i : S1024x128.Idx) (k : dot_S1024x128_S128x128_S1024x128_1_0_0_1_n_n.contr.Idx) :
    (dot_S1024x128_S128x128_S1024x128_1_0_0_1_n_n.lhsIdx i k 0).val = (i 0).val := by
  unfold DotDims.lhsIdx
  rw [dif_neg (show ¬(0 : Fin S1024x128.rank) ∈ dot_S1024x128_S128x128_S1024x128_1_0_0_1_n_n.lhsBatch from List.not_mem_nil),
    dif_pos (show (0 : Fin S1024x128.rank) ∈ dot_S1024x128_S128x128_S1024x128_1_0_0_1_n_n.lhsNonContracting from List.mem_singleton.mpr rfl)]
  rfl
/-- The left operand's column coordinate is the contraction position. -/
theorem lhs_128_128_1 (i : S1024x128.Idx) (k : dot_S1024x128_S128x128_S1024x128_1_0_0_1_n_n.contr.Idx) :
    (dot_S1024x128_S128x128_S1024x128_1_0_0_1_n_n.lhsIdx i k 1).val = (k ⟨0, Nat.one_pos⟩).val :=
  dot_S1024x128_S128x128_S1024x128_1_0_0_1_n_n.lhsIdx_val_of_single rfl i k
/-- The right operand's row coordinate is the contraction position. -/
theorem rhs_128_128_0 (i : S1024x128.Idx) (k : dot_S1024x128_S128x128_S1024x128_1_0_0_1_n_n.contr.Idx) :
    (dot_S1024x128_S128x128_S1024x128_1_0_0_1_n_n.rhsIdx i k 0).val = (k ⟨0, Nat.one_pos⟩).val :=
  dot_S1024x128_S128x128_S1024x128_1_0_0_1_n_n.rhsIdx_val_of_single rfl i k
/-- The right operand's column coordinate is the result's. -/
theorem rhs_128_128_1 (i : S1024x128.Idx) (k : dot_S1024x128_S128x128_S1024x128_1_0_0_1_n_n.contr.Idx) :
    (dot_S1024x128_S128x128_S1024x128_1_0_0_1_n_n.rhsIdx i k 1).val = (i 1).val := by
  unfold DotDims.rhsIdx
  rw [dif_neg (show ¬(1 : Fin S128x128.rank) ∈ dot_S1024x128_S128x128_S1024x128_1_0_0_1_n_n.rhsBatch from List.not_mem_nil),
    dif_pos (show (1 : Fin S128x128.rank) ∈ dot_S1024x128_S128x128_S1024x128_1_0_0_1_n_n.rhsNonContracting from List.mem_singleton.mpr rfl)]
  rfl

theorem rows_matmul_128_128 (x : FVec Ideal S1024x128 .bf16) (w : FVec Ideal S128x128 .bf16) :
    rows (matmul dot_S1024x128_S128x128_S1024x128_1_0_0_1_n_n none x w (constant S1024x128 .f32 0x00000000#32))
      = fun p => mm (rows w) (rows x p) := by
  funext p q
  refine (Ideal.matmul_constant_zero_apply dot_S1024x128_S128x128_S1024x128_1_0_0_1_n_n none x w (ix2 p q)).trans ?_
  rw [← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k :=
    funext fun a => Fin.ext (by
      match a with
      | ⟨0, _⟩ => exact lhs_128_128_0 _ _
      | ⟨1, _⟩ => exact (lhs_128_128_1 _ _).trans hk)
  have er : dot_S1024x128_S128x128_S1024x128_1_0_0_1_n_n.rhsIdx (ix2 p q) ((contrEquiv1 dot_S1024x128_S128x128_S1024x128_1_0_0_1_n_n 128 rfl rfl).symm k) = ix2 k q :=
    funext fun a => Fin.ext (by
      match a with
      | ⟨0, _⟩ => exact (rhs_128_128_0 _ _).trans hk
      | ⟨1, _⟩ => exact rhs_128_128_1 _ _)
  rw [el, er]
  rfl

/-! ### One slab of the stacked result -/

theorem slabs_shapeCast (x : FVec Ideal S1024x128 .f32) (h : S1024x128.ShapeCasts S1x1024x128) :
    slabs (shapeCast S1x1024x128 x h) = fun _ => rows x := by
  funext s p q
  exact shapeCast_ab_1ab_apply x h s p q

end Cert.Gnn.K

end
-- ==== Proof.PayA.lean ====
/-
  The kernel's first payloads, read one row at a time.

  Each payload below is a chain of vector operations on blocks of 1024 rows.  Every operation in the chain acts on
  each row separately, so row `p` of a payload is a composite of the row operations of the network (a row times a
  matrix, a sum of rows, a positive part, two rows laid side by side) applied to row `p` of the payload's block
  arguments and to its weight arguments read as matrices and rows.  For each of the payloads 2 to 11 this file
  states that composite and proves it by carrying `rows` through the chain one operation at a time.

    payload 2   three layers on (row of the signal ++ 0)
    payload 3   (payload 2 ++ payload 2) times the first matrix of a four-layer stack
    payload 4   a bias as a one-row array
    payload 5   the last three layers of a four-layer stack, from the first product and its bias
    payload 6   the first layer of a stack on (x ++ x)
    payload 7   the positive part, then three layers
    payload 8   the first layer of another stack on (x ++ x)
    payload 9   the zero block
    payload 10  the positive part against a block, then three layers
    payload 11  two rows, each times its matrix, added

  In payloads 10 and 11 the positive part is taken against a block argument; when that block is the zero block
  (all its rows are the zero row) the maximum is the positive part, and this is how the lemma is stated.
-/
import proofs.«160910_j1125281431924_1_alg».proof.Proof.Gen.KernelIdeal.Skeleton
import proofs.«160910_j1125281431924_1_alg».proof.Proof.LayersK

noncomputable section

namespace Cert.Gnn.PayA

open Idealize.ShloMosaic Idealize.ShloMosaic.TcCoe Idealize.ShloMosaic.ValueIdx Cert.KernelIdeal Cert.KernelIdeal.Gen Cert.Gnn Cert.Gnn.K

variable [Facts]

/-- The entrywise maximum with a block whose rows are all zero is the positive part of each row. -/
theorem rows_maximumf_of_zero {a b : ℕ} (x y : FVec Ideal ⟨2, ![a, b]⟩ .f32) (h : rows y = fun _ => zero) :
    rows (maximumf x y) = fun p => relu (rows x p) := by
  funext p q
  have hy : y (ix2 p q) = 0 := congrFun (congrFun h p) q
  show max (x (ix2 p q)) (y (ix2 p q)) = max (x (ix2 p q)) 0
  rw [hy]

/-- Payload 2: three layers applied to a row of the signal with 128 zeros appended. -/
theorem pay2_rows (v0 : Vec Ideal S1024x512 .f32) (v4 : Vec Ideal S640x132 .f32) (v7 : Vec Ideal S132 .f32) (v14 : Vec Ideal S132x132 .f32) (v17 : Vec Ideal S132 .f32) (v24 : Vec Ideal S132x128 .f32) (v27 : Vec Ideal S128 .f32) :
    rows (k0_pay2 (F := Ideal) v0 v4 v7 v14 v17 v24 v27)
      = fun p => fc3 (rows v4) (vec v7) (rows v14) (vec v17) (rows v24) (vec v27) (cat640 (rows v0 p) zero) := by
  unfold k0_pay2
  simp only [rows_addf, rows_truncf, rows_relu, rows_zero, rows_matmul_640_132, rows_matmul_132_132, rows_matmul_132_128, rows_concat_640,
    rows_broadcastTo_132, rows_shapeCast_132, rows_broadcastTo_128, rows_shapeCast_128]
  rfl

/-- Payload 3: payload 2's row laid beside itself, times a 256 × 132 matrix. -/
theorem pay3_rows (v0 : Vec Ideal S1024x512 .f32) (v4 : Vec Ideal S640x132 .f32) (v7 : Vec Ideal S132 .f32) (v14 : Vec Ideal S132x132 .f32) (v17 : Vec Ideal S132 .f32) (v24 : Vec Ideal S132x128 .f32) (v27 : Vec Ideal S128 .f32) (v33 : Vec Ideal S256x132 .f32) :
    rows (k0_pay3 (F := Ideal) v0 v4 v7 v14 v17 v24 v27 v33)
      = fun p => mm (rows v33)
          (cat256 (fc3 (rows v4) (vec v7) (rows v14) (vec v17) (rows v24) (vec v27) (cat640 (rows v0 p) zero))
            (fc3 (rows v4) (vec v7) (rows v14) (vec v17) (rows v24) (vec v27) (cat640 (rows v0 p) zero))) := by
  unfold k0_pay3
  simp only [rows_truncf, rows_matmul_256_132, rows_concat_256, pay2_rows]

/-- Payload 4: a bias as an array of one row. -/
theorem pay4_rows (v36 : Vec Ideal S132 .f32) :
    rows (k0_pay4 (F := Ideal) v36) = fun _ => vec v36 := by
  unfold k0_pay4
  simp only [rows_shapeCast_132]

/-- Payload 5: the first product plus its bias, then the positive part and three more layers. -/
theorem pay5_rows (v35 : FVec Ideal S1024x132 .f32) (v37 : FVec Ideal S1x132 .f32) (v43 : Vec Ideal S132x132 .f32) (v46 : Vec Ideal S132 .f32) (v53 : Vec Ideal S132x132 .f32) (v56 : Vec Ideal S132 .f32) (v63 : Vec Ideal S132x128 .f32) (v66 : Vec Ideal S128 .f32) :
    rows (k0_pay5 (F := Ideal) v35 v37 v43 v46 v53 v56 v63 v66)
      = fun p => fc3 (rows v43) (vec v46) (rows v53) (vec v56) (rows v63) (vec v66) (relu (add (rows v35 p) (rows v37 0))) := by
  unfold k0_pay5
  simp only [rows_addf, rows_truncf, rows_relu, rows_matmul_132_132, rows_matmul_132_128,
    rows_broadcastTo_132, rows_shapeCast_132, rows_broadcastTo_128, rows_shapeCast_128]
  rfl

/-- Payload 6: a row laid beside itself, times a 256 × 132 matrix, plus a bias. -/
theorem pay6_rows (v30 : FVec Ideal S1024x128 .f32) (v72 : Vec Ideal S256x132 .f32) (v75 : Vec Ideal S132 .f32) :
    rows (k0_pay6 (F := Ideal) v30 v72 v75) = fun p => add (mm (rows v72) (cat256 (rows v30 p) (rows v30 p))) (vec v75) := by
  unfold k0_pay6
  simp only [rows_addf, rows_truncf, rows_matmul_256_132, rows_concat_256, rows_broadcastTo_132, rows_shapeCast_132]

/-- Payload 7: the positive part of a row, then three layers. -/
theorem pay7_rows (v78 : FVec Ideal S1024x132 .f32) (v82 : Vec Ideal S132x132 .f32) (v85 : Vec Ideal S132 .f32) (v92 : Vec Ideal S132x132 .f32) (v95 : Vec Ideal S132 .f32) (v102 : Vec Ideal S132x128 .f32) (v105 : Vec Ideal S128 .f32) :
    rows (k0_pay7 (F := Ideal) v78 v82 v85 v92 v95 v102 v105)
      = fun p => fc3 (rows v82) (vec v85) (rows v92) (vec v95) (rows v102) (vec v105) (relu (rows v78 p)) := by
  unfold k0_pay7
  simp only [rows_addf, rows_truncf, rows_relu, rows_matmul_132_132, rows_matmul_132_128,
    rows_broadcastTo_132, rows_shapeCast_132, rows_broadcastTo_128, rows_shapeCast_128]
  rfl

/-- Payload 8: a row laid beside itself, times a 256 × 132 matrix, plus a bias. -/
theorem pay8_rows (v30 : FVec Ideal S1024x128 .f32) (v111 : Vec Ideal S256x132 .f32) (v114 : Vec Ideal S132 .f32) :
    rows (k0_pay8 (F := Ideal) v30 v111 v114) = fun p => add (mm (rows v111) (cat256 (rows v30 p) (rows v30 p))) (vec v114) := by
  unfold k0_pay8
  simp only [rows_addf, rows_truncf, rows_matmul_256_132, rows_concat_256, rows_broadcastTo_132, rows_shapeCast_132]

/-- Payload 9: every row is the zero row. -/
theorem pay9_rows :
    rows (k0_pay9 (F := Ideal)) = fun _ => zero := by
  unfold k0_pay9
  simp only [rows_zero]

/-- Payload 10: the maximum of a row with a row of a zero block, then three layers. -/
theorem pay10_rows (v117 : FVec Ideal S1024x132 .f32) (v118 : FVec Ideal S1024x132 .f32) (v121 : Vec Ideal S132x132 .f32) (v124 : Vec Ideal S132 .f32) (v131 : Vec Ideal S132x132 .f32) (v134 : Vec Ideal S132 .f32) (v141 : Vec Ideal S132x128 .f32) (v144 : Vec Ideal S128 .f32)
    (h118 : rows v118 = fun _ => zero) :
    rows (k0_pay10 (F := Ideal) v117 v118 v121 v124 v131 v134 v141 v144)
      = fun p => fc3 (rows v121) (vec v124) (rows v131) (vec v134) (rows v141) (vec v144) (relu (rows v117 p)) := by
  unfold k0_pay10
  simp only [rows_addf, rows_truncf, rows_relu, rows_maximumf_of_zero _ _ h118, rows_matmul_132_132, rows_matmul_132_128,
    rows_broadcastTo_132, rows_shapeCast_132, rows_broadcastTo_128, rows_shapeCast_128]
  rfl

/-- Payload 11: one row times its matrix plus payload 10's row times another. -/
theorem pay11_rows (v108 : FVec Ideal S1024x128 .f32) (v117 : FVec Ideal S1024x132 .f32) (v118 : FVec Ideal S1024x132 .f32) (v121 : Vec Ideal S132x132 .f32) (v124 : Vec Ideal S132 .f32) (v131 : Vec Ideal S132x132 .f32) (v134 : Vec Ideal S132 .f32) (v141 : Vec Ideal S132x128 .f32) (v144 : Vec Ideal S128 .f32) (v149 : Vec Ideal S128x128 .f32) (v153 : Vec Ideal S128x128 .f32)
    (h118 : rows v118 = fun _ => zero) :
    rows (k0_pay11 (F := Ideal) v108 v117 v118 v121 v124 v131 v134 v141 v144 v149 v153)
      = fun p => add (mm (rows v149) (rows v108 p))
          (mm (rows v153) (fc3 (rows v121) (vec v124) (rows v131) (vec v134) (rows v141) (vec v144) (relu (rows v117 p)))) := by
  unfold k0_pay11
  simp only [rows_addf, rows_truncf, rows_matmul_128_128, pay10_rows _ _ _ _ _ _ _ _ h118]

end Cert.Gnn.PayA

end
-- ==== Proof.PayB.lean ====
/-
  The kernel's payloads of its fifth to eighth printed parts, read one row at a time.

  Each payload here is a chain of vector operations on blocks of 1024 rows, and every one of those operations acts
  on each row separately.  So row `p` of the payload is a composite of row operations applied to row `p` of its
  block arguments, with the two-axis weight arguments read as matrices and the one-axis arguments as rows.
  A linear layer is `x ↦ x · W + b`.

    payload 12  a linear layer applied to the sum of a row and a constant multiple `c · b` of a bias row; the result
                laid to the right of a row of width 512; two more linear layers on that, a positive part after each;
                then the product with a last matrix, without its bias;
    payload 13  a bias row, the same at every `p`;
    payload 14  the entry by entry sum of two rows;
    payload 15  four linear layers, a positive part after each but the last, on a row laid beside the sum of two rows;
    payload 16  a row laid beside the sum of two rows;
    payload 17  four linear layers, a positive part after each but the last, on a given row of width 256;
    payload 18  a row laid beside the zero row;
    payload 19  three linear layers, a positive part after each but the last, on a given row of width 256;
    payload 20  the positive part of one linear layer on a row laid beside the zero row.

  The constant `c` of payload 12 is kept as the float it is printed as; nothing here evaluates it.
-/
import proofs.«160910_j1125281431924_1_alg».proof.Proof.Gen.KernelIdeal.Skeleton
import proofs.«160910_j1125281431924_1_alg».proof.Proof.LayersK

noncomputable section

namespace Cert.Gnn.PayB

open Idealize.ShloMosaic Idealize.ShloMosaic.TcCoe Idealize.ShloMosaic.ValueIdx Cert.KernelIdeal Cert.KernelIdeal.Gen Cert.Gnn Cert.Gnn.K

variable [Facts]

/-- Payload 12: a row of width 512 beside `(m + c · b) · U + d`, through two linear layers with a positive part after
    each, then times a last matrix (no bias is added here). -/
theorem pay12_rows (v0 : Vec Ideal S1024x512 .f32) (v156 : FVec Ideal S1024x128 .f32) (v157 : Vec Ideal S128 .f32)
    (v164 : Vec Ideal S128x128 .f32) (v167 : Vec Ideal S128 .f32) (v173 : Vec Ideal S640x132 .f32) (v176 : Vec Ideal S132 .f32)
    (v183 : Vec Ideal S132x132 .f32) (v186 : Vec Ideal S132 .f32) (v193 : Vec Ideal S132x128 .f32) :
    rows (k0_pay12 (F := Ideal) v0 v156 v157 v164 v167 v173 v176 v183 v186 v193)
      = fun p => mm (rows v193) (relu (lin (rows v183) (vec v186) (relu (lin (rows v173) (vec v176)
          (cat640 (rows v0 p) (lin (rows v164) (vec v167)
            (add (rows v156 p) (scale (Ideal.ofBits .f32 0x40000000#32) (vec v157))))))))) := by
  unfold k0_pay12
  simp only [rows_addf, rows_truncf, rows_relu, rows_matmul_128_128, rows_matmul_640_132, rows_matmul_132_132,
    rows_matmul_132_128, rows_concat_640, rows_broadcastTo_132, rows_shapeCast_132, rows_broadcastTo_128,
    rows_shapeCast_128, vec_mulf_splat]
  rfl

/-- Payload 13: a bias, the same row at every `p`. -/
theorem pay13_rows (v196 : Vec Ideal S128 .f32) :
    rows (k0_pay13 (F := Ideal) v196) = fun _ => vec v196 := by
  unfold k0_pay13
  simp only [rows_broadcastTo_128, rows_shapeCast_128]

/-- Payload 14: the sum of two rows. -/
theorem pay14_rows (v195 : FVec Ideal S1024x128 .f32) (v198 : FVec Ideal S1024x128 .f32) :
    rows (k0_pay14 (F := Ideal) v195 v198) = fun p => add (rows v195 p) (rows v198 p) := by
  unfold k0_pay14
  simp only [rows_addf]

/-- Payload 15: four linear layers, a positive part after each but the last, on a row laid beside the sum of two rows. -/
theorem pay15_rows (v30 : FVec Ideal S1024x128 .f32) (v195 : FVec Ideal S1024x128 .f32) (v198 : FVec Ideal S1024x128 .f32)
    (v202 : Vec Ideal S256x132 .f32) (v205 : Vec Ideal S132 .f32) (v212 : Vec Ideal S132x132 .f32) (v215 : Vec Ideal S132 .f32)
    (v222 : Vec Ideal S132x132 .f32) (v225 : Vec Ideal S132 .f32) (v232 : Vec Ideal S132x128 .f32) (v235 : Vec Ideal S128 .f32) :
    rows (k0_pay15 (F := Ideal) v30 v195 v198 v202 v205 v212 v215 v222 v225 v232 v235)
      = fun p => fc4 (rows v202) (vec v205) (rows v212) (vec v215) (rows v222) (vec v225) (rows v232) (vec v235)
          (cat256 (rows v30 p) (add (rows v195 p) (rows v198 p))) := by
  unfold k0_pay15
  simp only [rows_addf, rows_truncf, rows_relu, rows_matmul_256_132, rows_matmul_132_132, rows_matmul_132_128,
    rows_concat_256, rows_broadcastTo_132, rows_shapeCast_132, rows_broadcastTo_128, rows_shapeCast_128, pay14_rows]
  rfl

/-- Payload 16: a row laid beside the sum of two rows. -/
theorem pay16_rows (v30 : FVec Ideal S1024x128 .f32) (v195 : FVec Ideal S1024x128 .f32) (v198 : FVec Ideal S1024x128 .f32) :
    rows (k0_pay16 (F := Ideal) v30 v195 v198) = fun p => cat256 (rows v30 p) (add (rows v195 p) (rows v198 p)) := by
  unfold k0_pay16
  simp only [rows_concat_256, pay14_rows]

/-- Payload 17: four linear layers, a positive part after each but the last, on a row of width 256. -/
theorem pay17_rows (v239 : FVec Ideal S1024x256 .f32) (v241 : Vec Ideal S256x132 .f32) (v244 : Vec Ideal S132 .f32)
    (v251 : Vec Ideal S132x132 .f32) (v254 : Vec Ideal S132 .f32) (v261 : Vec Ideal S132x132 .f32) (v264 : Vec Ideal S132 .f32)
    (v271 : Vec Ideal S132x128 .f32) (v274 : Vec Ideal S128 .f32) :
    rows (k0_pay17 (F := Ideal) v239 v241 v244 v251 v254 v261 v264 v271 v274)
      = fun p => fc4 (rows v241) (vec v244) (rows v251) (vec v254) (rows v261) (vec v264) (rows v271) (vec v274)
          (rows v239 p) := by
  unfold k0_pay17
  simp only [rows_addf, rows_truncf, rows_relu, rows_matmul_256_132, rows_matmul_132_132, rows_matmul_132_128,
    rows_broadcastTo_132, rows_shapeCast_132, rows_broadcastTo_128, rows_shapeCast_128]
  rfl

/-- Payload 18: a row laid beside the zero row. -/
theorem pay18_rows (v69 : FVec Ideal S1024x128 .f32) :
    rows (k0_pay18 (F := Ideal) v69) = fun p => cat256 (rows v69 p) zero := by
  unfold k0_pay18
  simp only [rows_concat_256, rows_zero]

/-- Payload 19: three linear layers, a positive part after each but the last, on a row of width 256. -/
theorem pay19_rows (v279 : FVec Ideal S1024x256 .f32) (v281 : Vec Ideal S256x132 .f32) (v284 : Vec Ideal S132 .f32)
    (v291 : Vec Ideal S132x132 .f32) (v294 : Vec Ideal S132 .f32) (v301 : Vec Ideal S132x128 .f32) (v304 : Vec Ideal S128 .f32) :
    rows (k0_pay19 (F := Ideal) v279 v281 v284 v291 v294 v301 v304)
      = fun p => fc3 (rows v281) (vec v284) (rows v291) (vec v294) (rows v301) (vec v304) (rows v279 p) := by
  unfold k0_pay19
  simp only [rows_addf, rows_truncf, rows_relu, rows_matmul_256_132, rows_matmul_132_132, rows_matmul_132_128,
    rows_broadcastTo_132, rows_shapeCast_132, rows_broadcastTo_128, rows_shapeCast_128]
  rfl

/-- Payload 20: the positive part of one linear layer on a row laid beside the zero row. -/
theorem pay20_rows (v238 : FVec Ideal S1024x128 .f32) (v311 : Vec Ideal S256x132 .f32) (v314 : Vec Ideal S132 .f32) :
    rows (k0_pay20 (F := Ideal) v238 v311 v314)
      = fun p => relu (lin (rows v311) (vec v314) (cat256 (rows v238 p) zero)) := by
  unfold k0_pay20
  simp only [rows_addf, rows_truncf, rows_relu, rows_zero, rows_matmul_256_132, rows_concat_256, rows_broadcastTo_132,
    rows_shapeCast_132]
  rfl

end Cert.Gnn.PayB

end
-- ==== Proof.PayC.lean ====
/-
  The payloads of the kernel's ninth to twelfth printed parts, read one row at a time.

  Each of these values is a block of 1024 rows (the last one a weight matrix), and each is built from its
  arguments by matrix products into a zero accumulator, sums with a bias row, positive parts, changes of float
  format and concatenations along the second axis.  All of these act on every row separately, so row `p` of
  the value is a composite of the row operations `mm`, `add`, `relu`, `scale`, `cat256` (and `lin`, `fc3`
  where a whole layer occurs) applied to row `p` of the block arguments and to the weights.  This file
  states that composite for each payload:

    21  x ↦ lin W₂ b₂ (relu (lin W₁ b₁ x))                       the last two layers of a three-layer map
    22  x ↦ relu (lin W₁ b₁ (relu (lin W₀ b₀ (x ++ 0))))         its first two layers, on a row beside zero
    23  x ↦ lin W b x                                            one layer
    24  the first layer on  u ++ (aggregate of two components), the second component being payload 23
    25  x ↦ lin W₂ b₂ (relu (lin W₁ b₁ (relu x)))
    26  u ++ (aggregate of one component, that component being payload 25), in the narrow float format
    27  x ↦ fc3 … x                                              a whole three-layer map
    28  x ↦ x · W + 1 · b                                        a message with its counted bias
    29  a weight matrix in the narrow float format: the same rows

  where the aggregate of components cᵢ is  (Σ cᵢ · Wmsg + n · bmsg) · Wupd + bupd.
-/
import proofs.«160910_j1125281431924_1_alg».proof.Proof.Gen.KernelIdeal.Skeleton
import proofs.«160910_j1125281431924_1_alg».proof.Proof.LayersK

noncomputable section

namespace Cert.Gnn.PayC

open Idealize.ShloMosaic Idealize.ShloMosaic.TcCoe Idealize.ShloMosaic.ValueIdx Cert.KernelIdeal Cert.KernelIdeal.Gen Cert.Gnn Cert.Gnn.K

variable [Facts]

/-- The last two layers of a three-layer map, row by row. -/
theorem pay21_rows (v319 : FVec Ideal S1024x132 .f32) (v321 : Vec Ideal S132x132 .f32) (v324 : Vec Ideal S132 .f32) (v331 : Vec Ideal S132x128 .f32) (v334 : Vec Ideal S128 .f32) :
    rows (k0_pay21 (F := Ideal) v319 v321 v324 v331 v334)
      = fun p => lin (rows v331) (vec v334) (relu (lin (rows v321) (vec v324) (rows v319 p))) := by
  unfold k0_pay21
  simp only [rows_addf, rows_truncf, rows_relu, rows_zero, rows_matmul_640_132, rows_matmul_132_132, rows_matmul_132_128, rows_matmul_256_132, rows_matmul_128_128, rows_concat_640, rows_concat_256, rows_broadcastTo_132, rows_shapeCast_132, rows_broadcastTo_128, rows_shapeCast_128, vec_mulf_splat]
  rfl

/-- The first two layers of a three-layer map, each followed by its positive part, on a row laid beside the zero row. -/
theorem pay22_rows (v277 : FVec Ideal S1024x128 .f32) (v341 : Vec Ideal S256x132 .f32) (v344 : Vec Ideal S132 .f32) (v351 : Vec Ideal S132x132 .f32) (v354 : Vec Ideal S132 .f32) :
    rows (k0_pay22 (F := Ideal) v277 v341 v344 v351 v354)
      = fun p => relu (lin (rows v351) (vec v354) (relu (lin (rows v341) (vec v344) (cat256 (rows v277 p) zero)))) := by
  unfold k0_pay22
  simp only [rows_addf, rows_truncf, rows_relu, rows_zero, rows_matmul_640_132, rows_matmul_132_132, rows_matmul_132_128, rows_matmul_256_132, rows_matmul_128_128, rows_concat_640, rows_concat_256, rows_broadcastTo_132, rows_shapeCast_132, rows_broadcastTo_128, rows_shapeCast_128, vec_mulf_splat]
  rfl

/-- One layer, row by row. -/
theorem pay23_rows (v359 : FVec Ideal S1024x132 .f32) (v361 : Vec Ideal S132x128 .f32) (v364 : Vec Ideal S128 .f32) :
    rows (k0_pay23 (F := Ideal) v359 v361 v364) = fun p => lin (rows v361) (vec v364) (rows v359 p) := by
  unfold k0_pay23
  simp only [rows_addf, rows_truncf, rows_relu, rows_zero, rows_matmul_640_132, rows_matmul_132_132, rows_matmul_132_128, rows_matmul_256_132, rows_matmul_128_128, rows_concat_640, rows_concat_256, rows_broadcastTo_132, rows_shapeCast_132, rows_broadcastTo_128, rows_shapeCast_128, vec_mulf_splat]
  rfl

/-- The first layer of a three-layer map on a row laid beside the aggregate of two components: the first component is given,
the second is the one layer of payload 23. -/
theorem pay24_rows (v199 : FVec Ideal S1024x128 .f32) (v337 : FVec Ideal S1024x128 .f32) (v359 : FVec Ideal S1024x132 .f32) (v361 : Vec Ideal S132x128 .f32) (v364 : Vec Ideal S128 .f32) (v369 : Vec Ideal S128x128 .f32) (v373 : Vec Ideal S128x128 .f32) (v377 : Vec Ideal S128 .f32) (v384 : Vec Ideal S128x128 .f32) (v387 : Vec Ideal S128 .f32) (v393 : Vec Ideal S256x132 .f32) (v396 : Vec Ideal S132 .f32) :
    rows (k0_pay24 (F := Ideal) v199 v337 v359 v361 v364 v369 v373 v377 v384 v387 v393 v396)
      = fun p => lin (rows v393) (vec v396) (cat256 (rows v199 p)
          (lin (rows v384) (vec v387)
            (add (add (mm (rows v369) (rows v337 p)) (mm (rows v373) (lin (rows v361) (vec v364) (rows v359 p))))
              (scale (Ideal.ofBits .f32 0x40000000#32) (vec v377))))) := by
  unfold k0_pay24
  simp only [rows_addf, rows_truncf, rows_relu, rows_zero, rows_matmul_640_132, rows_matmul_132_132, rows_matmul_132_128, rows_matmul_256_132, rows_matmul_128_128, rows_concat_640, rows_concat_256, rows_broadcastTo_132, rows_shapeCast_132, rows_broadcastTo_128, rows_shapeCast_128, vec_mulf_splat, pay23_rows]
  rfl

/-- A positive part, then the last two layers of a three-layer map. -/
theorem pay25_rows (v399 : FVec Ideal S1024x132 .f32) (v403 : Vec Ideal S132x132 .f32) (v406 : Vec Ideal S132 .f32) (v413 : Vec Ideal S132x128 .f32) (v416 : Vec Ideal S128 .f32) :
    rows (k0_pay25 (F := Ideal) v399 v403 v406 v413 v416)
      = fun p => lin (rows v413) (vec v416) (relu (lin (rows v403) (vec v406) (relu (rows v399 p)))) := by
  unfold k0_pay25
  simp only [rows_addf, rows_truncf, rows_relu, rows_zero, rows_matmul_640_132, rows_matmul_132_132, rows_matmul_132_128, rows_matmul_256_132, rows_matmul_128_128, rows_concat_640, rows_concat_256, rows_broadcastTo_132, rows_shapeCast_132, rows_broadcastTo_128, rows_shapeCast_128, vec_mulf_splat]
  rfl

/-- A row laid beside the aggregate of one component, that component being payload 25. -/
theorem pay26_rows (v108 : FVec Ideal S1024x128 .f32) (v399 : FVec Ideal S1024x132 .f32) (v403 : Vec Ideal S132x132 .f32) (v406 : Vec Ideal S132 .f32) (v413 : Vec Ideal S132x128 .f32) (v416 : Vec Ideal S128 .f32) (v421 : Vec Ideal S128x128 .f32) (v424 : Vec Ideal S128 .f32) (v431 : Vec Ideal S128x128 .f32) (v434 : Vec Ideal S128 .f32) :
    rows (k0_pay26 (F := Ideal) v108 v399 v403 v406 v413 v416 v421 v424 v431 v434)
      = fun p => cat256 (rows v108 p)
          (lin (rows v431) (vec v434)
            (add (mm (rows v421) (lin (rows v413) (vec v416) (relu (lin (rows v403) (vec v406) (relu (rows v399 p))))))
              (scale (Ideal.ofBits .f32 0x3F800000#32) (vec v424)))) := by
  unfold k0_pay26
  simp only [rows_addf, rows_truncf, rows_relu, rows_zero, rows_matmul_640_132, rows_matmul_132_132, rows_matmul_132_128, rows_matmul_256_132, rows_matmul_128_128, rows_concat_640, rows_concat_256, rows_broadcastTo_132, rows_shapeCast_132, rows_broadcastTo_128, rows_shapeCast_128, vec_mulf_splat, pay25_rows]
  rfl

/-- A whole three-layer map, row by row. -/
theorem pay27_rows (v439 : FVec Ideal S1024x256 .bf16) (v440 : Vec Ideal S256x132 .f32) (v443 : Vec Ideal S132 .f32) (v450 : Vec Ideal S132x132 .f32) (v453 : Vec Ideal S132 .f32) (v460 : Vec Ideal S132x128 .f32) (v463 : Vec Ideal S128 .f32) :
    rows (k0_pay27 (F := Ideal) v439 v440 v443 v450 v453 v460 v463)
      = fun p => fc3 (rows v440) (vec v443) (rows v450) (vec v453) (rows v460) (vec v463) (rows v439 p) := by
  unfold k0_pay27
  simp only [rows_addf, rows_truncf, rows_relu, rows_zero, rows_matmul_640_132, rows_matmul_132_132, rows_matmul_132_128, rows_matmul_256_132, rows_matmul_128_128, rows_concat_640, rows_concat_256, rows_broadcastTo_132, rows_shapeCast_132, rows_broadcastTo_128, rows_shapeCast_128, vec_mulf_splat]
  rfl

/-- One message: the row times the message matrix, plus the message bias counted once. -/
theorem pay28_rows (v419 : FVec Ideal S1024x128 .f32) (v468 : Vec Ideal S128x128 .f32) (v471 : Vec Ideal S128 .f32) :
    rows (k0_pay28 (F := Ideal) v419 v468 v471)
      = fun p => add (mm (rows v468) (rows v419 p)) (scale (Ideal.ofBits .f32 0x3F800000#32) (vec v471)) := by
  unfold k0_pay28
  simp only [rows_addf, rows_truncf, rows_relu, rows_zero, rows_matmul_640_132, rows_matmul_132_132, rows_matmul_132_128, rows_matmul_256_132, rows_matmul_128_128, rows_concat_640, rows_concat_256, rows_broadcastTo_132, rows_shapeCast_132, rows_broadcastTo_128, rows_shapeCast_128, vec_mulf_splat]

/-- A weight matrix in the narrow float format has the same rows. -/
theorem pay29_rows (v478 : Vec Ideal S128x128 .f32) :
    rows (k0_pay29 (F := Ideal) v478) = rows v478 := by
  unfold k0_pay29
  simp only [rows_addf, rows_truncf, rows_relu, rows_zero, rows_matmul_640_132, rows_matmul_132_132, rows_matmul_132_128, rows_matmul_256_132, rows_matmul_128_128, rows_concat_640, rows_concat_256, rows_broadcastTo_132, rows_shapeCast_132, rows_broadcastTo_128, rows_shapeCast_128, vec_mulf_splat]

end Cert.Gnn.PayC

end
-- ==== Proof.PayD.lean ====
/-
  Nine values of the kernel body, each read one row at a time.

  Every one of these values is built from blocks of 1024 rows by operations that act on each row
  separately: a row times a weight matrix, a sum entry by entry, a bias added to every row, a positive
  part, two rows laid side by side, a change of float format (the identity on the extended reals), and
  the cast of a block to a stack of one slab.  So row `p` of the value is a composite of the row
  operations `mm`, `add`, `relu`, `scale`, `cat256` (and `lin`, `fc3` for a whole layer or three)
  applied to row `p` of its operands and to the weights, and each theorem below states that composite:

    the down-pass state of a point node from an up-pass state and one aggregated message (three layers);
    a single product of a block by a message matrix;  a block in the narrower float format;
    the first layer, with its positive part, over an up-pass state beside the aggregate of four messages;
    the last two layers;  the sum of four message products;  the message bias counted four times;
    a block as a stack of one slab;  and three layers over a state beside the aggregate of four messages,
    as a stack of one slab.
-/
import proofs.«160910_j1125281431924_1_alg».proof.Proof.Gen.KernelIdeal.Skeleton
import proofs.«160910_j1125281431924_1_alg».proof.Proof.LayersK

noncomputable section

namespace Cert.Gnn.PayD

open Idealize.ShloMosaic Idealize.ShloMosaic.TcCoe Idealize.ShloMosaic.ValueIdx Cert.KernelIdeal Cert.KernelIdeal.Gen Cert.Gnn Cert.Gnn.K

variable [Facts]

/-- Three layers over a state laid beside one updated message. -/
theorem pay30_rows (v147 : FVec Ideal S1024x128 .f32) (v477 : FVec Ideal S1024x128 .bf16) (v479 : FVec Ideal S128x128 .bf16) (v481 : Vec Ideal S128 .f32) (v487 : Vec Ideal S256x132 .f32) (v490 : Vec Ideal S132 .f32) (v497 : Vec Ideal S132x132 .f32) (v500 : Vec Ideal S132 .f32) (v507 : Vec Ideal S132x128 .f32) (v510 : Vec Ideal S128 .f32) :
    rows (k0_pay30 (F := Ideal) v147 v477 v479 v481 v487 v490 v497 v500 v507 v510)
      = fun p => fc3 (rows v487) (vec v490) (rows v497) (vec v500) (rows v507) (vec v510)
          (cat256 (rows v147 p) (lin (rows v479) (vec v481) (rows v477 p))) := by
  unfold k0_pay30
  simp only [rows_addf, rows_truncf, rows_relu, rows_matmul_128_128, rows_matmul_256_132, rows_matmul_132_132, rows_matmul_132_128,
    rows_concat_256, rows_broadcastTo_132, rows_shapeCast_132, rows_broadcastTo_128, rows_shapeCast_128]
  rfl

/-- One product of a block by a message matrix. -/
theorem pay31_rows (v307 : FVec Ideal S1024x128 .f32) (v515 : Vec Ideal S128x128 .f32) :
    rows (k0_pay31 (F := Ideal) v307 v515) = fun p => mm (rows v515) (rows v307 p) := by
  unfold k0_pay31
  simp only [rows_truncf, rows_matmul_128_128]

/-- A change of float format leaves every row as it is. -/
theorem pay32_rows (v466 : FVec Ideal S1024x128 .f32) :
    rows (k0_pay32 (F := Ideal) v466) = fun p => rows v466 p := by
  unfold k0_pay32
  simp only [rows_truncf]

/-- The first layer, with its positive part, over a state beside the aggregate of four messages:
    three further products are added to a running sum, then the bias counted four times, then the update layer. -/
theorem pay33_rows (v30 : FVec Ideal S1024x128 .f32) (v337 : FVec Ideal S1024x128 .f32) (v513 : FVec Ideal S1024x128 .f32) (v517 : FVec Ideal S1024x128 .f32) (v518 : FVec Ideal S1024x128 .bf16) (v519 : Vec Ideal S128x128 .f32) (v524 : Vec Ideal S128x128 .f32) (v529 : Vec Ideal S128x128 .f32) (v533 : Vec Ideal S128 .f32) (v540 : Vec Ideal S128x128 .f32) (v543 : Vec Ideal S128 .f32) (v549 : Vec Ideal S256x132 .f32) (v552 : Vec Ideal S132 .f32) :
    rows (k0_pay33 (F := Ideal) v30 v337 v513 v517 v518 v519 v524 v529 v533 v540 v543 v549 v552)
      = fun p => relu (lin (rows v549) (vec v552)
          (cat256 (rows v30 p)
            (lin (rows v540) (vec v543)
              (add (add (add (add (rows v517 p) (mm (rows v519) (rows v518 p))) (mm (rows v524) (rows v513 p)))
                (mm (rows v529) (rows v337 p))) (scale (Ideal.ofBits .f32 0x40800000#32) (vec v533)))))) := by
  unfold k0_pay33
  simp only [rows_addf, rows_truncf, rows_relu, rows_matmul_128_128, rows_matmul_256_132, rows_concat_256, rows_broadcastTo_132,
    rows_shapeCast_132, rows_broadcastTo_128, rows_shapeCast_128, vec_mulf_splat]
  rfl

/-- The last two layers, a positive part between them. -/
theorem pay34_rows (v558 : FVec Ideal S1024x132 .bf16) (v559 : Vec Ideal S132x132 .f32) (v562 : Vec Ideal S132 .f32) (v569 : Vec Ideal S132x128 .f32) (v572 : Vec Ideal S128 .f32) :
    rows (k0_pay34 (F := Ideal) v558 v559 v562 v569 v572)
      = fun p => lin (rows v569) (vec v572) (relu (lin (rows v559) (vec v562) (rows v558 p))) := by
  unfold k0_pay34
  simp only [rows_addf, rows_truncf, rows_relu, rows_matmul_132_132, rows_matmul_132_128, rows_broadcastTo_132, rows_shapeCast_132,
    rows_broadcastTo_128, rows_shapeCast_128]
  rfl

/-- The sum of four message products. -/
theorem pay35_rows (v307 : FVec Ideal S1024x128 .f32) (v367 : FVec Ideal S1024x128 .f32) (v466 : FVec Ideal S1024x128 .f32) (v513 : FVec Ideal S1024x128 .f32) (v577 : Vec Ideal S128x128 .f32) (v581 : Vec Ideal S128x128 .f32) (v586 : Vec Ideal S128x128 .f32) (v591 : Vec Ideal S128x128 .f32) :
    rows (k0_pay35 (F := Ideal) v307 v367 v466 v513 v577 v581 v586 v591)
      = fun p => add (add (add (mm (rows v577) (rows v307 p)) (mm (rows v581) (rows v466 p))) (mm (rows v586) (rows v513 p)))
          (mm (rows v591) (rows v367 p)) := by
  unfold k0_pay35
  simp only [rows_addf, rows_truncf, rows_matmul_128_128]

/-- The message bias counted four times. -/
theorem pay36_rows (v595 : Vec Ideal S128 .f32) :
    vec (k0_pay36 (F := Ideal) v595) = scale (Ideal.ofBits .f32 0x40800000#32) (vec v595) := by
  unfold k0_pay36
  simp only [vec_mulf_splat]

/-- A block as a stack of one slab. -/
theorem pay37_rows (v575 : FVec Ideal S1024x128 .f32) :
    slabs (k0_pay37 (F := Ideal) v575) = fun _ p => rows v575 p := by
  unfold k0_pay37
  simp only [slabs_shapeCast]

/-- Three layers over a state beside the aggregate of four messages, as a stack of one slab. -/
theorem pay38_rows (v30 : FVec Ideal S1024x128 .f32) (v594 : FVec Ideal S1024x128 .f32) (v597 : FVec Ideal S128 .f32) (v602 : Vec Ideal S128x128 .f32) (v605 : Vec Ideal S128 .f32) (v611 : Vec Ideal S256x132 .f32) (v614 : Vec Ideal S132 .f32) (v621 : Vec Ideal S132x132 .f32) (v624 : Vec Ideal S132 .f32) (v631 : Vec Ideal S132x128 .f32) (v634 : Vec Ideal S128 .f32) :
    slabs (k0_pay38 (F := Ideal) v30 v594 v597 v602 v605 v611 v614 v621 v624 v631 v634)
      = fun _ p => fc3 (rows v611) (vec v614) (rows v621) (vec v624) (rows v631) (vec v634)
          (cat256 (rows v30 p) (lin (rows v602) (vec v605) (add (rows v594 p) (vec v597)))) := by
  unfold k0_pay38
  simp only [slabs_shapeCast, rows_addf, rows_truncf, rows_relu, rows_matmul_128_128, rows_matmul_256_132, rows_matmul_132_132,
    rows_matmul_132_128, rows_concat_256, rows_broadcastTo_132, rows_shapeCast_132, rows_broadcastTo_128, rows_shapeCast_128]
  rfl

end Cert.Gnn.PayD

end
-- ==== Proof.KernelBlock.lean ====
/-
  What one grid point's block holds, one row at a time.

  The kernel body stores the eight results stacked along a leading axis. Slab `s` of the stack is a shape cast of
  one node's block. The nodes are taken in the order the graph computes them: each node's block, read one row at a
  time through the payloads' row equations (Proof/PayA … PayD) and the operations' (Proof/LayersK), is the node's
  row function (Proof/Rows.lean) of the matching row of the point's `signal` block, of the weights, and of the
  rows of the nodes before it; once a node's rows are known its block is given a name, so the later nodes are
  read over names, not over the whole computation behind them. Row `p` of slab `s` is then
  `out w (row p of the signal block) s`. The kernel's second point node is its first, used twice; the two row
  functions agree by definition.
-/
import proofs.«160910_j1125281431924_1_alg».proof.Proof.KernelIdealValue
import proofs.«160910_j1125281431924_1_alg».proof.Proof.PayA
import proofs.«160910_j1125281431924_1_alg».proof.Proof.PayB
import proofs.«160910_j1125281431924_1_alg».proof.Proof.PayC
import proofs.«160910_j1125281431924_1_alg».proof.Proof.PayD

noncomputable section

namespace Cert.Gnn.KBlock

open Idealize.ShloMosaic Idealize.ShloMosaic.TcCoe Idealize.ShloMosaic.ValueIdx
open Cert.KernelIdeal Cert.KernelIdeal.Gen Cert.KernelIdeal.GenP Cert.KernelIdeal.ValueP
open Cert.Gnn Cert.Gnn.K Cert.Gnn.PayA Cert.Gnn.PayB Cert.Gnn.PayC Cert.Gnn.PayD

variable [Facts]

/-- The weights among the body's loads (the loads come in the order the body first reads them). -/
abbrev wP (P1 : Vec Ideal S640x132 .f32) (P2 : Vec Ideal S132 .f32) (P3 : Vec Ideal S132x132 .f32) (P4 : Vec Ideal S132 .f32) (P5 : Vec Ideal S132x128 .f32) (P6 : Vec Ideal S128 .f32) (P7 : Vec Ideal S256x132 .f32) (P8 : Vec Ideal S132 .f32) (P9 : Vec Ideal S132x132 .f32) (P10 : Vec Ideal S132 .f32) (P11 : Vec Ideal S132x132 .f32) (P12 : Vec Ideal S132 .f32) (P13 : Vec Ideal S132x128 .f32) (P14 : Vec Ideal S128 .f32) (P15 : Vec Ideal S128x128 .f32) (P16 : Vec Ideal S128 .f32) (P17 : Vec Ideal S128x128 .f32) (P18 : Vec Ideal S128 .f32) (P19 : Vec Ideal S256x132 .f32) (P20 : Vec Ideal S132 .f32) (P21 : Vec Ideal S132x132 .f32) (P22 : Vec Ideal S132 .f32) (P23 : Vec Ideal S132x132 .f32) (P24 : Vec Ideal S132 .f32) (P25 : Vec Ideal S132x128 .f32) (P26 : Vec Ideal S128 .f32) (P27 : Vec Ideal S256x132 .f32) (P28 : Vec Ideal S132 .f32) (P29 : Vec Ideal S132x132 .f32) (P30 : Vec Ideal S132 .f32) (P31 : Vec Ideal S132x128 .f32) (P32 : Vec Ideal S128 .f32) (P33 : Vec Ideal S128x128 .f32) (P34 : Vec Ideal S128 .f32) (P35 : Vec Ideal S128x128 .f32) (P36 : Vec Ideal S128 .f32) : Weights := weightsOf P15 P16 P17 P18 P1 P2 P3 P4 P5 P6 P19 P20 P21 P22 P23 P24 P25 P26 P7 P8 P9 P10 P11 P12 P13 P14 P33 P34 P35 P36 P27 P28 P29 P30 P31 P32

/-- The index inside slab `s` under block index `(s, p, q)` is `(0, p, q)`. -/
theorem ix37_0_ix3 (s : Fin 8) (p : Fin 1024) (q : Fin 128) : ix37_0 (ix3 s p q) = ix3 (0 : Fin 1) p q := by
  funext a
  match a with
  | ⟨0, _⟩ => rfl
  | ⟨1, _⟩ => rfl
  | ⟨2, _⟩ => rfl

set_option maxHeartbeats 4000000 in
/-- The block the body leaves: slab `s`, row `p` is `out` of row `p` of the `signal` block. -/
theorem block (P0 : Vec Ideal S1024x512 .f32) (P1 : Vec Ideal S640x132 .f32) (P2 : Vec Ideal S132 .f32) (P3 : Vec Ideal S132x132 .f32) (P4 : Vec Ideal S132 .f32) (P5 : Vec Ideal S132x128 .f32) (P6 : Vec Ideal S128 .f32) (P7 : Vec Ideal S256x132 .f32) (P8 : Vec Ideal S132 .f32) (P9 : Vec Ideal S132x132 .f32) (P10 : Vec Ideal S132 .f32) (P11 : Vec Ideal S132x132 .f32) (P12 : Vec Ideal S132 .f32) (P13 : Vec Ideal S132x128 .f32) (P14 : Vec Ideal S128 .f32) (P15 : Vec Ideal S128x128 .f32) (P16 : Vec Ideal S128 .f32) (P17 : Vec Ideal S128x128 .f32) (P18 : Vec Ideal S128 .f32) (P19 : Vec Ideal S256x132 .f32) (P20 : Vec Ideal S132 .f32) (P21 : Vec Ideal S132x132 .f32) (P22 : Vec Ideal S132 .f32) (P23 : Vec Ideal S132x132 .f32) (P24 : Vec Ideal S132 .f32) (P25 : Vec Ideal S132x128 .f32) (P26 : Vec Ideal S128 .f32) (P27 : Vec Ideal S256x132 .f32) (P28 : Vec Ideal S132 .f32) (P29 : Vec Ideal S132x132 .f32) (P30 : Vec Ideal S132 .f32) (P31 : Vec Ideal S132x128 .f32) (P32 : Vec Ideal S128 .f32) (P33 : Vec Ideal S128x128 .f32) (P34 : Vec Ideal S128 .f32) (P35 : Vec Ideal S128x128 .f32) (P36 : Vec Ideal S128 .f32) :
    slabs (E37 (F := Ideal) P0 P1 P2 P3 P4 P5 P6 P7 P8 P9 P10 P11 P12 P13 P14 P15 P16 P17 P18 P19 P20 P21 P22 P23 P24 P25 P26 P27 P28 P29 P30 P31 P32 P33 P34 P35 P36) = fun s p => out (wP P1 P2 P3 P4 P5 P6 P7 P8 P9 P10 P11 P12 P13 P14 P15 P16 P17 P18 P19 P20 P21 P22 P23 P24 P25 P26 P27 P28 P29 P30 P31 P32 P33 P34 P35 P36) (rows P0 p) s := by
  unfold E37 Cat37_0
  have hP1 : rows (k0_pay2 (F := Ideal) P0 P1 P2 P3 P4 P5 P6) = fun p => upP1 (wP P1 P2 P3 P4 P5 P6 P7 P8 P9 P10 P11 P12 P13 P14 P15 P16 P17 P18 P19 P20 P21 P22 P23 P24 P25 P26 P27 P28 P29 P30 P31 P32 P33 P34 P35 P36) (rows P0 p) := by
    simp only [pay2_rows, rows_addf, rows_truncf, rows_relu, rows_zero, rows_shapeCast_132, rows_shapeCast_128, rows_broadcastTo_132, rows_broadcastTo_128,
      vec_mulf_splat, rows_concat_640, rows_concat_256, rows_matmul_640_132, rows_matmul_132_132, rows_matmul_132_128, rows_matmul_256_132, rows_matmul_128_128]
    rfl
  generalize k0_pay2 (F := Ideal) P0 P1 P2 P3 P4 P5 P6 = vP1 at hP1 ⊢
  have hC1 : rows (k0_pay7 (k0_pay6 vP1 P7 P8) P9 P10 P11 P12 P13 P14) = fun p => upC1 (wP P1 P2 P3 P4 P5 P6 P7 P8 P9 P10 P11 P12 P13 P14 P15 P16 P17 P18 P19 P20 P21 P22 P23 P24 P25 P26 P27 P28 P29 P30 P31 P32 P33 P34 P35 P36) (rows P0 p) := by
    simp only [pay7_rows, pay6_rows, rows_addf, rows_truncf, rows_relu, rows_zero, rows_shapeCast_132, rows_shapeCast_128, rows_broadcastTo_132, rows_broadcastTo_128,
      vec_mulf_splat, rows_concat_640, rows_concat_256, rows_matmul_640_132, rows_matmul_132_132, rows_matmul_132_128, rows_matmul_256_132, rows_matmul_128_128, hP1]
    rfl
  generalize k0_pay7 (k0_pay6 vP1 P7 P8) P9 P10 P11 P12 P13 P14 = vC1 at hC1 ⊢
  have hC2 : rows (k0_pay10 (k0_pay8 vP1 P7 P8) (k0_pay9 (F := Ideal)) P9 P10 P11 P12 P13 P14) = fun p => upC2 (wP P1 P2 P3 P4 P5 P6 P7 P8 P9 P10 P11 P12 P13 P14 P15 P16 P17 P18 P19 P20 P21 P22 P23 P24 P25 P26 P27 P28 P29 P30 P31 P32 P33 P34 P35 P36) (rows P0 p) := by
    simp only [pay10_rows, pay8_rows, pay9_rows, rows_addf, rows_truncf, rows_relu, rows_zero, rows_shapeCast_132, rows_shapeCast_128, rows_broadcastTo_132, rows_broadcastTo_128,
      vec_mulf_splat, rows_concat_640, rows_concat_256, rows_matmul_640_132, rows_matmul_132_132, rows_matmul_132_128, rows_matmul_256_132, rows_matmul_128_128, hP1]
    rfl
  generalize k0_pay10 (k0_pay8 vP1 P7 P8) (k0_pay9 (F := Ideal)) P9 P10 P11 P12 P13 P14 = vC2 at hC2 ⊢
  have hP3 : rows (addf (k0_pay12 P0 (k0_pay11 vC1 (k0_pay8 vP1 P7 P8) (k0_pay9 (F := Ideal)) P9 P10 P11 P12 P13 P14 P15 P15) P16 P17 P18 P1 P2 P3 P4 P5) (broadcastTo S1024x128 (shapeCast S1x128 P6 Facts₀.shapeCasts_S128_S1x128) Facts₀.broadcasts_S1x128_S1024x128)) = fun p => upP3 (wP P1 P2 P3 P4 P5 P6 P7 P8 P9 P10 P11 P12 P13 P14 P15 P16 P17 P18 P19 P20 P21 P22 P23 P24 P25 P26 P27 P28 P29 P30 P31 P32 P33 P34 P35 P36) (rows P0 p) := by
    simp only [pay12_rows, pay11_rows, pay8_rows, pay9_rows, rows_addf, rows_truncf, rows_relu, rows_zero, rows_shapeCast_132, rows_shapeCast_128, rows_broadcastTo_132, rows_broadcastTo_128,
      vec_mulf_splat, rows_concat_640, rows_concat_256, rows_matmul_640_132, rows_matmul_132_132, rows_matmul_132_128, rows_matmul_256_132, rows_matmul_128_128, hP1, hC1]
    rfl
  generalize addf (k0_pay12 P0 (k0_pay11 vC1 (k0_pay8 vP1 P7 P8) (k0_pay9 (F := Ideal)) P9 P10 P11 P12 P13 P14 P15 P15) P16 P17 P18 P1 P2 P3 P4 P5) (broadcastTo S1024x128 (shapeCast S1x128 P6 Facts₀.shapeCasts_S128_S1x128) Facts₀.broadcasts_S1x128_S1024x128) = vP3 at hP3 ⊢
  have hL2 : rows (k0_pay15 vP1 (k0_pay12 P0 (k0_pay11 vC1 (k0_pay8 vP1 P7 P8) (k0_pay9 (F := Ideal)) P9 P10 P11 P12 P13 P14 P15 P15) P16 P17 P18 P1 P2 P3 P4 P5) (broadcastTo S1024x128 (shapeCast S1x128 P6 Facts₀.shapeCasts_S128_S1x128) Facts₀.broadcasts_S1x128_S1024x128) P19 P20 P21 P22 P23 P24 P25 P26) = fun p => upL2 (wP P1 P2 P3 P4 P5 P6 P7 P8 P9 P10 P11 P12 P13 P14 P15 P16 P17 P18 P19 P20 P21 P22 P23 P24 P25 P26 P27 P28 P29 P30 P31 P32 P33 P34 P35 P36) (rows P0 p) := by
    simp only [pay15_rows, pay12_rows, pay11_rows, pay8_rows, pay9_rows, rows_addf, rows_truncf, rows_relu, rows_zero, rows_shapeCast_132, rows_shapeCast_128, rows_broadcastTo_132, rows_broadcastTo_128,
      vec_mulf_splat, rows_concat_640, rows_concat_256, rows_matmul_640_132, rows_matmul_132_132, rows_matmul_132_128, rows_matmul_256_132, rows_matmul_128_128, hP1, hC1]
    rfl
  generalize k0_pay15 vP1 (k0_pay12 P0 (k0_pay11 vC1 (k0_pay8 vP1 P7 P8) (k0_pay9 (F := Ideal)) P9 P10 P11 P12 P13 P14 P15 P15) P16 P17 P18 P1 P2 P3 P4 P5) (broadcastTo S1024x128 (shapeCast S1x128 P6 Facts₀.shapeCasts_S128_S1x128) Facts₀.broadcasts_S1x128_S1024x128) P19 P20 P21 P22 P23 P24 P25 P26 = vL2 at hL2 ⊢
  have hL3 : rows (k0_pay17 (concatenate S1024x256 1 [⟨S1024x128, vP1⟩, ⟨S1024x128, vP3⟩] Facts₀.concatenates_S1024x128_S1024x128_S1024x256_d1) P19 P20 P21 P22 P23 P24 P25 P26) = fun p => upL3 (wP P1 P2 P3 P4 P5 P6 P7 P8 P9 P10 P11 P12 P13 P14 P15 P16 P17 P18 P19 P20 P21 P22 P23 P24 P25 P26 P27 P28 P29 P30 P31 P32 P33 P34 P35 P36) (rows P0 p) := by
    simp only [pay17_rows, rows_addf, rows_truncf, rows_relu, rows_zero, rows_shapeCast_132, rows_shapeCast_128, rows_broadcastTo_132, rows_broadcastTo_128,
      vec_mulf_splat, rows_concat_640, rows_concat_256, rows_matmul_640_132, rows_matmul_132_132, rows_matmul_132_128, rows_matmul_256_132, rows_matmul_128_128, hP1, hP3]
    rfl
  generalize k0_pay17 (concatenate S1024x256 1 [⟨S1024x128, vP1⟩, ⟨S1024x128, vP3⟩] Facts₀.concatenates_S1024x128_S1024x128_S1024x256_d1) P19 P20 P21 P22 P23 P24 P25 P26 = vL3 at hL3 ⊢
  have hdL2 : rows (k0_pay21 (k0_pay20 vL2 P27 P28) P29 P30 P31 P32) = fun p => dL2 (wP P1 P2 P3 P4 P5 P6 P7 P8 P9 P10 P11 P12 P13 P14 P15 P16 P17 P18 P19 P20 P21 P22 P23 P24 P25 P26 P27 P28 P29 P30 P31 P32 P33 P34 P35 P36) (rows P0 p) := by
    simp only [pay21_rows, pay20_rows, rows_addf, rows_truncf, rows_relu, rows_zero, rows_shapeCast_132, rows_shapeCast_128, rows_broadcastTo_132, rows_broadcastTo_128,
      vec_mulf_splat, rows_concat_640, rows_concat_256, rows_matmul_640_132, rows_matmul_132_132, rows_matmul_132_128, rows_matmul_256_132, rows_matmul_128_128, hL2]
    rfl
  generalize k0_pay21 (k0_pay20 vL2 P27 P28) P29 P30 P31 P32 = vdL2 at hdL2 ⊢
  have hdL3 : rows (k0_pay23 (k0_pay22 vL3 P27 P28 P29 P30) P31 P32) = fun p => dL3 (wP P1 P2 P3 P4 P5 P6 P7 P8 P9 P10 P11 P12 P13 P14 P15 P16 P17 P18 P19 P20 P21 P22 P23 P24 P25 P26 P27 P28 P29 P30 P31 P32 P33 P34 P35 P36) (rows P0 p) := by
    simp only [pay23_rows, pay22_rows, rows_addf, rows_truncf, rows_relu, rows_zero, rows_shapeCast_132, rows_shapeCast_128, rows_broadcastTo_132, rows_broadcastTo_128,
      vec_mulf_splat, rows_concat_640, rows_concat_256, rows_matmul_640_132, rows_matmul_132_132, rows_matmul_132_128, rows_matmul_256_132, rows_matmul_128_128, hL3]
    rfl
  generalize k0_pay23 (k0_pay22 vL3 P27 P28 P29 P30) P31 P32 = vdL3 at hdL3 ⊢
  have hdP3 : rows (k0_pay25 (k0_pay24 vP3 vdL2 (k0_pay22 vL3 P27 P28 P29 P30) P31 P32 P33 P33 P34 P35 P36 P27 P28) P29 P30 P31 P32) = fun p => dP3 (wP P1 P2 P3 P4 P5 P6 P7 P8 P9 P10 P11 P12 P13 P14 P15 P16 P17 P18 P19 P20 P21 P22 P23 P24 P25 P26 P27 P28 P29 P30 P31 P32 P33 P34 P35 P36) (rows P0 p) := by
    simp only [pay25_rows, pay24_rows, pay23_rows, pay22_rows, rows_addf, rows_truncf, rows_relu, rows_zero, rows_shapeCast_132, rows_shapeCast_128, rows_broadcastTo_132, rows_broadcastTo_128,
      vec_mulf_splat, rows_concat_640, rows_concat_256, rows_matmul_640_132, rows_matmul_132_132, rows_matmul_132_128, rows_matmul_256_132, rows_matmul_128_128, hP3, hdL2, hL3]
    rfl
  generalize k0_pay25 (k0_pay24 vP3 vdL2 (k0_pay22 vL3 P27 P28 P29 P30) P31 P32 P33 P33 P34 P35 P36 P27 P28) P29 P30 P31 P32 = vdP3 at hdP3 ⊢
  have hL1 : rows (k0_pay5 (k0_pay3 P0 P1 P2 P3 P4 P5 P6 P19) (shapeCast S1x132 P20 Facts₀.shapeCasts_S132_S1x132) P21 P22 P23 P24 P25 P26) = fun p => upL1 (wP P1 P2 P3 P4 P5 P6 P7 P8 P9 P10 P11 P12 P13 P14 P15 P16 P17 P18 P19 P20 P21 P22 P23 P24 P25 P26 P27 P28 P29 P30 P31 P32 P33 P34 P35 P36) (rows P0 p) := by
    simp only [pay5_rows, pay3_rows, rows_addf, rows_truncf, rows_relu, rows_zero, rows_shapeCast_132, rows_shapeCast_128, rows_broadcastTo_132, rows_broadcastTo_128,
      vec_mulf_splat, rows_concat_640, rows_concat_256, rows_matmul_640_132, rows_matmul_132_132, rows_matmul_132_128, rows_matmul_256_132, rows_matmul_128_128]
    rfl
  generalize k0_pay5 (k0_pay3 P0 P1 P2 P3 P4 P5 P6 P19) (shapeCast S1x132 P20 Facts₀.shapeCasts_S132_S1x132) P21 P22 P23 P24 P25 P26 = vL1 at hL1 ⊢
  have hdL1 : rows (k0_pay19 (concatenate S1024x256 1 [⟨S1024x128, vL1⟩, ⟨S1024x128, broadcast S1024x128 (Scalar.ofBits (F := Ideal) .f32 0x00000000#32)⟩] Facts₀.concatenates_S1024x128_S1024x128_S1024x256_d1) P27 P28 P29 P30 P31 P32) = fun p => dL1 (wP P1 P2 P3 P4 P5 P6 P7 P8 P9 P10 P11 P12 P13 P14 P15 P16 P17 P18 P19 P20 P21 P22 P23 P24 P25 P26 P27 P28 P29 P30 P31 P32 P33 P34 P35 P36) (rows P0 p) := by
    simp only [pay19_rows, rows_addf, rows_truncf, rows_relu, rows_zero, rows_shapeCast_132, rows_shapeCast_128, rows_broadcastTo_132, rows_broadcastTo_128,
      vec_mulf_splat, rows_concat_640, rows_concat_256, rows_matmul_640_132, rows_matmul_132_132, rows_matmul_132_128, rows_matmul_256_132, rows_matmul_128_128, hL1]
    rfl
  generalize k0_pay19 (concatenate S1024x256 1 [⟨S1024x128, vL1⟩, ⟨S1024x128, broadcast S1024x128 (Scalar.ofBits (F := Ideal) .f32 0x00000000#32)⟩] Facts₀.concatenates_S1024x128_S1024x128_S1024x256_d1) P27 P28 P29 P30 P31 P32 = vdL1 at hdL1 ⊢
  have hdC1 : rows (k0_pay27 (k0_pay26 vC1 (k0_pay24 vP3 vdL2 (k0_pay22 vL3 P27 P28 P29 P30) P31 P32 P33 P33 P34 P35 P36 P27 P28) P29 P30 P31 P32 P33 P34 P35 P36) P27 P28 P29 P30 P31 P32) = fun p => dC1 (wP P1 P2 P3 P4 P5 P6 P7 P8 P9 P10 P11 P12 P13 P14 P15 P16 P17 P18 P19 P20 P21 P22 P23 P24 P25 P26 P27 P28 P29 P30 P31 P32 P33 P34 P35 P36) (rows P0 p) := by
    simp only [pay27_rows, pay26_rows, pay25_rows, pay24_rows, pay23_rows, pay22_rows, rows_addf, rows_truncf, rows_relu, rows_zero, rows_shapeCast_132, rows_shapeCast_128, rows_broadcastTo_132, rows_broadcastTo_128,
      vec_mulf_splat, rows_concat_640, rows_concat_256, rows_matmul_640_132, rows_matmul_132_132, rows_matmul_132_128, rows_matmul_256_132, rows_matmul_128_128, hC1, hP3, hdL2, hL3]
    rfl
  generalize k0_pay27 (k0_pay26 vC1 (k0_pay24 vP3 vdL2 (k0_pay22 vL3 P27 P28 P29 P30) P31 P32 P33 P33 P34 P35 P36 P27 P28) P29 P30 P31 P32 P33 P34 P35 P36) P27 P28 P29 P30 P31 P32 = vdC1 at hdC1 ⊢
  have hdC2 : rows (k0_pay30 vC2 (k0_pay28 vdP3 P33 P34) (truncf .bf16 P35 Facts₀.bitsLt_bf16_f32) P36 P27 P28 P29 P30 P31 P32) = fun p => dC2 (wP P1 P2 P3 P4 P5 P6 P7 P8 P9 P10 P11 P12 P13 P14 P15 P16 P17 P18 P19 P20 P21 P22 P23 P24 P25 P26 P27 P28 P29 P30 P31 P32 P33 P34 P35 P36) (rows P0 p) := by
    simp only [pay30_rows, pay28_rows, rows_addf, rows_truncf, rows_relu, rows_zero, rows_shapeCast_132, rows_shapeCast_128, rows_broadcastTo_132, rows_broadcastTo_128,
      vec_mulf_splat, rows_concat_640, rows_concat_256, rows_matmul_640_132, rows_matmul_132_132, rows_matmul_132_128, rows_matmul_256_132, rows_matmul_128_128, hC2, hdP3]
    rfl
  generalize k0_pay30 vC2 (k0_pay28 vdP3 P33 P34) (truncf .bf16 P35 Facts₀.bitsLt_bf16_f32) P36 P27 P28 P29 P30 P31 P32 = vdC2 at hdC2 ⊢
  have hdP1 : rows (k0_pay34 (k0_pay33 vP1 vdL2 vdC2 (k0_pay31 vdL1 P33) (truncf .bf16 vdC1 Facts₀.bitsLt_bf16_f32) P33 P33 P33 P34 P35 P36 P27 P28) P29 P30 P31 P32) = fun p => dP1 (wP P1 P2 P3 P4 P5 P6 P7 P8 P9 P10 P11 P12 P13 P14 P15 P16 P17 P18 P19 P20 P21 P22 P23 P24 P25 P26 P27 P28 P29 P30 P31 P32 P33 P34 P35 P36) (rows P0 p) := by
    simp only [pay34_rows, pay33_rows, pay31_rows, rows_addf, rows_truncf, rows_relu, rows_zero, rows_shapeCast_132, rows_shapeCast_128, rows_broadcastTo_132, rows_broadcastTo_128,
      vec_mulf_splat, rows_concat_640, rows_concat_256, rows_matmul_640_132, rows_matmul_132_132, rows_matmul_132_128, rows_matmul_256_132, rows_matmul_128_128, hP1, hdL2, hdC2, hdL1, hdC1]
    rfl
  generalize k0_pay34 (k0_pay33 vP1 vdL2 vdC2 (k0_pay31 vdL1 P33) (truncf .bf16 vdC1 Facts₀.bitsLt_bf16_f32) P33 P33 P33 P34 P35 P36 P27 P28) P29 P30 P31 P32 = vdP1 at hdP1 ⊢
  have hdP2 : slabs (k0_pay38 vP1 (k0_pay35 vdL1 vdL3 vdC1 vdC2 P33 P33 P33 P33) (mulf (broadcast S128 (Scalar.ofBits (F := Ideal) .f32 0x40800000#32)) P34) P35 P36 P27 P28 P29 P30 P31 P32)
      = fun _ p => dP2 (wP P1 P2 P3 P4 P5 P6 P7 P8 P9 P10 P11 P12 P13 P14 P15 P16 P17 P18 P19 P20 P21 P22 P23 P24 P25 P26 P27 P28 P29 P30 P31 P32 P33 P34 P35 P36) (rows P0 p) := by
    simp only [pay38_rows, pay35_rows, rows_addf, rows_truncf, rows_relu, rows_zero, rows_shapeCast_132, rows_shapeCast_128, rows_broadcastTo_132, rows_broadcastTo_128,
      vec_mulf_splat, rows_concat_640, rows_concat_256, rows_matmul_640_132, rows_matmul_132_132, rows_matmul_132_128, rows_matmul_256_132, rows_matmul_128_128, hP1, hdL1, hdL3, hdC1, hdC2]
    rfl
  generalize k0_pay38 vP1 (k0_pay35 vdL1 vdL3 vdC1 vdC2 P33 P33 P33 P33) (mulf (broadcast S128 (Scalar.ofBits (F := Ideal) .f32 0x40800000#32)) P34) P35 P36 P27 P28 P29 P30 P31 P32 = sdP2 at hdP2 ⊢
  funext s p q
  match s with
  | ⟨0, hs⟩ =>
    show shapeCast S1x1024x128 vdP1 _ (ix37_0 (ix3 ⟨0, hs⟩ p q)) = dP1 (wP P1 P2 P3 P4 P5 P6 P7 P8 P9 P10 P11 P12 P13 P14 P15 P16 P17 P18 P19 P20 P21 P22 P23 P24 P25 P26 P27 P28 P29 P30 P31 P32 P33 P34 P35 P36) (rows P0 p) q
    rw [ix37_0_ix3]
    exact (congrFun (congrFun (congrFun (slabs_shapeCast vdP1 _) 0) p) q).trans (congrFun (congrFun hdP1 p) q)
  | ⟨1, hs⟩ =>
    show sdP2 (ix37_0 (ix3 ⟨1, hs⟩ p q)) = dP2 (wP P1 P2 P3 P4 P5 P6 P7 P8 P9 P10 P11 P12 P13 P14 P15 P16 P17 P18 P19 P20 P21 P22 P23 P24 P25 P26 P27 P28 P29 P30 P31 P32 P33 P34 P35 P36) (rows P0 p) q
    rw [ix37_0_ix3]
    exact congrFun (congrFun (congrFun hdP2 0) p) q
  | ⟨2, hs⟩ =>
    show shapeCast S1x1024x128 vdL1 _ (ix37_0 (ix3 ⟨2, hs⟩ p q)) = dL1 (wP P1 P2 P3 P4 P5 P6 P7 P8 P9 P10 P11 P12 P13 P14 P15 P16 P17 P18 P19 P20 P21 P22 P23 P24 P25 P26 P27 P28 P29 P30 P31 P32 P33 P34 P35 P36) (rows P0 p) q
    rw [ix37_0_ix3]
    exact (congrFun (congrFun (congrFun (slabs_shapeCast vdL1 _) 0) p) q).trans (congrFun (congrFun hdL1 p) q)
  | ⟨3, hs⟩ =>
    show shapeCast S1x1024x128 vdC1 _ (ix37_0 (ix3 ⟨3, hs⟩ p q)) = dC1 (wP P1 P2 P3 P4 P5 P6 P7 P8 P9 P10 P11 P12 P13 P14 P15 P16 P17 P18 P19 P20 P21 P22 P23 P24 P25 P26 P27 P28 P29 P30 P31 P32 P33 P34 P35 P36) (rows P0 p) q
    rw [ix37_0_ix3]
    exact (congrFun (congrFun (congrFun (slabs_shapeCast vdC1 _) 0) p) q).trans (congrFun (congrFun hdC1 p) q)
  | ⟨4, hs⟩ =>
    show shapeCast S1x1024x128 vdC2 _ (ix37_0 (ix3 ⟨4, hs⟩ p q)) = dC2 (wP P1 P2 P3 P4 P5 P6 P7 P8 P9 P10 P11 P12 P13 P14 P15 P16 P17 P18 P19 P20 P21 P22 P23 P24 P25 P26 P27 P28 P29 P30 P31 P32 P33 P34 P35 P36) (rows P0 p) q
    rw [ix37_0_ix3]
    exact (congrFun (congrFun (congrFun (slabs_shapeCast vdC2 _) 0) p) q).trans (congrFun (congrFun hdC2 p) q)
  | ⟨5, hs⟩ =>
    show shapeCast S1x1024x128 vdP3 _ (ix37_0 (ix3 ⟨5, hs⟩ p q)) = dP3 (wP P1 P2 P3 P4 P5 P6 P7 P8 P9 P10 P11 P12 P13 P14 P15 P16 P17 P18 P19 P20 P21 P22 P23 P24 P25 P26 P27 P28 P29 P30 P31 P32 P33 P34 P35 P36) (rows P0 p) q
    rw [ix37_0_ix3]
    exact (congrFun (congrFun (congrFun (slabs_shapeCast vdP3 _) 0) p) q).trans (congrFun (congrFun hdP3 p) q)
  | ⟨6, hs⟩ =>
    show shapeCast S1x1024x128 vdL2 _ (ix37_0 (ix3 ⟨6, hs⟩ p q)) = dL2 (wP P1 P2 P3 P4 P5 P6 P7 P8 P9 P10 P11 P12 P13 P14 P15 P16 P17 P18 P19 P20 P21 P22 P23 P24 P25 P26 P27 P28 P29 P30 P31 P32 P33 P34 P35 P36) (rows P0 p) q
    rw [ix37_0_ix3]
    exact (congrFun (congrFun (congrFun (slabs_shapeCast vdL2 _) 0) p) q).trans (congrFun (congrFun hdL2 p) q)
  | ⟨7, hs⟩ =>
    show shapeCast S1x1024x128 vdL3 _ (ix37_0 (ix3 ⟨7, hs⟩ p q)) = dL3 (wP P1 P2 P3 P4 P5 P6 P7 P8 P9 P10 P11 P12 P13 P14 P15 P16 P17 P18 P19 P20 P21 P22 P23 P24 P25 P26 P27 P28 P29 P30 P31 P32 P33 P34 P35 P36) (rows P0 p) q
    rw [ix37_0_ix3]
    exact (congrFun (congrFun (congrFun (slabs_shapeCast vdL3 _) 0) p) q).trans (congrFun (congrFun hdL3 p) q)

end Cert.Gnn.KBlock

end
-- ==== Proof.KernelArray.lean ====
/-
  From the blocks to the whole result array.

  The grid has 64 points; point `t` reads rows `1024 t … 1024 t + 1023` of `signal`, reads every weight array whole,
  and writes back the block of the result that holds those rows of all eight slabs. The blocks cover the result
  array, so the array after the run is, slab by slab and row by row, `out` of the matching row of `signal`
  (Proof/KernelBlock.lean says so for one block).

  The steps: the windows' block indices at a point (`signal` moves with the point along its rows, the result along
  its middle axis, every weight window stays at block zero); so a weight window's block is its array and row `p` of
  the `signal` block at `t` is row `1024 t + p` of `signal`; the body's block for arbitrary input blocks, slab by slab
  and row by row; what point `t` writes back is block `t` of the result function; every index of the result array
  lies in the block of the point `row / 1024`.
-/
import proofs.«160910_j1125281431924_1_alg».proof.Proof.KernelBlock

noncomputable section

namespace Cert.Gnn.KArr

open Idealize.ShloMosaic Idealize.ShloMosaic.TcCoe Idealize.ShloMosaic.ValueIdx Idealize.SL.Sem
open Idealize.ShloMosaic.Pipeline (Dat)
open Cert.KernelIdeal Cert.KernelIdeal.Facts₀ Cert.KernelIdeal.Gen Cert.KernelIdeal.GenP Cert.KernelIdeal.ValueP
open Cert.Gnn Cert.Gnn.K Cert.Gnn.KBlock

/-! ## The block indices over the grid -/

/-- The `signal` window's block index at point `t` is `(t, 0)`. -/
theorem signal_idx : ∀ t : Fin cfg0.N, win0_0.index t (0 : Fin 2) = t.val ∧ win0_0.index t (1 : Fin 2) = 0 :=
  (by decide +kernel : ∀ t : Fin grid0.N, _)

/-- The result window's block index at point `t` is `(0, t, 0)`. -/
theorem result_idx : ∀ t : Fin cfg0.N, win0_37.index t (0 : Fin 3) = 0 ∧ win0_37.index t (1 : Fin 3) = t.val ∧ win0_37.index t (2 : Fin 3) = 0 :=
  (by decide +kernel : ∀ t : Fin grid0.N, _)

/-! Every weight window stays at block index zero, on every axis, at every point. -/

-- the point aggregate's message and update weights (windows 1 to 4)
theorem weight_idx1 : ∀ (t : Fin cfg0.N) (a : Fin 2), win0_1.index t a = 0 :=
  (by decide +kernel : ∀ (t : Fin grid0.N) (a : Fin 2), win0_1.index t a = 0)
theorem weight_idx2 : ∀ (t : Fin cfg0.N) (a : Fin 1), win0_2.index t a = 0 :=
  (by decide +kernel : ∀ (t : Fin grid0.N) (a : Fin 1), win0_2.index t a = 0)
theorem weight_idx3 : ∀ (t : Fin cfg0.N) (a : Fin 2), win0_3.index t a = 0 :=
  (by decide +kernel : ∀ (t : Fin grid0.N) (a : Fin 2), win0_3.index t a = 0)
theorem weight_idx4 : ∀ (t : Fin cfg0.N) (a : Fin 1), win0_4.index t a = 0 :=
  (by decide +kernel : ∀ (t : Fin grid0.N) (a : Fin 1), win0_4.index t a = 0)
-- the point layers' three matrices and biases (windows 5 to 10)
theorem weight_idx5 : ∀ (t : Fin cfg0.N) (a : Fin 2), win0_5.index t a = 0 :=
  (by decide +kernel : ∀ (t : Fin grid0.N) (a : Fin 2), win0_5.index t a = 0)
theorem weight_idx6 : ∀ (t : Fin cfg0.N) (a : Fin 1), win0_6.index t a = 0 :=
  (by decide +kernel : ∀ (t : Fin grid0.N) (a : Fin 1), win0_6.index t a = 0)
theorem weight_idx7 : ∀ (t : Fin cfg0.N) (a : Fin 2), win0_7.index t a = 0 :=
  (by decide +kernel : ∀ (t : Fin grid0.N) (a : Fin 2), win0_7.index t a = 0)
theorem weight_idx8 : ∀ (t : Fin cfg0.N) (a : Fin 1), win0_8.index t a = 0 :=
  (by decide +kernel : ∀ (t : Fin grid0.N) (a : Fin 1), win0_8.index t a = 0)
theorem weight_idx9 : ∀ (t : Fin cfg0.N) (a : Fin 2), win0_9.index t a = 0 :=
  (by decide +kernel : ∀ (t : Fin grid0.N) (a : Fin 2), win0_9.index t a = 0)
theorem weight_idx10 : ∀ (t : Fin cfg0.N) (a : Fin 1), win0_10.index t a = 0 :=
  (by decide +kernel : ∀ (t : Fin grid0.N) (a : Fin 1), win0_10.index t a = 0)
-- the line layers' four (windows 11 to 18)
theorem weight_idx11 : ∀ (t : Fin cfg0.N) (a : Fin 2), win0_11.index t a = 0 :=
  (by decide +kernel : ∀ (t : Fin grid0.N) (a : Fin 2), win0_11.index t a = 0)
theorem weight_idx12 : ∀ (t : Fin cfg0.N) (a : Fin 1), win0_12.index t a = 0 :=
  (by decide +kernel : ∀ (t : Fin grid0.N) (a : Fin 1), win0_12.index t a = 0)
theorem weight_idx13 : ∀ (t : Fin cfg0.N) (a : Fin 2), win0_13.index t a = 0 :=
  (by decide +kernel : ∀ (t : Fin grid0.N) (a : Fin 2), win0_13.index t a = 0)
theorem weight_idx14 : ∀ (t : Fin cfg0.N) (a : Fin 1), win0_14.index t a = 0 :=
  (by decide +kernel : ∀ (t : Fin grid0.N) (a : Fin 1), win0_14.index t a = 0)
theorem weight_idx15 : ∀ (t : Fin cfg0.N) (a : Fin 2), win0_15.index t a = 0 :=
  (by decide +kernel : ∀ (t : Fin grid0.N) (a : Fin 2), win0_15.index t a = 0)
theorem weight_idx16 : ∀ (t : Fin cfg0.N) (a : Fin 1), win0_16.index t a = 0 :=
  (by decide +kernel : ∀ (t : Fin grid0.N) (a : Fin 1), win0_16.index t a = 0)
theorem weight_idx17 : ∀ (t : Fin cfg0.N) (a : Fin 2), win0_17.index t a = 0 :=
  (by decide +kernel : ∀ (t : Fin grid0.N) (a : Fin 2), win0_17.index t a = 0)
theorem weight_idx18 : ∀ (t : Fin cfg0.N) (a : Fin 1), win0_18.index t a = 0 :=
  (by decide +kernel : ∀ (t : Fin grid0.N) (a : Fin 1), win0_18.index t a = 0)
-- the crossing layers' four (windows 19 to 26)
theorem weight_idx19 : ∀ (t : Fin cfg0.N) (a : Fin 2), win0_19.index t a = 0 :=
  (by decide +kernel : ∀ (t : Fin grid0.N) (a : Fin 2), win0_19.index t a = 0)
theorem weight_idx20 : ∀ (t : Fin cfg0.N) (a : Fin 1), win0_20.index t a = 0 :=
  (by decide +kernel : ∀ (t : Fin grid0.N) (a : Fin 1), win0_20.index t a = 0)
theorem weight_idx21 : ∀ (t : Fin cfg0.N) (a : Fin 2), win0_21.index t a = 0 :=
  (by decide +kernel : ∀ (t : Fin grid0.N) (a : Fin 2), win0_21.index t a = 0)
theorem weight_idx22 : ∀ (t : Fin cfg0.N) (a : Fin 1), win0_22.index t a = 0 :=
  (by decide +kernel : ∀ (t : Fin grid0.N) (a : Fin 1), win0_22.index t a = 0)
theorem weight_idx23 : ∀ (t : Fin cfg0.N) (a : Fin 2), win0_23.index t a = 0 :=
  (by decide +kernel : ∀ (t : Fin grid0.N) (a : Fin 2), win0_23.index t a = 0)
theorem weight_idx24 : ∀ (t : Fin cfg0.N) (a : Fin 1), win0_24.index t a = 0 :=
  (by decide +kernel : ∀ (t : Fin grid0.N) (a : Fin 1), win0_24.index t a = 0)
theorem weight_idx25 : ∀ (t : Fin cfg0.N) (a : Fin 2), win0_25.index t a = 0 :=
  (by decide +kernel : ∀ (t : Fin grid0.N) (a : Fin 2), win0_25.index t a = 0)
theorem weight_idx26 : ∀ (t : Fin cfg0.N) (a : Fin 1), win0_26.index t a = 0 :=
  (by decide +kernel : ∀ (t : Fin grid0.N) (a : Fin 1), win0_26.index t a = 0)
-- the message aggregate's message and update weights (windows 27 to 30)
theorem weight_idx27 : ∀ (t : Fin cfg0.N) (a : Fin 2), win0_27.index t a = 0 :=
  (by decide +kernel : ∀ (t : Fin grid0.N) (a : Fin 2), win0_27.index t a = 0)
theorem weight_idx28 : ∀ (t : Fin cfg0.N) (a : Fin 1), win0_28.index t a = 0 :=
  (by decide +kernel : ∀ (t : Fin grid0.N) (a : Fin 1), win0_28.index t a = 0)
theorem weight_idx29 : ∀ (t : Fin cfg0.N) (a : Fin 2), win0_29.index t a = 0 :=
  (by decide +kernel : ∀ (t : Fin grid0.N) (a : Fin 2), win0_29.index t a = 0)
theorem weight_idx30 : ∀ (t : Fin cfg0.N) (a : Fin 1), win0_30.index t a = 0 :=
  (by decide +kernel : ∀ (t : Fin grid0.N) (a : Fin 1), win0_30.index t a = 0)
-- the message layers' three (windows 31 to 36)
theorem weight_idx31 : ∀ (t : Fin cfg0.N) (a : Fin 2), win0_31.index t a = 0 :=
  (by decide +kernel : ∀ (t : Fin grid0.N) (a : Fin 2), win0_31.index t a = 0)
theorem weight_idx32 : ∀ (t : Fin cfg0.N) (a : Fin 1), win0_32.index t a = 0 :=
  (by decide +kernel : ∀ (t : Fin grid0.N) (a : Fin 1), win0_32.index t a = 0)
theorem weight_idx33 : ∀ (t : Fin cfg0.N) (a : Fin 2), win0_33.index t a = 0 :=
  (by decide +kernel : ∀ (t : Fin grid0.N) (a : Fin 2), win0_33.index t a = 0)
theorem weight_idx34 : ∀ (t : Fin cfg0.N) (a : Fin 1), win0_34.index t a = 0 :=
  (by decide +kernel : ∀ (t : Fin grid0.N) (a : Fin 1), win0_34.index t a = 0)
theorem weight_idx35 : ∀ (t : Fin cfg0.N) (a : Fin 2), win0_35.index t a = 0 :=
  (by decide +kernel : ∀ (t : Fin grid0.N) (a : Fin 2), win0_35.index t a = 0)
theorem weight_idx36 : ∀ (t : Fin cfg0.N) (a : Fin 1), win0_36.index t a = 0 :=
  (by decide +kernel : ∀ (t : Fin grid0.N) (a : Fin 1), win0_36.index t a = 0)

variable [Facts]

variable (m : (ℓ : Loc nD τ sig) → Buf (Elt Ideal) ℓ) (ρ : Dev nD → PrngReg)

/-- The weights in device `c`'s argument arrays. -/
def wArr (c : Dev nD) : Weights := weightsOf (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25) (V m c main_arg26) (V m c main_arg27) (V m c main_arg28) (V m c main_arg29) (V m c main_arg30) (V m c main_arg31) (V m c main_arg32) (V m c main_arg33) (V m c main_arg34) (V m c main_arg35) (V m c main_arg36)

/-! ## The input windows' blocks at a point

  A block's element at `y` sits in its array, on each axis, at the block index times the block's size plus `y`'s
  coordinate. A weight window's block index is zero, so its block is its array. -/

/-- The `signal` block at point `t`. -/
abbrev sblk (c : Dev nD) (t : Fin cfg0.N) : Vec Ideal S1024x512 .f32 := iblk m c 0 t

/-- Entry `(p, q)` of the `signal` block at `t` is entry `(1024 t + p, q)` of `signal`. -/
theorem sblk_apply (c : Dev nD) (t : Fin cfg0.N) (p : Fin 1024) (q : Fin 512) (r : Fin 65536) (hr : r.val = 1024 * t.val + p.val) :
    sblk m c t (ix2 p q) = (V m c main_arg0 : S65536x512.Idx → EReal) (ix2 r q) := by
  show V m c main_arg0 (((cfg0.win 0).blk t).view.emb (ix2 p q)) = V m c main_arg0 (ix2 r q)
  refine congrArg _ (funext fun a => Fin.ext ?_)
  obtain ⟨e0, e1⟩ := signal_idx t
  match a with
  | ⟨0, _⟩ => show win0_0.index t (0 : Fin 2) * 1024 + 1 * p.val = r.val; rw [e0, hr]; omega
  | ⟨1, _⟩ => show win0_0.index t (1 : Fin 2) * 512 + 1 * q.val = q.val; rw [e1]; omega

/-- Row `p` of the `signal` block at `t` is row `1024 t + p` of `signal`. -/
theorem sblk_rows (c : Dev nD) (t : Fin cfg0.N) (p : Fin 1024) (r : Fin 65536) (hr : r.val = 1024 * t.val + p.val) :
    rows (sblk m c t) p = rows (V m c main_arg0 : S65536x512.Idx → EReal) r :=
  funext fun q => sblk_apply m c t p q r hr

/-- The weight windows' blocks at point `t`. -/
abbrev wblk1 (c : Dev nD) (t : Fin cfg0.N) : Vec Ideal S128x128 .f32 := iblk m c 1 t
abbrev wblk2 (c : Dev nD) (t : Fin cfg0.N) : Vec Ideal S128 .f32 := iblk m c 2 t
abbrev wblk3 (c : Dev nD) (t : Fin cfg0.N) : Vec Ideal S128x128 .f32 := iblk m c 3 t
abbrev wblk4 (c : Dev nD) (t : Fin cfg0.N) : Vec Ideal S128 .f32 := iblk m c 4 t
abbrev wblk5 (c : Dev nD) (t : Fin cfg0.N) : Vec Ideal S640x132 .f32 := iblk m c 5 t
abbrev wblk6 (c : Dev nD) (t : Fin cfg0.N) : Vec Ideal S132 .f32 := iblk m c 6 t
abbrev wblk7 (c : Dev nD) (t : Fin cfg0.N) : Vec Ideal S132x132 .f32 := iblk m c 7 t
abbrev wblk8 (c : Dev nD) (t : Fin cfg0.N) : Vec Ideal S132 .f32 := iblk m c 8 t
abbrev wblk9 (c : Dev nD) (t : Fin cfg0.N) : Vec Ideal S132x128 .f32 := iblk m c 9 t
abbrev wblk10 (c : Dev nD) (t : Fin cfg0.N) : Vec Ideal S128 .f32 := iblk m c 10 t
abbrev wblk11 (c : Dev nD) (t : Fin cfg0.N) : Vec Ideal S256x132 .f32 := iblk m c 11 t
abbrev wblk12 (c : Dev nD) (t : Fin cfg0.N) : Vec Ideal S132 .f32 := iblk m c 12 t
abbrev wblk13 (c : Dev nD) (t : Fin cfg0.N) : Vec Ideal S132x132 .f32 := iblk m c 13 t
abbrev wblk14 (c : Dev nD) (t : Fin cfg0.N) : Vec Ideal S132 .f32 := iblk m c 14 t
abbrev wblk15 (c : Dev nD) (t : Fin cfg0.N) : Vec Ideal S132x132 .f32 := iblk m c 15 t
abbrev wblk16 (c : Dev nD) (t : Fin cfg0.N) : Vec Ideal S132 .f32 := iblk m c 16 t
abbrev wblk17 (c : Dev nD) (t : Fin cfg0.N) : Vec Ideal S132x128 .f32 := iblk m c 17 t
abbrev wblk18 (c : Dev nD) (t : Fin cfg0.N) : Vec Ideal S128 .f32 := iblk m c 18 t
abbrev wblk19 (c : Dev nD) (t : Fin cfg0.N) : Vec Ideal S256x132 .f32 := iblk m c 19 t
abbrev wblk20 (c : Dev nD) (t : Fin cfg0.N) : Vec Ideal S132 .f32 := iblk m c 20 t
abbrev wblk21 (c : Dev nD) (t : Fin cfg0.N) : Vec Ideal S132x132 .f32 := iblk m c 21 t
abbrev wblk22 (c : Dev nD) (t : Fin cfg0.N) : Vec Ideal S132 .f32 := iblk m c 22 t
abbrev wblk23 (c : Dev nD) (t : Fin cfg0.N) : Vec Ideal S132x132 .f32 := iblk m c 23 t
abbrev wblk24 (c : Dev nD) (t : Fin cfg0.N) : Vec Ideal S132 .f32 := iblk m c 24 t
abbrev wblk25 (c : Dev nD) (t : Fin cfg0.N) : Vec Ideal S132x128 .f32 := iblk m c 25 t
abbrev wblk26 (c : Dev nD) (t : Fin cfg0.N) : Vec Ideal S128 .f32 := iblk m c 26 t
abbrev wblk27 (c : Dev nD) (t : Fin cfg0.N) : Vec Ideal S128x128 .f32 := iblk m c 27 t
abbrev wblk28 (c : Dev nD) (t : Fin cfg0.N) : Vec Ideal S128 .f32 := iblk m c 28 t
abbrev wblk29 (c : Dev nD) (t : Fin cfg0.N) : Vec Ideal S128x128 .f32 := iblk m c 29 t
abbrev wblk30 (c : Dev nD) (t : Fin cfg0.N) : Vec Ideal S128 .f32 := iblk m c 30 t
abbrev wblk31 (c : Dev nD) (t : Fin cfg0.N) : Vec Ideal S256x132 .f32 := iblk m c 31 t
abbrev wblk32 (c : Dev nD) (t : Fin cfg0.N) : Vec Ideal S132 .f32 := iblk m c 32 t
abbrev wblk33 (c : Dev nD) (t : Fin cfg0.N) : Vec Ideal S132x132 .f32 := iblk m c 33 t
abbrev wblk34 (c : Dev nD) (t : Fin cfg0.N) : Vec Ideal S132 .f32 := iblk m c 34 t
abbrev wblk35 (c : Dev nD) (t : Fin cfg0.N) : Vec Ideal S132x128 .f32 := iblk m c 35 t
abbrev wblk36 (c : Dev nD) (t : Fin cfg0.N) : Vec Ideal S128 .f32 := iblk m c 36 t

/-- Each weight window's block is its array: on every axis the block index is zero, so the element at `y` of the
    block is the element at `y` of the array. -/
theorem wblk1_eq (c : Dev nD) (t : Fin cfg0.N) : wblk1 m c t = V m c main_arg1 := by
  funext y
  show V m c main_arg1 (((cfg0.win 1).blk t).view.emb y) = V m c main_arg1 y
  exact congrArg _ (funext fun a => Fin.ext (win0_1.rect_emb_val_of_index_zero t a (weight_idx1 t a) y))
theorem wblk2_eq (c : Dev nD) (t : Fin cfg0.N) : wblk2 m c t = V m c main_arg2 := by
  funext y
  show V m c main_arg2 (((cfg0.win 2).blk t).view.emb y) = V m c main_arg2 y
  exact congrArg _ (funext fun a => Fin.ext (win0_2.rect_emb_val_of_index_zero t a (weight_idx2 t a) y))
theorem wblk3_eq (c : Dev nD) (t : Fin cfg0.N) : wblk3 m c t = V m c main_arg3 := by
  funext y
  show V m c main_arg3 (((cfg0.win 3).blk t).view.emb y) = V m c main_arg3 y
  exact congrArg _ (funext fun a => Fin.ext (win0_3.rect_emb_val_of_index_zero t a (weight_idx3 t a) y))
theorem wblk4_eq (c : Dev nD) (t : Fin cfg0.N) : wblk4 m c t = V m c main_arg4 := by
  funext y
  show V m c main_arg4 (((cfg0.win 4).blk t).view.emb y) = V m c main_arg4 y
  exact congrArg _ (funext fun a => Fin.ext (win0_4.rect_emb_val_of_index_zero t a (weight_idx4 t a) y))
theorem wblk5_eq (c : Dev nD) (t : Fin cfg0.N) : wblk5 m c t = V m c main_arg5 := by
  funext y
  show V m c main_arg5 (((cfg0.win 5).blk t).view.emb y) = V m c main_arg5 y
  exact congrArg _ (funext fun a => Fin.ext (win0_5.rect_emb_val_of_index_zero t a (weight_idx5 t a) y))
theorem wblk6_eq (c : Dev nD) (t : Fin cfg0.N) : wblk6 m c t = V m c main_arg6 := by
  funext y
  show V m c main_arg6 (((cfg0.win 6).blk t).view.emb y) = V m c main_arg6 y
  exact congrArg _ (funext fun a => Fin.ext (win0_6.rect_emb_val_of_index_zero t a (weight_idx6 t a) y))
theorem wblk7_eq (c : Dev nD) (t : Fin cfg0.N) : wblk7 m c t = V m c main_arg7 := by
  funext y
  show V m c main_arg7 (((cfg0.win 7).blk t).view.emb y) = V m c main_arg7 y
  exact congrArg _ (funext fun a => Fin.ext (win0_7.rect_emb_val_of_index_zero t a (weight_idx7 t a) y))
theorem wblk8_eq (c : Dev nD) (t : Fin cfg0.N) : wblk8 m c t = V m c main_arg8 := by
  funext y
  show V m c main_arg8 (((cfg0.win 8).blk t).view.emb y) = V m c main_arg8 y
  exact congrArg _ (funext fun a => Fin.ext (win0_8.rect_emb_val_of_index_zero t a (weight_idx8 t a) y))
theorem wblk9_eq (c : Dev nD) (t : Fin cfg0.N) : wblk9 m c t = V m c main_arg9 := by
  funext y
  show V m c main_arg9 (((cfg0.win 9).blk t).view.emb y) = V m c main_arg9 y
  exact congrArg _ (funext fun a => Fin.ext (win0_9.rect_emb_val_of_index_zero t a (weight_idx9 t a) y))
theorem wblk10_eq (c : Dev nD) (t : Fin cfg0.N) : wblk10 m c t = V m c main_arg10 := by
  funext y
  show V m c main_arg10 (((cfg0.win 10).blk t).view.emb y) = V m c main_arg10 y
  exact congrArg _ (funext fun a => Fin.ext (win0_10.rect_emb_val_of_index_zero t a (weight_idx10 t a) y))
theorem wblk11_eq (c : Dev nD) (t : Fin cfg0.N) : wblk11 m c t = V m c main_arg11 := by
  funext y
  show V m c main_arg11 (((cfg0.win 11).blk t).view.emb y) = V m c main_arg11 y
  exact congrArg _ (funext fun a => Fin.ext (win0_11.rect_emb_val_of_index_zero t a (weight_idx11 t a) y))
theorem wblk12_eq (c : Dev nD) (t : Fin cfg0.N) : wblk12 m c t = V m c main_arg12 := by
  funext y
  show V m c main_arg12 (((cfg0.win 12).blk t).view.emb y) = V m c main_arg12 y
  exact congrArg _ (funext fun a => Fin.ext (win0_12.rect_emb_val_of_index_zero t a (weight_idx12 t a) y))
theorem wblk13_eq (c : Dev nD) (t : Fin cfg0.N) : wblk13 m c t = V m c main_arg13 := by
  funext y
  show V m c main_arg13 (((cfg0.win 13).blk t).view.emb y) = V m c main_arg13 y
  exact congrArg _ (funext fun a => Fin.ext (win0_13.rect_emb_val_of_index_zero t a (weight_idx13 t a) y))
theorem wblk14_eq (c : Dev nD) (t : Fin cfg0.N) : wblk14 m c t = V m c main_arg14 := by
  funext y
  show V m c main_arg14 (((cfg0.win 14).blk t).view.emb y) = V m c main_arg14 y
  exact congrArg _ (funext fun a => Fin.ext (win0_14.rect_emb_val_of_index_zero t a (weight_idx14 t a) y))
theorem wblk15_eq (c : Dev nD) (t : Fin cfg0.N) : wblk15 m c t = V m c main_arg15 := by
  funext y
  show V m c main_arg15 (((cfg0.win 15).blk t).view.emb y) = V m c main_arg15 y
  exact congrArg _ (funext fun a => Fin.ext (win0_15.rect_emb_val_of_index_zero t a (weight_idx15 t a) y))
theorem wblk16_eq (c : Dev nD) (t : Fin cfg0.N) : wblk16 m c t = V m c main_arg16 := by
  funext y
  show V m c main_arg16 (((cfg0.win 16).blk t).view.emb y) = V m c main_arg16 y
  exact congrArg _ (funext fun a => Fin.ext (win0_16.rect_emb_val_of_index_zero t a (weight_idx16 t a) y))
theorem wblk17_eq (c : Dev nD) (t : Fin cfg0.N) : wblk17 m c t = V m c main_arg17 := by
  funext y
  show V m c main_arg17 (((cfg0.win 17).blk t).view.emb y) = V m c main_arg17 y
  exact congrArg _ (funext fun a => Fin.ext (win0_17.rect_emb_val_of_index_zero t a (weight_idx17 t a) y))
theorem wblk18_eq (c : Dev nD) (t : Fin cfg0.N) : wblk18 m c t = V m c main_arg18 := by
  funext y
  show V m c main_arg18 (((cfg0.win 18).blk t).view.emb y) = V m c main_arg18 y
  exact congrArg _ (funext fun a => Fin.ext (win0_18.rect_emb_val_of_index_zero t a (weight_idx18 t a) y))
theorem wblk19_eq (c : Dev nD) (t : Fin cfg0.N) : wblk19 m c t = V m c main_arg19 := by
  funext y
  show V m c main_arg19 (((cfg0.win 19).blk t).view.emb y) = V m c main_arg19 y
  exact congrArg _ (funext fun a => Fin.ext (win0_19.rect_emb_val_of_index_zero t a (weight_idx19 t a) y))
theorem wblk20_eq (c : Dev nD) (t : Fin cfg0.N) : wblk20 m c t = V m c main_arg20 := by
  funext y
  show V m c main_arg20 (((cfg0.win 20).blk t).view.emb y) = V m c main_arg20 y
  exact congrArg _ (funext fun a => Fin.ext (win0_20.rect_emb_val_of_index_zero t a (weight_idx20 t a) y))
theorem wblk21_eq (c : Dev nD) (t : Fin cfg0.N) : wblk21 m c t = V m c main_arg21 := by
  funext y
  show V m c main_arg21 (((cfg0.win 21).blk t).view.emb y) = V m c main_arg21 y
  exact congrArg _ (funext fun a => Fin.ext (win0_21.rect_emb_val_of_index_zero t a (weight_idx21 t a) y))
theorem wblk22_eq (c : Dev nD) (t : Fin cfg0.N) : wblk22 m c t = V m c main_arg22 := by
  funext y
  show V m c main_arg22 (((cfg0.win 22).blk t).view.emb y) = V m c main_arg22 y
  exact congrArg _ (funext fun a => Fin.ext (win0_22.rect_emb_val_of_index_zero t a (weight_idx22 t a) y))
theorem wblk23_eq (c : Dev nD) (t : Fin cfg0.N) : wblk23 m c t = V m c main_arg23 := by
  funext y
  show V m c main_arg23 (((cfg0.win 23).blk t).view.emb y) = V m c main_arg23 y
  exact congrArg _ (funext fun a => Fin.ext (win0_23.rect_emb_val_of_index_zero t a (weight_idx23 t a) y))
theorem wblk24_eq (c : Dev nD) (t : Fin cfg0.N) : wblk24 m c t = V m c main_arg24 := by
  funext y
  show V m c main_arg24 (((cfg0.win 24).blk t).view.emb y) = V m c main_arg24 y
  exact congrArg _ (funext fun a => Fin.ext (win0_24.rect_emb_val_of_index_zero t a (weight_idx24 t a) y))
theorem wblk25_eq (c : Dev nD) (t : Fin cfg0.N) : wblk25 m c t = V m c main_arg25 := by
  funext y
  show V m c main_arg25 (((cfg0.win 25).blk t).view.emb y) = V m c main_arg25 y
  exact congrArg _ (funext fun a => Fin.ext (win0_25.rect_emb_val_of_index_zero t a (weight_idx25 t a) y))
theorem wblk26_eq (c : Dev nD) (t : Fin cfg0.N) : wblk26 m c t = V m c main_arg26 := by
  funext y
  show V m c main_arg26 (((cfg0.win 26).blk t).view.emb y) = V m c main_arg26 y
  exact congrArg _ (funext fun a => Fin.ext (win0_26.rect_emb_val_of_index_zero t a (weight_idx26 t a) y))
theorem wblk27_eq (c : Dev nD) (t : Fin cfg0.N) : wblk27 m c t = V m c main_arg27 := by
  funext y
  show V m c main_arg27 (((cfg0.win 27).blk t).view.emb y) = V m c main_arg27 y
  exact congrArg _ (funext fun a => Fin.ext (win0_27.rect_emb_val_of_index_zero t a (weight_idx27 t a) y))
theorem wblk28_eq (c : Dev nD) (t : Fin cfg0.N) : wblk28 m c t = V m c main_arg28 := by
  funext y
  show V m c main_arg28 (((cfg0.win 28).blk t).view.emb y) = V m c main_arg28 y
  exact congrArg _ (funext fun a => Fin.ext (win0_28.rect_emb_val_of_index_zero t a (weight_idx28 t a) y))
theorem wblk29_eq (c : Dev nD) (t : Fin cfg0.N) : wblk29 m c t = V m c main_arg29 := by
  funext y
  show V m c main_arg29 (((cfg0.win 29).blk t).view.emb y) = V m c main_arg29 y
  exact congrArg _ (funext fun a => Fin.ext (win0_29.rect_emb_val_of_index_zero t a (weight_idx29 t a) y))
theorem wblk30_eq (c : Dev nD) (t : Fin cfg0.N) : wblk30 m c t = V m c main_arg30 := by
  funext y
  show V m c main_arg30 (((cfg0.win 30).blk t).view.emb y) = V m c main_arg30 y
  exact congrArg _ (funext fun a => Fin.ext (win0_30.rect_emb_val_of_index_zero t a (weight_idx30 t a) y))
theorem wblk31_eq (c : Dev nD) (t : Fin cfg0.N) : wblk31 m c t = V m c main_arg31 := by
  funext y
  show V m c main_arg31 (((cfg0.win 31).blk t).view.emb y) = V m c main_arg31 y
  exact congrArg _ (funext fun a => Fin.ext (win0_31.rect_emb_val_of_index_zero t a (weight_idx31 t a) y))
theorem wblk32_eq (c : Dev nD) (t : Fin cfg0.N) : wblk32 m c t = V m c main_arg32 := by
  funext y
  show V m c main_arg32 (((cfg0.win 32).blk t).view.emb y) = V m c main_arg32 y
  exact congrArg _ (funext fun a => Fin.ext (win0_32.rect_emb_val_of_index_zero t a (weight_idx32 t a) y))
theorem wblk33_eq (c : Dev nD) (t : Fin cfg0.N) : wblk33 m c t = V m c main_arg33 := by
  funext y
  show V m c main_arg33 (((cfg0.win 33).blk t).view.emb y) = V m c main_arg33 y
  exact congrArg _ (funext fun a => Fin.ext (win0_33.rect_emb_val_of_index_zero t a (weight_idx33 t a) y))
theorem wblk34_eq (c : Dev nD) (t : Fin cfg0.N) : wblk34 m c t = V m c main_arg34 := by
  funext y
  show V m c main_arg34 (((cfg0.win 34).blk t).view.emb y) = V m c main_arg34 y
  exact congrArg _ (funext fun a => Fin.ext (win0_34.rect_emb_val_of_index_zero t a (weight_idx34 t a) y))
theorem wblk35_eq (c : Dev nD) (t : Fin cfg0.N) : wblk35 m c t = V m c main_arg35 := by
  funext y
  show V m c main_arg35 (((cfg0.win 35).blk t).view.emb y) = V m c main_arg35 y
  exact congrArg _ (funext fun a => Fin.ext (win0_35.rect_emb_val_of_index_zero t a (weight_idx35 t a) y))
theorem wblk36_eq (c : Dev nD) (t : Fin cfg0.N) : wblk36 m c t = V m c main_arg36 := by
  funext y
  show V m c main_arg36 (((cfg0.win 36).blk t).view.emb y) = V m c main_arg36 y
  exact congrArg _ (funext fun a => Fin.ext (win0_36.rect_emb_val_of_index_zero t a (weight_idx36 t a) y))

/-- Equal arrays hold equal weights. -/
theorem weightsOf_congr
    {a1 b1 : S128x128.Idx → EReal} {a2 b2 : S128.Idx → EReal} {a3 b3 : S128x128.Idx → EReal} {a4 b4 : S128.Idx → EReal}
    {a5 b5 : S640x132.Idx → EReal} {a6 b6 : S132.Idx → EReal} {a7 b7 : S132x132.Idx → EReal} {a8 b8 : S132.Idx → EReal}
    {a9 b9 : S132x128.Idx → EReal} {a10 b10 : S128.Idx → EReal}
    {a11 b11 : S256x132.Idx → EReal} {a12 b12 : S132.Idx → EReal} {a13 b13 : S132x132.Idx → EReal} {a14 b14 : S132.Idx → EReal}
    {a15 b15 : S132x132.Idx → EReal} {a16 b16 : S132.Idx → EReal} {a17 b17 : S132x128.Idx → EReal} {a18 b18 : S128.Idx → EReal}
    {a19 b19 : S256x132.Idx → EReal} {a20 b20 : S132.Idx → EReal} {a21 b21 : S132x132.Idx → EReal} {a22 b22 : S132.Idx → EReal}
    {a23 b23 : S132x132.Idx → EReal} {a24 b24 : S132.Idx → EReal} {a25 b25 : S132x128.Idx → EReal} {a26 b26 : S128.Idx → EReal}
    {a27 b27 : S128x128.Idx → EReal} {a28 b28 : S128.Idx → EReal} {a29 b29 : S128x128.Idx → EReal} {a30 b30 : S128.Idx → EReal}
    {a31 b31 : S256x132.Idx → EReal} {a32 b32 : S132.Idx → EReal} {a33 b33 : S132x132.Idx → EReal} {a34 b34 : S132.Idx → EReal}
    {a35 b35 : S132x128.Idx → EReal} {a36 b36 : S128.Idx → EReal}
    (h1 : a1 = b1) (h2 : a2 = b2) (h3 : a3 = b3) (h4 : a4 = b4) (h5 : a5 = b5) (h6 : a6 = b6) (h7 : a7 = b7) (h8 : a8 = b8) (h9 : a9 = b9)
    (h10 : a10 = b10) (h11 : a11 = b11) (h12 : a12 = b12) (h13 : a13 = b13) (h14 : a14 = b14) (h15 : a15 = b15) (h16 : a16 = b16)
    (h17 : a17 = b17) (h18 : a18 = b18) (h19 : a19 = b19) (h20 : a20 = b20) (h21 : a21 = b21) (h22 : a22 = b22) (h23 : a23 = b23)
    (h24 : a24 = b24) (h25 : a25 = b25) (h26 : a26 = b26) (h27 : a27 = b27) (h28 : a28 = b28) (h29 : a29 = b29) (h30 : a30 = b30)
    (h31 : a31 = b31) (h32 : a32 = b32) (h33 : a33 = b33) (h34 : a34 = b34) (h35 : a35 = b35) (h36 : a36 = b36) :
    weightsOf a1 a2 a3 a4 a5 a6 a7 a8 a9 a10 a11 a12 a13 a14 a15 a16 a17 a18 a19 a20 a21 a22 a23 a24 a25 a26 a27 a28 a29 a30 a31 a32 a33 a34 a35 a36
      = weightsOf b1 b2 b3 b4 b5 b6 b7 b8 b9 b10 b11 b12 b13 b14 b15 b16 b17 b18 b19 b20 b21 b22 b23 b24 b25 b26 b27 b28 b29 b30 b31 b32 b33 b34 b35 b36 := by
  subst h1 h2 h3 h4 h5 h6 h7 h8 h9 h10 h11 h12 h13 h14 h15 h16 h17 h18 h19 h20 h21 h22 h23 h24 h25 h26 h27 h28 h29 h30 h31 h32 h33 h34 h35 h36
  rfl

/-- So the weights read out of the blocks at any point are the weights in the argument arrays. -/
theorem weights_eq (c : Dev nD) (t : Fin cfg0.N) :
    weightsOf (wblk1 m c t) (wblk2 m c t) (wblk3 m c t) (wblk4 m c t) (wblk5 m c t) (wblk6 m c t) (wblk7 m c t) (wblk8 m c t) (wblk9 m c t) (wblk10 m c t) (wblk11 m c t) (wblk12 m c t) (wblk13 m c t) (wblk14 m c t) (wblk15 m c t) (wblk16 m c t) (wblk17 m c t) (wblk18 m c t) (wblk19 m c t) (wblk20 m c t) (wblk21 m c t) (wblk22 m c t) (wblk23 m c t) (wblk24 m c t) (wblk25 m c t) (wblk26 m c t) (wblk27 m c t) (wblk28 m c t) (wblk29 m c t) (wblk30 m c t) (wblk31 m c t) (wblk32 m c t) (wblk33 m c t) (wblk34 m c t) (wblk35 m c t) (wblk36 m c t) = wArr m c :=
  weightsOf_congr (wblk1_eq m c t) (wblk2_eq m c t) (wblk3_eq m c t) (wblk4_eq m c t) (wblk5_eq m c t) (wblk6_eq m c t) (wblk7_eq m c t) (wblk8_eq m c t) (wblk9_eq m c t) (wblk10_eq m c t) (wblk11_eq m c t) (wblk12_eq m c t) (wblk13_eq m c t) (wblk14_eq m c t) (wblk15_eq m c t) (wblk16_eq m c t) (wblk17_eq m c t) (wblk18_eq m c t) (wblk19_eq m c t) (wblk20_eq m c t) (wblk21_eq m c t) (wblk22_eq m c t) (wblk23_eq m c t) (wblk24_eq m c t) (wblk25_eq m c t) (wblk26_eq m c t) (wblk27_eq m c t) (wblk28_eq m c t) (wblk29_eq m c t) (wblk30_eq m c t) (wblk31_eq m c t) (wblk32_eq m c t) (wblk33_eq m c t) (wblk34_eq m c t) (wblk35_eq m c t) (wblk36_eq m c t)

/-! ## The body's block, for arbitrary input blocks -/

/-- The zero offsets of a whole-block load or store, at each rank. -/
theorem off1_zero : (![0] : Fin 1 → Nat) = fun _ => 0 := funext fun a => by fin_cases a; rfl
theorem off2_zero : (![0, 0] : Fin 2 → Nat) = fun _ => 0 := funext fun a => by fin_cases a <;> rfl

/-- What the body leaves in the result window's buffer, for arbitrary blocks `x0 … x36` of the 37 input windows: every
    load reads its whole block, so the buffer is the body's one function of the blocks, and slab `s`, row `p` of it is
    `out` of row `p` of the `signal` block, with the weights read out of the weight blocks. -/
theorem body_block (x0 : Vec Ideal S1024x512 .f32) (x1 : Vec Ideal S128x128 .f32) (x2 : Vec Ideal S128 .f32) (x3 : Vec Ideal S128x128 .f32) (x4 : Vec Ideal S128 .f32) (x5 : Vec Ideal S640x132 .f32) (x6 : Vec Ideal S132 .f32) (x7 : Vec Ideal S132x132 .f32) (x8 : Vec Ideal S132 .f32) (x9 : Vec Ideal S132x128 .f32) (x10 : Vec Ideal S128 .f32) (x11 : Vec Ideal S256x132 .f32) (x12 : Vec Ideal S132 .f32) (x13 : Vec Ideal S132x132 .f32) (x14 : Vec Ideal S132 .f32) (x15 : Vec Ideal S132x132 .f32) (x16 : Vec Ideal S132 .f32) (x17 : Vec Ideal S132x128 .f32) (x18 : Vec Ideal S128 .f32) (x19 : Vec Ideal S256x132 .f32) (x20 : Vec Ideal S132 .f32) (x21 : Vec Ideal S132x132 .f32) (x22 : Vec Ideal S132 .f32) (x23 : Vec Ideal S132x132 .f32) (x24 : Vec Ideal S132 .f32) (x25 : Vec Ideal S132x128 .f32) (x26 : Vec Ideal S128 .f32) (x27 : Vec Ideal S128x128 .f32) (x28 : Vec Ideal S128 .f32) (x29 : Vec Ideal S128x128 .f32) (x30 : Vec Ideal S128 .f32) (x31 : Vec Ideal S256x132 .f32) (x32 : Vec Ideal S132 .f32) (x33 : Vec Ideal S132x132 .f32) (x34 : Vec Ideal S132 .f32) (x35 : Vec Ideal S132x128 .f32) (x36 : Vec Ideal S128 .f32) :
    slabs (out0_37 x0 x1 x2 x3 x4 x5 x6 x7 x8 x9 x10 x11 x12 x13 x14 x15 x16 x17 x18 x19 x20 x21 x22 x23 x24 x25 x26 x27 x28 x29 x30 x31 x32 x33 x34 x35 x36) = fun s p => out (weightsOf x1 x2 x3 x4 x5 x6 x7 x8 x9 x10 x11 x12 x13 x14 x15 x16 x17 x18 x19 x20 x21 x22 x23 x24 x25 x26 x27 x28 x29 x30 x31 x32 x33 x34 x35 x36) (rows x0 p) s := by
  have e : out0_37 x0 x1 x2 x3 x4 x5 x6 x7 x8 x9 x10 x11 x12 x13 x14 x15 x16 x17 x18 x19 x20 x21 x22 x23 x24 x25 x26 x27 x28 x29 x30 x31 x32 x33 x34 x35 x36 = E37 (F := Ideal) x0 x5 x6 x7 x8 x9 x10 x19 x20 x21 x22 x23 x24 x25 x26 x1 x2 x3 x4 x11 x12 x13 x14 x15 x16 x17 x18 x31 x32 x33 x34 x35 x36 x27 x28 x29 x30 := by
    funext y
    unfold out0_37
    simp only [View.ld_unit_zero (S := S1024x512) off2_zero, View.ld_unit_zero (S := S640x132) off2_zero, View.ld_unit_zero (S := S132) off1_zero,
      View.ld_unit_zero (S := S132x132) off2_zero, View.ld_unit_zero (S := S132x128) off2_zero, View.ld_unit_zero (S := S128) off1_zero,
      View.ld_unit_zero (S := S256x132) off2_zero, View.ld_unit_zero (S := S128x128) off2_zero]
    exact canon37_eq x0 x5 x6 x7 x8 x9 x10 x19 x20 x21 x22 x23 x24 x25 x26 x1 x2 x3 x4 x11 x12 x13 x14 x15 x16 x17 x18 x31 x32 x33 x34 x35 x36 x27 x28 x29 x30 y
  rw [e]
  exact block x0 x5 x6 x7 x8 x9 x10 x19 x20 x21 x22 x23 x24 x25 x26 x1 x2 x3 x4 x11 x12 x13 x14 x15 x16 x17 x18 x31 x32 x33 x34 x35 x36 x27 x28 x29 x30

/-! ## What a point writes back -/

/-- Slab `s`, row `r` of the result function is `out` of row `r` of `signal`. -/
theorem result_slab (w : Weights) (signal : S65536x512.Idx → EReal) (s : Fin 8) (r : Fin 65536) (q : Fin 128) :
    slabs (result w signal) s r q = out w (rows signal r) s q := rfl

/-- Reading the result array through the result window's block at point `t`: if row `p` of each slab of a buffer `X` is
    row `1024 t + p` of the same slab of an array `G`, then `X` is block `t` of `G`. -/
theorem result_blk_read (t : Fin cfg0.N) (X : Vec Ideal S8x1024x128 .f32) (G : S8x65536x128.Idx → EReal)
    (h : ∀ (s : Fin 8) (p : Fin 1024) (q : Fin 128) (r : Fin 65536), r.val = 1024 * t.val + p.val → slabs X s p q = slabs G s r q) :
    (cfg0.win 37).cut (grid0.coords t) X = ((cfg0.win 37).blk t).view.read (Elt Ideal) G := by
  refine funext fun (y : S8x1024x128.Idx) => ?_
  obtain ⟨e0, e1, e2⟩ := result_idx t
  have hy0 : (y 0).val < 8 := (y 0).isLt
  have hy1 : (y 1).val < 1024 := (y 1).isLt
  have hy2 : (y 2).val < 128 := (y 2).isLt
  have ht : t.val < 64 := lt_of_lt_of_eq t.isLt N_0
  have hr : 1024 * t.val + (y 1).val < 65536 := by omega
  show X ((cfg0.win 37).xinj (grid0.coords t) y) = G (((cfg0.win 37).blk t).view.emb y)
  refine (congrArg X ?_).trans ((h ⟨(y 0).val, hy0⟩ ⟨(y 1).val, hy1⟩ ⟨(y 2).val, hy2⟩ ⟨1024 * t.val + (y 1).val, hr⟩ rfl).trans (congrArg G ?_))
  · funext a
    apply Fin.ext
    match a with
    | ⟨0, _⟩ => rfl
    | ⟨1, _⟩ => rfl
    | ⟨2, _⟩ => rfl
  · funext a
    apply Fin.ext
    match a with
    | ⟨0, _⟩ => show (y 0).val = win0_37.index t (0 : Fin 3) * 8 + 1 * (y 0).val; rw [e0]; omega
    | ⟨1, _⟩ => show 1024 * t.val + (y 1).val = win0_37.index t (1 : Fin 3) * 1024 + 1 * (y 1).val; rw [e1]; omega
    | ⟨2, _⟩ => show (y 2).val = win0_37.index t (2 : Fin 3) * 128 + 1 * (y 2).val; rw [e2]; omega

/-- WHAT POINT `t` WRITES BACK is block `t` of the result function of the argument arrays. -/
theorem flushed_eq (c : Dev nD) (t : Fin cfg0.N) :
    (dats m 0 c).flushed 37 t = ((cfg0.win 37).blk t).view.read (Elt Ideal) (result (wArr m c) (V m c main_arg0 : S65536x512.Idx → EReal)) := by
  rw [flushed37]
  refine result_blk_read t (out0_37 (sblk m c t) (wblk1 m c t) (wblk2 m c t) (wblk3 m c t) (wblk4 m c t) (wblk5 m c t) (wblk6 m c t) (wblk7 m c t) (wblk8 m c t) (wblk9 m c t) (wblk10 m c t) (wblk11 m c t) (wblk12 m c t) (wblk13 m c t) (wblk14 m c t) (wblk15 m c t) (wblk16 m c t) (wblk17 m c t) (wblk18 m c t) (wblk19 m c t) (wblk20 m c t) (wblk21 m c t) (wblk22 m c t) (wblk23 m c t) (wblk24 m c t) (wblk25 m c t) (wblk26 m c t) (wblk27 m c t) (wblk28 m c t) (wblk29 m c t) (wblk30 m c t) (wblk31 m c t) (wblk32 m c t) (wblk33 m c t) (wblk34 m c t) (wblk35 m c t) (wblk36 m c t)) (result (wArr m c) (V m c main_arg0 : S65536x512.Idx → EReal)) fun s p q r hr => ?_
  refine (congrFun (congrFun (congrFun (body_block (sblk m c t) (wblk1 m c t) (wblk2 m c t) (wblk3 m c t) (wblk4 m c t) (wblk5 m c t) (wblk6 m c t) (wblk7 m c t) (wblk8 m c t) (wblk9 m c t) (wblk10 m c t) (wblk11 m c t) (wblk12 m c t) (wblk13 m c t) (wblk14 m c t) (wblk15 m c t) (wblk16 m c t) (wblk17 m c t) (wblk18 m c t) (wblk19 m c t) (wblk20 m c t) (wblk21 m c t) (wblk22 m c t) (wblk23 m c t) (wblk24 m c t) (wblk25 m c t) (wblk26 m c t) (wblk27 m c t) (wblk28 m c t) (wblk29 m c t) (wblk30 m c t) (wblk31 m c t) (wblk32 m c t) (wblk33 m c t) (wblk34 m c t) (wblk35 m c t) (wblk36 m c t)) s) p) q).trans ?_
  refine Eq.trans ?_ (result_slab (wArr m c) (V m c main_arg0 : S65536x512.Idx → EReal) s r q).symm
  show out (weightsOf (wblk1 m c t) (wblk2 m c t) (wblk3 m c t) (wblk4 m c t) (wblk5 m c t) (wblk6 m c t) (wblk7 m c t) (wblk8 m c t) (wblk9 m c t) (wblk10 m c t) (wblk11 m c t) (wblk12 m c t) (wblk13 m c t) (wblk14 m c t) (wblk15 m c t) (wblk16 m c t) (wblk17 m c t) (wblk18 m c t) (wblk19 m c t) (wblk20 m c t) (wblk21 m c t) (wblk22 m c t) (wblk23 m c t) (wblk24 m c t) (wblk25 m c t) (wblk26 m c t) (wblk27 m c t) (wblk28 m c t) (wblk29 m c t) (wblk30 m c t) (wblk31 m c t) (wblk32 m c t) (wblk33 m c t) (wblk34 m c t) (wblk35 m c t) (wblk36 m c t)) (rows (sblk m c t) p) s q = out (wArr m c) (rows (V m c main_arg0 : S65536x512.Idx → EReal) r) s q
  rw [weights_eq m c t, sblk_rows m c t p r hr]

/-! ## The blocks cover the result array -/

/-- An index of the result array is in point `t`'s block iff each coordinate is in the block's range on its axis. -/
theorem mem_blk (t : Fin cfg0.N) (i : S8x65536x128.Idx) :
    i ∈ ((cfg0.win 37).blk t).view.set ↔ ∀ a : Fin 3, win0_37.index t a * S8x1024x128.size a ≤ (i a).val ∧ (i a).val < win0_37.index t a * S8x1024x128.size a + S8x1024x128.size a := by
  show i ∈ ((View.whole main_v0).slice (win0_37.rect t)).set ↔ _
  rw [View.set_slice_whole, Rect.mem_set_unit]
  exact Iff.rfl

/-- Row `r` of every slab is in the block of point `r / 1024`. -/
theorem cover (i : S8x65536x128.Idx) : ∃ t : Fin cfg0.N, (cfg0.win 37).flush t = true ∧ i ∈ ((cfg0.win 37).blk t).view.set := by
  have hi0 : (i 0).val < 8 := (i 0).isLt
  have hi1 : (i 1).val < 65536 := (i 1).isLt
  have hi2 : (i 2).val < 128 := (i 2).isLt
  have hN : cfg0.N = 64 := N_0
  have ht : (i 1).val / 1024 < cfg0.N := by rw [hN]; omega
  obtain ⟨e0, e1, e2⟩ := result_idx ⟨(i 1).val / 1024, ht⟩
  refine ⟨⟨(i 1).val / 1024, ht⟩, flush0_37 _, ?_⟩
  rw [mem_blk]
  intro a
  match a with
  | ⟨0, _⟩ => show win0_37.index ⟨(i 1).val / 1024, ht⟩ (0 : Fin 3) * 8 ≤ (i 0).val ∧ (i 0).val < win0_37.index ⟨(i 1).val / 1024, ht⟩ (0 : Fin 3) * 8 + 8; rw [e0]; omega
  | ⟨1, _⟩ => show win0_37.index ⟨(i 1).val / 1024, ht⟩ (1 : Fin 3) * 1024 ≤ (i 1).val ∧ (i 1).val < win0_37.index ⟨(i 1).val / 1024, ht⟩ (1 : Fin 3) * 1024 + 1024; rw [e1]; show (i 1).val / 1024 * 1024 ≤ (i 1).val ∧ (i 1).val < (i 1).val / 1024 * 1024 + 1024; omega
  | ⟨2, _⟩ => show win0_37.index ⟨(i 1).val / 1024, ht⟩ (2 : Fin 3) * 128 ≤ (i 2).val ∧ (i 2).val < win0_37.index ⟨(i 1).val / 1024, ht⟩ (2 : Fin 3) * 128 + 128; rw [e2]; omega

/-- THE ARRAY after the run: slab `s`, row `r` is `out` of row `r` of `signal`. -/
theorem arr_eq (c : Dev nD) :
    ((dats m 0 c).arrAt 37 cfg0.N : S8x65536x128.Idx → EReal) = result (wArr m c) (V m c main_arg0 : S65536x512.Idx → EReal) :=
  (dats m 0 c).arrAt_eq_of_cover 37 (result (wArr m c) (V m c main_arg0 : S65536x512.Idx → EReal)) (fun t _ => flushed_eq m c t) cover

/-- The kernel's run: the result array is `result` of the arguments, and the arguments end unchanged. -/
theorem run : θ_run defs (onTc (τ := τ) (main (F := Ideal))) ⟨m, fun _ => 0, ρ⟩ fun r => ∀ c : Dev nD,
      (r.2.mem ((c : Thread nD τ).loc main_v0) : S8x65536x128.Idx → EReal) = result (wArr m c) (V m c main_arg0 : S65536x512.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)
      ∧ r.2.mem ((c : Thread nD τ).loc main_arg31) = m ((c : Thread nD τ).loc main_arg31)
      ∧ r.2.mem ((c : Thread nD τ).loc main_arg32) = m ((c : Thread nD τ).loc main_arg32)
      ∧ r.2.mem ((c : Thread nD τ).loc main_arg33) = m ((c : Thread nD τ).loc main_arg33)
      ∧ r.2.mem ((c : Thread nD τ).loc main_arg34) = m ((c : Thread nD τ).loc main_arg34)
      ∧ r.2.mem ((c : Thread nD τ).loc main_arg35) = m ((c : Thread nD τ).loc main_arg35)
      ∧ r.2.mem ((c : Thread nD τ).loc main_arg36) = m ((c : Thread nD τ).loc main_arg36) :=
  (θ_run defs _ _).mono (fun r h c => ⟨(h c).1.trans (arr_eq m c), (h c).2⟩) (run_blocks (F := Ideal) m ρ)

end Cert.Gnn.KArr

end
-- ==== Proof.LibHostStretch.lean ====
/-
  Running a list of host operations in stretches.

  The contents after a list of operations is a fold over the list, so the contents after a concatenation are the
  second part's after the first part's; in particular the contents after the first n + k operations are the contents
  after the k operations that follow the first n, started from the contents after the first n. A buffer that no
  operation of a list writes keeps its contents through every prefix of the list.

  An operation of a module-local function reads and writes its buffers through a transport along the buffer's type;
  writing a value through it and reading it back gives the value.
-/
import Idealize.ShloMosaic.Lib.StableHlo.Run

noncomputable section

namespace Cert.GraphConv

open Idealize.ShloMosaic Idealize.ShloMosaic.StableHlo

variable {τ : Topo} {sig : RefSig} {Val : EltTy → Type}

/-- The contents after one list of operations and then another are the second's after the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The first n + k operations are the first n, then the k that follow them. -/
theorem after_take_add (l : List (HloOp τ sig Val)) (n k : Nat) (V : Valuation τ sig Val) :
    after (List.take (n + k) l) V = after (List.take k (List.drop n l)) (after (List.take n l) V) := by
  rw [List.take_add, after_append]

/-- The whole list is its first n operations, then the rest. -/
theorem after_take_drop (l : List (HloOp τ sig Val)) (n : Nat) (V : Valuation τ sig Val) :
    after l V = after (List.drop n l) (after (List.take n l) V) := by
  conv_lhs => rw [← List.take_append_drop n l]
  exact after_append _ _ _

/-- A buffer no operation of the list writes keeps its contents through every prefix of the list. -/
theorem prefix_keeps {b : DevRef τ sig} (l : List (HloOp τ sig Val)) (h : ∀ op ∈ l, b ∉ op.writes) (n : Nat)
    (V : Valuation τ sig Val) : after (List.take n l) V b = V b :=
  after_of_forall_not_mem _ _ fun op ho => h op (List.mem_of_mem_take ho)

/-- A value written to a typed reference's buffer and read back is the value. -/
theorem ofBuf_toBuf {T : BufTy} (x : TRef sig T) (v : T.Contents Val) : x.ofBuf (x.toBuf v) = v := by
  obtain ⟨r, rfl, h2, h3⟩ := x
  rfl

end Cert.GraphConv

end
-- ==== Proof.LayersR.lean ====
/-
  The reference's host operations, read one row at a time.

  Each host operation of the reference acts on the rows of an array separately: a `dot_general` against a weight
  matrix sends row `r` to that row times the matrix; sums, maxima and concatenations along the second axis act
  within a row; a bias or a constant broadcast to the array is the same row at every `r`. These are the
  equations that carry `rows` from a value to its operands.
-/
import proofs.«160910_j1125281431924_1_alg».proof.ReferenceIdeal
import proofs.«160910_j1125281431924_1_alg».proof.Proof.Rows
import Idealize.ShloMosaic.PureOps.Ideal.Laws
import Idealize.ShloMosaic.Lib.Pipeline.Value
import Idealize.ShloMosaic.Lib.ValueLayout
import Idealize.ShloMosaic.Lib.StackMember

noncomputable section

namespace Cert.Gnn.R

open Idealize.ShloMosaic Idealize.ShloMosaic.ValueIdx Cert.ReferenceIdeal Cert.Gnn

variable [Facts₀]

/-! ### Entry by entry -/

theorem rows_addf {a b : ℕ} (x y : FVec Ideal ⟨2, ![a, b]⟩ .f32) :
    rows (addf x y) = fun r => add (rows x r) (rows y r) := rfl

/-- A scalar constant broadcast to any shape has the constant's value at every index: the scalar shape has one
    index, and no axis of it is named. -/
theorem splat_apply {t : Shape} (c : BitVec 32) (h : S_.BroadcastsInDim t (![] : Fin 0 → Fin t.rank)) (j : t.Idx) :
    broadcastInDim t ![] h (constant (F := Ideal) S_ .f32 c) j = Ideal.ofBits .f32 c :=
  broadcastInDim_apply ![] h (constant (F := Ideal) S_ .f32 c) j ix0 (fun a => a.elim0)

/-- The zero constant broadcast to any shape is `0` at every index. -/
theorem splat_zero_apply {t : Shape} (h : S_.BroadcastsInDim t (![] : Fin 0 → Fin t.rank)) (j : t.Idx) :
    broadcastInDim t ![] h (constant (F := Ideal) S_ .f32 0x00000000#32) j = 0 :=
  (splat_apply 0x00000000#32 h j).trans Ideal.ofBits_zero_f32

theorem rows_relu_132 (x : FVec Ideal S65536x132 .f32)
    (h : S_.BroadcastsInDim S65536x132 (![] : Fin 0 → Fin S65536x132.rank)) :
    rows (no_index (maximumf x (broadcastInDim S65536x132 ![] h (constant (F := Ideal) S_ .f32 0x00000000#32)))) = fun r => relu (rows x r) := by
  funext r q
  show max (x (ix2 r q)) (broadcastInDim S65536x132 ![] h (constant (F := Ideal) S_ .f32 0x00000000#32) (ix2 r q))
    = max (x (ix2 r q)) 0
  exact congrArg (max (x (ix2 r q))) (splat_zero_apply h (ix2 r q))

theorem rows_zero_128 (h : S_.BroadcastsInDim S65536x128 (![] : Fin 0 → Fin S65536x128.rank)) :
    rows (no_index (broadcastInDim S65536x128 ![] h (constant (F := Ideal) S_ .f32 0x00000000#32))) = fun _ => zero := by
  funext r q
  exact splat_zero_apply h (ix2 r q)

/-! ### A bias: one row, repeated -/

/-- A vector made a one-row matrix and that row copied to every row: entry `(r, q)` is the vector's entry `q`. -/
theorem bias_apply {a n : ℕ} (b : (⟨1, ![n]⟩ : Shape).Idx → EReal) (hn : n ≠ 1)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![1, n]⟩ ![1] h1 b) (ix2 r q) = b (ix1 q) := by
  refine (broadcastInDim_apply ![0, 1] h2 _ (ix2 r q) (ix2 (0 : Fin 1) q) ?_).trans ?_
  · intro ax
    match ax with
    | ⟨0, _⟩ => exact (if_pos rfl).symm
    | ⟨1, _⟩ => exact (if_neg hn).symm
  · refine broadcastInDim_apply ![1] h1 b (ix2 (0 : Fin 1) q) (ix1 q) ?_
    intro ax
    match ax with
    | ⟨0, _⟩ => exact (if_neg hn).symm

theorem rows_bias_132 (b : FVec Ideal S132 .f32) (h1 : S132.BroadcastsInDim S1x132 (![1] : Fin 1 → Fin S1x132.rank))
    (h2 : S1x132.BroadcastsInDim S65536x132 (![0, 1] : Fin 2 → Fin S65536x132.rank)) :
    rows (no_index (broadcastInDim S65536x132 ![0, 1] h2 (broadcastInDim S1x132 ![1] h1 b))) = fun _ => vec b := by
  funext r q
  exact bias_apply b (by decide) h1 h2 r q

theorem rows_bias_128 (b : FVec Ideal S128 .f32) (h1 : S128.BroadcastsInDim S1x128 (![1] : Fin 1 → Fin S1x128.rank))
    (h2 : S1x128.BroadcastsInDim S65536x128 (![0, 1] : Fin 2 → Fin S65536x128.rank)) :
    rows (no_index (broadcastInDim S65536x128 ![0, 1] h2 (broadcastInDim S1x128 ![1] h1 b))) = fun _ => vec b := by
  funext r q
  exact bias_apply b (by decide) h1 h2 r q

/-! ### The message bias, counted -/

theorem vec_mulf_splat (c : BitVec 32) (b : FVec Ideal S128 .f32) (h : S_.BroadcastsInDim S128 (![] : Fin 0 → Fin S128.rank)) :
    vec (no_index (mulf (broadcastInDim S128 ![] h (constant (F := Ideal) S_ .f32 c)) b)) = scale (Ideal.ofBits .f32 c) (vec b) := by
  funext q
  show broadcastInDim S128 ![] h (constant (F := Ideal) S_ .f32 c) (ix1 q) * b (ix1 q) = Ideal.ofBits .f32 c * b (ix1 q)
  exact congrArg (· * b (ix1 q)) (splat_apply c h (ix1 q))

/-! ### Rows laid side by side -/

/-- Two matrices of equal height laid side by side: entry `(r, q)` is the left one's while `q` is below its width,
    and the right one's, the left width less, from there on. -/
theorem concat_cols_apply {a m n : ℕ} (x : (⟨2, ![a, m]⟩ : Shape).Idx → EReal) (y : (⟨2, ![a, n]⟩ : Shape).Idx → EReal)
    (h : Shape.Concatenates [⟨2, ![a, m]⟩, ⟨2, ![a, n]⟩] ⟨2, ![a, m + n]⟩ (1 : Fin 2)) (r : Fin a) (q : Fin (m + n)) :
    concatenate ⟨2, ![a, m + n]⟩ (1 : Fin 2) [⟨⟨2, ![a, m]⟩, x⟩, ⟨⟨2, ![a, n]⟩, y⟩] h (ix2 r q)
      = if hq : q.val < m then x (ix2 r ⟨q.val, hq⟩) else y (ix2 r ⟨q.val - m, by have := q.isLt; omega⟩) := by
  by_cases hq : q.val < m
  · rw [dif_pos hq]
    refine concatenate_pair_apply_left (1 : Fin 2) x y h (ix2 r q) rfl (ix2 r ⟨q.val, hq⟩) ?_
    intro ax
    match ax with
    | ⟨0, _⟩ => rfl
    | ⟨1, _⟩ => rfl
  · rw [dif_neg hq]
    refine concatenate_pair_apply_right (1 : Fin 2) x y h (ix2 r q) rfl rfl (ix2 r ⟨q.val - m, by have := q.isLt; omega⟩) ?_ ?_
    · intro ax hax
      match ax, hax with
      | ⟨0, _⟩, _ => rfl
      | ⟨1, _⟩, hax => exact absurd rfl hax
    · show q.val - m + m = q.val
      omega

theorem rows_concat_640 (x : FVec Ideal S65536x512 .f32) (y : FVec Ideal S65536x128 .f32)
    (h : Shape.Concatenates [S65536x512, S65536x128] S65536x640 1) :
    rows (no_index (concatenate S65536x640 1 [⟨S65536x512, x⟩, ⟨S65536x128, y⟩] h)) = fun r => cat640 (rows x r) (rows y r) := by
  funext r q
  exact concat_cols_apply (m := 512) (n := 128) x y h r q

theorem rows_concat_256 (x y : FVec Ideal S65536x128 .f32) (h : Shape.Concatenates [S65536x128, S65536x128] S65536x256 1) :
    rows (no_index (concatenate S65536x256 1 [⟨S65536x128, x⟩, ⟨S65536x128, y⟩] h)) = fun r => cat256 (rows x r) (rows y r) := by
  funext r q
  exact concat_cols_apply (m := 128) (n := 128) x y h r q

/-! ### Products with a weight matrix -/

/-- A plain matrix product, row by row: row `r` of `x · w` is row `r` of `x` times `w`. -/
theorem rows_dot_plain {m k n : ℕ} (D : DotDims ⟨2, ![m, k]⟩ ⟨2, ![k, n]⟩ ⟨2, ![m, n]⟩) (hD : D = DotDims.plain m k n)
    (x : FVec Ideal ⟨2, ![m, k]⟩ .f32) (w : FVec Ideal ⟨2, ![k, n]⟩ .f32) :
    rows (Host.dotGeneral D none x w) = fun r => mm (rows w) (rows x r) := by
  subst hD
  funext r q
  exact StackMember.dotGeneral_plain_apply none x w r q

theorem rows_dot_640_132 (x : FVec Ideal S65536x640 .f32) (w : FVec Ideal S640x132 .f32) :
    rows (Host.dotGeneral dot_S65536x640_S640x132_S65536x132_1_0_0_1_n_n none x w) = fun r => mm (rows w) (rows x r) :=
  rows_dot_plain _ rfl x w

theorem rows_dot_132_132 (x : FVec Ideal S65536x132 .f32) (w : FVec Ideal S132x132 .f32) :
    rows (Host.dotGeneral dot_S65536x132_S132x132_S65536x132_1_0_0_1_n_n none x w) = fun r => mm (rows w) (rows x r) :=
  rows_dot_plain _ rfl x w

theorem rows_dot_132_128 (x : FVec Ideal S65536x132 .f32) (w : FVec Ideal S132x128 .f32) :
    rows (Host.dotGeneral dot_S65536x132_S132x128_S65536x128_1_0_0_1_n_n none x w) = fun r => mm (rows w) (rows x r) :=
  rows_dot_plain _ rfl x w

theorem rows_dot_256_132 (x : FVec Ideal S65536x256 .f32) (w : FVec Ideal S256x132 .f32) :
    rows (Host.dotGeneral dot_S65536x256_S256x132_S65536x132_1_0_0_1_n_n none x w) = fun r => mm (rows w) (rows x r) :=
  rows_dot_plain _ rfl x w

theorem rows_dot_128_128 (x : FVec Ideal S65536x128 .f32) (w : FVec Ideal S128x128 .f32) :
    rows (Host.dotGeneral dot_S65536x128_S128x128_S65536x128_1_0_0_1_n_n none x w) = fun r => mm (rows w) (rows x r) :=
  rows_dot_plain _ rfl x w

/-! ### The eight results stacked -/

/-- A matrix given a leading unit axis: entry `(0, r, q)` is the matrix's entry `(r, q)`. -/
theorem lead_unit_apply (x : FVec Ideal S65536x128 .f32)
    (hb : S65536x128.BroadcastsInDim S1x65536x128 (![1, 2] : Fin 2 → Fin S1x65536x128.rank)) (r : Fin 65536) (q : Fin 128) :
    broadcastInDim S1x65536x128 ![1, 2] hb x (ix3 (0 : Fin 1) r q) = x (ix2 r q) := by
  refine broadcastInDim_apply ![1, 2] hb x (ix3 (0 : Fin 1) r q) (ix2 r q) ?_
  intro ax
  match ax with
  | ⟨0, _⟩ => rfl
  | ⟨1, _⟩ => rfl

/-- A stack of eight one-slab pieces read at slab `k`: the eight extents along the stacking axis are all one, so
    `k` pieces of extent one lie before piece `k`, and the slab is that piece at its only slab. -/
theorem stack8_apply (p0 p1 p2 p3 p4 p5 p6 p7 : FVec Ideal S1x65536x128 .f32)
    (hc : Shape.Concatenates [S1x65536x128, S1x65536x128, S1x65536x128, S1x65536x128, S1x65536x128, S1x65536x128, S1x65536x128, S1x65536x128] S8x65536x128 0)
    (r : Fin 65536) (q : Fin 128) (k : Fin 8) :
    concatenate S8x65536x128 0
        [⟨S1x65536x128, p0⟩, ⟨S1x65536x128, p1⟩, ⟨S1x65536x128, p2⟩, ⟨S1x65536x128, p3⟩,
         ⟨S1x65536x128, p4⟩, ⟨S1x65536x128, p5⟩, ⟨S1x65536x128, p6⟩, ⟨S1x65536x128, p7⟩] hc (ix3 k r q)
      = match k with
        | ⟨0, _⟩ => p0 (ix3 (0 : Fin 1) r q) | ⟨1, _⟩ => p1 (ix3 (0 : Fin 1) r q)
        | ⟨2, _⟩ => p2 (ix3 (0 : Fin 1) r q) | ⟨3, _⟩ => p3 (ix3 (0 : Fin 1) r q)
        | ⟨4, _⟩ => p4 (ix3 (0 : Fin 1) r q) | ⟨5, _⟩ => p5 (ix3 (0 : Fin 1) r q)
        | ⟨6, _⟩ => p6 (ix3 (0 : Fin 1) r q) | ⟨7, _⟩ => p7 (ix3 (0 : Fin 1) r q) := by
  have hi : ∀ (k : Fin 8) (b : Fin S1x65536x128.rank), b.cast (rfl : S1x65536x128.rank = S8x65536x128.rank) ≠ (0 : Fin 3) →
      ((ix3 (0 : Fin 1) r q) b).val = ((ix3 k r q) (b.cast rfl)).val := by
    intro k b hb
    match b, hb with
    | ⟨0, _⟩, hb => exact absurd rfl hb
    | ⟨1, _⟩, _ => rfl
    | ⟨2, _⟩, _ => rfl
  have key := concatenate_apply_piece (α := EReal) (t := S8x65536x128) 0
    [⟨S1x65536x128, p0⟩, ⟨S1x65536x128, p1⟩, ⟨S1x65536x128, p2⟩, ⟨S1x65536x128, p3⟩,
     ⟨S1x65536x128, p4⟩, ⟨S1x65536x128, p5⟩, ⟨S1x65536x128, p6⟩, ⟨S1x65536x128, p7⟩] hc
  match k with
  | ⟨0, _⟩ => exact key _ 0 (show (0 : ℕ) < 8 by decide) S1x65536x128 p0 rfl rfl 0 rfl _ (hi _) rfl
  | ⟨1, _⟩ => exact key _ 1 (show (1 : ℕ) < 8 by decide) S1x65536x128 p1 rfl rfl 1 rfl _ (hi _) rfl
  | ⟨2, _⟩ => exact key _ 2 (show (2 : ℕ) < 8 by decide) S1x65536x128 p2 rfl rfl 2 rfl _ (hi _) rfl
  | ⟨3, _⟩ => exact key _ 3 (show (3 : ℕ) < 8 by decide) S1x65536x128 p3 rfl rfl 3 rfl _ (hi _) rfl
  | ⟨4, _⟩ => exact key _ 4 (show (4 : ℕ) < 8 by decide) S1x65536x128 p4 rfl rfl 4 rfl _ (hi _) rfl
  | ⟨5, _⟩ => exact key _ 5 (show (5 : ℕ) < 8 by decide) S1x65536x128 p5 rfl rfl 5 rfl _ (hi _) rfl
  | ⟨6, _⟩ => exact key _ 6 (show (6 : ℕ) < 8 by decide) S1x65536x128 p6 rfl rfl 6 rfl _ (hi _) rfl
  | ⟨7, _⟩ => exact key _ 7 (show (7 : ℕ) < 8 by decide) S1x65536x128 p7 rfl rfl 7 rfl _ (hi _) rfl

theorem slabs_stack (x0 x1 x2 x3 x4 x5 x6 x7 : FVec Ideal S65536x128 .f32)
    (hb : S65536x128.BroadcastsInDim S1x65536x128 (![1, 2] : Fin 2 → Fin S1x65536x128.rank))
    (hc : Shape.Concatenates [S1x65536x128, S1x65536x128, S1x65536x128, S1x65536x128, S1x65536x128, S1x65536x128, S1x65536x128, S1x65536x128] S8x65536x128 0) :
    slabs (no_index (concatenate S8x65536x128 0
        [⟨S1x65536x128, broadcastInDim S1x65536x128 ![1, 2] hb x0⟩, ⟨S1x65536x128, broadcastInDim S1x65536x128 ![1, 2] hb x1⟩,
         ⟨S1x65536x128, broadcastInDim S1x65536x128 ![1, 2] hb x2⟩, ⟨S1x65536x128, broadcastInDim S1x65536x128 ![1, 2] hb x3⟩,
         ⟨S1x65536x128, broadcastInDim S1x65536x128 ![1, 2] hb x4⟩, ⟨S1x65536x128, broadcastInDim S1x65536x128 ![1, 2] hb x5⟩,
         ⟨S1x65536x128, broadcastInDim S1x65536x128 ![1, 2] hb x6⟩, ⟨S1x65536x128, broadcastInDim S1x65536x128 ![1, 2] hb x7⟩] hc))
      = fun s => match s with
        | ⟨0, _⟩ => rows x0 | ⟨1, _⟩ => rows x1 | ⟨2, _⟩ => rows x2 | ⟨3, _⟩ => rows x3
        | ⟨4, _⟩ => rows x4 | ⟨5, _⟩ => rows x5 | ⟨6, _⟩ => rows x6 | ⟨7, _⟩ => rows x7 := by
  funext s r q
  refine (stack8_apply _ _ _ _ _ _ _ _ hc r q s).trans ?_
  match s with
  | ⟨0, _⟩ => exact lead_unit_apply x0 hb r q
  | ⟨1, _⟩ => exact lead_unit_apply x1 hb r q
  | ⟨2, _⟩ => exact lead_unit_apply x2 hb r q
  | ⟨3, _⟩ => exact lead_unit_apply x3 hb r q
  | ⟨4, _⟩ => exact lead_unit_apply x4 hb r q
  | ⟨5, _⟩ => exact lead_unit_apply x5 hb r q
  | ⟨6, _⟩ => exact lead_unit_apply x6 hb r q
  | ⟨7, _⟩ => exact lead_unit_apply x7 hb r q

end Cert.Gnn.R

end
-- ==== Proof.RefBase.lean ====
/-
  The reference's arrays as families of rows.

  At any contents `V` of the device's buffers: the weights are the thirty-six weight arrays read as matrices and
  rows, `sigRows V r` is row `r` of `signal`, and `nodeRows V b r` is row `r` of the array a graph node was written to.
-/
import proofs.«160910_j1125281431924_1_alg».proof.Proof.RefChunks
import proofs.«160910_j1125281431924_1_alg».proof.Proof.LayersR

noncomputable section

namespace Cert.Gnn.Ref

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RunP Cert.Gnn

variable [Facts]

/-- The weights held in the argument buffers. -/
def wOf (V : Valuation τ sig (Elt Ideal)) : Weights :=
  weightsOf (V (Proc.devRef .tc main_arg1)) (V (Proc.devRef .tc main_arg2)) (V (Proc.devRef .tc main_arg3)) (V (Proc.devRef .tc main_arg4))
    (V (Proc.devRef .tc main_arg5)) (V (Proc.devRef .tc main_arg6)) (V (Proc.devRef .tc main_arg7)) (V (Proc.devRef .tc main_arg8))
    (V (Proc.devRef .tc main_arg9)) (V (Proc.devRef .tc main_arg10)) (V (Proc.devRef .tc main_arg11)) (V (Proc.devRef .tc main_arg12))
    (V (Proc.devRef .tc main_arg13)) (V (Proc.devRef .tc main_arg14)) (V (Proc.devRef .tc main_arg15)) (V (Proc.devRef .tc main_arg16))
    (V (Proc.devRef .tc main_arg17)) (V (Proc.devRef .tc main_arg18)) (V (Proc.devRef .tc main_arg19)) (V (Proc.devRef .tc main_arg20))
    (V (Proc.devRef .tc main_arg21)) (V (Proc.devRef .tc main_arg22)) (V (Proc.devRef .tc main_arg23)) (V (Proc.devRef .tc main_arg24))
    (V (Proc.devRef .tc main_arg25)) (V (Proc.devRef .tc main_arg26)) (V (Proc.devRef .tc main_arg27)) (V (Proc.devRef .tc main_arg28))
    (V (Proc.devRef .tc main_arg29)) (V (Proc.devRef .tc main_arg30)) (V (Proc.devRef .tc main_arg31)) (V (Proc.devRef .tc main_arg32))
    (V (Proc.devRef .tc main_arg33)) (V (Proc.devRef .tc main_arg34)) (V (Proc.devRef .tc main_arg35)) (V (Proc.devRef .tc main_arg36))

/-- Row `r` of `signal`. -/
def sigRows (V : Valuation τ sig (Elt Ideal)) : Fin 65536 → Row 512 :=
  rows (V (Proc.devRef .tc main_arg0) : S65536x512.Idx → EReal)

end Cert.Gnn.Ref

end
-- ==== Proof.RefNodeA.lean ====
/-
  The reference, stretch by stretch: the two first point nodes and the first line node.

  Each lemma runs ONE stretch of the reference's operations from arbitrary buffer contents `V` and reads the array the
  stretch ends on one row at a time: row `r` of it is the graph node's row function (Proof/Rows.lean) of row `r` of the
  stretch's input arrays and of the weights in `V`. The host operations are read through the row equations of
  Proof/LayersR.lean; the reference sums an aggregate's messages starting from a zero array, which adds nothing.
-/
import proofs.«160910_j1125281431924_1_alg».proof.Proof.RefBase

noncomputable section

namespace Cert.Gnn.Ref

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RunP Cert.Gnn Cert.Gnn.R

variable [Facts]

/-- Row `r` of the array in buffer `b` (an array of 65536 rows of width 128). -/
local notation "nr[" V ", " b "]" => rows (V (Proc.devRef Proc.tc b) : S65536x128.Idx → EReal)

set_option maxHeartbeats 4000000 in
/-- The first point node: the point layers on `signal ++ 0`. -/
theorem val_upP1 (V : Valuation τ sig (Elt Ideal)) :
    rows (after (c_upP1 (F := Ideal)) V (Proc.devRef .tc main_v15) : S65536x128.Idx → EReal)
      = fun r => upP1 (wOf V) (sigRows V r) := by
  after_results_simp
  simp only [TRef.ofBuf, TRef.toBuf, cast_eq]
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  after_results_simp
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  rfl

set_option maxHeartbeats 4000000 in
/-- The second point node: the same layers on the same rows. -/
theorem val_upP2 (V : Valuation τ sig (Elt Ideal)) :
    rows (after (c_upP2 (F := Ideal)) V (Proc.devRef .tc main_v31) : S65536x128.Idx → EReal)
      = fun r => upP2 (wOf V) (sigRows V r) := by
  after_results_simp
  simp only [TRef.ofBuf, TRef.toBuf, cast_eq]
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  after_results_simp
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  rfl

set_option maxHeartbeats 4000000 in
/-- The first line node. -/
theorem val_upL1 (V : Valuation τ sig (Elt Ideal)) :
    rows (after (c_upL1 (F := Ideal)) V (Proc.devRef .tc main_v51) : S65536x128.Idx → EReal)
      = fun r => lnFc (wOf V) (cat256 (nr[V, main_v15] r) (nr[V, main_v31] r)) := by
  after_results_simp
  simp only [TRef.ofBuf, TRef.toBuf, cast_eq]
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  rfl

end Cert.Gnn.Ref

end
-- ==== Proof.RefNodeB.lean ====
/-
  The reference, stretch by stretch: the two circle nodes and the third point node.

  Each lemma runs ONE stretch of the reference's operations from arbitrary buffer contents `V` and reads the array the
  stretch ends on one row at a time: row `r` of it is the graph node's row function (Proof/Rows.lean) of row `r` of the
  stretch's input arrays and of the weights in `V`. The host operations are read through the row equations of
  Proof/LayersR.lean; the reference sums an aggregate's messages starting from a zero array, which adds nothing.
-/
import proofs.«160910_j1125281431924_1_alg».proof.Proof.RefBase

noncomputable section

namespace Cert.Gnn.Ref

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RunP Cert.Gnn Cert.Gnn.R

variable [Facts]

/-- Row `r` of the array in buffer `b` (an array of 65536 rows of width 128). -/
local notation "nr[" V ", " b "]" => rows (V (Proc.devRef Proc.tc b) : S65536x128.Idx → EReal)

set_option maxHeartbeats 4000000 in
/-- The first circle node. -/
theorem val_upC1 (V : Valuation τ sig (Elt Ideal)) :
    rows (after (c_upC1 (F := Ideal)) V (Proc.devRef .tc main_v71) : S65536x128.Idx → EReal)
      = fun r => crFc (wOf V) (cat256 (nr[V, main_v15] r) (nr[V, main_v31] r)) := by
  after_results_simp
  simp only [TRef.ofBuf, TRef.toBuf, cast_eq]
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  rfl

set_option maxHeartbeats 4000000 in
/-- The second circle node, its two inputs the other way round. -/
theorem val_upC2 (V : Valuation τ sig (Elt Ideal)) :
    rows (after (c_upC2 (F := Ideal)) V (Proc.devRef .tc main_v91) : S65536x128.Idx → EReal)
      = fun r => crFc (wOf V) (cat256 (nr[V, main_v31] r) (nr[V, main_v15] r)) := by
  after_results_simp
  simp only [TRef.ofBuf, TRef.toBuf, cast_eq]
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  rfl

set_option maxHeartbeats 4000000 in
/-- The third point node: the point layers on `signal` beside the aggregate of the two circle nodes. -/
theorem val_upP3 (V : Valuation τ sig (Elt Ideal)) :
    rows (after (c_upP3 (F := Ideal)) V (Proc.devRef .tc main_v120) : S65536x128.Idx → EReal)
      = fun r => ppFc (wOf V) (cat640 (sigRows V r) (ppAgg2 (wOf V) (nr[V, main_v71] r) (nr[V, main_v91] r))) := by
  after_results_simp
  simp only [TRef.ofBuf, TRef.toBuf, cast_eq]
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  -- the concatenation's second operand is itself computed in this stretch: read it the same way
  after_results_simp
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  rfl

end Cert.Gnn.Ref

end
-- ==== Proof.RefNodeC.lean ====
/-
  The reference, stretch by stretch: the second and third line nodes, and the first line node of the downward pass.

  Each lemma runs ONE stretch of the reference's operations from arbitrary buffer contents `V` and reads the array the
  stretch ends on one row at a time: row `r` of it is the graph node's row function (Proof/Rows.lean) of row `r` of the
  stretch's input arrays and of the weights in `V`. The host operations are read through the row equations of
  Proof/LayersR.lean; the reference sums an aggregate's messages starting from a zero array, which adds nothing.
-/
import proofs.«160910_j1125281431924_1_alg».proof.Proof.RefBase

noncomputable section

namespace Cert.Gnn.Ref

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RunP Cert.Gnn Cert.Gnn.R

variable [Facts]

/-- Row `r` of the array in buffer `b` (an array of 65536 rows of width 128). -/
local notation "nr[" V ", " b "]" => rows (V (Proc.devRef Proc.tc b) : S65536x128.Idx → EReal)

set_option maxHeartbeats 4000000 in
/-- The second line node. -/
theorem val_upL2 (V : Valuation τ sig (Elt Ideal)) :
    rows (after (c_upL2 (F := Ideal)) V (Proc.devRef .tc main_v140) : S65536x128.Idx → EReal)
      = fun r => lnFc (wOf V) (cat256 (nr[V, main_v15] r) (nr[V, main_v120] r)) := by
  after_results_simp
  simp only [TRef.ofBuf, TRef.toBuf, cast_eq]
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  rfl

set_option maxHeartbeats 4000000 in
/-- The third line node. -/
theorem val_upL3 (V : Valuation τ sig (Elt Ideal)) :
    rows (after (c_upL3 (F := Ideal)) V (Proc.devRef .tc main_v160) : S65536x128.Idx → EReal)
      = fun r => lnFc (wOf V) (cat256 (nr[V, main_v31] r) (nr[V, main_v120] r)) := by
  after_results_simp
  simp only [TRef.ofBuf, TRef.toBuf, cast_eq]
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  rfl

set_option maxHeartbeats 4000000 in
/-- Down, first line node: no component, so a zero aggregate. -/
theorem val_dL1 (V : Valuation τ sig (Elt Ideal)) :
    rows (after (c_dL1 (F := Ideal)) V (Proc.devRef .tc main_v176) : S65536x128.Idx → EReal)
      = fun r => mpFc (wOf V) (cat256 (nr[V, main_v51] r) zero) := by
  after_results_simp
  simp only [TRef.ofBuf, TRef.toBuf, cast_eq]
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  after_results_simp
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  rfl

end Cert.Gnn.Ref

end
-- ==== Proof.RefNodeD.lean ====
/-
  The reference, stretch by stretch: the downward pass's second and third line nodes and third point node.

  Each lemma runs ONE stretch of the reference's operations from arbitrary buffer contents `V` and reads the array the
  stretch ends on one row at a time: row `r` of it is the graph node's row function (Proof/Rows.lean) of row `r` of the
  stretch's input arrays and of the weights in `V`. The host operations are read through the row equations of
  Proof/LayersR.lean; the reference sums an aggregate's messages starting from a zero array, which adds nothing.
-/
import proofs.«160910_j1125281431924_1_alg».proof.Proof.RefBase

noncomputable section

namespace Cert.Gnn.Ref

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RunP Cert.Gnn Cert.Gnn.R

variable [Facts]

/-- Row `r` of the array in buffer `b` (an array of 65536 rows of width 128). -/
local notation "nr[" V ", " b "]" => rows (V (Proc.devRef Proc.tc b) : S65536x128.Idx → EReal)

set_option maxHeartbeats 4000000 in
/-- Down, second line node. -/
theorem val_dL2 (V : Valuation τ sig (Elt Ideal)) :
    rows (after (c_dL2 (F := Ideal)) V (Proc.devRef .tc main_v192) : S65536x128.Idx → EReal)
      = fun r => mpFc (wOf V) (cat256 (nr[V, main_v140] r) zero) := by
  after_results_simp
  simp only [TRef.ofBuf, TRef.toBuf, cast_eq]
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  after_results_simp
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  rfl

set_option maxHeartbeats 4000000 in
/-- Down, third line node. -/
theorem val_dL3 (V : Valuation τ sig (Elt Ideal)) :
    rows (after (c_dL3 (F := Ideal)) V (Proc.devRef .tc main_v208) : S65536x128.Idx → EReal)
      = fun r => mpFc (wOf V) (cat256 (nr[V, main_v160] r) zero) := by
  after_results_simp
  simp only [TRef.ofBuf, TRef.toBuf, cast_eq]
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  after_results_simp
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  rfl

set_option maxHeartbeats 4000000 in
/-- Down, third point node: the aggregate of the two line nodes below it. -/
theorem val_dP3 (V : Valuation τ sig (Elt Ideal)) :
    rows (after (c_dP3 (F := Ideal)) V (Proc.devRef .tc main_v237) : S65536x128.Idx → EReal)
      = fun r => mpFc (wOf V) (cat256 (nr[V, main_v120] r) (mpAgg2 (wOf V) (nr[V, main_v192] r) (nr[V, main_v208] r))) := by
  after_results_simp
  simp only [TRef.ofBuf, TRef.toBuf, cast_eq]
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  after_results_simp
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  rfl

end Cert.Gnn.Ref

end
-- ==== Proof.RefNodeE.lean ====
/-
  The reference, stretch by stretch: the downward pass's two circle nodes.

  Each lemma runs ONE stretch of the reference's operations from arbitrary buffer contents `V` and reads the array the
  stretch ends on one row at a time: row `r` of it is the graph node's row function (Proof/Rows.lean) of row `r` of the
  stretch's input arrays and of the weights in `V`. The host operations are read through the row equations of
  Proof/LayersR.lean; the reference sums an aggregate's messages starting from a zero array, which adds nothing.
-/
import proofs.«160910_j1125281431924_1_alg».proof.Proof.RefBase

noncomputable section

namespace Cert.Gnn.Ref

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RunP Cert.Gnn Cert.Gnn.R

variable [Facts]

/-- Row `r` of the array in buffer `b` (an array of 65536 rows of width 128). -/
local notation "nr[" V ", " b "]" => rows (V (Proc.devRef Proc.tc b) : S65536x128.Idx → EReal)

set_option maxHeartbeats 4000000 in
/-- Down, first circle node: the aggregate of the one point node. -/
theorem val_dC1 (V : Valuation τ sig (Elt Ideal)) :
    rows (after (c_dC1 (F := Ideal)) V (Proc.devRef .tc main_v264) : S65536x128.Idx → EReal)
      = fun r => mpFc (wOf V) (cat256 (nr[V, main_v71] r) (mpAgg1 (wOf V) (nr[V, main_v237] r))) := by
  after_results_simp
  simp only [TRef.ofBuf, TRef.toBuf, cast_eq]
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  -- the two rows laid side by side are read only once the concatenation is split: the second one is computed in this stretch
  after_results_simp
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  rfl

set_option maxHeartbeats 4000000 in
/-- Down, second circle node. -/
theorem val_dC2 (V : Valuation τ sig (Elt Ideal)) :
    rows (after (c_dC2 (F := Ideal)) V (Proc.devRef .tc main_v291) : S65536x128.Idx → EReal)
      = fun r => mpFc (wOf V) (cat256 (nr[V, main_v91] r) (mpAgg1 (wOf V) (nr[V, main_v237] r))) := by
  after_results_simp
  simp only [TRef.ofBuf, TRef.toBuf, cast_eq]
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  -- the two rows laid side by side are read only once the concatenation is split: the second one is computed in this stretch
  after_results_simp
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  rfl

end Cert.Gnn.Ref

end
-- ==== Proof.RefNodeF.lean ====
/-
  The reference, stretch by stretch: the downward pass's first and second point nodes, and the stacked result.

  Each lemma runs ONE stretch of the reference's operations from arbitrary buffer contents `V` and reads the array the
  stretch ends on one row at a time: row `r` of it is the graph node's row function (Proof/Rows.lean) of row `r` of the
  stretch's input arrays and of the weights in `V`. The host operations are read through the row equations of
  Proof/LayersR.lean; the reference sums an aggregate's messages starting from a zero array, which adds nothing.
-/
import proofs.«160910_j1125281431924_1_alg».proof.Proof.RefBase

noncomputable section

namespace Cert.Gnn.Ref

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RunP Cert.Gnn Cert.Gnn.R

variable [Facts]

/-- Row `r` of the array in buffer `b` (an array of 65536 rows of width 128). -/
local notation "nr[" V ", " b "]" => rows (V (Proc.devRef Proc.tc b) : S65536x128.Idx → EReal)

set_option maxHeartbeats 4000000 in
/-- Down, first point node: the aggregate of four components. -/
theorem val_dP1 (V : Valuation τ sig (Elt Ideal)) :
    rows (after (c_dP1 (F := Ideal)) V (Proc.devRef .tc main_v324) : S65536x128.Idx → EReal)
      = fun r => mpFc (wOf V) (cat256 (nr[V, main_v15] r) (mpAgg4 (wOf V) (nr[V, main_v176] r) (nr[V, main_v264] r) (nr[V, main_v291] r) (nr[V, main_v192] r))) := by
  after_results_simp
  simp only [TRef.ofBuf, TRef.toBuf, cast_eq]
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  -- of the two arrays laid side by side, one is an earlier node's and the other is this stretch's own aggregate
  after_results_simp
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  rfl

set_option maxHeartbeats 4000000 in
/-- Down, second point node. -/
theorem val_dP2 (V : Valuation τ sig (Elt Ideal)) :
    rows (after (c_dP2 (F := Ideal)) V (Proc.devRef .tc main_v357) : S65536x128.Idx → EReal)
      = fun r => mpFc (wOf V) (cat256 (nr[V, main_v31] r) (mpAgg4 (wOf V) (nr[V, main_v176] r) (nr[V, main_v264] r) (nr[V, main_v291] r) (nr[V, main_v208] r))) := by
  after_results_simp
  simp only [TRef.ofBuf, TRef.toBuf, cast_eq]
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  -- of the two arrays laid side by side, one is an earlier node's and the other is this stretch's own aggregate
  after_results_simp
  simp only [rows_addf, rows_relu_132, rows_zero_128, rows_bias_132, rows_bias_128, vec_mulf_splat, rows_concat_640, rows_concat_256,
    rows_dot_640_132, rows_dot_132_132, rows_dot_132_128, rows_dot_256_132, rows_dot_128_128, add_zero_left]
  rfl

set_option maxHeartbeats 4000000 in
/-- The last stretch stacks the eight node arrays: slab `s` of the result is node `s`'s array, row by row. -/
theorem val_out (V : Valuation τ sig (Elt Ideal)) :
    slabs (after (c_out (F := Ideal)) V (Proc.devRef .tc main_v366) : S8x65536x128.Idx → EReal)
      = fun s => match s with
        | ⟨0, _⟩ => nr[V, main_v324] | ⟨1, _⟩ => nr[V, main_v357] | ⟨2, _⟩ => nr[V, main_v176] | ⟨3, _⟩ => nr[V, main_v264]
        | ⟨4, _⟩ => nr[V, main_v291] | ⟨5, _⟩ => nr[V, main_v237] | ⟨6, _⟩ => nr[V, main_v192] | ⟨7, _⟩ => nr[V, main_v208] := by
  after_results_simp
  -- the stack reads its eight operands at the literal references; each is then one cast of a node's array
  dsimp only [Matrix.cons_val]
  repeat (first
    | rw [unary_result]
    | (rw [unary_result_ne]; rotate_left; decide))
  refine (slabs_stack _ _ _ _ _ _ _ _ _ _).trans ?_
  funext s
  match s with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

end Cert.Gnn.Ref

end
-- ==== Proof.RefRun1.lean ====
/-
  The reference's run, assembled (1 of 4): the contents after each stretch, and the arguments kept.

  The operations run in seventeen stretches, one per graph node and a last one that stacks the results; `vK V0` is the
  device's buffer contents after the first K stretches, from contents `V0`. No stretch writes an argument, so the
  weights and `signal` read the same in every `vK V0`.
-/
import proofs.«160910_j1125281431924_1_alg».proof.Proof.LibHostStretch
import proofs.«160910_j1125281431924_1_alg».proof.Proof.RefNodeA
import proofs.«160910_j1125281431924_1_alg».proof.Proof.RefNodeB
import proofs.«160910_j1125281431924_1_alg».proof.Proof.RefNodeC
import proofs.«160910_j1125281431924_1_alg».proof.Proof.RefNodeD
import proofs.«160910_j1125281431924_1_alg».proof.Proof.RefNodeE
import proofs.«160910_j1125281431924_1_alg».proof.Proof.RefNodeF

noncomputable section

namespace Cert.Gnn.Ref

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RunP Cert.Gnn Cert.Gnn.R

variable [Facts]

local notation "nr[" V ", " b "]" => rows (V (Proc.devRef Proc.tc b) : S65536x128.Idx → EReal)

/-- The program's arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31, main_arg32, main_arg33, main_arg34, main_arg35, main_arg36]

/-- Contents that agree on the arguments read the same weights. -/
theorem wOf_congr {V V' : Valuation τ sig (Elt Ideal)} (h : ∀ a ∈ argRefs, V' (Proc.devRef .tc a) = V (Proc.devRef .tc a)) :
    wOf V' = wOf V := by
  unfold wOf
  rw [h main_arg1 (by decide), h main_arg2 (by decide), h main_arg3 (by decide), h main_arg4 (by decide), h main_arg5 (by decide), h main_arg6 (by decide), h main_arg7 (by decide), h main_arg8 (by decide), h main_arg9 (by decide), h main_arg10 (by decide), h main_arg11 (by decide), h main_arg12 (by decide), h main_arg13 (by decide), h main_arg14 (by decide), h main_arg15 (by decide), h main_arg16 (by decide), h main_arg17 (by decide), h main_arg18 (by decide), h main_arg19 (by decide), h main_arg20 (by decide), h main_arg21 (by decide), h main_arg22 (by decide), h main_arg23 (by decide), h main_arg24 (by decide), h main_arg25 (by decide), h main_arg26 (by decide), h main_arg27 (by decide), h main_arg28 (by decide), h main_arg29 (by decide), h main_arg30 (by decide), h main_arg31 (by decide), h main_arg32 (by decide), h main_arg33 (by decide), h main_arg34 (by decide), h main_arg35 (by decide), h main_arg36 (by decide)]

/-- Contents that agree on the arguments read the same `signal`. -/
theorem sigRows_congr {V V' : Valuation τ sig (Elt Ideal)} (h : ∀ a ∈ argRefs, V' (Proc.devRef .tc a) = V (Proc.devRef .tc a)) :
    sigRows V' = sigRows V := by
  unfold sigRows
  rw [h main_arg0 (by decide)]

variable (V0 : Valuation τ sig (Elt Ideal))

/-! ### The contents after each stretch -/

def v0 : Valuation τ sig (Elt Ideal) := V0
def v1 : Valuation τ sig (Elt Ideal) := after (c_upP1 (F := Ideal)) (v0 V0)
def v2 : Valuation τ sig (Elt Ideal) := after (c_upP2 (F := Ideal)) (v1 V0)
def v3 : Valuation τ sig (Elt Ideal) := after (c_upL1 (F := Ideal)) (v2 V0)
def v4 : Valuation τ sig (Elt Ideal) := after (c_upC1 (F := Ideal)) (v3 V0)
def v5 : Valuation τ sig (Elt Ideal) := after (c_upC2 (F := Ideal)) (v4 V0)
def v6 : Valuation τ sig (Elt Ideal) := after (c_upP3 (F := Ideal)) (v5 V0)
def v7 : Valuation τ sig (Elt Ideal) := after (c_upL2 (F := Ideal)) (v6 V0)
def v8 : Valuation τ sig (Elt Ideal) := after (c_upL3 (F := Ideal)) (v7 V0)
def v9 : Valuation τ sig (Elt Ideal) := after (c_dL1 (F := Ideal)) (v8 V0)
def v10 : Valuation τ sig (Elt Ideal) := after (c_dL2 (F := Ideal)) (v9 V0)
def v11 : Valuation τ sig (Elt Ideal) := after (c_dL3 (F := Ideal)) (v10 V0)
def v12 : Valuation τ sig (Elt Ideal) := after (c_dP3 (F := Ideal)) (v11 V0)
def v13 : Valuation τ sig (Elt Ideal) := after (c_dC1 (F := Ideal)) (v12 V0)
def v14 : Valuation τ sig (Elt Ideal) := after (c_dC2 (F := Ideal)) (v13 V0)
def v15 : Valuation τ sig (Elt Ideal) := after (c_dP1 (F := Ideal)) (v14 V0)
def v16 : Valuation τ sig (Elt Ideal) := after (c_dP2 (F := Ideal)) (v15 V0)
def v17 : Valuation τ sig (Elt Ideal) := after (c_out (F := Ideal)) (v16 V0)

/-- A reference whose buffer index lies below every index of a list is not in the list. -/
theorem not_mem_of_lt {W : List (Ref sig .tc)} {lo : ℕ} (h : ∀ r ∈ W, lo ≤ r.idx.val) {b : Ref sig .tc} {n : ℕ}
    (hb : b.idx.val = n) (hn : n < lo) : b ∉ W :=
  fun hm => absurd (h b hm) (by rw [hb]; exact Nat.not_le.2 hn)

/-- The arguments are the buffers of index below 37. -/
theorem args_lt : ∀ a ∈ argRefs, a.idx.val < 37 := by decide

/-! ### No stretch writes an argument -/

theorem kept0 : ∀ a ∈ argRefs, v0 V0 (Proc.devRef .tc a) = V0 (Proc.devRef .tc a) := fun _ _ => rfl
/-- The buffers stretch `c_upP1` writes have indices from 37 on (they are 37 … 57). -/
theorem lo_upP1 : ∀ r ∈ c_upP1_W, 37 ≤ r.idx.val := by decide
theorem disj_upP1 : ∀ a ∈ argRefs, a ∉ c_upP1_W := fun a ha hW =>
  absurd (args_lt a ha) (Nat.not_lt.2 (Nat.le_trans (by decide : 37 ≤ 37) (lo_upP1 a hW)))
theorem kept1 : ∀ a ∈ argRefs, v1 V0 (Proc.devRef .tc a) = V0 (Proc.devRef .tc a) := fun a ha =>
  (after_of_writes_sub (c_upP1 (F := Ideal)) (v0 V0) c_upP1_writes (disj_upP1 a ha)).trans (kept0 V0 a ha)
/-- The buffers stretch `c_upP2` writes have indices from 58 on (they are 58 … 78). -/
theorem lo_upP2 : ∀ r ∈ c_upP2_W, 58 ≤ r.idx.val := by decide
theorem disj_upP2 : ∀ a ∈ argRefs, a ∉ c_upP2_W := fun a ha hW =>
  absurd (args_lt a ha) (Nat.not_lt.2 (Nat.le_trans (by decide : 37 ≤ 58) (lo_upP2 a hW)))
theorem kept2 : ∀ a ∈ argRefs, v2 V0 (Proc.devRef .tc a) = V0 (Proc.devRef .tc a) := fun a ha =>
  (after_of_writes_sub (c_upP2 (F := Ideal)) (v1 V0) c_upP2_writes (disj_upP2 a ha)).trans (kept1 V0 a ha)
/-- The buffers stretch `c_upL1` writes have indices from 79 on (they are 79 … 104). -/
theorem lo_upL1 : ∀ r ∈ c_upL1_W, 79 ≤ r.idx.val := by decide
theorem disj_upL1 : ∀ a ∈ argRefs, a ∉ c_upL1_W := fun a ha hW =>
  absurd (args_lt a ha) (Nat.not_lt.2 (Nat.le_trans (by decide : 37 ≤ 79) (lo_upL1 a hW)))
theorem kept3 : ∀ a ∈ argRefs, v3 V0 (Proc.devRef .tc a) = V0 (Proc.devRef .tc a) := fun a ha =>
  (after_of_writes_sub (c_upL1 (F := Ideal)) (v2 V0) c_upL1_writes (disj_upL1 a ha)).trans (kept2 V0 a ha)
/-- The buffers stretch `c_upC1` writes have indices from 105 on (they are 105 … 130). -/
theorem lo_upC1 : ∀ r ∈ c_upC1_W, 105 ≤ r.idx.val := by decide
theorem disj_upC1 : ∀ a ∈ argRefs, a ∉ c_upC1_W := fun a ha hW =>
  absurd (args_lt a ha) (Nat.not_lt.2 (Nat.le_trans (by decide : 37 ≤ 105) (lo_upC1 a hW)))
theorem kept4 : ∀ a ∈ argRefs, v4 V0 (Proc.devRef .tc a) = V0 (Proc.devRef .tc a) := fun a ha =>
  (after_of_writes_sub (c_upC1 (F := Ideal)) (v3 V0) c_upC1_writes (disj_upC1 a ha)).trans (kept3 V0 a ha)
/-- The buffers stretch `c_upC2` writes have indices from 131 on (they are 131 … 156). -/
theorem lo_upC2 : ∀ r ∈ c_upC2_W, 131 ≤ r.idx.val := by decide
theorem disj_upC2 : ∀ a ∈ argRefs, a ∉ c_upC2_W := fun a ha hW =>
  absurd (args_lt a ha) (Nat.not_lt.2 (Nat.le_trans (by decide : 37 ≤ 131) (lo_upC2 a hW)))
theorem kept5 : ∀ a ∈ argRefs, v5 V0 (Proc.devRef .tc a) = V0 (Proc.devRef .tc a) := fun a ha =>
  (after_of_writes_sub (c_upC2 (F := Ideal)) (v4 V0) c_upC2_writes (disj_upC2 a ha)).trans (kept4 V0 a ha)
/-- The buffers stretch `c_upP3` writes have indices from 157 on (they are 157 … 191). -/
theorem lo_upP3 : ∀ r ∈ c_upP3_W, 157 ≤ r.idx.val := by decide
theorem disj_upP3 : ∀ a ∈ argRefs, a ∉ c_upP3_W := fun a ha hW =>
  absurd (args_lt a ha) (Nat.not_lt.2 (Nat.le_trans (by decide : 37 ≤ 157) (lo_upP3 a hW)))
theorem kept6 : ∀ a ∈ argRefs, v6 V0 (Proc.devRef .tc a) = V0 (Proc.devRef .tc a) := fun a ha =>
  (after_of_writes_sub (c_upP3 (F := Ideal)) (v5 V0) c_upP3_writes (disj_upP3 a ha)).trans (kept5 V0 a ha)
/-- The buffers stretch `c_upL2` writes have indices from 192 on (they are 192 … 217). -/
theorem lo_upL2 : ∀ r ∈ c_upL2_W, 192 ≤ r.idx.val := by decide
theorem disj_upL2 : ∀ a ∈ argRefs, a ∉ c_upL2_W := fun a ha hW =>
  absurd (args_lt a ha) (Nat.not_lt.2 (Nat.le_trans (by decide : 37 ≤ 192) (lo_upL2 a hW)))
theorem kept7 : ∀ a ∈ argRefs, v7 V0 (Proc.devRef .tc a) = V0 (Proc.devRef .tc a) := fun a ha =>
  (after_of_writes_sub (c_upL2 (F := Ideal)) (v6 V0) c_upL2_writes (disj_upL2 a ha)).trans (kept6 V0 a ha)
/-- The buffers stretch `c_upL3` writes have indices from 218 on (they are 218 … 243). -/
theorem lo_upL3 : ∀ r ∈ c_upL3_W, 218 ≤ r.idx.val := by decide
theorem disj_upL3 : ∀ a ∈ argRefs, a ∉ c_upL3_W := fun a ha hW =>
  absurd (args_lt a ha) (Nat.not_lt.2 (Nat.le_trans (by decide : 37 ≤ 218) (lo_upL3 a hW)))
theorem kept8 : ∀ a ∈ argRefs, v8 V0 (Proc.devRef .tc a) = V0 (Proc.devRef .tc a) := fun a ha =>
  (after_of_writes_sub (c_upL3 (F := Ideal)) (v7 V0) c_upL3_writes (disj_upL3 a ha)).trans (kept7 V0 a ha)
/-- The buffers stretch `c_dL1` writes have indices from 244 on (they are 244 … 264). -/
theorem lo_dL1 : ∀ r ∈ c_dL1_W, 244 ≤ r.idx.val := by decide
theorem disj_dL1 : ∀ a ∈ argRefs, a ∉ c_dL1_W := fun a ha hW =>
  absurd (args_lt a ha) (Nat.not_lt.2 (Nat.le_trans (by decide : 37 ≤ 244) (lo_dL1 a hW)))
theorem kept9 : ∀ a ∈ argRefs, v9 V0 (Proc.devRef .tc a) = V0 (Proc.devRef .tc a) := fun a ha =>
  (after_of_writes_sub (c_dL1 (F := Ideal)) (v8 V0) c_dL1_writes (disj_dL1 a ha)).trans (kept8 V0 a ha)
/-- The buffers stretch `c_dL2` writes have indices from 265 on (they are 265 … 285). -/
theorem lo_dL2 : ∀ r ∈ c_dL2_W, 265 ≤ r.idx.val := by decide
theorem disj_dL2 : ∀ a ∈ argRefs, a ∉ c_dL2_W := fun a ha hW =>
  absurd (args_lt a ha) (Nat.not_lt.2 (Nat.le_trans (by decide : 37 ≤ 265) (lo_dL2 a hW)))
theorem kept10 : ∀ a ∈ argRefs, v10 V0 (Proc.devRef .tc a) = V0 (Proc.devRef .tc a) := fun a ha =>
  (after_of_writes_sub (c_dL2 (F := Ideal)) (v9 V0) c_dL2_writes (disj_dL2 a ha)).trans (kept9 V0 a ha)
/-- The buffers stretch `c_dL3` writes have indices from 286 on (they are 286 … 306). -/
theorem lo_dL3 : ∀ r ∈ c_dL3_W, 286 ≤ r.idx.val := by decide
theorem disj_dL3 : ∀ a ∈ argRefs, a ∉ c_dL3_W := fun a ha hW =>
  absurd (args_lt a ha) (Nat.not_lt.2 (Nat.le_trans (by decide : 37 ≤ 286) (lo_dL3 a hW)))
theorem kept11 : ∀ a ∈ argRefs, v11 V0 (Proc.devRef .tc a) = V0 (Proc.devRef .tc a) := fun a ha =>
  (after_of_writes_sub (c_dL3 (F := Ideal)) (v10 V0) c_dL3_writes (disj_dL3 a ha)).trans (kept10 V0 a ha)
/-- The buffers stretch `c_dP3` writes have indices from 307 on (they are 307 … 341). -/
theorem lo_dP3 : ∀ r ∈ c_dP3_W, 307 ≤ r.idx.val := by decide
theorem disj_dP3 : ∀ a ∈ argRefs, a ∉ c_dP3_W := fun a ha hW =>
  absurd (args_lt a ha) (Nat.not_lt.2 (Nat.le_trans (by decide : 37 ≤ 307) (lo_dP3 a hW)))
theorem kept12 : ∀ a ∈ argRefs, v12 V0 (Proc.devRef .tc a) = V0 (Proc.devRef .tc a) := fun a ha =>
  (after_of_writes_sub (c_dP3 (F := Ideal)) (v11 V0) c_dP3_writes (disj_dP3 a ha)).trans (kept11 V0 a ha)
/-- The buffers stretch `c_dC1` writes have indices from 342 on (they are 342 … 374). -/
theorem lo_dC1 : ∀ r ∈ c_dC1_W, 342 ≤ r.idx.val := by decide
theorem disj_dC1 : ∀ a ∈ argRefs, a ∉ c_dC1_W := fun a ha hW =>
  absurd (args_lt a ha) (Nat.not_lt.2 (Nat.le_trans (by decide : 37 ≤ 342) (lo_dC1 a hW)))
theorem kept13 : ∀ a ∈ argRefs, v13 V0 (Proc.devRef .tc a) = V0 (Proc.devRef .tc a) := fun a ha =>
  (after_of_writes_sub (c_dC1 (F := Ideal)) (v12 V0) c_dC1_writes (disj_dC1 a ha)).trans (kept12 V0 a ha)
/-- The buffers stretch `c_dC2` writes have indices from 375 on (they are 375 … 407). -/
theorem lo_dC2 : ∀ r ∈ c_dC2_W, 375 ≤ r.idx.val := by decide
theorem disj_dC2 : ∀ a ∈ argRefs, a ∉ c_dC2_W := fun a ha hW =>
  absurd (args_lt a ha) (Nat.not_lt.2 (Nat.le_trans (by decide : 37 ≤ 375) (lo_dC2 a hW)))
theorem kept14 : ∀ a ∈ argRefs, v14 V0 (Proc.devRef .tc a) = V0 (Proc.devRef .tc a) := fun a ha =>
  (after_of_writes_sub (c_dC2 (F := Ideal)) (v13 V0) c_dC2_writes (disj_dC2 a ha)).trans (kept13 V0 a ha)
/-- The buffers stretch `c_dP1` writes have indices from 408 on (they are 408 … 446). -/
theorem lo_dP1 : ∀ r ∈ c_dP1_W, 408 ≤ r.idx.val := by decide
theorem disj_dP1 : ∀ a ∈ argRefs, a ∉ c_dP1_W := fun a ha hW =>
  absurd (args_lt a ha) (Nat.not_lt.2 (Nat.le_trans (by decide : 37 ≤ 408) (lo_dP1 a hW)))
theorem kept15 : ∀ a ∈ argRefs, v15 V0 (Proc.devRef .tc a) = V0 (Proc.devRef .tc a) := fun a ha =>
  (after_of_writes_sub (c_dP1 (F := Ideal)) (v14 V0) c_dP1_writes (disj_dP1 a ha)).trans (kept14 V0 a ha)
/-- The buffers stretch `c_dP2` writes have indices from 447 on (they are 447 … 485). -/
theorem lo_dP2 : ∀ r ∈ c_dP2_W, 447 ≤ r.idx.val := by decide
theorem disj_dP2 : ∀ a ∈ argRefs, a ∉ c_dP2_W := fun a ha hW =>
  absurd (args_lt a ha) (Nat.not_lt.2 (Nat.le_trans (by decide : 37 ≤ 447) (lo_dP2 a hW)))
theorem kept16 : ∀ a ∈ argRefs, v16 V0 (Proc.devRef .tc a) = V0 (Proc.devRef .tc a) := fun a ha =>
  (after_of_writes_sub (c_dP2 (F := Ideal)) (v15 V0) c_dP2_writes (disj_dP2 a ha)).trans (kept15 V0 a ha)
/-- The buffers stretch `c_out` writes have indices from 486 on (they are 486 … 494). -/
theorem lo_out : ∀ r ∈ c_out_W, 486 ≤ r.idx.val := by decide
theorem disj_out : ∀ a ∈ argRefs, a ∉ c_out_W := fun a ha hW =>
  absurd (args_lt a ha) (Nat.not_lt.2 (Nat.le_trans (by decide : 37 ≤ 486) (lo_out a hW)))
theorem kept17 : ∀ a ∈ argRefs, v17 V0 (Proc.devRef .tc a) = V0 (Proc.devRef .tc a) := fun a ha =>
  (after_of_writes_sub (c_out (F := Ideal)) (v16 V0) c_out_writes (disj_out a ha)).trans (kept16 V0 a ha)

/-! ### Where each node's array lives -/

theorem idx_upP1 : (main_v15 : Ref sig .tc).idx.val = 57 := by decide
theorem idx_upP2 : (main_v31 : Ref sig .tc).idx.val = 78 := by decide
theorem idx_upL1 : (main_v51 : Ref sig .tc).idx.val = 104 := by decide
theorem idx_upC1 : (main_v71 : Ref sig .tc).idx.val = 130 := by decide
theorem idx_upC2 : (main_v91 : Ref sig .tc).idx.val = 156 := by decide
theorem idx_upP3 : (main_v120 : Ref sig .tc).idx.val = 191 := by decide
theorem idx_upL2 : (main_v140 : Ref sig .tc).idx.val = 217 := by decide
theorem idx_upL3 : (main_v160 : Ref sig .tc).idx.val = 243 := by decide
theorem idx_dL1 : (main_v176 : Ref sig .tc).idx.val = 264 := by decide
theorem idx_dL2 : (main_v192 : Ref sig .tc).idx.val = 285 := by decide
theorem idx_dL3 : (main_v208 : Ref sig .tc).idx.val = 306 := by decide
theorem idx_dP3 : (main_v237 : Ref sig .tc).idx.val = 341 := by decide
theorem idx_dC1 : (main_v264 : Ref sig .tc).idx.val = 374 := by decide
theorem idx_dC2 : (main_v291 : Ref sig .tc).idx.val = 407 := by decide
theorem idx_dP1 : (main_v324 : Ref sig .tc).idx.val = 446 := by decide
theorem idx_dP2 : (main_v357 : Ref sig .tc).idx.val = 485 := by decide

end Cert.Gnn.Ref

end
-- ==== Proof.RefRun2.lean ====
/-
  The reference's run, assembled (2 of 4): the rows of the upward pass's nodes.

  Each node's array, once written, is written by no later stretch, so its rows stay what they were: the node's row
  function (Proof/Rows.lean) of the matching row of `signal`. Proof/RefNode*.lean read the stretch that writes it.
-/
import proofs.«160910_j1125281431924_1_alg».proof.Proof.RefRun1

noncomputable section

namespace Cert.Gnn.Ref

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RunP Cert.Gnn Cert.Gnn.R

variable [Facts]

local notation "nr[" V ", " b "]" => rows (V (Proc.devRef Proc.tc b) : S65536x128.Idx → EReal)

variable (V0 : Valuation τ sig (Elt Ideal))

/-! ### Each node's rows, from the stretch that writes them on -/

theorem f_upP1_1 : nr[v1 V0, main_v15] = fun r => upP1 (wOf V0) (sigRows V0 r) := by
  show rows (after (c_upP1 (F := Ideal)) (v0 V0) (Proc.devRef .tc main_v15) : S65536x128.Idx → EReal) = _
  rw [val_upP1, wOf_congr (kept0 V0), sigRows_congr (kept0 V0)]
  all_goals rfl
theorem f_upP1_2 : nr[v2 V0, main_v15] = fun r => upP1 (wOf V0) (sigRows V0 r) := by
  show rows (after (c_upP2 (F := Ideal)) (v1 V0) (Proc.devRef .tc main_v15) : S65536x128.Idx → EReal) = _
  rw [after_of_writes_sub (c_upP2 (F := Ideal)) (v1 V0) c_upP2_writes (not_mem_of_lt lo_upP2 idx_upP1 (by decide))]
  exact f_upP1_1 V0
theorem f_upP1_3 : nr[v3 V0, main_v15] = fun r => upP1 (wOf V0) (sigRows V0 r) := by
  show rows (after (c_upL1 (F := Ideal)) (v2 V0) (Proc.devRef .tc main_v15) : S65536x128.Idx → EReal) = _
  rw [after_of_writes_sub (c_upL1 (F := Ideal)) (v2 V0) c_upL1_writes (not_mem_of_lt lo_upL1 idx_upP1 (by decide))]
  exact f_upP1_2 V0
theorem f_upP1_4 : nr[v4 V0, main_v15] = fun r => upP1 (wOf V0) (sigRows V0 r) := by
  show rows (after (c_upC1 (F := Ideal)) (v3 V0) (Proc.devRef .tc main_v15) : S65536x128.Idx → EReal) = _
  rw [after_of_writes_sub (c_upC1 (F := Ideal)) (v3 V0) c_upC1_writes (not_mem_of_lt lo_upC1 idx_upP1 (by decide))]
  exact f_upP1_3 V0
theorem f_upP1_5 : nr[v5 V0, main_v15] = fun r => upP1 (wOf V0) (sigRows V0 r) := by
  show rows (after (c_upC2 (F := Ideal)) (v4 V0) (Proc.devRef .tc main_v15) : S65536x128.Idx → EReal) = _
  rw [after_of_writes_sub (c_upC2 (F := Ideal)) (v4 V0) c_upC2_writes (not_mem_of_lt lo_upC2 idx_upP1 (by decide))]
  exact f_upP1_4 V0
theorem f_upP1_6 : nr[v6 V0, main_v15] = fun r => upP1 (wOf V0) (sigRows V0 r) := by
  show rows (after (c_upP3 (F := Ideal)) (v5 V0) (Proc.devRef .tc main_v15) : S65536x128.Idx → EReal) = _
  rw [after_of_writes_sub (c_upP3 (F := Ideal)) (v5 V0) c_upP3_writes (not_mem_of_lt lo_upP3 idx_upP1 (by decide))]
  exact f_upP1_5 V0
theorem f_upP1_7 : nr[v7 V0, main_v15] = fun r => upP1 (wOf V0) (sigRows V0 r) := by
  show rows (after (c_upL2 (F := Ideal)) (v6 V0) (Proc.devRef .tc main_v15) : S65536x128.Idx → EReal) = _
  rw [after_of_writes_sub (c_upL2 (F := Ideal)) (v6 V0) c_upL2_writes (not_mem_of_lt lo_upL2 idx_upP1 (by decide))]
  exact f_upP1_6 V0
theorem f_upP1_8 : nr[v8 V0, main_v15] = fun r => upP1 (wOf V0) (sigRows V0 r) := by
  show rows (after (c_upL3 (F := Ideal)) (v7 V0) (Proc.devRef .tc main_v15) : S65536x128.Idx → EReal) = _
  rw [after_of_writes_sub (c_upL3 (F := Ideal)) (v7 V0) c_upL3_writes (not_mem_of_lt lo_upL3 idx_upP1 (by decide))]
  exact f_upP1_7 V0
theorem f_upP1_9 : nr[v9 V0, main_v15] = fun r => upP1 (wOf V0) (sigRows V0 r) := by
  show rows (after (c_dL1 (F := Ideal)) (v8 V0) (Proc.devRef .tc main_v15) : S65536x128.Idx → EReal) = _
  rw [after_of_writes_sub (c_dL1 (F := Ideal)) (v8 V0) c_dL1_writes (not_mem_of_lt lo_dL1 idx_upP1 (by decide))]
  exact f_upP1_8 V0
theorem f_upP1_10 : nr[v10 V0, main_v15] = fun r => upP1 (wOf V0) (sigRows V0 r) := by
  show rows (after (c_dL2 (F := Ideal)) (v9 V0) (Proc.devRef .tc main_v15) : S65536x128.Idx → EReal) = _
  rw [after_of_writes_sub (c_dL2 (F := Ideal)) (v9 V0) c_dL2_writes (not_mem_of_lt lo_dL2 idx_upP1 (by decide))]
  exact f_upP1_9 V0
theorem f_upP1_11 : nr[v11 V0, main_v15] = fun r => upP1 (wOf V0) (sigRows V0 r) := by
  show rows (after (c_dL3 (F := Ideal)) (v10 V0) (Proc.devRef .tc main_v15) : S65536x128.Idx → EReal) = _
  rw [after_of_writes_sub (c_dL3 (F := Ideal)) (v10 V0) c_dL3_writes (not_mem_of_lt lo_dL3 idx_upP1 (by decide))]
  exact f_upP1_10 V0
theorem f_upP1_12 : nr[v12 V0, main_v15] = fun r => upP1 (wOf V0) (sigRows V0 r) := by
  show rows (after (c_dP3 (F := Ideal)) (v11 V0) (Proc.devRef .tc main_v15) : S65536x128.Idx → EReal) = _
  rw [after_of_writes_sub (c_dP3 (F := Ideal)) (v11 V0) c_dP3_writes (not_mem_of_lt lo_dP3 idx_upP1 (by decide))]
  exact f_upP1_11 V0
theorem f_upP1_13 : nr[v13 V0, main_v15] = fun r => upP1 (wOf V0) (sigRows V0 r) := by
  show rows (after (c_dC1 (F := Ideal)) (v12 V0) (Proc.devRef .tc main_v15) : S65536x128.Idx → EReal) = _
  rw [after_of_writes_sub (c_dC1 (F := Ideal)) (v12 V0) c_dC1_writes (not_mem_of_lt lo_dC1 idx_upP1 (by decide))]
  exact f_upP1_12 V0
theorem f_upP1_14 : nr[v14 V0, main_v15] = fun r => upP1 (wOf V0) (sigRows V0 r) := by
  show rows (after (c_dC2 (F := Ideal)) (v13 V0) (Proc.devRef .tc main_v15) : S65536x128.Idx → EReal) = _
  rw [after_of_writes_sub (c_dC2 (F := Ideal)) (v13 V0) c_dC2_writes (not_mem_of_lt lo_dC2 idx_upP1 (by decide))]
  exact f_upP1_13 V0
theorem f_upP2_2 : nr[v2 V0, main_v31] = fun r => upP2 (wOf V0) (sigRows V0 r) := by
  show rows (after (c_upP2 (F := Ideal)) (v1 V0) (Proc.devRef .tc main_v31) : S65536x128.Idx → EReal) = _
  rw [val_upP2, wOf_congr (kept1 V0), sigRows_congr (kept1 V0)]
  all_goals rfl
theorem f_upP2_3 : nr[v3 V0, main_v31] = fun r => upP2 (wOf V0) (sigRows V0 r) := by
  show rows (after (c_upL1 (F := Ideal)) (v2 V0) (Proc.devRef .tc main_v31) : S65536x128.Idx → EReal) = _
  rw [after_of_writes_sub (c_upL1 (F := Ideal)) (v2 V0) c_upL1_writes (not_mem_of_lt lo_upL1 idx_upP2 (by decide))]
  exact f_upP2_2 V0
theorem f_upP2_4 : nr[v4 V0, main_v31] = fun r => upP2 (wOf V0) (sigRows V0 r) := by
  show rows (after (c_upC1 (F := Ideal)) (v3 V0) (Proc.devRef .tc main_v31) : S65536x128.Idx → EReal) = _
  rw [after_of_writes_sub (c_upC1 (F := Ideal)) (v3 V0) c_upC1_writes (not_mem_of_lt lo_upC1 idx_upP2 (by decide))]
  exact f_upP2_3 V0
theorem f_upP2_5 : nr[v5 V0, main_v31] = fun r => upP2 (wOf V0) (sigRows V0 r) := by
  show rows (after (c_upC2 (F := Ideal)) (v4 V0) (Proc.devRef .tc main_v31) : S65536x128.Idx → EReal) = _
  rw [after_of_writes_sub (c_upC2 (F := Ideal)) (v4 V0) c_upC2_writes (not_mem_of_lt lo_upC2 idx_upP2 (by decide))]
  exact f_upP2_4 V0
theorem f_upP2_6 : nr[v6 V0, main_v31] = fun r => upP2 (wOf V0) (sigRows V0 r) := by
  show rows (after (c_upP3 (F := Ideal)) (v5 V0) (Proc.devRef .tc main_v31) : S65536x128.Idx → EReal) = _
  rw [after_of_writes_sub (c_upP3 (F := Ideal)) (v5 V0) c_upP3_writes (not_mem_of_lt lo_upP3 idx_upP2 (by decide))]
  exact f_upP2_5 V0
theorem f_upP2_7 : nr[v7 V0, main_v31] = fun r => upP2 (wOf V0) (sigRows V0 r) := by
  show rows (after (c_upL2 (F := Ideal)) (v6 V0) (Proc.devRef .tc main_v31) : S65536x128.Idx → EReal) = _
  rw [after_of_writes_sub (c_upL2 (F := Ideal)) (v6 V0) c_upL2_writes (not_mem_of_lt lo_upL2 idx_upP2 (by decide))]
  exact f_upP2_6 V0
theorem f_upP2_8 : nr[v8 V0, main_v31] = fun r => upP2 (wOf V0) (sigRows V0 r) := by
  show rows (after (c_upL3 (F := Ideal)) (v7 V0) (Proc.devRef .tc main_v31) : S65536x128.Idx → EReal) = _
  rw [after_of_writes_sub (c_upL3 (F := Ideal)) (v7 V0) c_upL3_writes (not_mem_of_lt lo_upL3 idx_upP2 (by decide))]
  exact f_upP2_7 V0
theorem f_upP2_9 : nr[v9 V0, main_v31] = fun r => upP2 (wOf V0) (sigRows V0 r) := by
  show rows (after (c_dL1 (F := Ideal)) (v8 V0) (Proc.devRef .tc main_v31) : S65536x128.Idx → EReal) = _
  rw [after_of_writes_sub (c_dL1 (F := Ideal)) (v8 V0) c_dL1_writes (not_mem_of_lt lo_dL1 idx_upP2 (by decide))]
  exact f_upP2_8 V0
theorem f_upP2_10 : nr[v10 V0, main_v31] = fun r => upP2 (wOf V0) (sigRows V0 r) := by
  show rows (after (c_dL2 (F := Ideal)) (v9 V0) (Proc.devRef .tc main_v31) : S65536x128.Idx → EReal) = _
  rw [after_of_writes_sub (c_dL2 (F := Ideal)) (v9 V0) c_dL2_writes (not_mem_of_lt lo_dL2 idx_upP2 (by decide))]
  exact f_upP2_9 V0
theorem f_upP2_11 : nr[v11 V0, main_v31] = fun r => upP2 (wOf V0) (sigRows V0 r) := by
  show rows (after (c_dL3 (F := Ideal)) (v10 V0) (Proc.devRef .tc main_v31) : S65536x128.Idx → EReal) = _
  rw [after_of_writes_sub (c_dL3 (F := Ideal)) (v10 V0) c_dL3_writes (not_mem_of_lt lo_dL3 idx_upP2 (by decide))]
  exact f_upP2_10 V0
theorem f_upP2_12 : nr[v12 V0, main_v31] = fun r => upP2 (wOf V0) (sigRows V0 r) := by
  show rows (after (c_dP3 (F := Ideal)) (v11 V0) (Proc.devRef .tc main_v31) : S65536x128.Idx → EReal) = _
  rw [after_of_writes_sub (c_dP3 (F := Ideal)) (v11 V0) c_dP3_writes (not_mem_of_lt lo_dP3 idx_upP2 (by decide))]
  exact f_upP2_11 V0
theorem f_upP2_13 : nr[v13 V0, main_v31] = fun r => upP2 (wOf V0) (sigRows V0 r) := by
  show rows (after (c_dC1 (F := Ideal)) (v12 V0) (Proc.devRef .tc main_v31) : S65536x128.Idx → EReal) = _
  rw [after_of_writes_sub (c_dC1 (F := Ideal)) (v12 V0) c_dC1_writes (not_mem_of_lt lo_dC1 idx_upP2 (by decide))]
  exact f_upP2_12 V0
theorem f_upP2_14 : nr[v14 V0, main_v31] = fun r => upP2 (wOf V0) (sigRows V0 r) := by
  show rows (after (c_dC2 (F := Ideal)) (v13 V0) (Proc.devRef .tc main_v31) : S65536x128.Idx → EReal) = _
  rw [after_of_writes_sub (c_dC2 (F := Ideal)) (v13 V0) c_dC2_writes (not_mem_of_lt lo_dC2 idx_upP2 (by decide))]
  exact f_upP2_13 V0
theorem f_upP2_15 : nr[v15 V0, main_v31] = fun r => upP2 (wOf V0) (sigRows V0 r) := by
  show rows (after (c_dP1 (F := Ideal)) (v14 V0) (Proc.devRef .tc main_v31) : S65536x128.Idx → EReal) = _
  rw [after_of_writes_sub (c_dP1 (F := Ideal)) (v14 V0) c_dP1_writes (not_mem_of_lt lo_dP1 idx_upP2 (by decide))]
  exact f_upP2_14 V0
theorem f_upL1_3 : nr[v3 V0, main_v51] = fun r => upL1 (wOf V0) (sigRows V0 r) := by
  show rows (after (c_upL1 (F := Ideal)) (v2 V0) (Proc.devRef .tc main_v51) : S65536x128.Idx → EReal) = _
  rw [val_upL1, wOf_congr (kept2 V0), f_upP1_2 V0, f_upP2_2 V0]
  all_goals rfl
theorem f_upL1_4 : nr[v4 V0, main_v51] = fun r => upL1 (wOf V0) (sigRows V0 r) := by
  show rows (after (c_upC1 (F := Ideal)) (v3 V0) (Proc.devRef .tc main_v51) : S65536x128.Idx → EReal) = _
  rw [after_of_writes_sub (c_upC1 (F := Ideal)) (v3 V0) c_upC1_writes (not_mem_of_lt lo_upC1 idx_upL1 (by decide))]
  exact f_upL1_3 V0
theorem f_upL1_5 : nr[v5 V0, main_v51] = fun r => upL1 (wOf V0) (sigRows V0 r) := by
  show rows (after (c_upC2 (F := Ideal)) (v4 V0) (Proc.devRef .tc main_v51) : S65536x128.Idx → EReal) = _
  rw [after_of_writes_sub (c_upC2 (F := Ideal)) (v4 V0) c_upC2_writes (not_mem_of_lt lo_upC2 idx_upL1 (by decide))]
  exact f_upL1_4 V0
theorem f_upL1_6 : nr[v6 V0, main_v51] = fun r => upL1 (wOf V0) (sigRows V0 r) := by
  show rows (after (c_upP3 (F := Ideal)) (v5 V0) (Proc.devRef .tc main_v51) : S65536x128.Idx → EReal) = _
  rw [after_of_writes_sub (c_upP3 (F := Ideal)) (v5 V0) c_upP3_writes (not_mem_of_lt lo_upP3 idx_upL1 (by decide))]
  exact f_upL1_5 V0
theorem f_upL1_7 : nr[v7 V0, main_v51] = fun r => upL1 (wOf V0) (sigRows V0 r) := by
  show rows (after (c_upL2 (F := Ideal)) (v6 V0) (Proc.devRef .tc main_v51) : S65536x128.Idx → EReal) = _
  rw [after_of_writes_sub (c_upL2 (F := Ideal)) (v6 V0) c_upL2_writes (not_mem_of_lt lo_upL2 idx_upL1 (by decide))]
  exact f_upL1_6 V0
theorem f_upL1_8 : nr[v8 V0, main_v51] = fun r => upL1 (wOf V0) (sigRows V0 r) := by
  show rows (after (c_upL3 (F := Ideal)) (v7 V0) (Proc.devRef .tc main_v51) : S65536x128.Idx → EReal) = _
  rw [after_of_writes_sub (c_upL3 (F := Ideal)) (v7 V0) c_upL3_writes (not_mem_of_lt lo_upL3 idx_upL1 (by decide))]
  exact f_upL1_7 V0
theorem f_upC1_4 : nr[v4 V0, main_v71] = fun r => upC1 (wOf V0) (sigRows V0 r) := by
  show rows (after (c_upC1 (F := Ideal)) (v3 V0) (Proc.devRef .tc main_v71) : S65536x128.Idx → EReal) = _
  rw [val_upC1, wOf_congr (kept3 V0), f_upP1_3 V0, f_upP2_3 V0]
  all_goals rfl
theorem f_upC1_5 : nr[v5 V0, main_v71] = fun r => upC1 (wOf V0) (sigRows V0 r) := by
  show rows (after (c_upC2 (F := Ideal)) (v4 V0) (Proc.devRef .tc main_v71) : S65536x128.Idx → EReal) = _
  rw [after_of_writes_sub (c_upC2 (F := Ideal)) (v4 V0) c_upC2_writes (not_mem_of_lt lo_upC2 idx_upC1 (by decide))]
  exact f_upC1_4 V0
theorem f_upC1_6 : nr[v6 V0, main_v71] = fun r => upC1 (wOf V0) (sigRows V0 r) := by
  show rows (after (c_upP3 (F := Ideal)) (v5 V0) (Proc.devRef .tc main_v71) : S65536x128.Idx → EReal) = _
  rw [after_of_writes_sub (c_upP3 (F := Ideal)) (v5 V0) c_upP3_writes (not_mem_of_lt lo_upP3 idx_upC1 (by decide))]
  exact f_upC1_5 V0
theorem f_upC1_7 : nr[v7 V0, main_v71] = fun r => upC1 (wOf V0) (sigRows V0 r) := by
  show rows (after (c_upL2 (F := Ideal)) (v6 V0) (Proc.devRef .tc main_v71) : S65536x128.Idx → EReal) = _
  rw [after_of_writes_sub (c_upL2 (F := Ideal)) (v6 V0) c_upL2_writes (not_mem_of_lt lo_upL2 idx_upC1 (by decide))]
  exact f_upC1_6 V0
theorem f_upC1_8 : nr[v8 V0, main_v71] = fun r => upC1 (wOf V0) (sigRows V0 r) := by
  show rows (after (c_upL3 (F := Ideal)) (v7 V0) (Proc.devRef .tc main_v71) : S65536x128.Idx → EReal) = _
  rw [after_of_writes_sub (c_upL3 (F := Ideal)) (v7 V0) c_upL3_writes (not_mem_of_lt lo_upL3 idx_upC1 (by decide))]
  exact f_upC1_7 V0
theorem f_upC1_9 : nr[v9 V0, main_v71] = fun r => upC1 (wOf V0) (sigRows V0 r) := by
  show rows (after (c_dL1 (F := Ideal)) (v8 V0) (Proc.devRef .tc main_v71) : S65536x128.Idx → EReal) = _
  rw [after_of_writes_sub (c_dL1 (F := Ideal)) (v8 V0) c_dL1_writes (not_mem_of_lt lo_dL1 idx_upC1 (by decide))]
  exact f_upC1_8 V0
theorem f_upC1_10 : nr[v10 V0, main_v71] = fun r => upC1 (wOf V0) (sigRows V0 r) := by
  show rows (after (c_dL2 (F := Ideal)) (v9 V0) (Proc.devRef .tc main_v71) : S65536x128.Idx → EReal) = _
  rw [after_of_writes_sub (c_dL2 (F := Ideal)) (v9 V0) c_dL2_writes (not_mem_of_lt lo_dL2 idx_upC1 (by decide))]
  exact f_upC1_9 V0
theorem f_upC1_11 : nr[v11 V0, main_v71] = fun r => upC1 (wOf V0) (sigRows V0 r) := by
  show rows (after (c_dL3 (F := Ideal)) (v10 V0) (Proc.devRef .tc main_v71) : S65536x128.Idx → EReal) = _
  rw [after_of_writes_sub (c_dL3 (F := Ideal)) (v10 V0) c_dL3_writes (not_mem_of_lt lo_dL3 idx_upC1 (by decide))]
  exact f_upC1_10 V0
theorem f_upC1_12 : nr[v12 V0, main_v71] = fun r => upC1 (wOf V0) (sigRows V0 r) := by
  show rows (after (c_dP3 (F := Ideal)) (v11 V0) (Proc.devRef .tc main_v71) : S65536x128.Idx → EReal) = _
  rw [after_of_writes_sub (c_dP3 (F := Ideal)) (v11 V0) c_dP3_writes (not_mem_of_lt lo_dP3 idx_upC1 (by decide))]
  exact f_upC1_11 V0
theorem f_upC2_5 : nr[v5 V0, main_v91] = fun r => upC2 (wOf V0) (sigRows V0 r) := by
  show rows (after (c_upC2 (F := Ideal)) (v4 V0) (Proc.devRef .tc main_v91) : S65536x128.Idx → EReal) = _
  rw [val_upC2, wOf_congr (kept4 V0), f_upP2_4 V0, f_upP1_4 V0]
  all_goals rfl
theorem f_upC2_6 : nr[v6 V0, main_v91] = fun r => upC2 (wOf V0) (sigRows V0 r) := by
  show rows (after (c_upP3 (F := Ideal)) (v5 V0) (Proc.devRef .tc main_v91) : S65536x128.Idx → EReal) = _
  rw [after_of_writes_sub (c_upP3 (F := Ideal)) (v5 V0) c_upP3_writes (not_mem_of_lt lo_upP3 idx_upC2 (by decide))]
  exact f_upC2_5 V0
theorem f_upC2_7 : nr[v7 V0, main_v91] = fun r => upC2 (wOf V0) (sigRows V0 r) := by
  show rows (after (c_upL2 (F := Ideal)) (v6 V0) (Proc.devRef .tc main_v91) : S65536x128.Idx → EReal) = _
  rw [after_of_writes_sub (c_upL2 (F := Ideal)) (v6 V0) c_upL2_writes (not_mem_of_lt lo_upL2 idx_upC2 (by decide))]
  exact f_upC2_6 V0
theorem f_upC2_8 : nr[v8 V0, main_v91] = fun r => upC2 (wOf V0) (sigRows V0 r) := by
  show rows (after (c_upL3 (F := Ideal)) (v7 V0) (Proc.devRef .tc main_v91) : S65536x128.Idx → EReal) = _
  rw [after_of_writes_sub (c_upL3 (F := Ideal)) (v7 V0) c_upL3_writes (not_mem_of_lt lo_upL3 idx_upC2 (by decide))]
  exact f_upC2_7 V0
theorem f_upC2_9 : nr[v9 V0, main_v91] = fun r => upC2 (wOf V0) (sigRows V0 r) := by
  show rows (after (c_dL1 (F := Ideal)) (v8 V0) (Proc.devRef .tc main_v91) : S65536x128.Idx → EReal) = _
  rw [after_of_writes_sub (c_dL1 (F := Ideal)) (v8 V0) c_dL1_writes (not_mem_of_lt lo_dL1 idx_upC2 (by decide))]
  exact f_upC2_8 V0
theorem f_upC2_10 : nr[v10 V0, main_v91] = fun r => upC2 (wOf V0) (sigRows V0 r) := by
  show rows (after (c_dL2 (F := Ideal)) (v9 V0) (Proc.devRef .tc main_v91) : S65536x128.Idx → EReal) = _
  rw [after_of_writes_sub (c_dL2 (F := Ideal)) (v9 V0) c_dL2_writes (not_mem_of_lt lo_dL2 idx_upC2 (by decide))]
  exact f_upC2_9 V0
theorem f_upC2_11 : nr[v11 V0, main_v91] = fun r => upC2 (wOf V0) (sigRows V0 r) := by
  show rows (after (c_dL3 (F := Ideal)) (v10 V0) (Proc.devRef .tc main_v91) : S65536x128.Idx → EReal) = _
  rw [after_of_writes_sub (c_dL3 (F := Ideal)) (v10 V0) c_dL3_writes (not_mem_of_lt lo_dL3 idx_upC2 (by decide))]
  exact f_upC2_10 V0
theorem f_upC2_12 : nr[v12 V0, main_v91] = fun r => upC2 (wOf V0) (sigRows V0 r) := by
  show rows (after (c_dP3 (F := Ideal)) (v11 V0) (Proc.devRef .tc main_v91) : S65536x128.Idx → EReal) = _
  rw [after_of_writes_sub (c_dP3 (F := Ideal)) (v11 V0) c_dP3_writes (not_mem_of_lt lo_dP3 idx_upC2 (by decide))]
  exact f_upC2_11 V0
theorem f_upC2_13 : nr[v13 V0, main_v91] = fun r => upC2 (wOf V0) (sigRows V0 r) := by
  show rows (after (c_dC1 (F := Ideal)) (v12 V0) (Proc.devRef .tc main_v91) : S65536x128.Idx → EReal) = _
  rw [after_of_writes_sub (c_dC1 (F := Ideal)) (v12 V0) c_dC1_writes (not_mem_of_lt lo_dC1 idx_upC2 (by decide))]
  exact f_upC2_12 V0
theorem f_upP3_6 : nr[v6 V0, main_v120] = fun r => upP3 (wOf V0) (sigRows V0 r) := by
  show rows (after (c_upP3 (F := Ideal)) (v5 V0) (Proc.devRef .tc main_v120) : S65536x128.Idx → EReal) = _
  rw [val_upP3, wOf_congr (kept5 V0), sigRows_congr (kept5 V0), f_upC1_5 V0, f_upC2_5 V0]
  all_goals rfl
theorem f_upP3_7 : nr[v7 V0, main_v120] = fun r => upP3 (wOf V0) (sigRows V0 r) := by
  show rows (after (c_upL2 (F := Ideal)) (v6 V0) (Proc.devRef .tc main_v120) : S65536x128.Idx → EReal) = _
  rw [after_of_writes_sub (c_upL2 (F := Ideal)) (v6 V0) c_upL2_writes (not_mem_of_lt lo_upL2 idx_upP3 (by decide))]
  exact f_upP3_6 V0
theorem f_upP3_8 : nr[v8 V0, main_v120] = fun r => upP3 (wOf V0) (sigRows V0 r) := by
  show rows (after (c_upL3 (F := Ideal)) (v7 V0) (Proc.devRef .tc main_v120) : S65536x128.Idx → EReal) = _
  rw [after_of_writes_sub (c_upL3 (F := Ideal)) (v7 V0) c_upL3_writes (not_mem_of_lt lo_upL3 idx_upP3 (by decide))]
  exact f_upP3_7 V0
theorem f_upP3_9 : nr[v9 V0, main_v120] = fun r => upP3 (wOf V0) (sigRows V0 r) := by
  show rows (after (c_dL1 (F := Ideal)) (v8 V0) (Proc.devRef .tc main_v120) : S65536x128.Idx → EReal) = _
  rw [after_of_writes_sub (c_dL1 (F := Ideal)) (v8 V0) c_dL1_writes (not_mem_of_lt lo_dL1 idx_upP3 (by decide))]
  exact f_upP3_8 V0
theorem f_upP3_10 : nr[v10 V0, main_v120] = fun r => upP3 (wOf V0) (sigRows V0 r) := by
  show rows (after (c_dL2 (F := Ideal)) (v9 V0) (Proc.devRef .tc main_v120) : S65536x128.Idx → EReal) = _
  rw [after_of_writes_sub (c_dL2 (F := Ideal)) (v9 V0) c_dL2_writes (not_mem_of_lt lo_dL2 idx_upP3 (by decide))]
  exact f_upP3_9 V0
theorem f_upP3_11 : nr[v11 V0, main_v120] = fun r => upP3 (wOf V0) (sigRows V0 r) := by
  show rows (after (c_dL3 (F := Ideal)) (v10 V0) (Proc.devRef .tc main_v120) : S65536x128.Idx → EReal) = _
  rw [after_of_writes_sub (c_dL3 (F := Ideal)) (v10 V0) c_dL3_writes (not_mem_of_lt lo_dL3 idx_upP3 (by decide))]
  exact f_upP3_10 V0
theorem f_upL2_7 : nr[v7 V0, main_v140] = fun r => upL2 (wOf V0) (sigRows V0 r) := by
  show rows (after (c_upL2 (F := Ideal)) (v6 V0) (Proc.devRef .tc main_v140) : S65536x128.Idx → EReal) = _
  rw [val_upL2, wOf_congr (kept6 V0), f_upP1_6 V0, f_upP3_6 V0]
  all_goals rfl
theorem f_upL2_8 : nr[v8 V0, main_v140] = fun r => upL2 (wOf V0) (sigRows V0 r) := by
  show rows (after (c_upL3 (F := Ideal)) (v7 V0) (Proc.devRef .tc main_v140) : S65536x128.Idx → EReal) = _
  rw [after_of_writes_sub (c_upL3 (F := Ideal)) (v7 V0) c_upL3_writes (not_mem_of_lt lo_upL3 idx_upL2 (by decide))]
  exact f_upL2_7 V0
theorem f_upL2_9 : nr[v9 V0, main_v140] = fun r => upL2 (wOf V0) (sigRows V0 r) := by
  show rows (after (c_dL1 (F := Ideal)) (v8 V0) (Proc.devRef .tc main_v140) : S65536x128.Idx → EReal) = _
  rw [after_of_writes_sub (c_dL1 (F := Ideal)) (v8 V0) c_dL1_writes (not_mem_of_lt lo_dL1 idx_upL2 (by decide))]
  exact f_upL2_8 V0
theorem f_upL3_8 : nr[v8 V0, main_v160] = fun r => upL3 (wOf V0) (sigRows V0 r) := by
  show rows (after (c_upL3 (F := Ideal)) (v7 V0) (Proc.devRef .tc main_v160) : S65536x128.Idx → EReal) = _
  rw [val_upL3, wOf_congr (kept7 V0), f_upP2_7 V0, f_upP3_7 V0]
  all_goals rfl
theorem f_upL3_9 : nr[v9 V0, main_v160] = fun r => upL3 (wOf V0) (sigRows V0 r) := by
  show rows (after (c_dL1 (F := Ideal)) (v8 V0) (Proc.devRef .tc main_v160) : S65536x128.Idx → EReal) = _
  rw [after_of_writes_sub (c_dL1 (F := Ideal)) (v8 V0) c_dL1_writes (not_mem_of_lt lo_dL1 idx_upL3 (by decide))]
  exact f_upL3_8 V0
theorem f_upL3_10 : nr[v10 V0, main_v160] = fun r => upL3 (wOf V0) (sigRows V0 r) := by
  show rows (after (c_dL2 (F := Ideal)) (v9 V0) (Proc.devRef .tc main_v160) : S65536x128.Idx → EReal) = _
  rw [after_of_writes_sub (c_dL2 (F := Ideal)) (v9 V0) c_dL2_writes (not_mem_of_lt lo_dL2 idx_upL3 (by decide))]
  exact f_upL3_9 V0

end Cert.Gnn.Ref

end
-- ==== Proof.RefRun3.lean ====
/-
  The reference's run, assembled (3 of 4): the rows of the downward pass's nodes.

  Each node's array, once written, is written by no later stretch, so its rows stay what they were: the node's row
  function (Proof/Rows.lean) of the matching row of `signal`. Proof/RefNode*.lean read the stretch that writes it.
-/
import proofs.«160910_j1125281431924_1_alg».proof.Proof.RefRun2

noncomputable section

namespace Cert.Gnn.Ref

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RunP Cert.Gnn Cert.Gnn.R

variable [Facts]

local notation "nr[" V ", " b "]" => rows (V (Proc.devRef Proc.tc b) : S65536x128.Idx → EReal)

variable (V0 : Valuation τ sig (Elt Ideal))

theorem f_dL1_9 : nr[v9 V0, main_v176] = fun r => dL1 (wOf V0) (sigRows V0 r) := by
  show rows (after (c_dL1 (F := Ideal)) (v8 V0) (Proc.devRef .tc main_v176) : S65536x128.Idx → EReal) = _
  rw [val_dL1, wOf_congr (kept8 V0), f_upL1_8 V0]
  all_goals rfl
theorem f_dL1_10 : nr[v10 V0, main_v176] = fun r => dL1 (wOf V0) (sigRows V0 r) := by
  show rows (after (c_dL2 (F := Ideal)) (v9 V0) (Proc.devRef .tc main_v176) : S65536x128.Idx → EReal) = _
  rw [after_of_writes_sub (c_dL2 (F := Ideal)) (v9 V0) c_dL2_writes (not_mem_of_lt lo_dL2 idx_dL1 (by decide))]
  exact f_dL1_9 V0
theorem f_dL1_11 : nr[v11 V0, main_v176] = fun r => dL1 (wOf V0) (sigRows V0 r) := by
  show rows (after (c_dL3 (F := Ideal)) (v10 V0) (Proc.devRef .tc main_v176) : S65536x128.Idx → EReal) = _
  rw [after_of_writes_sub (c_dL3 (F := Ideal)) (v10 V0) c_dL3_writes (not_mem_of_lt lo_dL3 idx_dL1 (by decide))]
  exact f_dL1_10 V0
theorem f_dL1_12 : nr[v12 V0, main_v176] = fun r => dL1 (wOf V0) (sigRows V0 r) := by
  show rows (after (c_dP3 (F := Ideal)) (v11 V0) (Proc.devRef .tc main_v176) : S65536x128.Idx → EReal) = _
  rw [after_of_writes_sub (c_dP3 (F := Ideal)) (v11 V0) c_dP3_writes (not_mem_of_lt lo_dP3 idx_dL1 (by decide))]
  exact f_dL1_11 V0
theorem f_dL1_13 : nr[v13 V0, main_v176] = fun r => dL1 (wOf V0) (sigRows V0 r) := by
  show rows (after (c_dC1 (F := Ideal)) (v12 V0) (Proc.devRef .tc main_v176) : S65536x128.Idx → EReal) = _
  rw [after_of_writes_sub (c_dC1 (F := Ideal)) (v12 V0) c_dC1_writes (not_mem_of_lt lo_dC1 idx_dL1 (by decide))]
  exact f_dL1_12 V0
theorem f_dL1_14 : nr[v14 V0, main_v176] = fun r => dL1 (wOf V0) (sigRows V0 r) := by
  show rows (after (c_dC2 (F := Ideal)) (v13 V0) (Proc.devRef .tc main_v176) : S65536x128.Idx → EReal) = _
  rw [after_of_writes_sub (c_dC2 (F := Ideal)) (v13 V0) c_dC2_writes (not_mem_of_lt lo_dC2 idx_dL1 (by decide))]
  exact f_dL1_13 V0
theorem f_dL1_15 : nr[v15 V0, main_v176] = fun r => dL1 (wOf V0) (sigRows V0 r) := by
  show rows (after (c_dP1 (F := Ideal)) (v14 V0) (Proc.devRef .tc main_v176) : S65536x128.Idx → EReal) = _
  rw [after_of_writes_sub (c_dP1 (F := Ideal)) (v14 V0) c_dP1_writes (not_mem_of_lt lo_dP1 idx_dL1 (by decide))]
  exact f_dL1_14 V0
theorem f_dL1_16 : nr[v16 V0, main_v176] = fun r => dL1 (wOf V0) (sigRows V0 r) := by
  show rows (after (c_dP2 (F := Ideal)) (v15 V0) (Proc.devRef .tc main_v176) : S65536x128.Idx → EReal) = _
  rw [after_of_writes_sub (c_dP2 (F := Ideal)) (v15 V0) c_dP2_writes (not_mem_of_lt lo_dP2 idx_dL1 (by decide))]
  exact f_dL1_15 V0
theorem f_dL2_10 : nr[v10 V0, main_v192] = fun r => dL2 (wOf V0) (sigRows V0 r) := by
  show rows (after (c_dL2 (F := Ideal)) (v9 V0) (Proc.devRef .tc main_v192) : S65536x128.Idx → EReal) = _
  rw [val_dL2, wOf_congr (kept9 V0), f_upL2_9 V0]
  all_goals rfl
theorem f_dL2_11 : nr[v11 V0, main_v192] = fun r => dL2 (wOf V0) (sigRows V0 r) := by
  show rows (after (c_dL3 (F := Ideal)) (v10 V0) (Proc.devRef .tc main_v192) : S65536x128.Idx → EReal) = _
  rw [after_of_writes_sub (c_dL3 (F := Ideal)) (v10 V0) c_dL3_writes (not_mem_of_lt lo_dL3 idx_dL2 (by decide))]
  exact f_dL2_10 V0
theorem f_dL2_12 : nr[v12 V0, main_v192] = fun r => dL2 (wOf V0) (sigRows V0 r) := by
  show rows (after (c_dP3 (F := Ideal)) (v11 V0) (Proc.devRef .tc main_v192) : S65536x128.Idx → EReal) = _
  rw [after_of_writes_sub (c_dP3 (F := Ideal)) (v11 V0) c_dP3_writes (not_mem_of_lt lo_dP3 idx_dL2 (by decide))]
  exact f_dL2_11 V0
theorem f_dL2_13 : nr[v13 V0, main_v192] = fun r => dL2 (wOf V0) (sigRows V0 r) := by
  show rows (after (c_dC1 (F := Ideal)) (v12 V0) (Proc.devRef .tc main_v192) : S65536x128.Idx → EReal) = _
  rw [after_of_writes_sub (c_dC1 (F := Ideal)) (v12 V0) c_dC1_writes (not_mem_of_lt lo_dC1 idx_dL2 (by decide))]
  exact f_dL2_12 V0
theorem f_dL2_14 : nr[v14 V0, main_v192] = fun r => dL2 (wOf V0) (sigRows V0 r) := by
  show rows (after (c_dC2 (F := Ideal)) (v13 V0) (Proc.devRef .tc main_v192) : S65536x128.Idx → EReal) = _
  rw [after_of_writes_sub (c_dC2 (F := Ideal)) (v13 V0) c_dC2_writes (not_mem_of_lt lo_dC2 idx_dL2 (by decide))]
  exact f_dL2_13 V0
theorem f_dL2_15 : nr[v15 V0, main_v192] = fun r => dL2 (wOf V0) (sigRows V0 r) := by
  show rows (after (c_dP1 (F := Ideal)) (v14 V0) (Proc.devRef .tc main_v192) : S65536x128.Idx → EReal) = _
  rw [after_of_writes_sub (c_dP1 (F := Ideal)) (v14 V0) c_dP1_writes (not_mem_of_lt lo_dP1 idx_dL2 (by decide))]
  exact f_dL2_14 V0
theorem f_dL2_16 : nr[v16 V0, main_v192] = fun r => dL2 (wOf V0) (sigRows V0 r) := by
  show rows (after (c_dP2 (F := Ideal)) (v15 V0) (Proc.devRef .tc main_v192) : S65536x128.Idx → EReal) = _
  rw [after_of_writes_sub (c_dP2 (F := Ideal)) (v15 V0) c_dP2_writes (not_mem_of_lt lo_dP2 idx_dL2 (by decide))]
  exact f_dL2_15 V0
theorem f_dL3_11 : nr[v11 V0, main_v208] = fun r => dL3 (wOf V0) (sigRows V0 r) := by
  show rows (after (c_dL3 (F := Ideal)) (v10 V0) (Proc.devRef .tc main_v208) : S65536x128.Idx → EReal) = _
  rw [val_dL3, wOf_congr (kept10 V0), f_upL3_10 V0]
  all_goals rfl
theorem f_dL3_12 : nr[v12 V0, main_v208] = fun r => dL3 (wOf V0) (sigRows V0 r) := by
  show rows (after (c_dP3 (F := Ideal)) (v11 V0) (Proc.devRef .tc main_v208) : S65536x128.Idx → EReal) = _
  rw [after_of_writes_sub (c_dP3 (F := Ideal)) (v11 V0) c_dP3_writes (not_mem_of_lt lo_dP3 idx_dL3 (by decide))]
  exact f_dL3_11 V0
theorem f_dL3_13 : nr[v13 V0, main_v208] = fun r => dL3 (wOf V0) (sigRows V0 r) := by
  show rows (after (c_dC1 (F := Ideal)) (v12 V0) (Proc.devRef .tc main_v208) : S65536x128.Idx → EReal) = _
  rw [after_of_writes_sub (c_dC1 (F := Ideal)) (v12 V0) c_dC1_writes (not_mem_of_lt lo_dC1 idx_dL3 (by decide))]
  exact f_dL3_12 V0
theorem f_dL3_14 : nr[v14 V0, main_v208] = fun r => dL3 (wOf V0) (sigRows V0 r) := by
  show rows (after (c_dC2 (F := Ideal)) (v13 V0) (Proc.devRef .tc main_v208) : S65536x128.Idx → EReal) = _
  rw [after_of_writes_sub (c_dC2 (F := Ideal)) (v13 V0) c_dC2_writes (not_mem_of_lt lo_dC2 idx_dL3 (by decide))]
  exact f_dL3_13 V0
theorem f_dL3_15 : nr[v15 V0, main_v208] = fun r => dL3 (wOf V0) (sigRows V0 r) := by
  show rows (after (c_dP1 (F := Ideal)) (v14 V0) (Proc.devRef .tc main_v208) : S65536x128.Idx → EReal) = _
  rw [after_of_writes_sub (c_dP1 (F := Ideal)) (v14 V0) c_dP1_writes (not_mem_of_lt lo_dP1 idx_dL3 (by decide))]
  exact f_dL3_14 V0
theorem f_dL3_16 : nr[v16 V0, main_v208] = fun r => dL3 (wOf V0) (sigRows V0 r) := by
  show rows (after (c_dP2 (F := Ideal)) (v15 V0) (Proc.devRef .tc main_v208) : S65536x128.Idx → EReal) = _
  rw [after_of_writes_sub (c_dP2 (F := Ideal)) (v15 V0) c_dP2_writes (not_mem_of_lt lo_dP2 idx_dL3 (by decide))]
  exact f_dL3_15 V0
theorem f_dP3_12 : nr[v12 V0, main_v237] = fun r => dP3 (wOf V0) (sigRows V0 r) := by
  show rows (after (c_dP3 (F := Ideal)) (v11 V0) (Proc.devRef .tc main_v237) : S65536x128.Idx → EReal) = _
  rw [val_dP3, wOf_congr (kept11 V0), f_upP3_11 V0, f_dL2_11 V0, f_dL3_11 V0]
  all_goals rfl
theorem f_dP3_13 : nr[v13 V0, main_v237] = fun r => dP3 (wOf V0) (sigRows V0 r) := by
  show rows (after (c_dC1 (F := Ideal)) (v12 V0) (Proc.devRef .tc main_v237) : S65536x128.Idx → EReal) = _
  rw [after_of_writes_sub (c_dC1 (F := Ideal)) (v12 V0) c_dC1_writes (not_mem_of_lt lo_dC1 idx_dP3 (by decide))]
  exact f_dP3_12 V0
theorem f_dP3_14 : nr[v14 V0, main_v237] = fun r => dP3 (wOf V0) (sigRows V0 r) := by
  show rows (after (c_dC2 (F := Ideal)) (v13 V0) (Proc.devRef .tc main_v237) : S65536x128.Idx → EReal) = _
  rw [after_of_writes_sub (c_dC2 (F := Ideal)) (v13 V0) c_dC2_writes (not_mem_of_lt lo_dC2 idx_dP3 (by decide))]
  exact f_dP3_13 V0
theorem f_dP3_15 : nr[v15 V0, main_v237] = fun r => dP3 (wOf V0) (sigRows V0 r) := by
  show rows (after (c_dP1 (F := Ideal)) (v14 V0) (Proc.devRef .tc main_v237) : S65536x128.Idx → EReal) = _
  rw [after_of_writes_sub (c_dP1 (F := Ideal)) (v14 V0) c_dP1_writes (not_mem_of_lt lo_dP1 idx_dP3 (by decide))]
  exact f_dP3_14 V0
theorem f_dP3_16 : nr[v16 V0, main_v237] = fun r => dP3 (wOf V0) (sigRows V0 r) := by
  show rows (after (c_dP2 (F := Ideal)) (v15 V0) (Proc.devRef .tc main_v237) : S65536x128.Idx → EReal) = _
  rw [after_of_writes_sub (c_dP2 (F := Ideal)) (v15 V0) c_dP2_writes (not_mem_of_lt lo_dP2 idx_dP3 (by decide))]
  exact f_dP3_15 V0
theorem f_dC1_13 : nr[v13 V0, main_v264] = fun r => dC1 (wOf V0) (sigRows V0 r) := by
  show rows (after (c_dC1 (F := Ideal)) (v12 V0) (Proc.devRef .tc main_v264) : S65536x128.Idx → EReal) = _
  rw [val_dC1, wOf_congr (kept12 V0), f_upC1_12 V0, f_dP3_12 V0]
  all_goals rfl
theorem f_dC1_14 : nr[v14 V0, main_v264] = fun r => dC1 (wOf V0) (sigRows V0 r) := by
  show rows (after (c_dC2 (F := Ideal)) (v13 V0) (Proc.devRef .tc main_v264) : S65536x128.Idx → EReal) = _
  rw [after_of_writes_sub (c_dC2 (F := Ideal)) (v13 V0) c_dC2_writes (not_mem_of_lt lo_dC2 idx_dC1 (by decide))]
  exact f_dC1_13 V0
theorem f_dC1_15 : nr[v15 V0, main_v264] = fun r => dC1 (wOf V0) (sigRows V0 r) := by
  show rows (after (c_dP1 (F := Ideal)) (v14 V0) (Proc.devRef .tc main_v264) : S65536x128.Idx → EReal) = _
  rw [after_of_writes_sub (c_dP1 (F := Ideal)) (v14 V0) c_dP1_writes (not_mem_of_lt lo_dP1 idx_dC1 (by decide))]
  exact f_dC1_14 V0
theorem f_dC1_16 : nr[v16 V0, main_v264] = fun r => dC1 (wOf V0) (sigRows V0 r) := by
  show rows (after (c_dP2 (F := Ideal)) (v15 V0) (Proc.devRef .tc main_v264) : S65536x128.Idx → EReal) = _
  rw [after_of_writes_sub (c_dP2 (F := Ideal)) (v15 V0) c_dP2_writes (not_mem_of_lt lo_dP2 idx_dC1 (by decide))]
  exact f_dC1_15 V0
theorem f_dC2_14 : nr[v14 V0, main_v291] = fun r => dC2 (wOf V0) (sigRows V0 r) := by
  show rows (after (c_dC2 (F := Ideal)) (v13 V0) (Proc.devRef .tc main_v291) : S65536x128.Idx → EReal) = _
  rw [val_dC2, wOf_congr (kept13 V0), f_upC2_13 V0, f_dP3_13 V0]
  all_goals rfl
theorem f_dC2_15 : nr[v15 V0, main_v291] = fun r => dC2 (wOf V0) (sigRows V0 r) := by
  show rows (after (c_dP1 (F := Ideal)) (v14 V0) (Proc.devRef .tc main_v291) : S65536x128.Idx → EReal) = _
  rw [after_of_writes_sub (c_dP1 (F := Ideal)) (v14 V0) c_dP1_writes (not_mem_of_lt lo_dP1 idx_dC2 (by decide))]
  exact f_dC2_14 V0
theorem f_dC2_16 : nr[v16 V0, main_v291] = fun r => dC2 (wOf V0) (sigRows V0 r) := by
  show rows (after (c_dP2 (F := Ideal)) (v15 V0) (Proc.devRef .tc main_v291) : S65536x128.Idx → EReal) = _
  rw [after_of_writes_sub (c_dP2 (F := Ideal)) (v15 V0) c_dP2_writes (not_mem_of_lt lo_dP2 idx_dC2 (by decide))]
  exact f_dC2_15 V0
theorem f_dP1_15 : nr[v15 V0, main_v324] = fun r => dP1 (wOf V0) (sigRows V0 r) := by
  show rows (after (c_dP1 (F := Ideal)) (v14 V0) (Proc.devRef .tc main_v324) : S65536x128.Idx → EReal) = _
  rw [val_dP1, wOf_congr (kept14 V0), f_upP1_14 V0, f_dL1_14 V0, f_dC1_14 V0, f_dC2_14 V0, f_dL2_14 V0]
  all_goals rfl
theorem f_dP1_16 : nr[v16 V0, main_v324] = fun r => dP1 (wOf V0) (sigRows V0 r) := by
  show rows (after (c_dP2 (F := Ideal)) (v15 V0) (Proc.devRef .tc main_v324) : S65536x128.Idx → EReal) = _
  rw [after_of_writes_sub (c_dP2 (F := Ideal)) (v15 V0) c_dP2_writes (not_mem_of_lt lo_dP2 idx_dP1 (by decide))]
  exact f_dP1_15 V0
theorem f_dP2_16 : nr[v16 V0, main_v357] = fun r => dP2 (wOf V0) (sigRows V0 r) := by
  show rows (after (c_dP2 (F := Ideal)) (v15 V0) (Proc.devRef .tc main_v357) : S65536x128.Idx → EReal) = _
  rw [val_dP2, wOf_congr (kept15 V0), f_upP2_15 V0, f_dL1_15 V0, f_dC1_15 V0, f_dC2_15 V0, f_dL3_15 V0]
  all_goals rfl

end Cert.Gnn.Ref

end
-- ==== Proof.RefRun.lean ====
/-
  The reference's run, assembled (4 of 4): the result and the run.

  After the last stretch slab `s`, row `r` of the result is `out` of row `r` of `signal`; the seventeen stretches in
  order are the whole program; and every weakly fair execution ends there with the arguments unchanged.
-/
import proofs.«160910_j1125281431924_1_alg».proof.Proof.RefRun3

noncomputable section

namespace Cert.Gnn.Ref

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RunP Cert.Gnn Cert.Gnn.R

variable [Facts]

local notation "nr[" V ", " b "]" => rows (V (Proc.devRef Proc.tc b) : S65536x128.Idx → EReal)

variable (V0 : Valuation τ sig (Elt Ideal))

/-! ### The result -/

/-- After the last stretch: slab `s`, row `r` of the result is `out` of row `r` of `signal`. -/
theorem result_slabs : slabs (v17 V0 (Proc.devRef .tc main_v366) : S8x65536x128.Idx → EReal) = fun s r => out (wOf V0) (sigRows V0 r) s := by
  show slabs (after (c_out (F := Ideal)) (v16 V0) (Proc.devRef .tc main_v366) : S8x65536x128.Idx → EReal) = _
  rw [val_out]
  funext s
  match s with
  | ⟨0, _⟩ => exact f_dP1_16 V0
  | ⟨1, _⟩ => exact f_dP2_16 V0
  | ⟨2, _⟩ => exact f_dL1_16 V0
  | ⟨3, _⟩ => exact f_dC1_16 V0
  | ⟨4, _⟩ => exact f_dC2_16 V0
  | ⟨5, _⟩ => exact f_dP3_16 V0
  | ⟨6, _⟩ => exact f_dL2_16 V0
  | ⟨7, _⟩ => exact f_dL3_16 V0

/-- The seventeen stretches, one after the other, are the whole program. -/
theorem v17_eq : v17 V0 = after (ops (F := Ideal)) V0 := by
  rw [ops_chunks]
  simp only [Cert.GraphConv.after_append]
  rfl

/-- The whole result array. -/
theorem result_eq : (after (ops (F := Ideal)) V0 (Proc.devRef .tc main_v366) : S8x65536x128.Idx → EReal)
    = result (wOf V0) (V0 (Proc.devRef .tc main_arg0) : S65536x512.Idx → EReal) := by
  rw [← v17_eq]
  apply slabs_ext
  rw [result_slabs]
  rfl

/-- The arguments after the whole program. -/
theorem args_kept : ∀ a ∈ argRefs, after (ops (F := Ideal)) V0 (Proc.devRef .tc a) = V0 (Proc.devRef .tc a) := by
  rw [← v17_eq]; exact kept17 V0

/-! ### The run -/

/-- On every device, from any memory with zero counters: every weakly fair execution of the reference terminates,
    with the result array at `result` of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v366) : S8x65536x128.Idx → EReal)
        = result (wOf (launchContents m c)) (launchContents m c (Proc.devRef .tc main_arg0) : S65536x512.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36) :=
  (θ_run defs _ _).mono (fun r h c => ⟨(h c main_v366).trans (result_eq (launchContents m c)),
      (h c main_arg0).trans (args_kept (launchContents m c) main_arg0 (by decide)),
      (h c main_arg1).trans (args_kept (launchContents m c) main_arg1 (by decide)),
      (h c main_arg2).trans (args_kept (launchContents m c) main_arg2 (by decide)),
      (h c main_arg3).trans (args_kept (launchContents m c) main_arg3 (by decide)),
      (h c main_arg4).trans (args_kept (launchContents m c) main_arg4 (by decide)),
      (h c main_arg5).trans (args_kept (launchContents m c) main_arg5 (by decide)),
      (h c main_arg6).trans (args_kept (launchContents m c) main_arg6 (by decide)),
      (h c main_arg7).trans (args_kept (launchContents m c) main_arg7 (by decide)),
      (h c main_arg8).trans (args_kept (launchContents m c) main_arg8 (by decide)),
      (h c main_arg9).trans (args_kept (launchContents m c) main_arg9 (by decide)),
      (h c main_arg10).trans (args_kept (launchContents m c) main_arg10 (by decide)),
      (h c main_arg11).trans (args_kept (launchContents m c) main_arg11 (by decide)),
      (h c main_arg12).trans (args_kept (launchContents m c) main_arg12 (by decide)),
      (h c main_arg13).trans (args_kept (launchContents m c) main_arg13 (by decide)),
      (h c main_arg14).trans (args_kept (launchContents m c) main_arg14 (by decide)),
      (h c main_arg15).trans (args_kept (launchContents m c) main_arg15 (by decide)),
      (h c main_arg16).trans (args_kept (launchContents m c) main_arg16 (by decide)),
      (h c main_arg17).trans (args_kept (launchContents m c) main_arg17 (by decide)),
      (h c main_arg18).trans (args_kept (launchContents m c) main_arg18 (by decide)),
      (h c main_arg19).trans (args_kept (launchContents m c) main_arg19 (by decide)),
      (h c main_arg20).trans (args_kept (launchContents m c) main_arg20 (by decide)),
      (h c main_arg21).trans (args_kept (launchContents m c) main_arg21 (by decide)),
      (h c main_arg22).trans (args_kept (launchContents m c) main_arg22 (by decide)),
      (h c main_arg23).trans (args_kept (launchContents m c) main_arg23 (by decide)),
      (h c main_arg24).trans (args_kept (launchContents m c) main_arg24 (by decide)),
      (h c main_arg25).trans (args_kept (launchContents m c) main_arg25 (by decide)),
      (h c main_arg26).trans (args_kept (launchContents m c) main_arg26 (by decide)),
      (h c main_arg27).trans (args_kept (launchContents m c) main_arg27 (by decide)),
      (h c main_arg28).trans (args_kept (launchContents m c) main_arg28 (by decide)),
      (h c main_arg29).trans (args_kept (launchContents m c) main_arg29 (by decide)),
      (h c main_arg30).trans (args_kept (launchContents m c) main_arg30 (by decide)),
      (h c main_arg31).trans (args_kept (launchContents m c) main_arg31 (by decide)),
      (h c main_arg32).trans (args_kept (launchContents m c) main_arg32 (by decide)),
      (h c main_arg33).trans (args_kept (launchContents m c) main_arg33 (by decide)),
      (h c main_arg34).trans (args_kept (launchContents m c) main_arg34 (by decide)),
      (h c main_arg35).trans (args_kept (launchContents m c) main_arg35 (by decide)),
      (h c main_arg36).trans (args_kept (launchContents m c) main_arg36 (by decide))⟩)
    (run_seq scopedRefs_eq scopedSems_eq defs main (fun _ => ops) main_eq (fun _ => ops_sub) m ρ (fun _ => ops_fresh))

end Cert.Gnn.Ref

end
-- ==== Proof.lean ====
/-
  The certificate's five claims.

  Both programs evaluate one fixed graph of linear layers — `x · W + b`, a positive part after every layer but a
  block's last, rows laid side by side, and aggregates `(Σ cᵢ · Wmsg + n · bmsg) · Wupd + bupd` — on the rows of
  `signal`, each row by itself (Proof/Rows.lean writes the graph down for one row). The kernel does it for 1024
  rows at a grid point, with the matrix products' operands passed through bf16, which changes nothing over the
  extended reals; the reference does it for all 65536 rows at once and sums an aggregate's messages starting from
  a zero array, which adds nothing. So both end with slab `s`, row `r` of the result at `out w (row r of signal) s`:
  Proof/KernelArray.lean for the kernel (from one block, Proof/KernelBlock.lean, to the array),
  Proof/RefRun.lean for the reference (stretch by stretch). No step uses that the inputs are finite.

  The three frames: the two kernels' are the frame modules' (Proof/KernelFrame.lean, Proof/KernelIdealFrame.lean);
  the reference's is its run with the result dropped. The idealization rewrote nothing, so `preserves` is `True`.
-/
import proofs.«160910_j1125281431924_1_alg».proof.Defs
import proofs.«160910_j1125281431924_1_alg».proof.Proof.Gen.Kernel
import proofs.«160910_j1125281431924_1_alg».proof.Proof.Gen.KernelIdeal
import proofs.«160910_j1125281431924_1_alg».proof.Proof.Gen.ReferenceIdeal
import proofs.«160910_j1125281431924_1_alg».proof.Proof.Gen.Pre_finite_inputs
import proofs.«160910_j1125281431924_1_alg».proof.Proof.KernelFrame
import proofs.«160910_j1125281431924_1_alg».proof.Proof.KernelArray
import proofs.«160910_j1125281431924_1_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.StableHlo Cert.Gnn

theorem frame_kernel : Cert.frame_Kernel := fun m ρ _ => Cert.Kernel.GenP.frame m ρ

theorem frame_kernelIdeal : Cert.frame_KernelIdeal := fun m ρ _ => Cert.KernelIdeal.GenP.frame m ρ

/-- The reference's frame: its run, the result dropped. -/
theorem frame_referenceIdeal : Cert.frame_ReferenceIdeal := fun m ρ _ =>
  (θ_run Cert.ReferenceIdeal.defs _ _).mono (fun _ h c => (h c).2) (Cert.Gnn.Ref.run m ρ)

theorem preserves : Cert.preserves_Kernel_KernelIdeal := trivial

set_option maxHeartbeats 4000000 in
/-- Memories that agree on the arguments hold the same weights. -/
theorem weights_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)) :
    Cert.Gnn.Ref.wOf (launchContents m' c) = Cert.Gnn.KArr.wArr m c := by
  obtain ⟨h0, h1, h2, h3, h4, h5, h6, h7, h8, h9, h10, h11, h12, h13, h14, h15, h16, h17, h18, h19, h20, h21, h22, h23, h24, h25, h26, h27, h28, h29, h30, h31, h32, h33, h34, h35, h36⟩ := h
  unfold Cert.Gnn.Ref.wOf Cert.Gnn.KArr.wArr
  show weightsOf (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29)) (m' ((c.tc : Thread Cert.ReferenceIdeal.nD Cert.ReferenceIdeal.τ).loc Cert.ReferenceIdeal.main_arg30)) (m' ((c.tc : Thread Cert.ReferenceIdeal.nD Cert.ReferenceIdeal.τ).loc Cert.ReferenceIdeal.main_arg31)) (m' ((c.tc : Thread Cert.ReferenceIdeal.nD Cert.ReferenceIdeal.τ).loc Cert.ReferenceIdeal.main_arg32)) (m' ((c.tc : Thread Cert.ReferenceIdeal.nD Cert.ReferenceIdeal.τ).loc Cert.ReferenceIdeal.main_arg33)) (m' ((c.tc : Thread Cert.ReferenceIdeal.nD Cert.ReferenceIdeal.τ).loc Cert.ReferenceIdeal.main_arg34)) (m' ((c.tc : Thread Cert.ReferenceIdeal.nD Cert.ReferenceIdeal.τ).loc Cert.ReferenceIdeal.main_arg35)) (m' ((c.tc : Thread Cert.ReferenceIdeal.nD Cert.ReferenceIdeal.τ).loc Cert.ReferenceIdeal.main_arg36))
    = weightsOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36))
  rw [h1, h2, h3, h4, h5, h6, h7, h8, h9, h10, h11, h12, h13, h14, h15, h16, h17, h18, h19, h20, h21, h22, h23, h24, h25, h26, h27, h28, h29, h30, h31, h32, h33, h34, h35, h36]

set_option maxHeartbeats 4000000 in
/-- From memories that agree on the arguments both idealized programs end with the result array at
    `result` of the weights and of `signal`: the same array. -/
theorem algebraic : Cert.algebraic_KernelIdeal_ReferenceIdeal := by
  intro m ρ m' ρ' _ hagree
  refine ⟨fun c => (result (Cert.Gnn.KArr.wArr m c) (m ((c.tc : Thread Cert.KernelIdeal.nD Cert.KernelIdeal.τ).loc Cert.KernelIdeal.main_arg0) : Cert.KernelIdeal.S65536x512.Idx → EReal) : Cert.KernelIdeal.S8x65536x128.Idx → EReal),
    Cert.Gnn.KArr.run m ρ, ?_⟩
  refine (θ_run Cert.ReferenceIdeal.defs _ _).mono (fun r h c => ⟨(h c).1.trans ?_, (h c).2⟩) (Cert.Gnn.Ref.run m' ρ')
  rw [weights_agree m m' c (hagree c)]
  show result (Cert.Gnn.KArr.wArr m c) (m' ((c.tc : Thread Cert.ReferenceIdeal.nD Cert.ReferenceIdeal.τ).loc Cert.ReferenceIdeal.main_arg0) : Cert.ReferenceIdeal.S65536x512.Idx → EReal) = _
  rw [(hagree c).1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
